-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "shift_neg" .f32 0xBC7FFBCE#32 ((-137430157379 / 8796093022208 : ℝ) : EReal)
  ∧ IdealRules.named_const.Statement Cert.KernelIdeal.κ "shift_neg" .f32 0xBC7FFBCE#32 ((-137430157379 / 8796093022208 : ℝ) : EReal)
  ∧ IdealRules.named_const.Statement Cert.KernelIdeal.κ "shift_neg" .f32 0xBC7FFBCE#32 ((-137430157379 / 8796093022208 : ℝ) : EReal)
  ∧ IdealRules.named_const.Statement Cert.KernelIdeal.κ "shift_pos" .f32 0x3C800219#32 ((137447749565 / 8796093022208 : ℝ) : EReal)
  ∧ IdealRules.named_const.Statement Cert.KernelIdeal.κ "shift_pos" .f32 0x3C800219#32 ((137447749565 / 8796093022208 : ℝ) : EReal)
  ∧ IdealRules.named_const.Statement Cert.KernelIdeal.κ "shift_neg" .f32 0xBC7FFBCE#32 ((-137430157379 / 8796093022208 : ℝ) : EReal)
  ∧ IdealRules.named_const.Statement Cert.KernelIdeal.κ "shift_pos" .f32 0x3C800219#32 ((137447749565 / 8796093022208 : ℝ) : EReal)
  ∧ IdealRules.named_const.Statement Cert.KernelIdeal.κ "shift_pos" .f32 0x3C800219#32 ((137447749565 / 8796093022208 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x64x64 : Shape := ⟨4, ![1, 3, 64, 64]⟩
abbrev S1x256x64x64 : Shape := ⟨4, ![1, 256, 64, 64]⟩
abbrev S1x128x64x64 : Shape := ⟨4, ![1, 128, 64, 64]⟩
abbrev S1x65536x2 : Shape := ⟨3, ![1, 65536, 2]⟩
abbrev S128x2 : Shape := ⟨2, ![128, 2]⟩
abbrev S256x256 : Shape := ⟨2, ![256, 256]⟩
abbrev S256 : Shape := ⟨1, ![256]⟩
abbrev S3x256 : Shape := ⟨2, ![3, 256]⟩
abbrev S3 : Shape := ⟨1, ![3]⟩
abbrev S_ : Shape := ⟨0, ![]⟩

class Facts : Prop where
  bcast_S_S1x3x64x64 : S_.BroadcastsInDim S1x3x64x64 (![] : Fin 0 → Fin S1x3x64x64.rank)
  reducesTo_S1x3x64x64_S_d0_1_2_3 : S1x3x64x64.ReducesTo [0, 1, 2, 3] S_
  h_S_ : 0 < S_.numel
  bcast_S_S1x256x64x64 : S_.BroadcastsInDim S1x256x64x64 (![] : Fin 0 → Fin S1x256x64x64.rank)
  reducesTo_S1x256x64x64_S_d0_1_2_3 : S1x256x64x64.ReducesTo [0, 1, 2, 3] S_
  bcast_S_S1x128x64x64 : S_.BroadcastsInDim S1x128x64x64 (![] : Fin 0 → Fin S1x128x64x64.rank)
  reducesTo_S1x128x64x64_S_d0_1_2_3 : S1x128x64x64.ReducesTo [0, 1, 2, 3] S_
  bcast_S_S1x65536x2 : S_.BroadcastsInDim S1x65536x2 (![] : Fin 0 → Fin S1x65536x2.rank)
  reducesTo_S1x65536x2_S_d0_1_2 : S1x65536x2.ReducesTo [0, 1, 2] S_
  bcast_S_S128x2 : S_.BroadcastsInDim S128x2 (![] : Fin 0 → Fin S128x2.rank)
  reducesTo_S128x2_S_d0_1 : S128x2.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3x256 .f32) (main_arg12 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S3x256 .f32 := Host.absf main_arg11
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x256 .f32) (main_arg10 : FVec F S256 .f32) (main_arg11 : FVec F S3x256 .f32) (main_arg12 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S1x65536x2 .f32) (main_arg5 : FVec F S128x2 .f32) (main_arg6 : FVec F S128x2 .f32) (main_arg7 : FVec F S256x256 .f32) (main_arg8 : FVec F S256 .f32) (main_arg9 : FVec F S256x256 .f32) (main_arg10 : FVec F S256 .f32) (main_arg11 : FVec F S3x256 .f32) (main_arg12 : FVec F S3 .f32) (main_v13 : IVec S_ 1) (main_v16 : IVec S1x65536x2 1) : IVec S_ 1 :=
  let main_c_5 : IVec S_ 1 := constantI S_ 1 1#1
  let main_v17 : IVec S_ 1 := (fun x v => Host.reduce IntOp.andi x v reducesTo_S1x65536x2_S_d0_1_2 h_S_) main_v16 main_c_5
  let main_v18 : IVec S_ 1 := andi main_v13 main_v17
  let main_v19 : FVec F S1x65536x2 .f32 := Host.absf main_arg4
  let main_cst_6 : FVec F S_ .f32 := constant S_ .f32 0x7F800000#32
  let main_v20 : FVec F S1x65536x2 .f32 := broadcastInDim S1x65536x2 ![] bcast_S_S1x65536x2 main_cst_6
  let main_v21 : IVec S1x65536x2 1 := cmpf .olt main_v19 main_v20
  let main_c_7 : IVec S_ 1 := constantI S_ 1 1#1
  let main_v22 : IVec S_ 1 := (fun x v => Host.reduce IntOp.andi x v reducesTo_S1x65536x2_S_d0_1_2 h_S_) main_v21 main_c_7
  let main_v23 : IVec S_ 1 := andi main_v18 main_v22
  let main_v24 : FVec F S128x2 .f32 := Host.absf main_arg5
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1x3x64x64 .f32) (main_arg1 : FVec F S1x256x64x64 .f32) (main_arg2 : FVec F S1x128x64x64 .f32) (main_arg3 : FVec F S1x65536x2 .f32) (main_arg4 : FVec F S1x65536x2 .f32) (main_arg5 : FVec F S128x2 .f32) (main_arg6 : FVec F S128x2 .f32) (main_arg7 : FVec F S256x256 .f32) (main_arg8 : FVec F S256 .f32) (main_arg9 : FVec F S256x256 .f32) (main_arg10 : FVec F S256 .f32) (main_arg11 : FVec F S3x256 .f32) (main_arg12 : FVec F S3 .f32) : IVec S_ 1 :=
  let main_v0 : FVec F S1x3x64x64 .f32 := Host.absf main_arg0
  let main_cst : FVec F S_ .f32 := constant S_ .f32 0x7F800000#32
  let main_v1 : FVec F S1x3x64x64 .f32 := broadcastInDim S1x3x64x64 ![] bcast_S_S1x3x64x64 main_cst
  let main_v2 : IVec S1x3x64x64 1 := cmpf .olt main_v0 main_v1
  let main_c : IVec S_ 1 := constantI S_ 1 1#1
  let main_v3 : IVec S_ 1 := (fun x v => Host.reduce IntOp.andi x v reducesTo_S1x3x64x64_S_d0_1_2_3 h_S_) main_v2 main_c
  let main_v4 : FVec F S1x256x64x64 .f32 := Host.absf main_arg1
  let main_cst_0 : FVec F S_ .f32 := constant S_ .f32 0x7F800000#32
  let main_v5 : FVec F S1x256x64x64 .f32 := broadcastInDim S1x256x64x64 ![] bcast_S_S1x256x64x64 main_cst_0
  let main_v6 : IVec S1x256x64x64 1 := cmpf .olt main_v4 main_v5
  let main_c_1 : IVec S_ 1 := constantI S_ 1 1#1
  let main_v7 : IVec S_ 1 := (fun x v => Host.reduce IntOp.andi x v reducesTo_S1x256x64x64_S_d0_1_2_3 h_S_) main_v6 main_c_1
  let main_v8 : IVec S_ 1 := andi main_v3 main_v7
  let main_v9 : FVec F S1x128x64x64 .f32 := Host.absf main_arg2
  let main_cst_2 : FVec F S_ .f32 := constant S_ .f32 0x7F800000#32
  let main_v10 : FVec F S1x128x64x64 .f32 := broadcastInDim S1x128x64x64 ![] bcast_S_S1x128x64x64 main_cst_2
  let main_v11 : IVec S1x128x64x64 1 := cmpf .olt main_v9 main_v10
  let main_c_3 : IVec S_ 1 := constantI S_ 1 1#1
  let main_v12 : IVec S_ 1 := (fun x v => Host.reduce IntOp.andi x v reducesTo_S1x128x64x64_S_d0_1_2_3 h_S_) main_v11 main_c_3
  let main_v13 : IVec S_ 1 := andi main_v8 main_v12
  let main_v14 : FVec F S1x65536x2 .f32 := Host.absf main_arg3
  let main_cst_4 : FVec F S_ .f32 := constant S_ .f32 0x7F800000#32
  let main_v15 : FVec F S1x65536x2 .f32 := broadcastInDim S1x65536x2 ![] bcast_S_S1x65536x2 main_cst_4
  let main_v16 : IVec S1x65536x2 1 := cmpf .olt main_v14 main_v15
  fn_part1 (F := F) main_arg4 main_arg5 main_arg6 main_arg7 main_arg8 main_arg9 main_arg10 main_arg11 main_arg12 main_v13 main_v16
-- ==== Kernel.lean ====
abbrev S1x3x64x64 : Shape := ⟨4, ![1, 3, 64, 64]⟩
abbrev S1x256x64x64 : Shape := ⟨4, ![1, 256, 64, 64]⟩
abbrev S1x128x64x64 : Shape := ⟨4, ![1, 128, 64, 64]⟩
abbrev S1x65536x2 : Shape := ⟨3, ![1, 65536, 2]⟩
abbrev S128x2 : Shape := ⟨2, ![128, 2]⟩
abbrev S256x256 : Shape := ⟨2, ![256, 256]⟩
abbrev S256 : Shape := ⟨1, ![256]⟩
abbrev S3x256 : Shape := ⟨2, ![3, 256]⟩
abbrev S3 : Shape := ⟨1, ![3]⟩
abbrev S256x64x64 : Shape := ⟨3, ![256, 64, 64]⟩
abbrev S256x4096 : Shape := ⟨2, ![256, 4096]⟩
abbrev S128x64x64 : Shape := ⟨3, ![128, 64, 64]⟩
abbrev S128x4096 : Shape := ⟨2, ![128, 4096]⟩
abbrev S384x4096 : Shape := ⟨2, ![384, 4096]⟩
abbrev S3x64x64 : Shape := ⟨3, ![3, 64, 64]⟩
abbrev S3x4096 : Shape := ⟨2, ![3, 4096]⟩
abbrev S_ : Shape := ⟨0, ![]⟩
abbrev S125x4096 : Shape := ⟨2, ![125, 4096]⟩
abbrev S65536x2 : Shape := ⟨2, ![65536, 2]⟩
abbrev S2x65536 : Shape := ⟨2, ![2, 65536]⟩
abbrev S125x256 : Shape := ⟨2, ![125, 256]⟩
abbrev S128x256 : Shape := ⟨2, ![128, 256]⟩
abbrev S125 : Shape := ⟨1, ![125]⟩
abbrev S128 : Shape := ⟨1, ![128]⟩
abbrev S3x65536 : Shape := ⟨2, ![3, 65536]⟩
abbrev S2x512 : Shape := ⟨2, ![2, 512]⟩
abbrev S3x512 : Shape := ⟨2, ![3, 512]⟩
abbrev S1x512 : Shape := ⟨2, ![1, 512]⟩
abbrev S128x1 : Shape := ⟨2, ![128, 1]⟩
abbrev S128x512 : Shape := ⟨2, ![128, 512]⟩
abbrev S256x1 : Shape := ⟨2, ![256, 1]⟩
abbrev S4096x512 : Shape := ⟨2, ![4096, 512]⟩
abbrev S384x512 : Shape := ⟨2, ![384, 512]⟩
abbrev S256x512 : Shape := ⟨2, ![256, 512]⟩
abbrev S65536x3 : Shape := ⟨2, ![65536, 3]⟩
abbrev S1x65536x3 : Shape := ⟨3, ![1, 65536, 3]⟩

abbrev nBuf : Space → Nat
  | .hbm => 41
  | .vmem => 16
  | .smem => 0
  | _ => 0

abbrev bufTy : (tb : Table) → Fin (tcTables nBuf tb) → BufTy
  | .hbm, ⟨0, _⟩ => ⟨S1x3x64x64, .f32⟩
  | .hbm, ⟨1, _⟩ => ⟨S1x256x64x64, .f32⟩
  | .hbm, ⟨2, _⟩ => ⟨S1x128x64x64, .f32⟩
  | .hbm, ⟨3, _⟩ => ⟨S1x65536x2, .f32⟩
  | .hbm, ⟨4, _⟩ => ⟨S1x65536x2, .f32⟩
  | .hbm, ⟨5, _⟩ => ⟨S128x2, .f32⟩
  | .hbm, ⟨6, _⟩ => ⟨S128x2, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S3x256, .f32⟩
  | .hbm, ⟨12, _⟩ => ⟨S3, .f32⟩
  | .hbm, ⟨13, _⟩ => ⟨S256x64x64, .f32⟩
  | .hbm, ⟨14, _⟩ => ⟨S256x4096, .f32⟩
  | .hbm, ⟨15, _⟩ => ⟨S128x64x64, .f32⟩
  | .hbm, ⟨16, _⟩ => ⟨S128x4096, .f32⟩
  | .hbm, ⟨17, _⟩ => ⟨S384x4096, .f32⟩
  | .hbm, ⟨18, _⟩ => ⟨S384x4096, .bf16⟩
  | .hbm, ⟨19, _⟩ => ⟨S3x64x64, .f32⟩
  | .hbm, ⟨20, _⟩ => ⟨S3x4096, .f32⟩
  | .hbm, ⟨21, _⟩ => ⟨S_, .f32⟩
  | .hbm, ⟨22, _⟩ => ⟨S125x4096, .f32⟩
  | .hbm, ⟨23, _⟩ => ⟨S128x4096, .f32⟩
  | .hbm, ⟨24, _⟩ => ⟨S128x4096, .bf16⟩
  | .hbm, ⟨25, _⟩ => ⟨S65536x2, .f32⟩
  | .hbm, ⟨26, _⟩ => ⟨S2x65536, .f32⟩
  | .hbm, ⟨27, _⟩ => ⟨S65536x2, .f32⟩
  | .hbm, ⟨28, _⟩ => ⟨S2x65536, .f32⟩
  | .hbm, ⟨29, _⟩ => ⟨S256x256, .bf16⟩
  | .hbm, ⟨30, _⟩ => ⟨S256x256, .bf16⟩
  | .hbm, ⟨31, _⟩ => ⟨S_, .f32⟩
  | .hbm, ⟨32, _⟩ => ⟨S125x256, .f32⟩
  | .hbm, ⟨33, _⟩ => ⟨S128x256, .f32⟩
  | .hbm, ⟨34, _⟩ => ⟨S128x256, .bf16⟩
  | .hbm, ⟨35, _⟩ => ⟨S_, .f32⟩
  | .hbm, ⟨36, _⟩ => ⟨S125, .f32⟩
  | .hbm, ⟨37, _⟩ => ⟨S128, .f32⟩
  | .hbm, ⟨38, _⟩ => ⟨S3x65536, .f32⟩
  | .hbm, ⟨39, _⟩ => ⟨S65536x3, .f32⟩
  | .hbm, ⟨40, _⟩ => ⟨S1x65536x3, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S384x4096, .bf16⟩
  | .local _ .vmem, ⟨5, _⟩ => ⟨S128x4096, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S256, .f32⟩
  | .local _ .vmem, ⟨10, _⟩ => ⟨S256, .f32⟩
  | .local _ .vmem, ⟨11, _⟩ => ⟨S128, .f32⟩
  | .local _ .vmem, ⟨12, _⟩ => ⟨S128x2, .f32⟩
  | .local _ .vmem, ⟨13, _⟩ => ⟨S128x2, .f32⟩
  | .local _ .vmem, ⟨14, _⟩ => ⟨S3x512, .f32⟩
  | .local _ .vmem, ⟨15, _⟩ => ⟨S3x512, .f32⟩
  | _, _ => ⟨S1x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1x256x64x64_S256x64x64 : S1x256x64x64.ShapeCasts S256x64x64
  shapeCasts_S256x64x64_S256x4096 : S256x64x64.ShapeCasts S256x4096
  shapeCasts_S1x128x64x64_S128x64x64 : S1x128x64x64.ShapeCasts S128x64x64
  shapeCasts_S128x64x64_S128x4096 : S128x64x64.ShapeCasts S128x4096
  concatenates_S256x4096_S128x4096_S384x4096_d0 : Shape.Concatenates [S256x4096, S128x4096] S384x4096 0
  bitsLt_bf16_f32 : FTy.bits .bf16 < FTy.bits .f32
  shapeCasts_S1x3x64x64_S3x64x64 : S1x3x64x64.ShapeCasts S3x64x64
  shapeCasts_S3x64x64_S3x4096 : S3x64x64.ShapeCasts S3x4096
  bcast_S_S125x4096 : S_.BroadcastsInDim S125x4096 (![] : Fin 0 → Fin S125x4096.rank)
  concatenates_S3x4096_S125x4096_S128x4096_d0 : Shape.Concatenates [S3x4096, S125x4096] S128x4096 0
  shapeCasts_S1x65536x2_S65536x2 : S1x65536x2.ShapeCasts S65536x2
  transposes_S65536x2_S2x65536_1_0 : S65536x2.Transposes [1, 0] S2x65536
  bcast_S_S125x256 : S_.BroadcastsInDim S125x256 (![] : Fin 0 → Fin S125x256.rank)
  concatenates_S3x256_S125x256_S128x256_d0 : Shape.Concatenates [S3x256, S125x256] S128x256 0
  bcast_S_S125 : S_.BroadcastsInDim S125 (![] : Fin 0 → Fin S125.rank)
  concatenates_S3_S125_S128_d0 : Shape.Concatenates [S3, S125] S128 0
  inb_S2x512_S1x512_0_0 : ∀ a, (![0, 0] : Fin 2 → Nat) a + S1x512.size a ≤ S2x512.size a
  h_S1x512 : 0 < S1x512.numel
  shapeCasts_S1x512_S1x512 : S1x512.ShapeCasts S1x512
  inb_S2x512_S1x512_1_0 : ∀ a, (![1, 0] : Fin 2 → Nat) a + S1x512.size a ≤ S2x512.size a
  inb_S128x2_S128x1_0_0 : ∀ a, (![0, 0] : Fin 2 → Nat) a + S128x1.size a ≤ S128x2.size a
  h_S128x1 : 0 < S128x1.numel
  inb_S128x2_S128x1_0_1 : ∀ a, (![0, 1] : Fin 2 → Nat) a + S128x1.size a ≤ S128x2.size a
  broadcasts_S128x1_S128x512 : S128x1.Broadcasts S128x512
  broadcasts_S1x512_S128x512 : S1x512.Broadcasts S128x512
  inb_S384x4096_S384x4096_0_0 : ∀ a, (![0, 0] : Fin 2 → Nat) a + S384x4096.size a ≤ S384x4096.size a
  h_S384x4096 : 0 < S384x4096.numel
  shapeCasts_S384x4096_S384x4096 : S384x4096.ShapeCasts S384x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256x1 : S256.ShapeCasts S256x1
  inb_S128_S128_0 : ∀ a, (![0] : Fin 1 → Nat) a + S128.size a ≤ S128.size a
  h_S128 : 0 < S128.numel
  shapeCasts_S128_S128 : S128.ShapeCasts S128
  shapeCasts_S128_S128x1 : S128.ShapeCasts S128x1
  iota_S4096x512_d0_w32 : S4096x512.Iotas .tc 32 [0]
  broadcasts_S1x512_S4096x512 : S1x512.Broadcasts S4096x512
  natLt_1_32 : 1 < 32
  slices_S384x512_o0_0_S256x512 : S384x512.Slices ![0, 0] S256x512
  slices_S384x512_o256_0_S128x512 : S384x512.Slices ![256, 0] S128x512
  concatenates_S128x512_S128x512_S256x512_d0 : Shape.Concatenates [S128x512, S128x512] S256x512 0
  broadcasts_S256x1_S256x512 : S256x1.Broadcasts S256x512
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  slices_S128x512_o0_0_S3x512 : S128x512.Slices ![0, 0] S3x512
  inb_S3x512_S3x512_0_0 : ∀ a, (![0, 0] : Fin 2 → Nat) a + S3x512.size a ≤ S3x512.size a
  h_S3x512 : 0 < S3x512.numel
  transposes_S3x65536_S65536x3_1_0 : S3x65536.Transposes [1, 0] S65536x3
  bcast_S65536x3_S1x65536x3_1_2 : S65536x3.BroadcastsInDim S1x65536x3 (![1, 2] : Fin 2 → Fin S1x65536x3.rank)
  dot_S384x4096_S4096x512_S384x512_1_0_0_1_n_n_wf : DotDims.WF S384x4096 S4096x512 S384x512 [1] [0] [0] [1] [] []
  dot_S256x256_S256x512_S256x512_1_0_0_1_n_n_wf : DotDims.WF S256x256 S256x512 S256x512 [1] [0] [0] [1] [] []
  dot_S128x256_S256x512_S128x512_1_0_0_1_n_n_wf : DotDims.WF S128x256 S256x512 S128x512 [1] [0] [0] [1] [] []
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512.size a ≤ S2x65536.size a
  hwx0_0 : ∀ i : grid0.Coords, EltTy.bits .f32 = 32 ∨ (Rect.block (s := S2x65536) S2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512.size a ≤ S2x65536.size a
  hwx0_1 : ∀ i : grid0.Coords, EltTy.bits .f32 = 32 ∨ (Rect.block (s := S2x65536) S2x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x4096.size a ≤ S384x4096.size a
  hwx0_2 : ∀ i : grid0.Coords, EltTy.bits .bf16 = 32 ∨ (Rect.block (s := S384x4096) S384x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .bf16 = 32 ∨ (Rect.block (s := S128x4096) S128x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x2.size a ≤ S128x2.size a
  hwx0_10 : ∀ i : grid0.Coords, EltTy.bits .f32 = 32 ∨ (Rect.block (s := S128x2) S128x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x2.size a ≤ S128x2.size a
  hwx0_11 : ∀ i : grid0.Coords, EltTy.bits .f32 = 32 ∨ (Rect.block (s := S128x2) S128x2.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3x512.size a ≤ S3x65536.size a
  hwx0_12 : ∀ i : grid0.Coords, EltTy.bits .f32 = 32 ∨ (Rect.block (s := S3x65536) S3x512.size (cc0_transform_12 i) (hinb0_12 i)).WholeWords (EltTy.packing .f32)

variable [Facts₀]

def dot_S384x4096_S4096x512_S384x512_1_0_0_1_n_n : DotDims S384x4096 S4096x512 S384x512 where
  lhsContracting := [1]
  rhsContracting := [0]
  lhsNonContracting := [0]
  rhsNonContracting := [1]
  lhsBatch := []
  rhsBatch := []
  wf := dot_S384x4096_S4096x512_S384x512_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_v12) S2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S384x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S128x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S128x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S3x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1x3x64x64 : Shape := ⟨4, ![1, 3, 64, 64]⟩
abbrev S1x256x64x64 : Shape := ⟨4, ![1, 256, 64, 64]⟩
abbrev S1x128x64x64 : Shape := ⟨4, ![1, 128, 64, 64]⟩
abbrev S1x65536x2 : Shape := ⟨3, ![1, 65536, 2]⟩
abbrev S128x2 : Shape := ⟨2, ![128, 2]⟩
abbrev S256x256 : Shape := ⟨2, ![256, 256]⟩
abbrev S256 : Shape := ⟨1, ![256]⟩
abbrev S3x256 : Shape := ⟨2, ![3, 256]⟩
abbrev S3 : Shape := ⟨1, ![3]⟩
abbrev S4x2 : Shape := ⟨2, ![4, 2]⟩
abbrev S2 : Shape := ⟨1, ![2]⟩
abbrev S1x2 : Shape := ⟨2, ![1, 2]⟩
abbrev S_ : Shape := ⟨0, ![]⟩
abbrev S1x1x65536x2 : Shape := ⟨4, ![1, 1, 65536, 2]⟩
abbrev S1x4x1x2 : Shape := ⟨4, ![1, 4, 1, 2]⟩
abbrev S1x4x65536x2 : Shape := ⟨4, ![1, 4, 65536, 2]⟩
abbrev S1x4x65536x1 : Shape := ⟨4, ![1, 4, 65536, 1]⟩
abbrev S1x4x65536 : Shape := ⟨3, ![1, 4, 65536]⟩
abbrev S1x256x4096 : Shape := ⟨3, ![1, 256, 4096]⟩
abbrev S1x4096x256 : Shape := ⟨3, ![1, 4096, 256]⟩
abbrev S1x262144 : Shape := ⟨2, ![1, 262144]⟩
abbrev S1x262144x1 : Shape := ⟨3, ![1, 262144, 1]⟩
abbrev S1x262144x256 : Shape := ⟨3, ![1, 262144, 256]⟩
abbrev S1x4x65536x256 : Shape := ⟨4, ![1, 4, 65536, 256]⟩
abbrev S1x128x4096 : Shape := ⟨3, ![1, 128, 4096]⟩
abbrev S1x4096x128 : Shape := ⟨3, ![1, 4096, 128]⟩
abbrev S1x262144x128 : Shape := ⟨3, ![1, 262144, 128]⟩
abbrev S1x4x65536x128 : Shape := ⟨4, ![1, 4, 65536, 128]⟩
abbrev S1x65536x1 : Shape := ⟨3, ![1, 65536, 1]⟩
abbrev S1x65536 : Shape := ⟨2, ![1, 65536]⟩
abbrev S1x1x65536 : Shape := ⟨3, ![1, 1, 65536]⟩
abbrev S1x1x2 : Shape := ⟨3, ![1, 1, 2]⟩
abbrev S1x65536x128 : Shape := ⟨3, ![1, 65536, 128]⟩
abbrev S1x1x65536x128 : Shape := ⟨4, ![1, 1, 65536, 128]⟩
abbrev S1x1x1x256 : Shape := ⟨4, ![1, 1, 1, 256]⟩
abbrev S1x4x65536x3 : Shape := ⟨4, ![1, 4, 65536, 3]⟩
abbrev S1x1x1x3 : Shape := ⟨4, ![1, 1, 1, 3]⟩
abbrev S1x65536x3 : Shape := ⟨3, ![1, 65536, 3]⟩
abbrev S1x3x4096 : Shape := ⟨3, ![1, 3, 4096]⟩
abbrev S1x4096x3 : Shape := ⟨3, ![1, 4096, 3]⟩

abbrev nBuf : Space → Nat
  | .hbm => 377
  | .vmem => 0
  | .smem => 0
  | _ => 0

abbrev hbmTy0_0 (i : Nat) : BufTy := match i % 128 with
  | 0 => ⟨S1x3x64x64, .f32⟩
  | 1 => ⟨S1x256x64x64, .f32⟩
  | 2 => ⟨S1x128x64x64, .f32⟩
  | 3 => ⟨S1x65536x2, .f32⟩
  | 4 => ⟨S1x65536x2, .f32⟩
  | 5 => ⟨S128x2, .f32⟩
  | 6 => ⟨S128x2, .f32⟩
  | 7 => ⟨S256x256, .f32⟩
  | 8 => ⟨S256, .f32⟩
  | 9 => ⟨S256x256, .f32⟩
  | 10 => ⟨S256, .f32⟩
  | 11 => ⟨S3x256, .f32⟩
  | 12 => ⟨S3, .f32⟩
  | 13 => ⟨S4x2, .f32⟩
  | 14 => ⟨S2, .f32⟩
  | 15 => ⟨S2, .f32⟩
  | 16 => ⟨S1x2, .f32⟩
  | 17 => ⟨S4x2, .f32⟩
  | 18 => ⟨S4x2, .f32⟩
  | 19 => ⟨S_, .f32⟩
  | 20 => ⟨S4x2, .f32⟩
  | 21 => ⟨S4x2, .f32⟩
  | 22 => ⟨S1x1x65536x2, .f32⟩
  | 23 => ⟨S1x4x1x2, .f32⟩
  | 24 => ⟨S1x4x65536x2, .f32⟩
  | 25 => ⟨S1x4x65536x2, .f32⟩
  | 26 => ⟨S1x4x65536x2, .f32⟩
  | 27 => ⟨S_, .f32⟩
  | 28 => ⟨S_, .f32⟩
  | 29 => ⟨S_, .f32⟩
  | 30 => ⟨S1x4x65536x2, .f32⟩
  | 31 => ⟨S1x4x65536x2, .f32⟩
  | 32 => ⟨S_, .f32⟩
  | 33 => ⟨S1x4x65536x2, .f32⟩
  | 34 => ⟨S1x4x65536x2, .f32⟩
  | 35 => ⟨S1x4x65536x1, .f32⟩
  | 36 => ⟨S1x4x65536, .f32⟩
  | 37 => ⟨S_, .f32⟩
  | 38 => ⟨S1x4x65536, .f32⟩
  | 39 => ⟨S1x4x65536, .f32⟩
  | 40 => ⟨S_, .f32⟩
  | 41 => ⟨S1x4x65536, .f32⟩
  | 42 => ⟨S1x4x65536, .f32⟩
  | 43 => ⟨S_, .f32⟩
  | 44 => ⟨S1x4x65536, .f32⟩
  | 45 => ⟨S1x4x65536, .f32⟩
  | 46 => ⟨S_, .f32⟩
  | 47 => ⟨S1x4x65536, .f32⟩
  | 48 => ⟨S1x4x65536, .f32⟩
  | 49 => ⟨S_, .f32⟩
  | 50 => ⟨S1x4x65536, .f32⟩
  | 51 => ⟨S1x4x65536, .f32⟩
  | 52 => ⟨S1x4x65536, .f32⟩
  | 53 => ⟨S1x4x65536, .i32⟩
  | 54 => ⟨S_, .i32⟩
  | 55 => ⟨S_, .i32⟩
  | 56 => ⟨S_, .i32⟩
  | 57 => ⟨S1x4x65536, .i32⟩
  | 58 => ⟨S1x4x65536, .i32⟩
  | 59 => ⟨S_, .i32⟩
  | 60 => ⟨S1x4x65536, .i32⟩
  | 61 => ⟨S1x4x65536, .i32⟩
  | 62 => ⟨S1x4x65536x1, .f32⟩
  | 63 => ⟨S1x4x65536, .f32⟩
  | 64 => ⟨S_, .f32⟩
  | 65 => ⟨S1x4x65536, .f32⟩
  | 66 => ⟨S1x4x65536, .f32⟩
  | 67 => ⟨S_, .f32⟩
  | 68 => ⟨S1x4x65536, .f32⟩
  | 69 => ⟨S1x4x65536, .f32⟩
  | 70 => ⟨S_, .f32⟩
  | 71 => ⟨S1x4x65536, .f32⟩
  | 72 => ⟨S1x4x65536, .f32⟩
  | 73 => ⟨S_, .f32⟩
  | 74 => ⟨S1x4x65536, .f32⟩
  | 75 => ⟨S1x4x65536, .f32⟩
  | 76 => ⟨S_, .f32⟩
  | 77 => ⟨S1x4x65536, .f32⟩
  | 78 => ⟨S1x4x65536, .f32⟩
  | 79 => ⟨S1x4x65536, .f32⟩
  | 80 => ⟨S1x4x65536, .i32⟩
  | 81 => ⟨S_, .i32⟩
  | 82 => ⟨S_, .i32⟩
  | 83 => ⟨S_, .i32⟩
  | 84 => ⟨S1x4x65536, .i32⟩
  | 85 => ⟨S1x4x65536, .i32⟩
  | 86 => ⟨S_, .i32⟩
  | 87 => ⟨S1x4x65536, .i32⟩
  | 88 => ⟨S1x4x65536, .i32⟩
  | 89 => ⟨S_, .i32⟩
  | 90 => ⟨S1x4x65536, .i32⟩
  | 91 => ⟨S1x4x65536, .i32⟩
  | 92 => ⟨S1x4x65536, .i32⟩
  | 93 => ⟨S1x256x4096, .f32⟩
  | 94 => ⟨S1x4096x256, .f32⟩
  | 95 => ⟨S1x262144, .i32⟩
  | 96 => ⟨S_, .i32⟩
  | 97 => ⟨S1x262144, .i32⟩
  | 98 => ⟨S1x262144, .i1⟩
  | 99 => ⟨S_, .i32⟩
  | 100 => ⟨S1x262144, .i32⟩
  | 101 => ⟨S1x262144, .i32⟩
  | 102 => ⟨S1x262144, .i32⟩
  | 103 => ⟨S1x262144x1, .i32⟩
  | 104 => ⟨S1x262144x256, .f32⟩
  | 105 => ⟨S1x4x65536x256, .f32⟩
  | 106 => ⟨S1x128x4096, .f32⟩
  | 107 => ⟨S1x4096x128, .f32⟩
  | 108 => ⟨S1x262144, .i32⟩
  | 109 => ⟨S_, .i32⟩
  | 110 => ⟨S1x262144, .i32⟩
  | 111 => ⟨S1x262144, .i1⟩
  | 112 => ⟨S_, .i32⟩
  | 113 => ⟨S1x262144, .i32⟩
  | 114 => ⟨S1x262144, .i32⟩
  | 115 => ⟨S1x262144, .i32⟩
  | 116 => ⟨S1x262144x1, .i32⟩
  | 117 => ⟨S1x262144x128, .f32⟩
  | 118 => ⟨S1x4x65536x128, .f32⟩
  | 119 => ⟨S1x4x65536, .f32⟩
  | 120 => ⟨S_, .f32⟩
  | 121 => ⟨S1x4x65536, .f32⟩
  | 122 => ⟨S1x4x65536, .f32⟩
  | 123 => ⟨S_, .f32⟩
  | 124 => ⟨S1x4x65536, .f32⟩
  | 125 => ⟨S1x4x65536, .f32⟩
  | 126 => ⟨S_, .f32⟩
  | 127 => ⟨S1x4x65536, .f32⟩
  | _ => ⟨S1x3x64x64, .f32⟩

abbrev hbmTy0_1 (i : Nat) : BufTy := match i % 128 with
  | 0 => ⟨S1x4x65536, .f32⟩
  | 1 => ⟨S_, .f32⟩
  | 2 => ⟨S1x4x65536, .f32⟩
  | 3 => ⟨S1x4x65536, .f32⟩
  | 4 => ⟨S1x4x65536, .f32⟩
  | 5 => ⟨S_, .f32⟩
  | 6 => ⟨S1x4x65536, .f32⟩
  | 7 => ⟨S1x4x65536, .f32⟩
  | 8 => ⟨S_, .f32⟩
  | 9 => ⟨S1x4x65536, .f32⟩
  | 10 => ⟨S1x4x65536, .f32⟩
  | 11 => ⟨S_, .f32⟩
  | 12 => ⟨S1x4x65536, .f32⟩
  | 13 => ⟨S1x4x65536, .f32⟩
  | 14 => ⟨S_, .f32⟩
  | 15 => ⟨S1x4x65536, .f32⟩
  | 16 => ⟨S1x4x65536, .f32⟩
  | 17 => ⟨S1x65536x1, .f32⟩
  | 18 => ⟨S1x65536, .f32⟩
  | 19 => ⟨S1x1x65536, .f32⟩
  | 20 => ⟨S1x4x65536, .f32⟩
  | 21 => ⟨S1x4x65536, .f32⟩
  | 22 => ⟨S_, .f32⟩
  | 23 => ⟨S1x4x65536, .f32⟩
  | 24 => ⟨S1x4x65536, .f32⟩
  | 25 => ⟨S1x65536x1, .f32⟩
  | 26 => ⟨S1x65536, .f32⟩
  | 27 => ⟨S1x1x65536, .f32⟩
  | 28 => ⟨S1x4x65536, .f32⟩
  | 29 => ⟨S1x4x65536, .f32⟩
  | 30 => ⟨S_, .f32⟩
  | 31 => ⟨S1x4x65536, .f32⟩
  | 32 => ⟨S1x4x65536, .f32⟩
  | 33 => ⟨S1x4x65536x1, .f32⟩
  | 34 => ⟨S1x4x65536x1, .f32⟩
  | 35 => ⟨S1x4x65536x2, .f32⟩
  | 36 => ⟨S1x1x2, .f32⟩
  | 37 => ⟨S1x65536x2, .f32⟩
  | 38 => ⟨S1x65536x2, .f32⟩
  | 39 => ⟨S1x4x65536x128, .f32⟩
  | 40 => ⟨S1x4x65536x128, .f32⟩
  | 41 => ⟨S1x65536x128, .f32⟩
  | 42 => ⟨S1x1x65536x128, .f32⟩
  | 43 => ⟨S1x4x65536x128, .f32⟩
  | 44 => ⟨S1x4x65536x128, .f32⟩
  | 45 => ⟨S_, .f32⟩
  | 46 => ⟨S1x4x65536x128, .f32⟩
  | 47 => ⟨S1x4x65536x128, .f32⟩
  | 48 => ⟨S1x4x65536x128, .f32⟩
  | 49 => ⟨S_, .f32⟩
  | 50 => ⟨S1x4x65536x128, .f32⟩
  | 51 => ⟨S1x4x65536x128, .f32⟩
  | 52 => ⟨S1x4x65536x128, .f32⟩
  | 53 => ⟨S1x4x65536x256, .f32⟩
  | 54 => ⟨S1x4x65536x256, .f32⟩
  | 55 => ⟨S1x4x65536x256, .f32⟩
  | 56 => ⟨S1x1x1x256, .f32⟩
  | 57 => ⟨S1x4x65536x256, .f32⟩
  | 58 => ⟨S1x4x65536x256, .f32⟩
  | 59 => ⟨S_, .f32⟩
  | 60 => ⟨S1x4x65536x256, .f32⟩
  | 61 => ⟨S1x4x65536x256, .f32⟩
  | 62 => ⟨S1x4x65536x256, .f32⟩
  | 63 => ⟨S1x1x1x256, .f32⟩
  | 64 => ⟨S1x4x65536x256, .f32⟩
  | 65 => ⟨S1x4x65536x256, .f32⟩
  | 66 => ⟨S_, .f32⟩
  | 67 => ⟨S1x4x65536x256, .f32⟩
  | 68 => ⟨S1x4x65536x256, .f32⟩
  | 69 => ⟨S1x4x65536x3, .f32⟩
  | 70 => ⟨S1x1x1x3, .f32⟩
  | 71 => ⟨S1x4x65536x3, .f32⟩
  | 72 => ⟨S1x4x65536x3, .f32⟩
  | 73 => ⟨S1x4x65536, .f32⟩
  | 74 => ⟨S1x4x65536, .f32⟩
  | 75 => ⟨S_, .f32⟩
  | 76 => ⟨S1x4x65536, .f32⟩
  | 77 => ⟨S1x4x65536, .f32⟩
  | 78 => ⟨S_, .f32⟩
  | 79 => ⟨S1x65536, .f32⟩
  | 80 => ⟨S1x1x65536, .f32⟩
  | 81 => ⟨S1x4x65536, .f32⟩
  | 82 => ⟨S1x4x65536, .f32⟩
  | 83 => ⟨S1x4x65536, .f32⟩
  | 84 => ⟨S1x4x65536x1, .f32⟩
  | 85 => ⟨S1x4x65536x3, .f32⟩
  | 86 => ⟨S1x4x65536x3, .f32⟩
  | 87 => ⟨S_, .f32⟩
  | 88 => ⟨S1x65536x3, .f32⟩
  | 89 => ⟨S1x65536x1, .f32⟩
  | 90 => ⟨S1x65536, .f32⟩
  | 91 => ⟨S_, .f32⟩
  | 92 => ⟨S1x65536, .f32⟩
  | 93 => ⟨S1x65536, .f32⟩
  | 94 => ⟨S_, .f32⟩
  | 95 => ⟨S1x65536, .f32⟩
  | 96 => ⟨S1x65536, .f32⟩
  | 97 => ⟨S_, .f32⟩
  | 98 => ⟨S1x65536, .f32⟩
  | 99 => ⟨S1x65536, .f32⟩
  | 100 => ⟨S_, .f32⟩
  | 101 => ⟨S1x65536, .f32⟩
  | 102 => ⟨S1x65536, .f32⟩
  | 103 => ⟨S_, .f32⟩
  | 104 => ⟨S_, .f32⟩
  | 105 => ⟨S_, .f32⟩
  | 106 => ⟨S1x65536, .f32⟩
  | 107 => ⟨S1x65536, .f32⟩
  | 108 => ⟨S_, .f32⟩
  | 109 => ⟨S1x65536, .f32⟩
  | 110 => ⟨S1x65536, .f32⟩
  | 111 => ⟨S1x65536x1, .f32⟩
  | 112 => ⟨S1x65536, .f32⟩
  | 113 => ⟨S_, .f32⟩
  | 114 => ⟨S1x65536, .f32⟩
  | 115 => ⟨S1x65536, .f32⟩
  | 116 => ⟨S_, .f32⟩
  | 117 => ⟨S1x65536, .f32⟩
  | 118 => ⟨S1x65536, .f32⟩
  | 119 => ⟨S_, .f32⟩
  | 120 => ⟨S1x65536, .f32⟩
  | 121 => ⟨S1x65536, .f32⟩
  | 122 => ⟨S_, .f32⟩
  | 123 => ⟨S1x65536, .f32⟩
  | 124 => ⟨S1x65536, .f32⟩
  | 125 => ⟨S_, .f32⟩
  | 126 => ⟨S_, .f32⟩
  | 127 => ⟨S_, .f32⟩
  | _ => ⟨S1x3x64x64, .f32⟩

abbrev hbmTy0_2 (i : Nat) : BufTy := match i % 128 with
  | 0 => ⟨S1x65536, .f32⟩
  | 1 => ⟨S1x65536, .f32⟩
  | 2 => ⟨S_, .f32⟩
  | 3 => ⟨S1x65536, .f32⟩
  | 4 => ⟨S1x65536, .f32⟩
  | 5 => ⟨S1x65536, .f32⟩
  | 6 => ⟨S1x65536, .i32⟩
  | 7 => ⟨S1x65536, .f32⟩
  | 8 => ⟨S1x65536, .i32⟩
  | 9 => ⟨S_, .i32⟩
  | 10 => ⟨S1x65536, .i32⟩
  | 11 => ⟨S1x65536, .i32⟩
  | 12 => ⟨S_, .i32⟩
  | 13 => ⟨S_, .i32⟩
  | 14 => ⟨S_, .i32⟩
  | 15 => ⟨S1x65536, .i32⟩
  | 16 => ⟨S1x65536, .i32⟩
  | 17 => ⟨S_, .i32⟩
  | 18 => ⟨S1x65536, .i32⟩
  | 19 => ⟨S1x65536, .i32⟩
  | 20 => ⟨S_, .i32⟩
  | 21 => ⟨S1x65536, .i32⟩
  | 22 => ⟨S1x65536, .i32⟩
  | 23 => ⟨S_, .i32⟩
  | 24 => ⟨S_, .i32⟩
  | 25 => ⟨S_, .i32⟩
  | 26 => ⟨S1x65536, .i32⟩
  | 27 => ⟨S1x65536, .i32⟩
  | 28 => ⟨S_, .i32⟩
  | 29 => ⟨S1x65536, .i32⟩
  | 30 => ⟨S1x65536, .i32⟩
  | 31 => ⟨S1x65536, .f32⟩
  | 32 => ⟨S1x65536, .f32⟩
  | 33 => ⟨S1x65536, .f32⟩
  | 34 => ⟨S1x65536, .f32⟩
  | 35 => ⟨S1x3x4096, .f32⟩
  | 36 => ⟨S1x4096x3, .f32⟩
  | 37 => ⟨S_, .i32⟩
  | 38 => ⟨S1x65536, .i32⟩
  | 39 => ⟨S1x65536, .i32⟩
  | 40 => ⟨S1x65536, .i32⟩
  | 41 => ⟨S_, .i32⟩
  | 42 => ⟨S1x65536, .i32⟩
  | 43 => ⟨S1x65536, .i1⟩
  | 44 => ⟨S_, .i32⟩
  | 45 => ⟨S1x65536, .i32⟩
  | 46 => ⟨S1x65536, .i32⟩
  | 47 => ⟨S1x65536, .i32⟩
  | 48 => ⟨S1x65536x1, .i32⟩
  | 49 => ⟨S1x65536x3, .f32⟩
  | 50 => ⟨S_, .f32⟩
  | 51 => ⟨S1x65536, .f32⟩
  | 52 => ⟨S1x65536, .f32⟩
  | 53 => ⟨S_, .f32⟩
  | 54 => ⟨S1x65536, .f32⟩
  | 55 => ⟨S1x65536, .f32⟩
  | 56 => ⟨S1x65536, .f32⟩
  | 57 => ⟨S1x65536x1, .f32⟩
  | 58 => ⟨S1x65536x3, .f32⟩
  | 59 => ⟨S1x65536x3, .f32⟩
  | 60 => ⟨S_, .i32⟩
  | 61 => ⟨S1x65536, .i32⟩
  | 62 => ⟨S1x65536, .i32⟩
  | 63 => ⟨S1x65536, .i32⟩
  | 64 => ⟨S_, .i32⟩
  | 65 => ⟨S1x65536, .i32⟩
  | 66 => ⟨S1x65536, .i1⟩
  | 67 => ⟨S_, .i32⟩
  | 68 => ⟨S1x65536, .i32⟩
  | 69 => ⟨S1x65536, .i32⟩
  | 70 => ⟨S1x65536, .i32⟩
  | 71 => ⟨S1x65536x1, .i32⟩
  | 72 => ⟨S1x65536x3, .f32⟩
  | 73 => ⟨S_, .f32⟩
  | 74 => ⟨S1x65536, .f32⟩
  | 75 => ⟨S1x65536, .f32⟩
  | 76 => ⟨S1x65536, .f32⟩
  | 77 => ⟨S1x65536x1, .f32⟩
  | 78 => ⟨S1x65536x3, .f32⟩
  | 79 => ⟨S1x65536x3, .f32⟩
  | 80 => ⟨S1x65536x3, .f32⟩
  | 81 => ⟨S_, .i32⟩
  | 82 => ⟨S1x65536, .i32⟩
  | 83 => ⟨S1x65536, .i32⟩
  | 84 => ⟨S1x65536, .i32⟩
  | 85 => ⟨S_, .i32⟩
  | 86 => ⟨S1x65536, .i32⟩
  | 87 => ⟨S1x65536, .i1⟩
  | 88 => ⟨S_, .i32⟩
  | 89 => ⟨S1x65536, .i32⟩
  | 90 => ⟨S1x65536, .i32⟩
  | 91 => ⟨S1x65536, .i32⟩
  | 92 => ⟨S1x65536x1, .i32⟩
  | 93 => ⟨S1x65536x3, .f32⟩
  | 94 => ⟨S_, .f32⟩
  | 95 => ⟨S1x65536, .f32⟩
  | 96 => ⟨S1x65536, .f32⟩
  | 97 => ⟨S1x65536, .f32⟩
  | 98 => ⟨S1x65536x1, .f32⟩
  | 99 => ⟨S1x65536x3, .f32⟩
  | 100 => ⟨S1x65536x3, .f32⟩
  | 101 => ⟨S1x65536x3, .f32⟩
  | 102 => ⟨S_, .i32⟩
  | 103 => ⟨S1x65536, .i32⟩
  | 104 => ⟨S1x65536, .i32⟩
  | 105 => ⟨S1x65536, .i32⟩
  | 106 => ⟨S_, .i32⟩
  | 107 => ⟨S1x65536, .i32⟩
  | 108 => ⟨S1x65536, .i1⟩
  | 109 => ⟨S_, .i32⟩
  | 110 => ⟨S1x65536, .i32⟩
  | 111 => ⟨S1x65536, .i32⟩
  | 112 => ⟨S1x65536, .i32⟩
  | 113 => ⟨S1x65536x1, .i32⟩
  | 114 => ⟨S1x65536x3, .f32⟩
  | 115 => ⟨S1x65536, .f32⟩
  | 116 => ⟨S1x65536x1, .f32⟩
  | 117 => ⟨S1x65536x3, .f32⟩
  | 118 => ⟨S1x65536x3, .f32⟩
  | 119 => ⟨S1x65536x3, .f32⟩
  | 120 => ⟨S1x65536x3, .f32⟩
  | _ => ⟨S1x3x64x64, .f32⟩

abbrev hbmTy (i : Nat) : BufTy := match i / 128 with
  | 0 => hbmTy0_0 i
  | 1 => hbmTy0_1 i
  | 2 => hbmTy0_2 i
  | _ => ⟨S1x3x64x64, .f32⟩

abbrev bufTy : (tb : Table) → Fin (tcTables nBuf tb) → BufTy
  | .hbm, ⟨i, _⟩ => hbmTy i
  | _, _ => ⟨S1x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst_2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_5 : Ref sig .tc := ⟨.hbm, 37, rfl⟩
abbrev main_v13 : Ref sig .tc := ⟨.hbm, 38, rfl⟩
abbrev main_v14 : Ref sig .tc := ⟨.hbm, 39, rfl⟩
abbrev main_cst_6 : Ref sig .tc := ⟨.hbm, 40, rfl⟩
abbrev main_v15 : Ref sig .tc := ⟨.hbm, 41, rfl⟩
abbrev main_v16 : Ref sig .tc := ⟨.hbm, 42, rfl⟩
abbrev main_cst_7 : Ref sig .tc := ⟨.hbm, 43, rfl⟩
abbrev main_v17 : Ref sig .tc := ⟨.hbm, 44, rfl⟩
abbrev main_v18 : Ref sig .tc := ⟨.hbm, 45, rfl⟩
abbrev main_cst_8 : Ref sig .tc := ⟨.hbm, 46, rfl⟩
abbrev main_v19 : Ref sig .tc := ⟨.hbm, 47, rfl⟩
abbrev main_v20 : Ref sig .tc := ⟨.hbm, 48, rfl⟩
abbrev main_cst_9 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c : Ref sig .tc := ⟨.hbm, 54, rfl⟩
abbrev main_c_10 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_11 : Ref sig .tc := ⟨.hbm, 64, rfl⟩
abbrev main_v28 : Ref sig .tc := ⟨.hbm, 65, rfl⟩
abbrev main_v29 : Ref sig .tc := ⟨.hbm, 66, rfl⟩
abbrev main_cst_12 : Ref sig .tc := ⟨.hbm, 67, rfl⟩
abbrev main_v30 : Ref sig .tc := ⟨.hbm, 68, rfl⟩
abbrev main_v31 : Ref sig .tc := ⟨.hbm, 69, rfl⟩
abbrev main_cst_13 : Ref sig .tc := ⟨.hbm, 70, rfl⟩
abbrev main_v32 : Ref sig .tc := ⟨.hbm, 71, rfl⟩
abbrev main_v33 : Ref sig .tc := ⟨.hbm, 72, rfl⟩
abbrev main_cst_14 : Ref sig .tc := ⟨.hbm, 73, rfl⟩
abbrev main_v34 : Ref sig .tc := ⟨.hbm, 74, rfl⟩
abbrev main_v35 : Ref sig .tc := ⟨.hbm, 75, rfl⟩
abbrev main_cst_15 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_c_16 : Ref sig .tc := ⟨.hbm, 81, rfl⟩
abbrev main_c_17 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v40 : Ref sig .tc := ⟨.hbm, 88, rfl⟩
abbrev main_c_18 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_c_19 : Ref sig .tc := ⟨.hbm, 96, rfl⟩
abbrev main_v47 : Ref sig .tc := ⟨.hbm, 97, rfl⟩
abbrev main_v48 : Ref sig .tc := ⟨.hbm, 98, rfl⟩
abbrev main_c_20 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_c_21 : Ref sig .tc := ⟨.hbm, 109, rfl⟩
abbrev main_v58 : Ref sig .tc := ⟨.hbm, 110, rfl⟩
abbrev main_v59 : Ref sig .tc := ⟨.hbm, 111, rfl⟩
abbrev main_c_22 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_23 : Ref sig .tc := ⟨.hbm, 120, rfl⟩
abbrev main_v67 : Ref sig .tc := ⟨.hbm, 121, rfl⟩
abbrev main_v68 : Ref sig .tc := ⟨.hbm, 122, rfl⟩
abbrev main_cst_24 : Ref sig .tc := ⟨.hbm, 123, rfl⟩
abbrev main_v69 : Ref sig .tc := ⟨.hbm, 124, rfl⟩
abbrev main_v70 : Ref sig .tc := ⟨.hbm, 125, rfl⟩
abbrev main_cst_25 : Ref sig .tc := ⟨.hbm, 126, rfl⟩
abbrev main_v71 : Ref sig .tc := ⟨.hbm, 127, rfl⟩
abbrev main_v72 : Ref sig .tc := ⟨.hbm, 128, rfl⟩
abbrev main_cst_26 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_27 : Ref sig .tc := ⟨.hbm, 133, rfl⟩
abbrev main_v76 : Ref sig .tc := ⟨.hbm, 134, rfl⟩
abbrev main_v77 : Ref sig .tc := ⟨.hbm, 135, rfl⟩
abbrev main_cst_28 : Ref sig .tc := ⟨.hbm, 136, rfl⟩
abbrev main_v78 : Ref sig .tc := ⟨.hbm, 137, rfl⟩
abbrev main_v79 : Ref sig .tc := ⟨.hbm, 138, rfl⟩
abbrev main_cst_29 : Ref sig .tc := ⟨.hbm, 139, rfl⟩
abbrev main_v80 : Ref sig .tc := ⟨.hbm, 140, rfl⟩
abbrev main_v81 : Ref sig .tc := ⟨.hbm, 141, rfl⟩
abbrev main_cst_30 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_31 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_32 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_33 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_34 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_call3_cst : Ref sig .tc := ⟨.hbm, 187, rfl⟩
abbrev main_call3_v0 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_call4_cst : Ref sig .tc := ⟨.hbm, 194, rfl⟩
abbrev main_call4_v0 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_35 : Ref sig .tc := ⟨.hbm, 203, rfl⟩
abbrev main_v134 : Ref sig .tc := ⟨.hbm, 204, rfl⟩
abbrev main_v135 : Ref sig .tc := ⟨.hbm, 205, rfl⟩
abbrev main_cst_36 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_cst_37 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_cst_38 : Ref sig .tc := ⟨.hbm, 219, rfl⟩
abbrev main_v147 : Ref sig .tc := ⟨.hbm, 220, rfl⟩
abbrev main_v148 : Ref sig .tc := ⟨.hbm, 221, rfl⟩
abbrev main_cst_39 : Ref sig .tc := ⟨.hbm, 222, rfl⟩
abbrev main_v149 : Ref sig .tc := ⟨.hbm, 223, rfl⟩
abbrev main_v150 : Ref sig .tc := ⟨.hbm, 224, rfl⟩
abbrev main_cst_40 : Ref sig .tc := ⟨.hbm, 225, rfl⟩
abbrev main_v151 : Ref sig .tc := ⟨.hbm, 226, rfl⟩
abbrev main_v152 : Ref sig .tc := ⟨.hbm, 227, rfl⟩
abbrev main_cst_41 : Ref sig .tc := ⟨.hbm, 228, rfl⟩
abbrev main_v153 : Ref sig .tc := ⟨.hbm, 229, rfl⟩
abbrev main_v154 : Ref sig .tc := ⟨.hbm, 230, rfl⟩
abbrev main_cst_42 : Ref sig .tc := ⟨.hbm, 231, rfl⟩
abbrev main_cst_43 : Ref sig .tc := ⟨.hbm, 232, rfl⟩
abbrev main_call5_v0 : Ref sig .tc := ⟨.hbm, 233, rfl⟩
abbrev main_call5_v1 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_cst_44 : Ref sig .tc := ⟨.hbm, 241, rfl⟩
abbrev main_v158 : Ref sig .tc := ⟨.hbm, 242, rfl⟩
abbrev main_v159 : Ref sig .tc := ⟨.hbm, 243, rfl⟩
abbrev main_cst_45 : Ref sig .tc := ⟨.hbm, 244, rfl⟩
abbrev main_v160 : Ref sig .tc := ⟨.hbm, 245, rfl⟩
abbrev main_v161 : Ref sig .tc := ⟨.hbm, 246, rfl⟩
abbrev main_cst_46 : Ref sig .tc := ⟨.hbm, 247, rfl⟩
abbrev main_v162 : Ref sig .tc := ⟨.hbm, 248, rfl⟩
abbrev main_v163 : Ref sig .tc := ⟨.hbm, 249, rfl⟩
abbrev main_cst_47 : Ref sig .tc := ⟨.hbm, 250, rfl⟩
abbrev main_v164 : Ref sig .tc := ⟨.hbm, 251, rfl⟩
abbrev main_v165 : Ref sig .tc := ⟨.hbm, 252, rfl⟩
abbrev main_cst_48 : Ref sig .tc := ⟨.hbm, 253, rfl⟩
abbrev main_cst_49 : Ref sig .tc := ⟨.hbm, 254, rfl⟩
abbrev main_call6_v0 : Ref sig .tc := ⟨.hbm, 255, rfl⟩
abbrev main_call6_v1 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_c_50 : Ref sig .tc := ⟨.hbm, 265, rfl⟩
abbrev main_v171 : Ref sig .tc := ⟨.hbm, 266, rfl⟩
abbrev main_v172 : Ref sig .tc := ⟨.hbm, 267, rfl⟩
abbrev main_c_51 : Ref sig .tc := ⟨.hbm, 268, rfl⟩
abbrev main_c_52 : Ref sig .tc := ⟨.hbm, 269, rfl⟩
abbrev main_call7_v0 : Ref sig .tc := ⟨.hbm, 270, rfl⟩
abbrev main_call7_v1 : Ref sig .tc := ⟨.hbm, 271, rfl⟩
abbrev main_call7_v2 : Ref sig .tc := ⟨.hbm, 272, rfl⟩
abbrev main_call7_v3 : Ref sig .tc := ⟨.hbm, 273, rfl⟩
abbrev main_call7_v4 : Ref sig .tc := ⟨.hbm, 274, rfl⟩
abbrev main_v173 : Ref sig .tc := ⟨.hbm, 275, rfl⟩
abbrev main_c_53 : Ref sig .tc := ⟨.hbm, 276, rfl⟩
abbrev main_v174 : Ref sig .tc := ⟨.hbm, 277, rfl⟩
abbrev main_v175 : Ref sig .tc := ⟨.hbm, 278, rfl⟩
abbrev main_c_54 : Ref sig .tc := ⟨.hbm, 279, rfl⟩
abbrev main_c_55 : Ref sig .tc := ⟨.hbm, 280, rfl⟩
abbrev main_call8_v0 : Ref sig .tc := ⟨.hbm, 281, rfl⟩
abbrev main_call8_v1 : Ref sig .tc := ⟨.hbm, 282, rfl⟩
abbrev main_call8_v2 : Ref sig .tc := ⟨.hbm, 283, rfl⟩
abbrev main_call8_v3 : Ref sig .tc := ⟨.hbm, 284, rfl⟩
abbrev main_call8_v4 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_c_56 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_c_57 : Ref sig .tc := ⟨.hbm, 297, rfl⟩
abbrev main_v186 : Ref sig .tc := ⟨.hbm, 298, rfl⟩
abbrev main_v187 : Ref sig .tc := ⟨.hbm, 299, rfl⟩
abbrev main_c_58 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_cst_59 : Ref sig .tc := ⟨.hbm, 306, rfl⟩
abbrev main_v193 : Ref sig .tc := ⟨.hbm, 307, rfl⟩
abbrev main_v194 : Ref sig .tc := ⟨.hbm, 308, rfl⟩
abbrev main_cst_60 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_c_61 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_c_62 : Ref sig .tc := ⟨.hbm, 320, rfl⟩
abbrev main_v204 : Ref sig .tc := ⟨.hbm, 321, rfl⟩
abbrev main_v205 : Ref sig .tc := ⟨.hbm, 322, rfl⟩
abbrev main_c_63 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_cst_64 : Ref sig .tc := ⟨.hbm, 329, rfl⟩
abbrev main_v211 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_c_65 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_c_66 : Ref sig .tc := ⟨.hbm, 341, rfl⟩
abbrev main_v221 : Ref sig .tc := ⟨.hbm, 342, rfl⟩
abbrev main_v222 : Ref sig .tc := ⟨.hbm, 343, rfl⟩
abbrev main_c_67 : Ref sig .tc := ⟨.hbm, 344, rfl⟩
abbrev main_v223 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_cst_68 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_c_69 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_c_70 : Ref sig .tc := ⟨.hbm, 362, rfl⟩
abbrev main_v238 : Ref sig .tc := ⟨.hbm, 363, rfl⟩
abbrev main_v239 : Ref sig .tc := ⟨.hbm, 364, rfl⟩
abbrev main_c_71 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S4x2_0_1 : S1x2.BroadcastsInDim S4x2 (![0, 1] : Fin 2 → Fin S4x2.rank)
  bcast_S_S4x2 : S_.BroadcastsInDim S4x2 (![] : Fin 0 → Fin S4x2.rank)
  bcast_S1x65536x2_S1x1x65536x2_0_2_3 : S1x65536x2.BroadcastsInDim S1x1x65536x2 (![0, 2, 3] : Fin 3 → Fin S1x1x65536x2.rank)
  bcast_S4x2_S1x4x1x2_1_3 : S4x2.BroadcastsInDim S1x4x1x2 (![1, 3] : Fin 2 → Fin S1x4x1x2.rank)
  bcast_S1x1x65536x2_S1x4x65536x2_0_1_2_3 : S1x1x65536x2.BroadcastsInDim S1x4x65536x2 (![0, 1, 2, 3] : Fin 4 → Fin S1x4x65536x2.rank)
  bcast_S1x4x1x2_S1x4x65536x2_0_1_2_3 : S1x4x1x2.BroadcastsInDim S1x4x65536x2 (![0, 1, 2, 3] : Fin 4 → Fin S1x4x65536x2.rank)
  bcast_S_S1x4x65536x2 : S_.BroadcastsInDim S1x4x65536x2 (![] : Fin 0 → Fin S1x4x65536x2.rank)
  slices_S1x4x65536x2_S1x4x65536x1_0_0_0_0 : S1x4x65536x2.Slices ![0, 0, 0, 0] S1x4x65536x1
  shapeCasts_S1x4x65536x1_S1x4x65536 : S1x4x65536x1.ShapeCasts S1x4x65536
  bcast_S_S1x4x65536 : S_.BroadcastsInDim S1x4x65536 (![] : Fin 0 → Fin S1x4x65536.rank)
  slices_S1x4x65536x2_S1x4x65536x1_0_0_0_1 : S1x4x65536x2.Slices ![0, 0, 0, 1] S1x4x65536x1
  shapeCasts_S1x256x64x64_S1x256x4096 : S1x256x64x64.ShapeCasts S1x256x4096
  transposes_S1x256x4096_S1x4096x256_0_2_1 : S1x256x4096.Transposes [0, 2, 1] S1x4096x256
  shapeCasts_S1x4x65536_S1x262144 : S1x4x65536.ShapeCasts S1x262144
  bcast_S_S1x262144 : S_.BroadcastsInDim S1x262144 (![] : Fin 0 → Fin S1x262144.rank)
  bcast_S1x262144_S1x262144x1_0_1 : S1x262144.BroadcastsInDim S1x262144x1 (![0, 1] : Fin 2 → Fin S1x262144x1.rank)
  shapeCasts_S1x262144x256_S1x4x65536x256 : S1x262144x256.ShapeCasts S1x4x65536x256
  shapeCasts_S1x128x64x64_S1x128x4096 : S1x128x64x64.ShapeCasts S1x128x4096
  transposes_S1x128x4096_S1x4096x128_0_2_1 : S1x128x4096.Transposes [0, 2, 1] S1x4096x128
  shapeCasts_S1x262144x128_S1x4x65536x128 : S1x262144x128.ShapeCasts S1x4x65536x128
  slices_S1x65536x2_S1x65536x1_0_0_0 : S1x65536x2.Slices ![0, 0, 0] S1x65536x1
  shapeCasts_S1x65536x1_S1x65536 : S1x65536x1.ShapeCasts S1x65536
  bcast_S1x65536_S1x1x65536_0_2 : S1x65536.BroadcastsInDim S1x1x65536 (![0, 2] : Fin 2 → Fin S1x1x65536.rank)
  bcast_S1x1x65536_S1x4x65536_0_1_2 : S1x1x65536.BroadcastsInDim S1x4x65536 (![0, 1, 2] : Fin 3 → Fin S1x4x65536.rank)
  slices_S1x65536x2_S1x65536x1_0_0_1 : S1x65536x2.Slices ![0, 0, 1] S1x65536x1
  bcast_S1x4x65536_S1x4x65536x1_0_1_2 : S1x4x65536.BroadcastsInDim S1x4x65536x1 (![0, 1, 2] : Fin 3 → Fin S1x4x65536x1.rank)
  concatenates_S1x4x65536x1_S1x4x65536x1_S1x4x65536x2_d3 : Shape.Concatenates [S1x4x65536x1, S1x4x65536x1] S1x4x65536x2 3
  bcast_S2_S1x1x2_2 : S2.BroadcastsInDim S1x1x2 (![2] : Fin 1 → Fin S1x1x2.rank)
  bcast_S1x1x2_S1x65536x2_0_1_2 : S1x1x2.BroadcastsInDim S1x65536x2 (![0, 1, 2] : Fin 3 → Fin S1x65536x2.rank)
  bcast_S1x65536x128_S1x1x65536x128_0_2_3 : S1x65536x128.BroadcastsInDim S1x1x65536x128 (![0, 2, 3] : Fin 3 → Fin S1x1x65536x128.rank)
  bcast_S1x1x65536x128_S1x4x65536x128_0_1_2_3 : S1x1x65536x128.BroadcastsInDim S1x4x65536x128 (![0, 1, 2, 3] : Fin 4 → Fin S1x4x65536x128.rank)
  bcast_S_S1x4x65536x128 : S_.BroadcastsInDim S1x4x65536x128 (![] : Fin 0 → Fin S1x4x65536x128.rank)
  concatenates_S1x4x65536x128_S1x4x65536x128_S1x4x65536x256_d3 : Shape.Concatenates [S1x4x65536x128, S1x4x65536x128] S1x4x65536x256 3
  bcast_S256_S1x1x1x256_3 : S256.BroadcastsInDim S1x1x1x256 (![3] : Fin 1 → Fin S1x1x1x256.rank)
  bcast_S1x1x1x256_S1x4x65536x256_0_1_2_3 : S1x1x1x256.BroadcastsInDim S1x4x65536x256 (![0, 1, 2, 3] : Fin 4 → Fin S1x4x65536x256.rank)
  bcast_S_S1x4x65536x256 : S_.BroadcastsInDim S1x4x65536x256 (![] : Fin 0 → Fin S1x4x65536x256.rank)
  bcast_S3_S1x1x1x3_3 : S3.BroadcastsInDim S1x1x1x3 (![3] : Fin 1 → Fin S1x1x1x3.rank)
  bcast_S1x1x1x3_S1x4x65536x3_0_1_2_3 : S1x1x1x3.BroadcastsInDim S1x4x65536x3 (![0, 1, 2, 3] : Fin 4 → Fin S1x4x65536x3.rank)
  reducesTo_S1x4x65536_S1x65536_d1 : S1x4x65536.ReducesTo [1] S1x65536
  h_S_ : 0 < S_.numel
  bcast_S1x4x65536x1_S1x4x65536x3_0_1_2_3 : S1x4x65536x1.BroadcastsInDim S1x4x65536x3 (![0, 1, 2, 3] : Fin 4 → Fin S1x4x65536x3.rank)
  reducesTo_S1x4x65536x3_S1x65536x3_d1 : S1x4x65536x3.ReducesTo [1] S1x65536x3
  bcast_S_S1x65536 : S_.BroadcastsInDim S1x65536 (![] : Fin 0 → Fin S1x65536.rank)
  shapeCasts_S1x3x64x64_S1x3x4096 : S1x3x64x64.ShapeCasts S1x3x4096
  transposes_S1x3x4096_S1x4096x3_0_2_1 : S1x3x4096.Transposes [0, 2, 1] S1x4096x3
  bcast_S1x65536_S1x65536x1_0_1 : S1x65536.BroadcastsInDim S1x65536x1 (![0, 1] : Fin 2 → Fin S1x65536x1.rank)
  bcast_S1x65536x1_S1x65536x3_0_1_2 : S1x65536x1.BroadcastsInDim S1x65536x3 (![0, 1, 2] : Fin 3 → Fin S1x65536x3.rank)
  gather_S1x4096x256_S1x262144x1_S1x262144x256_2_1_0_0_1_2_11256_wf : GatherDims.WF S1x4096x256 S1x262144x1 S1x262144x256 [2] [1] [0] [1] [0] 2 ![1, 1, 256]
  gather_S1x4096x128_S1x262144x1_S1x262144x128_2_1_0_0_1_2_11128_wf : GatherDims.WF S1x4096x128 S1x262144x1 S1x262144x128 [2] [1] [0] [1] [0] 2 ![1, 1, 128]
  dot_S1x4x65536x2_S128x2_S1x4x65536x128_3_1_012_0_n_n_wf : DotDims.WF S1x4x65536x2 S128x2 S1x4x65536x128 [3] [1] [0, 1, 2] [0] [] []
  dot_S1x65536x2_S128x2_S1x65536x128_2_1_01_0_n_n_wf : DotDims.WF S1x65536x2 S128x2 S1x65536x128 [2] [1] [0, 1] [0] [] []
  dot_S1x4x65536x256_S256x256_S1x4x65536x256_3_1_012_0_n_n_wf : DotDims.WF S1x4x65536x256 S256x256 S1x4x65536x256 [3] [1] [0, 1, 2] [0] [] []
  dot_S1x4x65536x256_S3x256_S1x4x65536x3_3_1_012_0_n_n_wf : DotDims.WF S1x4x65536x256 S3x256 S1x4x65536x3 [3] [1] [0, 1, 2] [0] [] []
  gather_S1x4096x3_S1x65536x1_S1x65536x3_2_1_0_0_1_2_113_wf : GatherDims.WF S1x4096x3 S1x65536x1 S1x65536x3 [2] [1] [0] [1] [0] 2 ![1, 1, 3]

variable [Facts₀]

def gather_S1x4096x256_S1x262144x1_S1x262144x256_2_1_0_0_1_2_11256 : GatherDims S1x4096x256 S1x262144x1 S1x262144x256 where
  offsetDims := [2]
  collapsedSliceDims := [1]
  operandBatchingDims := [0]
  startIndicesBatchingDims := [0]
  startIndexMap := [1]
  indexVectorDim := 2
  sliceSizes := ![1, 1, 256]
  wf := gather_S1x4096x256_S1x262144x1_S1x262144x256_2_1_0_0_1_2_11256_wf
def gather_S1x4096x128_S1x262144x1_S1x262144x128_2_1_0_0_1_2_11128 : GatherDims S1x4096x128 S1x262144x1 S1x262144x128 where
  offsetDims := [2]
  collapsedSliceDims := [1]
  operandBatchingDims := [0]
  startIndicesBatchingDims := [0]
  startIndexMap := [1]
  indexVectorDim := 2
  sliceSizes := ![1, 1, 128]
  wf := gather_S1x4096x128_S1x262144x1_S1x262144x128_2_1_0_0_1_2_11128_wf
def dot_S1x4x65536x2_S128x2_S1x4x65536x128_3_1_012_0_n_n : DotDims S1x4x65536x2 S128x2 S1x4x65536x128 where
  lhsContracting := [3]
  rhsContracting := [1]
  lhsNonContracting := [0, 1, 2]
  rhsNonContracting := [0]
  lhsBatch := []
  rhsBatch := []
  wf := dot_S1x4x65536x2_S128x2_S1x4x65536x128_3_1_012_0_n_n_wf
def dot_S1x65536x2_S128x2_S1x65536x128_2_1_01_0_n_n : DotDims S1x65536x2 S128x2 S1x65536x128 where
  lhsContracting := [2]
  rhsContracting := [1]
  lhsNonContracting := [0, 1]
  rhsNonContracting := [0]
  lhsBatch := []
  rhsBatch := []
  wf := dot_S1x65536x2_S128x2_S1x65536x128_2_1_01_0_n_n_wf
def dot_S1x4x65536x256_S256x256_S1x4x65536x256_3_1_012_0_n_n : DotDims S1x4x65536x256 S256x256 S1x4x65536x256 where
  lhsContracting := [3]
  rhsContracting := [1]
  lhsNonContracting := [0, 1, 2]
  rhsNonContracting := [0]
  lhsBatch := []
  rhsBatch := []
  wf := dot_S1x4x65536x256_S256x256_S1x4x65536x256_3_1_012_0_n_n_wf
def dot_S1x4x65536x256_S3x256_S1x4x65536x3_3_1_012_0_n_n : DotDims S1x4x65536x256 S3x256 S1x4x65536x3 where
  lhsContracting := [3]
  rhsContracting := [1]
  lhsNonContracting := [0, 1, 2]
  rhsNonContracting := [0]
  lhsBatch := []
  rhsBatch := []
  wf := dot_S1x4x65536x256_S3x256_S1x4x65536x3_3_1_012_0_n_n_wf
def gather_S1x4096x3_S1x65536x1_S1x65536x3_2_1_0_0_1_2_113 : GatherDims S1x4096x3 S1x65536x1 S1x65536x3 where
  offsetDims := [2]
  collapsedSliceDims := [1]
  operandBatchingDims := [0]
  startIndicesBatchingDims := [0]
  startIndexMap := [1]
  indexVectorDim := 2
  sliceSizes := ![1, 1, 3]
  wf := gather_S1x4096x3_S1x65536x1_S1x65536x3_2_1_0_0_1_2_113_wf

class Facts : Prop extends Facts₀ where

variable [Facts]
-- ==== Proof.Spec.lean ====
/-
  The function both programs compute, one query point at a time, on the extended reals.

  For a query q (of 65536) with coordinates (y, x) = crd q and each of the four corner offsets o, the coordinate is
  shifted by (+-1/64 + eps), clipped to [-1 + eps', 1 - eps'], turned into the nearest pixel (iy, ix) of the 64 x 64
  grid, and that pixel's 256 coefficient and 128 frequency channels are read. The frequencies are modulated by the
  offset of the query from the pixel's centre and by the cell size, passed through cos / sin, multiplied by the
  coefficients and fed to a three-layer perceptron; the four predictions are averaged with weights proportional to the
  area of the DIAGONALLY OPPOSITE rectangle. A bilinear sample of the image at the unshifted coordinate is added.

  Everything here is stated over plain `Fin`-indexed tables, so that it speaks of neither program.
-/
import Idealize.ShloMosaic.PureOps.Ideal
import Idealize.ShloMosaic.Lib.ValueIdx

noncomputable section

namespace Cert.Spec

open Idealize.ShloMosaic

/-- A float word read at the ideal instance. -/
abbrev w32 (b : BitVec 32) : EReal := Ideal.ofBits .f32 b

/-- The thirteen argument arrays, the three feature maps with their two spatial axes flattened row-major (n = 64 h + w). -/
structure Args where
  img : Fin 3 → Fin 4096 → EReal
  coef : Fin 256 → Fin 4096 → EReal
  freq : Fin 128 → Fin 4096 → EReal
  crd : Fin 65536 → Fin 2 → EReal
  cel : Fin 65536 → Fin 2 → EReal
  wcf : Fin 128 → Fin 2 → EReal
  wph : Fin 128 → Fin 2 → EReal
  w1 : Fin 256 → Fin 256 → EReal
  b1 : Fin 256 → EReal
  w2 : Fin 256 → Fin 256 → EReal
  b2 : Fin 256 → EReal
  w3 : Fin 3 → Fin 256 → EReal
  b3 : Fin 3 → EReal

/-- The sign of offset o along axis d: offsets are (-,-), (-,+), (+,-), (+,+). -/
def sgn (o : Fin 4) (d : Fin 2) : EReal :=
  if (d = 0 ∧ o.val < 2) ∨ (d = 1 ∧ o.val % 2 = 0) then w32 0xBF800000#32 else w32 0x3F800000#32

/-- The shift of offset o along axis d: sign / 64 plus the float32 nearest 1e-6. -/
def shift (o : Fin 4) (d : Fin 2) : EReal := sgn o d * w32 0x3C800000#32 + w32 0x358637BD#32

/-- Clip to the float32 words nearest -0.999999 and 0.999999. -/
def clipc (x : EReal) : EReal := min (w32 0x3F7FFFEF#32) (max (w32 0xBF7FFFEF#32) x)

/-- A normalised coordinate in [-1, 1] as a pixel coordinate of a 64-wide axis, centres at integers: ((c + 1) 64 - 1) / 2. -/
def pix (c : EReal) : EReal := Ideal.div ((c + w32 0x3F800000#32) * w32 0x42800000#32 - w32 0x3F800000#32) (w32 0x40000000#32)

/-- A word clamped into [0, 63], signed. -/
def clampI (v : BitVec 32) : BitVec 32 := IntOp.minsi 63#32 (IntOp.maxsi 0#32 v)

/-- The integer part, as a word, of an extended real (floor, then the conversion). -/
def floorI (x : EReal) : BitVec 32 := Ideal.fptosi 32 (Ideal.liftRound Int.floor x)

/-- A word as an extended real. -/
def ofI (v : BitVec 32) : EReal := ((v.toInt : ℝ) : EReal)

variable (A : Args)

/-- The shifted, clipped coordinate of query q at offset o along axis d. -/
def cq (o : Fin 4) (q : Fin 65536) (d : Fin 2) : EReal := clipc (A.crd q d + shift o d)

/-- Its nearest pixel index along axis d (round half up, clamped into the grid). -/
def ni (o : Fin 4) (q : Fin 65536) (d : Fin 2) : BitVec 32 := clampI (floorI (pix (cq A o q d) + w32 0x3F000000#32))

/-- The flat pixel number 64 iy + ix, as a word. -/
def lin (o : Fin 4) (q : Fin 65536) : BitVec 32 := IntOp.addi (IntOp.muli (ni A o q 0) 64#32) (ni A o q 1)

/-- A word as a row number of a 4096-row table (every word met here is in range; the remainder is never taken). -/
def row (v : BitVec 32) : Fin 4096 := ⟨v.toNat % 4096, Nat.mod_lt _ (by decide)⟩

/-- The centre of pixel iv in normalised coordinates: -1 + (2 iv + 1) / 64. -/
def pcen (iv : BitVec 32) : EReal := w32 0xBF800000#32 + Ideal.div (w32 0x40000000#32 * ofI iv + w32 0x3F800000#32) (w32 0x42800000#32)

/-- The query's offset from its nearest pixel's centre, in pixels, along axis d. -/
def rel (o : Fin 4) (q : Fin 65536) (d : Fin 2) : EReal := (A.crd q d - pcen (ni A o q d)) * w32 0x42800000#32

/-- Frequency channel k's linear form of that offset. -/
def cfc (o : Fin 4) (q : Fin 65536) (k : Fin 128) : EReal := A.wcf k 0 * rel A o q 0 + A.wcf k 1 * rel A o q 1

/-- Phase channel k's linear form of the cell size (in pixels). -/
def php (q : Fin 65536) (k : Fin 128) : EReal :=
  A.wph k 0 * (A.cel q 0 * w32 0x42800000#32) + A.wph k 1 * (A.cel q 1 * w32 0x42800000#32)

/-- The modulated frequency of channel k. -/
def zf (o : Fin 4) (q : Fin 65536) (k : Fin 128) : EReal := A.freq k (row (lin A o q)) * cfc A o q k + php A q k

/-- The 256 Fourier features: cos (pi z) for the first 128 channels, sin (pi z) for the rest (pi the float32 word). -/
def feat (o : Fin 4) (q : Fin 65536) (c : Fin 256) : EReal :=
  if h : c.val < 128 then Ideal.cos (w32 0x40490FDB#32 * zf A o q ⟨c.val, h⟩)
  else Ideal.sin (w32 0x40490FDB#32 * zf A o q ⟨c.val - 128, by omega⟩)

/-- The perceptron's input: coefficient times feature. -/
def x0 (o : Fin 4) (q : Fin 65536) (c : Fin 256) : EReal := A.coef c (row (lin A o q)) * feat A o q c

/-- First hidden layer. -/
def h1 (o : Fin 4) (q : Fin 65536) (d : Fin 256) : EReal := max ((∑ c, A.w1 d c * x0 A o q c) + A.b1 d) 0

/-- Second hidden layer. -/
def h2 (o : Fin 4) (q : Fin 65536) (d : Fin 256) : EReal := max ((∑ c, A.w2 d c * h1 A o q c) + A.b2 d) 0

/-- The prediction of offset o, channel j. -/
def pred (o : Fin 4) (q : Fin 65536) (j : Fin 3) : EReal := (∑ c, A.w3 j c * h2 A o q c) + A.b3 j

/-- The area of the rectangle between the query and pixel o's centre, plus the float32 nearest 1e-9. -/
def area (o : Fin 4) (q : Fin 65536) : EReal := FloatOps.absf (F := Ideal) (φ := .f32) (rel A o q 0 * rel A o q 1) + w32 0x3089705F#32

/-- The four areas' sum. -/
def tot (q : Fin 65536) : EReal := area A 0 q + area A 1 q + area A 2 q + area A 3 q

/-- The ensemble: each prediction weighted by the opposite corner's share of the total area. -/
def ret (q : Fin 65536) (j : Fin 3) : EReal :=
  pred A 0 q j * Ideal.div (area A 3 q) (tot A q) + pred A 1 q j * Ideal.div (area A 2 q) (tot A q)
    + pred A 2 q j * Ideal.div (area A 1 q) (tot A q) + pred A 3 q j * Ideal.div (area A 0 q) (tot A q)

/-- The unshifted coordinate as a pixel coordinate clipped to [0, 63]. -/
def gp (q : Fin 65536) (d : Fin 2) : EReal := min (w32 0x427C0000#32) (max (w32 0x00000000#32) (pix (A.crd q d)))

/-- Its lower pixel, as a word. -/
def lo (q : Fin 65536) (d : Fin 2) : BitVec 32 := floorI (gp A q d)

/-- Its upper pixel, clamped into the grid. -/
def up (q : Fin 65536) (d : Fin 2) : BitVec 32 := clampI (IntOp.addi (lo A q d) 1#32)

/-- The fractional part along axis d. -/
def fr (q : Fin 65536) (d : Fin 2) : EReal := gp A q d - ofI (lo A q d)

/-- The flat number of pixel (a, b). -/
def flat (a b : BitVec 32) : BitVec 32 := IntOp.addi (IntOp.muli a 64#32) b

/-- The bilinear sample of image channel j. -/
def samp (q : Fin 65536) (j : Fin 3) : EReal :=
  A.img j (row (flat (lo A q 0) (lo A q 1))) * ((w32 0x3F800000#32 - fr A q 0) * (w32 0x3F800000#32 - fr A q 1))
    + A.img j (row (flat (lo A q 0) (up A q 1))) * ((w32 0x3F800000#32 - fr A q 0) * fr A q 1)
    + A.img j (row (flat (up A q 0) (lo A q 1))) * (fr A q 0 * (w32 0x3F800000#32 - fr A q 1))
    + A.img j (row (flat (up A q 0) (up A q 1))) * (fr A q 0 * fr A q 1)

/-- The result at query q, channel j. -/
def out (q : Fin 65536) (j : Fin 3) : EReal := ret A q j + samp A q j

/-! ## From the programs' argument arrays -/

open ValueIdx in
/-- The tables of the thirteen argument arrays in the shapes both programs declare them. -/
def ofArrays (a0 : (⟨4, ![1, 3, 64, 64]⟩ : Shape).Idx → EReal) (a1 : (⟨4, ![1, 256, 64, 64]⟩ : Shape).Idx → EReal)
    (a2 : (⟨4, ![1, 128, 64, 64]⟩ : Shape).Idx → EReal) (a3 a4 : (⟨3, ![1, 65536, 2]⟩ : Shape).Idx → EReal)
    (a5 a6 : (⟨2, ![128, 2]⟩ : Shape).Idx → EReal) (a7 : (⟨2, ![256, 256]⟩ : Shape).Idx → EReal) (a8 : (⟨1, ![256]⟩ : Shape).Idx → EReal)
    (a9 : (⟨2, ![256, 256]⟩ : Shape).Idx → EReal) (a10 : (⟨1, ![256]⟩ : Shape).Idx → EReal)
    (a11 : (⟨2, ![3, 256]⟩ : Shape).Idx → EReal) (a12 : (⟨1, ![3]⟩ : Shape).Idx → EReal) : Args where
  img j n := a0 (ix4 (0 : Fin 1) j (⟨n.val / 64, by omega⟩ : Fin 64) (⟨n.val % 64, by omega⟩ : Fin 64))
  coef c n := a1 (ix4 (0 : Fin 1) c (⟨n.val / 64, by omega⟩ : Fin 64) (⟨n.val % 64, by omega⟩ : Fin 64))
  freq k n := a2 (ix4 (0 : Fin 1) k (⟨n.val / 64, by omega⟩ : Fin 64) (⟨n.val % 64, by omega⟩ : Fin 64))
  crd q d := a3 (ix3 (0 : Fin 1) q d)
  cel q d := a4 (ix3 (0 : Fin 1) q d)
  wcf k d := a5 (ix2 k d)
  wph k d := a6 (ix2 k d)
  w1 d c := a7 (ix2 d c)
  b1 d := a8 (ix1 d)
  w2 d c := a9 (ix2 d c)
  b2 d := a10 (ix1 d)
  w3 j c := a11 (ix2 j c)
  b3 j := a12 (ix1 j)

/-- The whole result array [1, 65536, 3] as a function of the thirteen argument arrays. -/
def result (a0 : (⟨4, ![1, 3, 64, 64]⟩ : Shape).Idx → EReal) (a1 : (⟨4, ![1, 256, 64, 64]⟩ : Shape).Idx → EReal)
    (a2 : (⟨4, ![1, 128, 64, 64]⟩ : Shape).Idx → EReal) (a3 a4 : (⟨3, ![1, 65536, 2]⟩ : Shape).Idx → EReal)
    (a5 a6 : (⟨2, ![128, 2]⟩ : Shape).Idx → EReal) (a7 : (⟨2, ![256, 256]⟩ : Shape).Idx → EReal) (a8 : (⟨1, ![256]⟩ : Shape).Idx → EReal)
    (a9 : (⟨2, ![256, 256]⟩ : Shape).Idx → EReal) (a10 : (⟨1, ![256]⟩ : Shape).Idx → EReal)
    (a11 : (⟨2, ![3, 256]⟩ : Shape).Idx → EReal) (a12 : (⟨1, ![3]⟩ : Shape).Idx → EReal) :
    (⟨3, ![1, 65536, 3]⟩ : Shape).Idx → EReal :=
  fun i => out (ofArrays a0 a1 a2 a3 a4 a5 a6 a7 a8 a9 a10 a11 a12) (⟨(i 1).val, (i 1).isLt⟩ : Fin 65536) (⟨(i 2).val, (i 2).isLt⟩ : Fin 3)

end Cert.Spec

end
-- ==== Proof.KTerms.lean ====
/-
  Names for the pieces of the block the kernel writes at one grid point, as the frame states it: the two coordinate rows,
  the resident tables and weights, each offset's prediction and area, the ensemble, and the bilinear sample; and what it
  means for the twelve input blocks to be the blocks of the specification's tables at grid point t (512 queries a point).
-/
import proofs.«148257_j30657476559104_1_alg».proof.Proof.Gen.KernelIdeal.Frame
import proofs.«148257_j30657476559104_1_alg».proof.Proof.Spec
import Idealize.ShloMosaic.Lib.ValueIdx

noncomputable section

namespace Cert.KernelIdeal.KV

open Idealize.ShloMosaic Idealize.ShloMosaic.ValueIdx Cert.KernelIdeal Cert.KernelIdeal.Gen

/-- The query that column s of grid point t holds. -/
def qq (t : Fin 128) (s : Fin 512) : Fin 65536 := ⟨512 * t.val + s.val, by omega⟩

/-- A row below 3 of a 128-row padded array. -/
def r3 (j : Fin 3) : Fin 128 := ⟨j.val, by omega⟩

/-- The iota along the table axis. -/
abbrev iov : IVec S4096x512 32 := iota .tc S4096x512 32 [0] iota_S4096x512_d0_w32

abbrev c0v (x0 : Vec Ideal S2x512 .f32) := k0_pay2 (F := Ideal) (View.ld x0 r0_0)
abbrev c1v (x0 : Vec Ideal S2x512 .f32) := k0_pay3 (F := Ideal) (View.ld x0 r0_1)
abbrev phv (x1 : Vec Ideal S2x512 .f32) (x11 : Vec Ideal S128x2 .f32) := k0_pay4 (F := Ideal) (View.ld x1 r0_0) (View.ld x1 r0_1) (View.ld x11 r0_2) (View.ld x11 r0_3)
abbrev tbv (x2 : Vec Ideal S384x4096 .bf16) := k0_pay5 (F := Ideal) (View.ld x2 r0_4)
abbrev W1v (x4 : Vec Ideal S256x256 .bf16) := k0_pay6 (F := Ideal) (View.ld x4 r0_5)
abbrev W2v (x5 : Vec Ideal S256x256 .bf16) := k0_pay7 (F := Ideal) (View.ld x5 r0_5)
abbrev W3v (x6 : Vec Ideal S128x256 .bf16) := k0_pay8 (F := Ideal) (View.ld x6 r0_6)
abbrev B1v (x7 : Vec Ideal S256 .f32) := k0_pay9 (F := Ideal) (View.ld x7 r0_7)
abbrev B2v (x8 : Vec Ideal S256 .f32) := k0_pay10 (F := Ideal) (View.ld x8 r0_7)
abbrev B3v (x9 : Vec Ideal S128 .f32) := k0_pay11 (F := Ideal) (View.ld x9 r0_8)
abbrev wc0v (x10 : Vec Ideal S128x2 .f32) := View.ld x10 r0_2
abbrev wc1v (x10 : Vec Ideal S128x2 .f32) := View.ld x10 r0_3
abbrev imv (x3 : Vec Ideal S128x4096 .bf16) := View.ld x3 r0_9

/-- Offset 0's prediction (128 padded rows) and area. -/
def pred0 (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay21 (F := Ideal) (wc0v x10) (wc1v x10) (phv x1 x11) (W1v x4) (W2v x5) (W3v x6) (B1v x7) (B2v x8) (B3v x9) (k0_pay17 (tbv x2) iov (k0_pay12 (c1v x0)) 63#32 (k0_pay13 (c0v x0))) (k0_pay18 (tbv x2) iov (k0_pay12 (c1v x0)) 63#32 (k0_pay13 (c0v x0))) (k0_pay19 (c0v x0) 63#32 (k0_pay13 (c0v x0))) (k0_pay20 (c1v x0) (k0_pay12 (c1v x0)))
def area0 (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay22 (F := Ideal) (k0_pay19 (c0v x0) 63#32 (k0_pay13 (c0v x0))) (k0_pay20 (c1v x0) (k0_pay12 (c1v x0)))
/-- Offset 1's. -/
def pred1 (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay32 (F := Ideal) (W2v x5) (W3v x6) (B2v x8) (B3v x9) (k0_pay31 (c0v x0) (c1v x0) (wc0v x10) (wc1v x10) (phv x1 x11) (W1v x4) (B1v x7) (k0_pay26 (k0_pay23 (c0v x0))) (k0_pay27 (k0_pay24 (c1v x0)) (Scalar.ofBits .f32 0x3F7FFFEF#32) (k0_pay25 (F := Ideal))) (k0_pay28 (tbv x2) iov (k0_pay23 (c0v x0)) (k0_pay24 (c1v x0)) (Scalar.ofBits .f32 0x3F7FFFEF#32) (k0_pay25 (F := Ideal))))
def area1 (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay33 (F := Ideal) (k0_pay29 (c0v x0) (k0_pay26 (k0_pay23 (c0v x0)))) (k0_pay30 (c1v x0) (k0_pay27 (k0_pay24 (c1v x0)) (Scalar.ofBits .f32 0x3F7FFFEF#32) (k0_pay25 (F := Ideal))))
/-- Offset 2's. -/
def pred2 (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay46 (F := Ideal) (c0v x0) (c1v x0) (wc0v x10) (wc1v x10) (phv x1 x11) (W1v x4) (W2v x5) (W3v x6) (B1v x7) (B2v x8) (B3v x9) (k0_pay39 (tbv x2) iov (k0_pay34 (c0v x0)) (k0_pay35 (c1v x0))) (k0_pay40 (tbv x2) iov (k0_pay34 (c0v x0)) (k0_pay35 (c1v x0))) (k0_pay41 (k0_pay34 (c0v x0))) (k0_pay42 (k0_pay35 (c1v x0))) (k0_pay43 (F := Ideal))
def area2 (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay47 (F := Ideal) (c0v x0) (c1v x0) (k0_pay41 (k0_pay34 (c0v x0))) (k0_pay42 (k0_pay35 (c1v x0))) (k0_pay43 (F := Ideal))
/-- Offset 3's gathered coefficients, its two offsets from the pixel centre, and its two further pieces. -/
def o3coef (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay54 (F := Ideal) (tbv x2) iov (k0_pay49 (k0_pay48 (c0v x0))) (k0_pay50 (c1v x0)) k0_pay51
def o3rel0 (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay55 (F := Ideal) (c0v x0) (k0_pay49 (k0_pay48 (c0v x0)))
def o3rel1 (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay56 (F := Ideal) (c1v x0) (k0_pay50 (c1v x0)) k0_pay51
def o3a (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay57 (F := Ideal) (c0v x0) (c1v x0) (wc0v x10) (wc1v x10) (phv x1 x11) (tbv x2) iov (k0_pay49 (k0_pay48 (c0v x0))) (k0_pay50 (c1v x0)) k0_pay51
def o3b (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay58 (F := Ideal) (c0v x0) (c1v x0) (wc0v x10) (wc1v x10) (phv x1 x11) (tbv x2) iov (k0_pay49 (k0_pay48 (c0v x0))) (k0_pay50 (c1v x0)) k0_pay51
/-- The ensemble over the four offsets (128 padded rows). -/
def retp (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay59 (F := Ideal) (W1v x4) (W2v x5) (W3v x6) (B1v x7) (B2v x8) (B3v x9) (pred0 x0 x1 x2 x3 x4 x5 x6 x7 x8 x9 x10 x11) (area0 x0 x1 x2 x3 x4 x5 x6 x7 x8 x9 x10 x11) (pred1 x0 x1 x2 x3 x4 x5 x6 x7 x8 x9 x10 x11) (area1 x0 x1 x2 x3 x4 x5 x6 x7 x8 x9 x10 x11) (pred2 x0 x1 x2 x3 x4 x5 x6 x7 x8 x9 x10 x11) (area2 x0 x1 x2 x3 x4 x5 x6 x7 x8 x9 x10 x11) (o3coef x0 x1 x2 x3 x4 x5 x6 x7 x8 x9 x10 x11) (o3rel0 x0 x1 x2 x3 x4 x5 x6 x7 x8 x9 x10 x11) (o3rel1 x0 x1 x2 x3 x4 x5 x6 x7 x8 x9 x10 x11) (o3a x0 x1 x2 x3 x4 x5 x6 x7 x8 x9 x10 x11) (o3b x0 x1 x2 x3 x4 x5 x6 x7 x8 x9 x10 x11)
/-- The bilinear sample (128 padded rows). -/
def smp (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) := k0_pay71 (F := Ideal) iov (k0_pay64 (c1v x0)) (k0_pay65 (k0_pay60 (c0v x0))) (k0_pay66 (c1v x0)) (k0_pay67 (k0_pay60 (c0v x0))) (k0_pay68 (c1v x0)) (k0_pay69 (c1v x0) (k0_pay60 (c0v x0))) (k0_pay70 (k0_pay60 (c0v x0))) (imv x3)

/-- The block the frame states is the first three rows of the ensemble plus those of the sample. -/
theorem out0_12_eq (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) :
    out0_12 (F := Ideal) x0 x1 x2 x3 x4 x5 x6 x7 x8 x9 x10 x11 = View.canon [⟨r0_10, k0_pay1 (F := Ideal) (smp x0 x1 x2 x3 x4 x5 x6 x7 x8 x9 x10 x11) (k0_pay72 (F := Ideal) (retp x0 x1 x2 x3 x4 x5 x6 x7 x8 x9 x10 x11))⟩] := rfl

/-- The twelve input blocks are the blocks of the specification's tables at grid point t: the coordinate and cell blocks
    hold columns 512 t … 512 t + 511 transposed, the feature table stacks the coefficient rows over the frequency rows,
    and the image, last-layer weight and last-layer bias blocks hold their three rows first (the padded rows are not read). -/
structure Blocks (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) : Prop where
  crd : ∀ (d : Fin 2) (s : Fin 512), x0 (ix2 d s) = SA.crd (qq t s) d
  cel : ∀ (d : Fin 2) (s : Fin 512), x1 (ix2 d s) = SA.cel (qq t s) d
  coef : ∀ (c : Fin 256) (n : Fin 4096), x2 (ix2 (⟨c.val, by omega⟩ : Fin 384) n) = SA.coef c n
  freq : ∀ (k : Fin 128) (n : Fin 4096), x2 (ix2 (⟨256 + k.val, by omega⟩ : Fin 384) n) = SA.freq k n
  img : ∀ (j : Fin 3) (n : Fin 4096), x3 (ix2 (r3 j) n) = SA.img j n
  w1 : ∀ (d c : Fin 256), x4 (ix2 d c) = SA.w1 d c
  w2 : ∀ (d c : Fin 256), x5 (ix2 d c) = SA.w2 d c
  w3 : ∀ (j : Fin 3) (c : Fin 256), x6 (ix2 (r3 j) c) = SA.w3 j c
  b1 : ∀ d : Fin 256, x7 (ix1 d) = SA.b1 d
  b2 : ∀ d : Fin 256, x8 (ix1 d) = SA.b2 d
  b3 : ∀ j : Fin 3, x9 (ix1 (r3 j)) = SA.b3 j
  wcf : ∀ (k : Fin 128) (d : Fin 2), x10 (ix2 k d) = SA.wcf k d
  wph : ∀ (k : Fin 128) (d : Fin 2), x11 (ix2 k d) = SA.wph k d

end Cert.KernelIdeal.KV

end
-- ==== Proof.KLib.lean ====
/-
  The kernel's layout operations and matrix products read at explicit coordinates: each product against a zero
  accumulator is the plain sum over the contracted index; broadcasts, slices, the row-wise concatenation, the
  column casts, the iota along the table axis, and the loads of the blocks.
-/
import proofs.«148257_j30657476559104_1_alg».proof.Proof.KTerms
import Idealize.ShloMosaic.PureOps.Ideal.Laws
import Idealize.ShloMosaic.Lib.Pipeline.Value

noncomputable section

namespace Cert.KernelIdeal.KV

open Idealize.ShloMosaic Idealize.ShloMosaic.ValueIdx Cert.KernelIdeal Cert.KernelIdeal.Gen

variable {α : Type}

/-- A product of an m x k by a k x n matrix onto the zero accumulator, read at (a, b), is the sum over the contracted
    coordinate of the products of the entries. -/
private theorem mm_plain {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The feature table times a column matrix: the sum over the 4096 table columns. -/
theorem mm_tab (tb : FVec Ideal S384x4096 .bf16) (m : FVec Ideal S4096x512 .bf16) (r : Fin 384) (s : Fin 512) :
    matmul dot_S384x4096_S4096x512_S384x512_1_0_0_1_n_n none tb m (constant S384x512 .f32 0x00000000#32) (ix2 r s)
      = ∑ n : Fin 4096, tb (ix2 r n) * m (ix2 n s) :=
  mm_plain dot_S384x4096_S4096x512_S384x512_1_0_0_1_n_n_wf tb m r s

/-- The image table times a column matrix. -/
theorem mm_img (im : FVec Ideal S128x4096 .bf16) (m : FVec Ideal S4096x512 .bf16) (r : Fin 128) (s : Fin 512) :
    matmul dot_S128x4096_S4096x512_S128x512_1_0_0_1_n_n none im m (constant S128x512 .f32 0x00000000#32) (ix2 r s)
      = ∑ n : Fin 4096, im (ix2 r n) * m (ix2 n s) :=
  mm_plain dot_S128x4096_S4096x512_S128x512_1_0_0_1_n_n_wf im m r s

/-- A 256 x 256 weight matrix times a column matrix. -/
theorem mm_256 (w : FVec Ideal S256x256 .bf16) (x : FVec Ideal S256x512 .bf16) (d : Fin 256) (s : Fin 512) :
    matmul dot_S256x256_S256x512_S256x512_1_0_0_1_n_n none w x (constant S256x512 .f32 0x00000000#32) (ix2 d s)
      = ∑ c : Fin 256, w (ix2 d c) * x (ix2 c s) :=
  mm_plain dot_S256x256_S256x512_S256x512_1_0_0_1_n_n_wf w x d s

/-- The padded last-layer weight matrix times a column matrix. -/
theorem mm_128 (w : FVec Ideal S128x256 .bf16) (x : FVec Ideal S256x512 .bf16) (r : Fin 128) (s : Fin 512) :
    matmul dot_S128x256_S256x512_S128x512_1_0_0_1_n_n none w x (constant S128x512 .f32 0x00000000#32) (ix2 r s)
      = ∑ c : Fin 256, w (ix2 r c) * x (ix2 c s) :=
  mm_plain dot_S128x256_S256x512_S128x512_1_0_0_1_n_n_wf w x r s

/-- The iota along the table axis. -/
theorem iota_at (n : Fin 4096) (s : Fin 512) : iov (ix2 n s) = BitVec.ofNat 32 n.val :=
  iota_single_apply .tc S4096x512 32 0 iota_S4096x512_d0_w32 (ix2 n s)

/-- A row broadcast down 128, 256 or 4096 rows. -/
theorem bc_row128 (v : S1x512.Idx → α) (k : Fin 128) (s : Fin 512) :
    broadcastTo S128x512 v broadcasts_S1x512_S128x512 (ix2 k s) = v (ix2 (0 : Fin 1) s) :=
  broadcastTo_apply v _ _ _ fun a => match a with | ⟨0, _⟩ => rfl | ⟨1, _⟩ => rfl
theorem bc_row4096 (v : S1x512.Idx → α) (n : Fin 4096) (s : Fin 512) :
    broadcastTo S4096x512 v broadcasts_S1x512_S4096x512 (ix2 n s) = v (ix2 (0 : Fin 1) s) :=
  broadcastTo_apply v _ _ _ fun a => match a with | ⟨0, _⟩ => rfl | ⟨1, _⟩ => rfl

/-- A column broadcast across 512 columns. -/
theorem bc_col128 (v : S128x1.Idx → α) (k : Fin 128) (s : Fin 512) :
    broadcastTo S128x512 v broadcasts_S128x1_S128x512 (ix2 k s) = v (ix2 k (0 : Fin 1)) :=
  broadcastTo_apply v _ _ _ fun a => match a with | ⟨0, _⟩ => rfl | ⟨1, _⟩ => rfl
theorem bc_col256 (v : S256x1.Idx → α) (d : Fin 256) (s : Fin 512) :
    broadcastTo S256x512 v broadcasts_S256x1_S256x512 (ix2 d s) = v (ix2 d (0 : Fin 1)) :=
  broadcastTo_apply v _ _ _ fun a => match a with | ⟨0, _⟩ => rfl | ⟨1, _⟩ => rfl

/-- The coefficient rows and the frequency rows of the picked table rows; the first three rows of a padded array. -/
theorem sl_coef (v : S384x512.Idx → α) (c : Fin 256) (s : Fin 512) :
    extractStridedSlice S256x512 ![0, 0] v slices_S384x512_o0_0_S256x512 (ix2 c s) = v (ix2 (⟨c.val, by omega⟩ : Fin 384) s) :=
  extractStridedSlice_apply _ v _ _ _ fun a => match a with
    | ⟨0, _⟩ => (Nat.zero_add _).symm
    | ⟨1, _⟩ => (Nat.zero_add _).symm
theorem sl_freq (v : S384x512.Idx → α) (k : Fin 128) (s : Fin 512) :
    extractStridedSlice S128x512 ![256, 0] v slices_S384x512_o256_0_S128x512 (ix2 k s) = v (ix2 (⟨256 + k.val, by omega⟩ : Fin 384) s) :=
  extractStridedSlice_apply _ v _ _ _ fun a => match a with
    | ⟨0, _⟩ => rfl
    | ⟨1, _⟩ => (Nat.zero_add _).symm
theorem sl_top3 (v : S128x512.Idx → α) (j : Fin 3) (s : Fin 512) :
    extractStridedSlice S3x512 ![0, 0] v slices_S128x512_o0_0_S3x512 (ix2 j s) = v (ix2 (r3 j) s) :=
  extractStridedSlice_apply _ v _ _ _ fun a => match a with
    | ⟨0, _⟩ => (Nat.zero_add _).symm
    | ⟨1, _⟩ => (Nat.zero_add _).symm

/-- The cos rows over the sin rows. -/
theorem cat_rows (a b : S128x512.Idx → α) (c : Fin 256) (s : Fin 512) :
    concatenate S256x512 0 [⟨S128x512, a⟩, ⟨S128x512, b⟩] concatenates_S128x512_S128x512_S256x512_d0 (ix2 c s)
      = if h : c.val < 128 then a (ix2 (⟨c.val, h⟩ : Fin 128) s) else b (ix2 (⟨c.val - 128, by omega⟩ : Fin 128) s) := by
  split
  · next h =>
    exact concatenate_pair_apply_left (t := S256x512) 0 a b concatenates_S128x512_S128x512_S256x512_d0 (ix2 c s) rfl
      (ix2 (⟨c.val, h⟩ : Fin 128) s) fun bb => match bb with
      | ⟨0, _⟩ => rfl
      | ⟨1, _⟩ => rfl
  · next h =>
    exact concatenate_pair_apply_right (t := S256x512) 0 a b concatenates_S128x512_S128x512_S256x512_d0 (ix2 c s) rfl rfl
      (ix2 (⟨c.val - 128, by omega⟩ : Fin 128) s)
      (fun bb hb => match bb, hb with
        | ⟨0, _⟩, hb => absurd rfl hb
        | ⟨1, _⟩, _ => rfl)
      (by show c.val - 128 + 128 = c.val; omega)

/-- A vector as a column. -/
theorem col256 (v : S256.Idx → α) (d : Fin 256) : shapeCast S256x1 v shapeCasts_S256_S256x1 (ix2 d (0 : Fin 1)) = v (ix1 d) :=
  shapeCast_apply v _ _ _ (by
    rw [Shape.rowMajor_val_one, Shape.rowMajor_val_two]
    show d.val = d.val * 1 + 0
    omega)
theorem col128 (v : S128.Idx → α) (r : Fin 128) : shapeCast S128x1 v shapeCasts_S128_S128x1 (ix2 r (0 : Fin 1)) = v (ix1 r) :=
  shapeCast_apply v _ _ _ (by
    rw [Shape.rowMajor_val_one, Shape.rowMajor_val_two]
    show r.val = r.val * 1 + 0
    omega)

/-- The loads: a row of a two-row block, a column of a two-column block, a whole block. -/
theorem ld_row0 (x : Vec Ideal S2x512 .f32) (s : Fin 512) : View.ld x r0_0 (ix2 (0 : Fin 1) s) = x (ix2 (0 : Fin 2) s) :=
  congrArg x (funext fun a => Fin.ext (match a with
    | ⟨0, _⟩ => rfl
    | ⟨1, _⟩ => by show 0 + 1 * s.val = s.val; omega))
theorem ld_row1 (x : Vec Ideal S2x512 .f32) (s : Fin 512) : View.ld x r0_1 (ix2 (0 : Fin 1) s) = x (ix2 (1 : Fin 2) s) :=
  congrArg x (funext fun a => Fin.ext (match a with
    | ⟨0, _⟩ => rfl
    | ⟨1, _⟩ => by show 0 + 1 * s.val = s.val; omega))
theorem ld_col0 (x : Vec Ideal S128x2 .f32) (k : Fin 128) : View.ld x r0_2 (ix2 k (0 : Fin 1)) = x (ix2 k (0 : Fin 2)) :=
  congrArg x (funext fun a => Fin.ext (match a with
    | ⟨0, _⟩ => by show 0 + 1 * k.val = k.val; omega
    | ⟨1, _⟩ => rfl))
theorem ld_col1 (x : Vec Ideal S128x2 .f32) (k : Fin 128) : View.ld x r0_3 (ix2 k (0 : Fin 1)) = x (ix2 k (1 : Fin 2)) :=
  congrArg x (funext fun a => Fin.ext (match a with
    | ⟨0, _⟩ => by show 0 + 1 * k.val = k.val; omega
    | ⟨1, _⟩ => rfl))
theorem ld_tab (x : Vec Ideal S384x4096 .bf16) : View.ld x r0_4 = x :=
  View.ld_unit_zero (by funext a; fin_cases a <;> rfl) _ x
theorem ld_w256 (x : Vec Ideal S256x256 .bf16) : View.ld x r0_5 = x :=
  View.ld_unit_zero (by funext a; fin_cases a <;> rfl) _ x
theorem ld_w128 (x : Vec Ideal S128x256 .bf16) : View.ld x r0_6 = x :=
  View.ld_unit_zero (by funext a; fin_cases a <;> rfl) _ x
theorem ld_b256 (x : Vec Ideal S256 .f32) : View.ld x r0_7 = x :=
  View.ld_unit_zero (by funext a; fin_cases a <;> rfl) _ x
theorem ld_b128 (x : Vec Ideal S128 .f32) : View.ld x r0_8 = x :=
  View.ld_unit_zero (by funext a; fin_cases a <;> rfl) _ x
theorem ld_img (x : Vec Ideal S128x4096 .bf16) : View.ld x r0_9 = x :=
  View.ld_unit_zero (by funext a; fin_cases a <;> rfl) _ x

end Cert.KernelIdeal.KV

end
-- ==== Proof.MathW.lean ====
/-
  Facts about words and float words: a word clamped into [0, 63] and the flat pixel number of two such words are in
  range; the floor of an extended real in [0, 63] is such a word; the float words read as the reals they spell; the
  shift 1/64 +- eps as a rational; the clipped pixel coordinate and its fractional part.
-/
import proofs.«148257_j30657476559104_1_alg».proof.Proof.Spec
import Mathlib.Data.EReal.Operations

noncomputable section

namespace Cert.Math

open Idealize.ShloMosaic Cert.Spec

/-- A clamped word is in [0, 63]. -/
theorem clampI_range (v : BitVec 32) : 0 ≤ (clampI v).toInt ∧ (clampI v).toInt ≤ 63 := by
  have h63 : (63#32 : BitVec 32).toInt = 63 := by decide
  have h0 : (0#32 : BitVec 32).toInt = 0 := by decide
  unfold clampI IntOp.minsi IntOp.maxsi
  simp only [BitVec.slt, decide_eq_true_eq]
  split_ifs with h1 h2 h3 <;> simp only [h63, h0] at * <;> omega

/-- The flat number of two in-range words is in range, non-negative as a signed word, and is 64 a + b. -/
theorem flat_range (a b : BitVec 32) (ha : 0 ≤ a.toInt ∧ a.toInt ≤ 63) (hb : 0 ≤ b.toInt ∧ b.toInt ≤ 63) :
    (flat a b).toNat < 4096 ∧ 0 ≤ (flat a b).toInt ∧ (flat a b).toNat = 64 * a.toNat + b.toNat := by
  have ha' : a.toNat ≤ 63 := by
    have := BitVec.toInt_eq_toNat_cond a
    have := a.isLt
    omega
  have hb' : b.toNat ≤ 63 := by
    have := BitVec.toInt_eq_toNat_cond b
    have := b.isLt
    omega
  have hn : (flat a b).toNat = 64 * a.toNat + b.toNat := by
    unfold flat IntOp.addi IntOp.muli
    rw [BitVec.toNat_add, BitVec.toNat_mul]
    simp only [BitVec.toNat_ofNat]
    omega
  refine ⟨by omega, ?_, hn⟩
  have := BitVec.toInt_eq_toNat_cond (flat a b)
  omega

/-- An extended real in [0, 63] is a real number in [0, 63]. -/
private theorem real_of_range (x : EReal) (h0 : 0 ≤ x) (h1 : x ≤ ((63 : ℝ) : EReal)) :
    ∃ r : ℝ, x = (r : EReal) ∧ 0 ≤ r ∧ r ≤ 63 := by
  induction x using EReal.rec with
  | bot => exact absurd h0 (by simp)
  | top => exact absurd h1 (by simp)
  | coe r => exact ⟨r, rfl, EReal.coe_nonneg.mp h0, EReal.coe_le_coe_iff.mp h1⟩

/-- For a real r in [0, 63] the word of its floor spells the integer floor of r: the floor lies between the two ends of
    the signed 32-bit range, so neither the clamp nor the reduction modulo 2^32 changes it. -/
private theorem floorI_coe (r : ℝ) (h0 : 0 ≤ r) (h1 : r ≤ 63) : (floorI (r : EReal)).toInt = ⌊r⌋ := by
  have hf0 : 0 ≤ ⌊r⌋ := Int.floor_nonneg.mpr h0
  have hf1 : ⌊r⌋ ≤ 63 := by
    have : ⌊r⌋ ≤ ⌊(63 : ℝ)⌋ := Int.floor_le_floor h1
    simpa using this
  have hc : (0 : ℝ) ≤ ((⌊r⌋ : ℤ) : ℝ) := by exact_mod_cast hf0
  unfold floorI Ideal.fptosi
  rw [Ideal.liftRound_coe, Ideal.toIntClamped_coe, if_pos hc, Int.floor_intCast, BitVec.toInt_ofInt]
  norm_num
  have e1 : min (2147483647 : ℤ) ⌊r⌋ = ⌊r⌋ := min_eq_right (by omega)
  have e2 : max (-2147483648 : ℤ) ⌊r⌋ = ⌊r⌋ := max_eq_right (by omega)
  rw [e1, e2, Int.bmod_def]
  omega

/-- The word of the floor of an extended real in [0, 63] is in [0, 63]. -/
theorem floorI_range (x : EReal) (h0 : 0 ≤ x) (h1 : x ≤ ((63 : ℝ) : EReal)) :
    0 ≤ (floorI x).toInt ∧ (floorI x).toInt ≤ 63 := by
  obtain ⟨r, rfl, hr0, hr1⟩ := real_of_range x h0 h1
  rw [floorI_coe r hr0 hr1]
  refine ⟨Int.floor_nonneg.mpr hr0, ?_⟩
  have : ⌊r⌋ ≤ ⌊(63 : ℝ)⌋ := Int.floor_le_floor hr1
  simpa using this

theorem w32_zero : w32 0x00000000#32 = 0 := by simp [Ideal.ofBits, Ideal.ieee]
theorem w32_one : w32 0x3F800000#32 = ((1 : ℝ) : EReal) := by
  simp [Ideal.ofBits, Ideal.ieee, -EReal.coe_mul]; norm_num
theorem w32_neg_one : w32 0xBF800000#32 = ((-1 : ℝ) : EReal) := by
  simp [Ideal.ofBits, Ideal.ieee, -EReal.coe_mul, -EReal.coe_neg]; norm_num
theorem w32_two : w32 0x40000000#32 = ((2 : ℝ) : EReal) := by
  simp [Ideal.ofBits, Ideal.ieee, -EReal.coe_mul]; norm_num
theorem w32_half : w32 0x3F000000#32 = ((1 / 2 : ℝ) : EReal) := by
  simp [Ideal.ofBits, Ideal.ieee, -EReal.coe_mul]; norm_num
theorem w32_64 : w32 0x42800000#32 = ((64 : ℝ) : EReal) := by
  simp [Ideal.ofBits, Ideal.ieee, -EReal.coe_mul]; norm_num
theorem w32_63 : w32 0x427C0000#32 = ((63 : ℝ) : EReal) := by
  simp [Ideal.ofBits, Ideal.ieee, -EReal.coe_mul]; norm_num
theorem w32_inv64 : w32 0x3C800000#32 = ((1 / 64 : ℝ) : EReal) := by
  simp [Ideal.ofBits, Ideal.ieee, -EReal.coe_mul]; norm_num
theorem w32_eps : w32 0x358637BD#32 = ((8796093 / 8796093022208 : ℝ) : EReal) := by
  simp [Ideal.ofBits, Ideal.ieee, -EReal.coe_mul]; norm_num

/-- Halving by a product with 1/2 is halving by the quotient by 2. -/
theorem mul_half (x : EReal) : x * w32 0x3F000000#32 = Ideal.div x (w32 0x40000000#32) := by
  rw [w32_half, w32_two, Ideal.div_coe (by norm_num : (2 : ℝ) ≠ 0)]

/-- The shift with sign -1 is the rational -1/64 + 8796093 / 2^43. -/
theorem shift_neg (o : Fin 4) (d : Fin 2) (h : sgn o d = w32 0xBF800000#32) :
    shift o d = ((-137430157379 / 8796093022208 : ℝ) : EReal) := by
  unfold shift
  rw [h, w32_neg_one, w32_inv64, w32_eps, ← EReal.coe_mul, ← EReal.coe_add]
  congr 1
  norm_num

/-- The shift with sign +1 is the rational 1/64 + 8796093 / 2^43. -/
theorem shift_pos (o : Fin 4) (d : Fin 2) (h : sgn o d = w32 0x3F800000#32) :
    shift o d = ((137447749565 / 8796093022208 : ℝ) : EReal) := by
  unfold shift
  rw [h, w32_one, w32_inv64, w32_eps, ← EReal.coe_mul, ← EReal.coe_add]
  congr 1
  norm_num

/-- The clipped pixel coordinate is in [0, 63], whatever the coordinate. -/
theorem gp_range (A : Args) (q : Fin 65536) (d : Fin 2) : 0 ≤ gp A q d ∧ gp A q d ≤ ((63 : ℝ) : EReal) := by
  unfold gp
  rw [w32_63, w32_zero]
  refine ⟨le_min ?_ (le_max_left _ _), min_le_left _ _⟩
  exact EReal.coe_nonneg.mpr (by norm_num)

/-- The fractional part is a real number. -/
theorem fr_real (A : Args) (q : Fin 65536) (d : Fin 2) : ∃ r : ℝ, fr A q d = (r : EReal) := by
  obtain ⟨h0, h1⟩ := gp_range A q d
  obtain ⟨r, hr, -, -⟩ := real_of_range _ h0 h1
  refine ⟨r - (((lo A q d).toInt : ℤ) : ℝ), ?_⟩
  unfold fr ofI
  rw [hr, EReal.coe_sub]

end Cert.Math

end
-- ==== Proof.MathS.lean ====
/-
  A sum against a one-hot column picks one entry (no finiteness needed: 0 * x = 0 on the extended reals); a sum against
  a four-term weighted sum of one-hot columns is the weighted sum of the picked entries, for real entries and weights.
-/
import proofs.«148257_j30657476559104_1_alg».proof.Proof.Spec
import Mathlib.Algebra.BigOperators.Fin
import Mathlib.Data.EReal.Operations

noncomputable section

namespace Cert.Math

open Idealize.ShloMosaic Cert.Spec

/-- The one-hot entry: 1 where the two words agree, else 0 (a one-bit comparison widened to a word and read as a float). -/
def oh (a b : BitVec 32) : EReal := FloatOps.sitofp (F := Ideal) .f32 ((IntOp.cmpi .eq a b).setWidth 32)

theorem oh_eq (a b : BitVec 32) : oh a b = if a = b then 1 else 0 := by
  show ((((IntOp.cmpi .eq a b).setWidth 32).toInt : ℝ) : EReal) = _
  by_cases h : a = b
  · subst h
    have : ((IntOp.cmpi .eq a a).setWidth 32) = 1#32 := by
      simp [IntOp.cmpi]
    rw [this]
    simp
  · have hb : (a == b) = false := beq_eq_false_iff_ne.2 h
    have : ((IntOp.cmpi .eq a b).setWidth 32) = 0#32 := by
      simp [IntOp.cmpi, hb]
    rw [this]
    simp [h]

/-- For a row number below 4096, the word of the row number is v exactly at the row v names. -/
private theorem ofNat_eq_iff (v : BitVec 32) (hv : v.toNat < 4096) (n : Fin 4096) :
    BitVec.ofNat 32 n.val = v ↔ n = (⟨v.toNat, hv⟩ : Fin 4096) := by
  constructor
  · intro h
    apply Fin.ext
    have := congrArg BitVec.toNat h
    rw [BitVec.toNat_ofNat, Nat.mod_eq_of_lt (by have := n.isLt; omega)] at this
    exact this
  · intro h
    subst h
    apply BitVec.eq_of_toNat_eq
    rw [BitVec.toNat_ofNat]
    exact Nat.mod_eq_of_lt v.isLt

private theorem row_eq (v : BitVec 32) (hv : v.toNat < 4096) : row v = (⟨v.toNat, hv⟩ : Fin 4096) :=
  Fin.ext (Nat.mod_eq_of_lt hv)

/-- A sum against a one-hot column is the entry the column marks (no finiteness needed: 0 * x = 0 on the extended reals). -/
theorem sum_onehot (t : Fin 4096 → EReal) (v : BitVec 32) (hv : v.toNat < 4096) :
    ∑ n : Fin 4096, t n * oh (BitVec.ofNat 32 n.val) v = t (row v) := by
  rw [row_eq v hv, Finset.sum_eq_single (⟨v.toNat, hv⟩ : Fin 4096)]
  · rw [oh_eq, if_pos ((ofNat_eq_iff v hv _).2 rfl), mul_one]
  · intro n _ hn
    rw [oh_eq, if_neg (fun h => hn ((ofNat_eq_iff v hv n).1 h)), mul_zero]
  · intro h
    exact absurd (Finset.mem_univ _) h

/-- The real form of the one-hot sum, with a real weight carried along. -/
private theorem sum_pick_real (f : Fin 4096 → ℝ) (v : BitVec 32) (hv : v.toNat < 4096) (r : ℝ) :
    ∑ n : Fin 4096, f n * ((if BitVec.ofNat 32 n.val = v then (1 : ℝ) else 0) * r) = f (row v) * r := by
  rw [row_eq v hv, Finset.sum_eq_single (⟨v.toNat, hv⟩ : Fin 4096)]
  · rw [if_pos ((ofNat_eq_iff v hv _).2 rfl), one_mul]
  · intro n _ hn
    rw [if_neg (fun h => hn ((ofNat_eq_iff v hv n).1 h)), zero_mul, mul_zero]
  · intro h
    exact absurd (Finset.mem_univ _) h

/-- The inclusion of the reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The one-hot entry as the inclusion of a real. -/
private theorem oh_coe (a b : BitVec 32) : oh a b = (((if a = b then (1 : ℝ) else 0) : ℝ) : EReal) := by
  rw [oh_eq]; split <;> simp

/-- A sum against a column that is a four-term weighted sum of one-hot columns (two of which may coincide) is the
    four-term weighted sum of the picked entries, when the entries and the weights are real. -/
theorem sum_onehot4 (I : Fin 4096 → EReal) (hI : ∀ n, ∃ r : ℝ, I n = (r : EReal))
    (l0 l1 l2 l3 : BitVec 32) (h0 : l0.toNat < 4096) (h1 : l1.toNat < 4096) (h2 : l2.toNat < 4096) (h3 : l3.toNat < 4096)
    (a b c d : EReal) (ha : ∃ r : ℝ, a = (r : EReal)) (hb : ∃ r : ℝ, b = (r : EReal)) (hc : ∃ r : ℝ, c = (r : EReal))
    (hd : ∃ r : ℝ, d = (r : EReal)) :
    ∑ n : Fin 4096, I n * (oh (BitVec.ofNat 32 n.val) l0 * a + oh (BitVec.ofNat 32 n.val) l1 * b
        + oh (BitVec.ofNat 32 n.val) l2 * c + oh (BitVec.ofNat 32 n.val) l3 * d)
      = I (row l0) * a + I (row l1) * b + I (row l2) * c + I (row l3) * d := by
  choose f hf using hI
  obtain ⟨ra, rfl⟩ := ha
  obtain ⟨rb, rfl⟩ := hb
  obtain ⟨rc, rfl⟩ := hc
  obtain ⟨rd, rfl⟩ := hd
  have hterm : ∀ n : Fin 4096,
      I n * (oh (BitVec.ofNat 32 n.val) l0 * (ra : EReal) + oh (BitVec.ofNat 32 n.val) l1 * (rb : EReal)
        + oh (BitVec.ofNat 32 n.val) l2 * (rc : EReal) + oh (BitVec.ofNat 32 n.val) l3 * (rd : EReal))
      = ((f n * ((if BitVec.ofNat 32 n.val = l0 then (1 : ℝ) else 0) * ra)
          + f n * ((if BitVec.ofNat 32 n.val = l1 then (1 : ℝ) else 0) * rb)
          + f n * ((if BitVec.ofNat 32 n.val = l2 then (1 : ℝ) else 0) * rc)
          + f n * ((if BitVec.ofNat 32 n.val = l3 then (1 : ℝ) else 0) * rd) : ℝ) : EReal) := by
    intro n
    rw [hf n, oh_coe, oh_coe, oh_coe, oh_coe, ← EReal.coe_mul, ← EReal.coe_mul, ← EReal.coe_mul, ← EReal.coe_mul,
      ← EReal.coe_add, ← EReal.coe_add, ← EReal.coe_add, ← EReal.coe_mul, mul_add, mul_add, mul_add]
  rw [Finset.sum_congr rfl (fun n _ => hterm n), ← coe_sum, Finset.sum_add_distrib, Finset.sum_add_distrib,
    Finset.sum_add_distrib, sum_pick_real f l0 h0, sum_pick_real f l1 h1, sum_pick_real f l2 h2, sum_pick_real f l3 h3,
    hf, hf, hf, hf, EReal.coe_add, EReal.coe_add, EReal.coe_add, EReal.coe_mul, EReal.coe_mul, EReal.coe_mul, EReal.coe_mul]

end Cert.Math

end
-- ==== Proof.K0.lean ====
/-
  Offset 0 of the kernel's block read at an index: the shifted, clipped coordinates, the nearest pixel, the one-hot
  product with the feature table (a pick of one row), the Fourier features and the perceptron: the prediction and the area.
-/
import proofs.«148257_j30657476559104_1_alg».proof.Proof.KTerms
import proofs.«148257_j30657476559104_1_alg».proof.Proof.KLib
import proofs.«148257_j30657476559104_1_alg».proof.Proof.MathW
import proofs.«148257_j30657476559104_1_alg».proof.Proof.MathS
import Idealize.ShloMosaic.PureOps.IdealRules
import Idealize.ShloMosaic.Lib.Pipeline.Value

noncomputable section

namespace Cert.KernelIdeal.KV

open Idealize.ShloMosaic Idealize.ShloMosaic.ValueIdx Cert.KernelIdeal Cert.KernelIdeal.Gen
open Cert.Spec (w32)

/-! ## Words and scalars -/

/-- The kernel's named shift is the rational -1/64 + eps. -/
private theorem named_neg :
    Named.named (F := Ideal) Cert.KernelIdeal.κ "shift_neg" (φ := .f32) 0xBC7FFBCE#32 = ((-137430157379 / 8796093022208 : ℝ) : EReal) :=
  IdealRules.named_const.ideal_named_scalar _ _ _ _ rfl

/-- Offset 0 shifts both axes by -1/64 + eps. -/
private theorem shift0 (d : Fin 2) :
    Spec.shift 0 d = Named.named (F := Ideal) Cert.KernelIdeal.κ "shift_neg" (φ := .f32) 0xBC7FFBCE#32 := by
  rw [named_neg]
  exact Math.shift_neg 0 d (by fin_cases d <;> simp [Spec.sgn])

/-- The pixel coordinate with the halving written as a product. -/
private theorem pix_eq (c : EReal) :
    Spec.pix c = ((c + w32 0x3F800000#32) * w32 0x42800000#32 - w32 0x3F800000#32) * w32 0x3F000000#32 :=
  (Math.mul_half _).symm

private theorem sc_zero : Scalar.ofBits (F := Ideal) .f32 0x00000000#32 = 0 := Math.w32_zero

/-! ## The coordinate payloads at an index -/

/-- The column coordinate shifted, clipped, as a pixel coordinate. -/
private theorem pay12_at (v : FVec Ideal S1x512 .f32) (i : S1x512.Idx) :
    k0_pay12 (F := Ideal) v i = Spec.pix (Spec.clipc (v i + Spec.shift 0 1)) := by
  rw [shift0, pix_eq]
  rfl

/-- The row pixel before the upper clamp. -/
private theorem pay13_at (v : FVec Ideal S1x512 .f32) (i : S1x512.Idx) :
    k0_pay13 (F := Ideal) v i
      = IntOp.maxsi 0#32 (Spec.floorI (Spec.pix (Spec.clipc (v i + Spec.shift 0 0)) + w32 0x3F000000#32)) := by
  rw [shift0, pix_eq]
  rfl

private theorem pay14_at (v : IVec S1x512 32) (i : S1x512.Idx) : k0_pay14 63#32 v i = IntOp.minsi 63#32 (v i) := rfl

private theorem pay15_at (g : FVec Ideal S1x512 .f32) (i : S1x512.Idx) :
    k0_pay15 (F := Ideal) g i = Spec.clampI (Spec.floorI (g i + w32 0x3F000000#32)) := rfl

/-- The offset of the row coordinate from the picked pixel's centre, in pixels. -/
private theorem pay19_at (v : FVec Ideal S1x512 .f32) (yv : IVec S1x512 32) (i : S1x512.Idx) :
    k0_pay19 (F := Ideal) v 63#32 yv i
      = (v i - Spec.pcen (IntOp.minsi 63#32 (yv i))) * w32 0x42800000#32 := rfl

/-- The offset of the column coordinate from the picked pixel's centre, in pixels. -/
private theorem pay20_at (v g : FVec Ideal S1x512 .f32) (i : S1x512.Idx) :
    k0_pay20 (F := Ideal) v g i
      = (v i - Spec.pcen (Spec.clampI (Spec.floorI (g i + w32 0x3F000000#32)))) * w32 0x42800000#32 := rfl

/-- The area term. -/
private theorem pay22_at (a b : FVec Ideal S1x512 .f32) (i : S1x512.Idx) :
    k0_pay22 (F := Ideal) a b i = FloatOps.absf (F := Ideal) (φ := .f32) (a i * b i) + w32 0x3089705F#32 := rfl

/-! ## The one-hot product with the feature table -/

/-- The product of the table with the one-hot matrix of the flat pixel number picks that column of the table. -/
private theorem pay16_at (tb : FVec Ideal S384x4096 .bf16) (g : FVec Ideal S1x512 .f32) (yv : IVec S1x512 32)
    (r : Fin 384) (s : Fin 512) (a : BitVec 32) (hy : yv (ix2 (0 : Fin 1) s) = IntOp.maxsi 0#32 a) :
    k0_pay16 (F := Ideal) tb iov g 63#32 yv (ix2 r s)
      = tb (ix2 r (Spec.row (Spec.flat (Spec.clampI a)
          (Spec.clampI (Spec.floorI (g (ix2 (0 : Fin 1) s) + w32 0x3F000000#32)))))) := by
  have hl : ∀ n : Fin 4096,
      truncf .bf16 (sitofp (F := Ideal) .f32 (extui 32 (cmpi .eq iov
          (broadcastTo S4096x512 (addi (muli (k0_pay14 63#32 yv) (broadcast S1x512 64#32)) (k0_pay15 (F := Ideal) g))
            broadcasts_S1x512_S4096x512)) natLt_1_32)) bitsLt_bf16_f32 (ix2 n s)
        = Math.oh (BitVec.ofNat 32 n.val) (Spec.flat (Spec.clampI a)
            (Spec.clampI (Spec.floorI (g (ix2 (0 : Fin 1) s) + w32 0x3F000000#32)))) := by
    intro n
    show Math.oh (iov (ix2 n s)) (broadcastTo S4096x512 _ broadcasts_S1x512_S4096x512 (ix2 n s)) = _
    rw [iota_at, bc_row4096]
    show Math.oh _ (Spec.flat (IntOp.minsi 63#32 (yv (ix2 (0 : Fin 1) s))) _) = _
    rw [hy]
    rfl
  simp only [k0_pay16]
  rw [mm_tab]
  simp only [hl]
  exact Math.sum_onehot (fun n => tb (ix2 r n)) _
    (Math.flat_range _ _ (Math.clampI_range _) (Math.clampI_range _)).1

/-! ## Cosine and sine at an index -/

private theorem cos_at {s : Shape} {φ : FTy} (a : FVec Ideal s φ) (i : s.Idx) : cos a i = Ideal.cos (a i) := rfl
private theorem sin_at {s : Shape} {φ : FTy} (a : FVec Ideal s φ) (i : s.Idx) : sin a i = Ideal.sin (a i) := rfl

/-! ## The phase part -/

/-- The phase part at channel k, column s: the linear form of the cell size in pixels. -/
private theorem pay4_at (c0 c1 : Vec Ideal S1x512 .f32) (p0 p1 : Vec Ideal S128x1 .f32) (k : Fin 128) (s : Fin 512) :
    k0_pay4 (F := Ideal) c0 c1 p0 p1 (ix2 k s)
      = p0 (ix2 k (0 : Fin 1)) * (c0 (ix2 (0 : Fin 1) s) * w32 0x42800000#32)
        + p1 (ix2 k (0 : Fin 1)) * (c1 (ix2 (0 : Fin 1) s) * w32 0x42800000#32) := by
  simp only [k0_pay4, addf_apply, mulf_apply, bc_col128, bc_row128, shapeCast_self, broadcast_apply]
  rfl

/-! ## The Fourier features and the perceptron -/

/-- The perceptron's output at channel j, column s, from what its inputs are at column s. -/
private theorem pay21_at (SA : Spec.Args) (o : Fin 4) (q : Fin 65536) (s : Fin 512)
    (wc0 wc1 : Vec Ideal S128x1 .f32) (ph : FVec Ideal S128x512 .f32) (W1 W2 : FVec Ideal S256x256 .bf16)
    (W3 : FVec Ideal S128x256 .bf16) (B1 B2 : FVec Ideal S256x1 .f32) (B3 : FVec Ideal S128x1 .f32)
    (co : FVec Ideal S256x512 .f32) (fq : FVec Ideal S128x512 .f32) (ra rb : FVec Ideal S1x512 .f32)
    (hwc0 : ∀ k : Fin 128, wc0 (ix2 k (0 : Fin 1)) = SA.wcf k 0)
    (hwc1 : ∀ k : Fin 128, wc1 (ix2 k (0 : Fin 1)) = SA.wcf k 1)
    (hph : ∀ k : Fin 128, ph (ix2 k s) = Spec.php SA q k)
    (hW1 : ∀ d c : Fin 256, W1 (ix2 d c) = SA.w1 d c) (hW2 : ∀ d c : Fin 256, W2 (ix2 d c) = SA.w2 d c)
    (hW3 : ∀ (j : Fin 3) (c : Fin 256), W3 (ix2 (r3 j) c) = SA.w3 j c)
    (hB1 : ∀ d : Fin 256, B1 (ix2 d (0 : Fin 1)) = SA.b1 d) (hB2 : ∀ d : Fin 256, B2 (ix2 d (0 : Fin 1)) = SA.b2 d)
    (hB3 : ∀ j : Fin 3, B3 (ix2 (r3 j) (0 : Fin 1)) = SA.b3 j)
    (hco : ∀ c : Fin 256, co (ix2 c s) = SA.coef c (Spec.row (Spec.lin SA o q)))
    (hfq : ∀ k : Fin 128, fq (ix2 k s) = SA.freq k (Spec.row (Spec.lin SA o q)))
    (hra : ra (ix2 (0 : Fin 1) s) = Spec.rel SA o q 0) (hrb : rb (ix2 (0 : Fin 1) s) = Spec.rel SA o q 1) (j : Fin 3) :
    k0_pay21 (F := Ideal) wc0 wc1 ph W1 W2 W3 B1 B2 B3 co fq ra rb (ix2 (r3 j) s) = Spec.pred SA o q j := by
  simp only [k0_pay21, addf_apply, mulf_apply, maximumf_apply, truncf_apply, broadcast_apply, cos_at, sin_at,
    mm_128, mm_256, bc_col128, bc_col256, bc_row128, cat_rows,
    hwc0, hwc1, hph, hW1, hW2, hW3, hB1, hB2, hB3, hco, hfq, hra, hrb, sc_zero]
  simp only [Spec.pred, Spec.h2, Spec.h1, Spec.x0, Spec.feat, Spec.zf, Spec.cfc]
  rfl

/-! ## The resident tables read at an index -/

/-- A cast to the same shape reads the operand. -/
private theorem cast_id {s : Shape} {α : Type} (v : s.Idx → α) (h : s.ShapeCasts s) (i : s.Idx) :
    shapeCast s v h i = v i := by
  rw [shapeCast_self]

private theorem tbv_at (x2 : Vec Ideal S384x4096 .bf16) (i : S384x4096.Idx) : tbv x2 i = x2 i :=
  (cast_id (s := S384x4096) (View.ld x2 r0_4) shapeCasts_S384x4096_S384x4096 i).trans (congrFun (ld_tab x2) i)

private theorem W1v_at (x4 : Vec Ideal S256x256 .bf16) (i : S256x256.Idx) : W1v x4 i = x4 i :=
  (cast_id (s := S256x256) (View.ld x4 r0_5) shapeCasts_S256x256_S256x256 i).trans (congrFun (ld_w256 x4) i)

private theorem W2v_at (x5 : Vec Ideal S256x256 .bf16) (i : S256x256.Idx) : W2v x5 i = x5 i :=
  (cast_id (s := S256x256) (View.ld x5 r0_5) shapeCasts_S256x256_S256x256 i).trans (congrFun (ld_w256 x5) i)

private theorem W3v_at (x6 : Vec Ideal S128x256 .bf16) (i : S128x256.Idx) : W3v x6 i = x6 i :=
  (cast_id (s := S128x256) (View.ld x6 r0_6) shapeCasts_S128x256_S128x256 i).trans (congrFun (ld_w128 x6) i)

private theorem B1v_at (x7 : Vec Ideal S256 .f32) (d : Fin 256) : B1v x7 (ix2 d (0 : Fin 1)) = x7 (ix1 d) := by
  show shapeCast S256x1 (View.ld x7 r0_7) shapeCasts_S256_S256x1 (ix2 d (0 : Fin 1)) = _
  rw [col256, ld_b256]

private theorem B2v_at (x8 : Vec Ideal S256 .f32) (d : Fin 256) : B2v x8 (ix2 d (0 : Fin 1)) = x8 (ix1 d) := by
  show shapeCast S256x1 (View.ld x8 r0_7) shapeCasts_S256_S256x1 (ix2 d (0 : Fin 1)) = _
  rw [col256, ld_b256]

private theorem B3v_at (x9 : Vec Ideal S128 .f32) (r : Fin 128) : B3v x9 (ix2 r (0 : Fin 1)) = x9 (ix1 r) := by
  show shapeCast S128x1 (shapeCast S128 (View.ld x9 r0_8) shapeCasts_S128_S128) shapeCasts_S128_S128x1 (ix2 r (0 : Fin 1)) = _
  rw [col128]
  exact (cast_id (s := S128) (View.ld x9 r0_8) shapeCasts_S128_S128 (ix1 r)).trans (congrFun (ld_b128 x9) (ix1 r))

private theorem c0v_at (x0 : Vec Ideal S2x512 .f32) (s : Fin 512) :
    c0v x0 (ix2 (0 : Fin 1) s) = x0 (ix2 (0 : Fin 2) s) :=
  (cast_id (s := S1x512) (View.ld x0 r0_0) shapeCasts_S1x512_S1x512 (ix2 (0 : Fin 1) s)).trans (ld_row0 x0 s)

private theorem c1v_at (x0 : Vec Ideal S2x512 .f32) (s : Fin 512) :
    c1v x0 (ix2 (0 : Fin 1) s) = x0 (ix2 (1 : Fin 2) s) :=
  (cast_id (s := S1x512) (View.ld x0 r0_1) shapeCasts_S1x512_S1x512 (ix2 (0 : Fin 1) s)).trans (ld_row1 x0 s)

/-! ## Offset 0's pieces at column s -/

section Pieces

variable {SA : Spec.Args} {t : Fin 128} {x0 : Vec Ideal S2x512 .f32} {x1 : Vec Ideal S2x512 .f32}
  {x2 : Vec Ideal S384x4096 .bf16} {x3 : Vec Ideal S128x4096 .bf16} {x4 : Vec Ideal S256x256 .bf16}
  {x5 : Vec Ideal S256x256 .bf16} {x6 : Vec Ideal S128x256 .bf16} {x7 : Vec Ideal S256 .f32} {x8 : Vec Ideal S256 .f32}
  {x9 : Vec Ideal S128 .f32} {x10 : Vec Ideal S128x2 .f32} {x11 : Vec Ideal S128x2 .f32}

/-- The row pixel before the upper clamp is the lower clamp of the specification's floor. -/
private theorem iyp_eq (hB : Blocks SA t x0 x1 x2 x3 x4 x5 x6 x7 x8 x9 x10 x11) (s : Fin 512) :
    k0_pay13 (F := Ideal) (c0v x0) (ix2 (0 : Fin 1) s)
      = IntOp.maxsi 0#32 (Spec.floorI (Spec.pix (Spec.cq SA 0 (qq t s) 0) + w32 0x3F000000#32)) := by
  rw [pay13_at, c0v_at, hB.crd]
  rfl

/-- The column pixel coordinate is the specification's. -/
private theorem gx_eq (hB : Blocks SA t x0 x1 x2 x3 x4 x5 x6 x7 x8 x9 x10 x11) (s : Fin 512) :
    k0_pay12 (F := Ideal) (c1v x0) (ix2 (0 : Fin 1) s) = Spec.pix (Spec.cq SA 0 (qq t s) 1) := by
  rw [pay12_at, c1v_at, hB.crd]
  rfl

/-- The picked table entry of row r is the table at the specification's flat pixel number. -/
private theorem gath_eq (hB : Blocks SA t x0 x1 x2 x3 x4 x5 x6 x7 x8 x9 x10 x11) (r : Fin 384) (s : Fin 512) :
    k0_pay16 (F := Ideal) (tbv x2) iov (k0_pay12 (c1v x0)) 63#32 (k0_pay13 (c0v x0)) (ix2 r s)
      = x2 (ix2 r (Spec.row (Spec.lin SA 0 (qq t s)))) := by
  rw [pay16_at _ _ _ r s _ (iyp_eq hB s), gx_eq hB s, tbv_at]
  rfl

/-- The offset from the pixel centre along the rows. -/
private theorem rel0_eq (hB : Blocks SA t x0 x1 x2 x3 x4 x5 x6 x7 x8 x9 x10 x11) (s : Fin 512) :
    k0_pay19 (F := Ideal) (c0v x0) 63#32 (k0_pay13 (c0v x0)) (ix2 (0 : Fin 1) s) = Spec.rel SA 0 (qq t s) 0 := by
  rw [pay19_at, iyp_eq hB s, c0v_at, hB.crd]
  rfl

/-- The offset from the pixel centre along the columns. -/
private theorem rel1_eq (hB : Blocks SA t x0 x1 x2 x3 x4 x5 x6 x7 x8 x9 x10 x11) (s : Fin 512) :
    k0_pay20 (F := Ideal) (c1v x0) (k0_pay12 (c1v x0)) (ix2 (0 : Fin 1) s) = Spec.rel SA 0 (qq t s) 1 := by
  rw [pay20_at, gx_eq hB s, c1v_at, hB.crd]
  rfl

/-- The phase part is the specification's. -/
private theorem phv_eq (hB : Blocks SA t x0 x1 x2 x3 x4 x5 x6 x7 x8 x9 x10 x11) (k : Fin 128) (s : Fin 512) :
    phv x1 x11 (ix2 k s) = Spec.php SA (qq t s) k := by
  show k0_pay4 (F := Ideal) (View.ld x1 r0_0) (View.ld x1 r0_1) (View.ld x11 r0_2) (View.ld x11 r0_3) (ix2 k s) = _
  rw [pay4_at, ld_row0, ld_row1, ld_col0, ld_col1, hB.cel, hB.cel, hB.wph, hB.wph]
  rfl

end Pieces

/-- Offset 0's prediction at channel j, column s is the specification's. -/
theorem pred0_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (j : Fin 3) (s : Fin 512) :
    pred0 x0 x1 x2 x3 x4 x5 x6 x7 x8 x9 x10 x11 (ix2 (r3 j) s) = Spec.pred SA 0 (qq t s) j := by
  unfold pred0
  refine pay21_at SA 0 (qq t s) s _ _ _ _ _ _ _ _ _ _ _ _ _ ?_ ?_ ?_ ?_ ?_ ?_ ?_ ?_ ?_ ?_ ?_ ?_ ?_ j
  · intro k
    exact (ld_col0 x10 k).trans (hB.wcf k 0)
  · intro k
    exact (ld_col1 x10 k).trans (hB.wcf k 1)
  · intro k
    exact phv_eq hB k s
  · intro d c
    rw [W1v_at, hB.w1]
  · intro d c
    rw [W2v_at, hB.w2]
  · intro j c
    rw [W3v_at, hB.w3]
  · intro d
    rw [B1v_at, hB.b1]
  · intro d
    rw [B2v_at, hB.b2]
  · intro j
    rw [B3v_at, hB.b3]
  · intro c
    show extractStridedSlice S256x512 ![0, 0] (k0_pay16 (F := Ideal) (tbv x2) iov (k0_pay12 (c1v x0)) 63#32 (k0_pay13 (c0v x0)))
      slices_S384x512_o0_0_S256x512 (ix2 c s) = _
    rw [sl_coef, gath_eq hB, hB.coef]
  · intro k
    show extractStridedSlice S128x512 ![256, 0] (k0_pay16 (F := Ideal) (tbv x2) iov (k0_pay12 (c1v x0)) 63#32 (k0_pay13 (c0v x0)))
      slices_S384x512_o256_0_S128x512 (ix2 k s) = _
    rw [sl_freq, gath_eq hB, hB.freq]
  · exact rel0_eq hB s
  · exact rel1_eq hB s

/-- Offset 0's area at column s is the specification's. -/
theorem area0_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (s : Fin 512) :
    area0 x0 x1 x2 x3 x4 x5 x6 x7 x8 x9 x10 x11 (ix2 (0 : Fin 1) s) = Spec.area SA 0 (qq t s) := by
  unfold area0
  rw [pay22_at, rel0_eq hB s, rel1_eq hB s]
  rfl

end Cert.KernelIdeal.KV

end
-- ==== Proof.K1.lean ====
/-
  Offset 1 of the kernel's block read at an index: the shifted, clipped coordinates, the nearest pixel, the one-hot
  product with the feature table (a pick of one row), the Fourier features and the perceptron: the prediction and the area.
-/
import proofs.«148257_j30657476559104_1_alg».proof.Proof.KTerms
import proofs.«148257_j30657476559104_1_alg».proof.Proof.KLib
import proofs.«148257_j30657476559104_1_alg».proof.Proof.MathW
import proofs.«148257_j30657476559104_1_alg».proof.Proof.MathS
import Idealize.ShloMosaic.PureOps.IdealRules

noncomputable section

namespace Cert.KernelIdeal.KV

open Idealize.ShloMosaic Idealize.ShloMosaic.ValueIdx Cert.KernelIdeal Cert.KernelIdeal.Gen

/-! ## The loads and the identity casts -/

private theorem c0v_at (x0 : Vec Ideal S2x512 .f32) (s : Fin 512) : c0v x0 (ix2 (0 : Fin 1) s) = x0 (ix2 (0 : Fin 2) s) := by
  show shapeCast S1x512 (View.ld x0 r0_0) shapeCasts_S1x512_S1x512 (ix2 (0 : Fin 1) s) = _
  rw [shapeCast_apply _ _ _ (ix2 (0 : Fin 1) s) rfl, ld_row0]

private theorem c1v_at (x0 : Vec Ideal S2x512 .f32) (s : Fin 512) : c1v x0 (ix2 (0 : Fin 1) s) = x0 (ix2 (1 : Fin 2) s) := by
  show shapeCast S1x512 (View.ld x0 r0_1) shapeCasts_S1x512_S1x512 (ix2 (0 : Fin 1) s) = _
  rw [shapeCast_apply _ _ _ (ix2 (0 : Fin 1) s) rfl, ld_row1]

private theorem tbv_at (x2 : Vec Ideal S384x4096 .bf16) (r : Fin 384) (n : Fin 4096) : tbv x2 (ix2 r n) = x2 (ix2 r n) := by
  show shapeCast S384x4096 (View.ld x2 r0_4) shapeCasts_S384x4096_S384x4096 (ix2 r n) = _
  rw [shapeCast_apply _ _ _ (ix2 r n) rfl, ld_tab]

private theorem W1v_at (x4 : Vec Ideal S256x256 .bf16) (d c : Fin 256) : W1v x4 (ix2 d c) = x4 (ix2 d c) := by
  show shapeCast S256x256 (View.ld x4 r0_5) shapeCasts_S256x256_S256x256 (ix2 d c) = _
  rw [shapeCast_apply _ _ _ (ix2 d c) rfl, ld_w256]

private theorem W2v_at (x5 : Vec Ideal S256x256 .bf16) (d c : Fin 256) : W2v x5 (ix2 d c) = x5 (ix2 d c) := by
  show shapeCast S256x256 (View.ld x5 r0_5) shapeCasts_S256x256_S256x256 (ix2 d c) = _
  rw [shapeCast_apply _ _ _ (ix2 d c) rfl, ld_w256]

private theorem W3v_at (x6 : Vec Ideal S128x256 .bf16) (r : Fin 128) (c : Fin 256) : W3v x6 (ix2 r c) = x6 (ix2 r c) := by
  show shapeCast S128x256 (View.ld x6 r0_6) shapeCasts_S128x256_S128x256 (ix2 r c) = _
  rw [shapeCast_apply _ _ _ (ix2 r c) rfl, ld_w128]

private theorem B1v_at (x7 : Vec Ideal S256 .f32) (d : Fin 256) : B1v x7 (ix2 d (0 : Fin 1)) = x7 (ix1 d) := by
  show shapeCast S256x1 (View.ld x7 r0_7) shapeCasts_S256_S256x1 (ix2 d (0 : Fin 1)) = _
  rw [col256, ld_b256]

private theorem B2v_at (x8 : Vec Ideal S256 .f32) (d : Fin 256) : B2v x8 (ix2 d (0 : Fin 1)) = x8 (ix1 d) := by
  show shapeCast S256x1 (View.ld x8 r0_7) shapeCasts_S256_S256x1 (ix2 d (0 : Fin 1)) = _
  rw [col256, ld_b256]

private theorem B3v_at (x9 : Vec Ideal S128 .f32) (r : Fin 128) : B3v x9 (ix2 r (0 : Fin 1)) = x9 (ix1 r) := by
  show shapeCast S128x1 (shapeCast S128 (View.ld x9 r0_8) shapeCasts_S128_S128) shapeCasts_S128_S128x1 (ix2 r (0 : Fin 1)) = _
  rw [col128, shapeCast_apply _ _ _ (ix1 r) rfl, ld_b128]

private theorem wc0v_at (x10 : Vec Ideal S128x2 .f32) (k : Fin 128) : wc0v x10 (ix2 k (0 : Fin 1)) = x10 (ix2 k (0 : Fin 2)) := ld_col0 x10 k

private theorem wc1v_at (x10 : Vec Ideal S128x2 .f32) (k : Fin 128) : wc1v x10 (ix2 k (0 : Fin 1)) = x10 (ix2 k (1 : Fin 2)) := ld_col1 x10 k

/-! ## The shifted, clipped coordinates and the nearest pixel -/

/-- The two named shifts are the rationals -1/64 + eps and 1/64 + eps. -/
private theorem named_neg : Named.named (F := Ideal) κ "shift_neg" (φ := .f32) 0xBC7FFBCE#32 = ((-137430157379 / 8796093022208 : ℝ) : EReal) :=
  IdealRules.named_const.ideal_named_scalar _ _ _ _ rfl

private theorem named_pos : Named.named (F := Ideal) κ "shift_pos" (φ := .f32) 0x3C800219#32 = ((137447749565 / 8796093022208 : ℝ) : EReal) :=
  IdealRules.named_const.ideal_named_scalar _ _ _ _ rfl

/-- Offset 1 shifts axis 0 down and axis 1 up. -/
private theorem shift10 : Spec.shift 1 0 = ((-137430157379 / 8796093022208 : ℝ) : EReal) :=
  Math.shift_neg 1 0 (by simp [Spec.sgn])

private theorem shift11 : Spec.shift 1 1 = ((137447749565 / 8796093022208 : ℝ) : EReal) :=
  Math.shift_pos 1 1 (by simp [Spec.sgn])

/-- The first coordinate, shifted and clipped. -/
private theorem pay23_at (v : FVec Ideal S1x512 .f32) (s : Fin 512) :
    k0_pay23 v (ix2 (0 : Fin 1) s) = Spec.clipc (v (ix2 (0 : Fin 1) s) + Spec.shift 1 0) := by
  rw [shift10, ← named_neg]
  rfl

/-- The second coordinate, shifted, then clipped where the pixel is taken. -/
private theorem pay24_clip (v : FVec Ideal S1x512 .f32) (s : Fin 512) :
    minimumf (broadcast S1x512 (Scalar.ofBits .f32 0x3F7FFFEF#32)) (maximumf (k0_pay25 (F := Ideal)) (k0_pay24 v)) (ix2 (0 : Fin 1) s)
      = Spec.clipc (v (ix2 (0 : Fin 1) s) + Spec.shift 1 1) := by
  rw [shift11, ← named_pos]
  rfl

/-- The pixel of a clipped coordinate: the kernel halves by a product. -/
private theorem pix_floor (c : EReal) :
    Ideal.fptosi 32 (Ideal.liftRound Int.floor (((c + Spec.w32 0x3F800000#32) * Spec.w32 0x42800000#32 - Spec.w32 0x3F800000#32) * Spec.w32 0x3F000000#32 + Spec.w32 0x3F000000#32))
      = Spec.floorI (Spec.pix c + Spec.w32 0x3F000000#32) := by
  unfold Spec.pix Spec.floorI
  rw [Math.mul_half]

private theorem pay26_at (v : FVec Ideal S1x512 .f32) (s : Fin 512) :
    k0_pay26 v (ix2 (0 : Fin 1) s) = Spec.clampI (Spec.floorI (Spec.pix (v (ix2 (0 : Fin 1) s)) + Spec.w32 0x3F000000#32)) := by
  rw [← pix_floor]
  rfl

private theorem pay27_at (v : FVec Ideal S1x512 .f32) (s : Fin 512) :
    k0_pay27 (k0_pay24 v) (Scalar.ofBits .f32 0x3F7FFFEF#32) (k0_pay25 (F := Ideal)) (ix2 (0 : Fin 1) s)
      = Spec.clampI (Spec.floorI (Spec.pix (Spec.clipc (v (ix2 (0 : Fin 1) s) + Spec.shift 1 1)) + Spec.w32 0x3F000000#32)) := by
  rw [← pix_floor, ← pay24_clip]
  rfl

/-! ## The offset from the pixel's centre, the area, the phase part -/

private theorem pay29_at (c : FVec Ideal S1x512 .f32) (iv : IVec S1x512 32) (s : Fin 512) :
    k0_pay29 c iv (ix2 (0 : Fin 1) s) = (c (ix2 (0 : Fin 1) s) - Spec.pcen (iv (ix2 (0 : Fin 1) s))) * Spec.w32 0x42800000#32 := rfl

private theorem pay30_at (c : FVec Ideal S1x512 .f32) (iv : IVec S1x512 32) (s : Fin 512) :
    k0_pay30 c iv (ix2 (0 : Fin 1) s) = (c (ix2 (0 : Fin 1) s) - Spec.pcen (iv (ix2 (0 : Fin 1) s))) * Spec.w32 0x42800000#32 := rfl

private theorem pay33_at (a b : FVec Ideal S1x512 .f32) (s : Fin 512) :
    k0_pay33 a b (ix2 (0 : Fin 1) s)
      = FloatOps.absf (F := Ideal) (φ := .f32) (a (ix2 (0 : Fin 1) s) * b (ix2 (0 : Fin 1) s)) + Spec.w32 0x3089705F#32 := rfl

private theorem cast_row {α : Type} (v : S1x512.Idx → α) (s : Fin 512) :
    shapeCast S1x512 v shapeCasts_S1x512_S1x512 (ix2 (0 : Fin 1) s) = v (ix2 (0 : Fin 1) s) :=
  shapeCast_apply _ _ _ _ rfl

/-- The phase part: each channel's linear form of the cell size in pixels. -/
private theorem phv_at (x1 : Vec Ideal S2x512 .f32) (x11 : Vec Ideal S128x2 .f32) (k : Fin 128) (s : Fin 512) :
    phv x1 x11 (ix2 k s)
      = x11 (ix2 k (0 : Fin 2)) * (x1 (ix2 (0 : Fin 2) s) * Spec.w32 0x42800000#32)
        + x11 (ix2 k (1 : Fin 2)) * (x1 (ix2 (1 : Fin 2) s) * Spec.w32 0x42800000#32) := by
  simp only [phv, k0_pay4]
  rw [addf_apply, mulf_apply, mulf_apply, bc_col128, bc_col128, bc_row128, bc_row128, mulf_apply, mulf_apply,
    cast_row, cast_row, ld_col0, ld_col1, ld_row0, ld_row1]
  rfl

/-! ## The one-hot product with the feature table -/

/-- The product with the one-hot matrix of the flat pixel number, as a sum over the table's columns. -/
private theorem pay28_at (tb : FVec Ideal S384x4096 .bf16) (v160 v162 : FVec Ideal S1x512 .f32) (cst : Ideal .f32)
    (v163 : FVec Ideal S1x512 .f32) (r : Fin 384) (s : Fin 512) :
    k0_pay28 tb iov v160 v162 cst v163 (ix2 r s)
      = ∑ n : Fin 4096, tb (ix2 r n) * Math.oh (BitVec.ofNat 32 n.val)
          (Spec.flat (k0_pay26 v160 (ix2 (0 : Fin 1) s)) (k0_pay27 v162 cst v163 (ix2 (0 : Fin 1) s))) := by
  simp only [k0_pay28]
  rw [mm_tab]
  refine Finset.sum_congr rfl fun n _ => ?_
  rw [truncf_apply]
  show tb (ix2 r n) * Math.oh (iov (ix2 n s)) (broadcastTo S4096x512 _ broadcasts_S1x512_S4096x512 (ix2 n s)) = _
  rw [iota_at, bc_row4096]
  rfl

/-- With both pixel indices in the grid, the product picks one column of the table. -/
private theorem pay28_pick (tb : FVec Ideal S384x4096 .bf16) (v160 v162 : FVec Ideal S1x512 .f32) (cst : Ideal .f32)
    (v163 : FVec Ideal S1x512 .f32) (r : Fin 384) (s : Fin 512) (a b : BitVec 32)
    (ha : k0_pay26 v160 (ix2 (0 : Fin 1) s) = Spec.clampI a) (hb : k0_pay27 v162 cst v163 (ix2 (0 : Fin 1) s) = Spec.clampI b) :
    k0_pay28 tb iov v160 v162 cst v163 (ix2 r s) = tb (ix2 r (Spec.row (Spec.flat (Spec.clampI a) (Spec.clampI b)))) := by
  rw [pay28_at, ha, hb]
  exact Math.sum_onehot (fun n => tb (ix2 r n)) _ (Math.flat_range _ _ (Math.clampI_range a) (Math.clampI_range b)).1

/-! ## The Fourier features and the perceptron -/

private theorem cos_at (a : FVec Ideal S128x512 .f32) (i : S128x512.Idx) : cos a i = Ideal.cos (a i) := rfl
private theorem sin_at (a : FVec Ideal S128x512 .f32) (i : S128x512.Idx) : sin a i = Ideal.sin (a i) := rfl

/-- The modulated frequency of channel k over the picked table rows. -/
private theorem z_at (wc0 wc1 : Vec Ideal S128x1 .f32) (ph : FVec Ideal S128x512 .f32) (pk : FVec Ideal S384x512 .f32)
    (r0 r1 : FVec Ideal S1x512 .f32) (k : Fin 128) (s : Fin 512) :
    addf (mulf (extractStridedSlice S128x512 ![256, 0] pk slices_S384x512_o256_0_S128x512)
        (addf (mulf (broadcastTo S128x512 wc0 broadcasts_S128x1_S128x512) (broadcastTo S128x512 r0 broadcasts_S1x512_S128x512))
          (mulf (broadcastTo S128x512 wc1 broadcasts_S128x1_S128x512) (broadcastTo S128x512 r1 broadcasts_S1x512_S128x512)))) ph (ix2 k s)
      = pk (ix2 (⟨256 + k.val, by omega⟩ : Fin 384) s)
          * (wc0 (ix2 k (0 : Fin 1)) * r0 (ix2 (0 : Fin 1) s) + wc1 (ix2 k (0 : Fin 1)) * r1 (ix2 (0 : Fin 1) s)) + ph (ix2 k s) := by
  rw [addf_apply, mulf_apply, sl_freq, addf_apply, mulf_apply, mulf_apply, bc_col128, bc_col128, bc_row128, bc_row128]

/-- The first layer before its rectifier: the weights against coefficient times feature, plus the bias. -/
private theorem pay31_at (c0 c1 : FVec Ideal S1x512 .f32) (wc0 wc1 : Vec Ideal S128x1 .f32) (ph : FVec Ideal S128x512 .f32)
    (w1 : FVec Ideal S256x256 .bf16) (b1 : FVec Ideal S256x1 .f32) (iy ix : IVec S1x512 32) (pk : FVec Ideal S384x512 .f32)
    (d : Fin 256) (s : Fin 512) (Z : Fin 128 → EReal) (C W : Fin 256 → EReal) (B : EReal)
    (hz : ∀ k : Fin 128, pk (ix2 (⟨256 + k.val, by omega⟩ : Fin 384) s)
          * (wc0 (ix2 k (0 : Fin 1)) * k0_pay29 c0 iy (ix2 (0 : Fin 1) s) + wc1 (ix2 k (0 : Fin 1)) * k0_pay30 c1 ix (ix2 (0 : Fin 1) s))
          + ph (ix2 k s) = Z k)
    (hc : ∀ c : Fin 256, pk (ix2 (⟨c.val, by omega⟩ : Fin 384) s) = C c)
    (hw : ∀ c : Fin 256, w1 (ix2 d c) = W c) (hb : b1 (ix2 d (0 : Fin 1)) = B) :
    k0_pay31 c0 c1 wc0 wc1 ph w1 b1 iy ix pk (ix2 d s)
      = (∑ c : Fin 256, W c * (C c * (if h : c.val < 128 then Ideal.cos (Spec.w32 0x40490FDB#32 * Z ⟨c.val, h⟩)
          else Ideal.sin (Spec.w32 0x40490FDB#32 * Z ⟨c.val - 128, by omega⟩)))) + B := by
  simp only [k0_pay31]
  rw [addf_apply, mm_256, bc_col256, hb]
  congr 1
  refine Finset.sum_congr rfl fun c _ => ?_
  rw [truncf_apply, mulf_apply, sl_coef, cat_rows, hw, hc]
  congr 2
  by_cases h : c.val < 128
  · rw [dif_pos h, dif_pos h, cos_at, mulf_apply, z_at, hz]
    rfl
  · rw [dif_neg h, dif_neg h, sin_at, mulf_apply, z_at, hz]
    rfl

/-- The second and third layers over the first layer's output. -/
private theorem pay32_at (w2 : FVec Ideal S256x256 .bf16) (w3 : FVec Ideal S128x256 .bf16) (b2 : FVec Ideal S256x1 .f32)
    (b3 : FVec Ideal S128x1 .f32) (p : FVec Ideal S256x512 .f32) (r : Fin 128) (s : Fin 512) :
    k0_pay32 w2 w3 b2 b3 p (ix2 r s)
      = (∑ c : Fin 256, w3 (ix2 r c) * max ((∑ e : Fin 256, w2 (ix2 c e) * max (p (ix2 e s)) 0) + b2 (ix2 c (0 : Fin 1))) 0)
          + b3 (ix2 r (0 : Fin 1)) := by
  simp only [k0_pay32]
  rw [addf_apply, mm_128, bc_col128]
  congr 1
  refine Finset.sum_congr rfl fun c _ => ?_
  rw [truncf_apply, maximumf_apply, addf_apply, mm_256, bc_col256, broadcast_apply]
  congr 2
  · congr 1
    refine Finset.sum_congr rfl fun e _ => ?_
    rw [truncf_apply, maximumf_apply, broadcast_apply]
    congr 2
    exact Math.w32_zero
  · exact Math.w32_zero

/-! ## Offset 1 on the specification's tables -/

section blocks

variable {SA : Spec.Args} {t : Fin 128} {x0 : Vec Ideal S2x512 .f32} {x1 : Vec Ideal S2x512 .f32} {x2 : Vec Ideal S384x4096 .bf16}
  {x3 : Vec Ideal S128x4096 .bf16} {x4 : Vec Ideal S256x256 .bf16} {x5 : Vec Ideal S256x256 .bf16} {x6 : Vec Ideal S128x256 .bf16}
  {x7 : Vec Ideal S256 .f32} {x8 : Vec Ideal S256 .f32} {x9 : Vec Ideal S128 .f32} {x10 : Vec Ideal S128x2 .f32} {x11 : Vec Ideal S128x2 .f32}
  (hB : Blocks SA t x0 x1 x2 x3 x4 x5 x6 x7 x8 x9 x10 x11)

include hB

/-- The nearest pixel's row index. -/
private theorem iy_eq (s : Fin 512) : k0_pay26 (k0_pay23 (c0v x0)) (ix2 (0 : Fin 1) s) = Spec.ni SA 1 (qq t s) 0 := by
  rw [pay26_at, pay23_at, c0v_at, hB.crd]
  rfl

/-- The nearest pixel's column index. -/
private theorem ix_eq (s : Fin 512) :
    k0_pay27 (k0_pay24 (c1v x0)) (Scalar.ofBits .f32 0x3F7FFFEF#32) (k0_pay25 (F := Ideal)) (ix2 (0 : Fin 1) s) = Spec.ni SA 1 (qq t s) 1 := by
  rw [pay27_at, c1v_at, hB.crd]
  rfl

/-- The one-hot product is the table's column of the nearest pixel. -/
private theorem pick_eq (r : Fin 384) (s : Fin 512) :
    k0_pay28 (tbv x2) iov (k0_pay23 (c0v x0)) (k0_pay24 (c1v x0)) (Scalar.ofBits .f32 0x3F7FFFEF#32) (k0_pay25 (F := Ideal)) (ix2 r s)
      = x2 (ix2 r (Spec.row (Spec.lin SA 1 (qq t s)))) := by
  rw [pay28_pick (tbv x2) _ _ _ _ r s _ _ (iy_eq hB s) (ix_eq hB s), tbv_at]
  rfl

private theorem rel0_eq (s : Fin 512) :
    k0_pay29 (c0v x0) (k0_pay26 (k0_pay23 (c0v x0))) (ix2 (0 : Fin 1) s) = Spec.rel SA 1 (qq t s) 0 := by
  rw [pay29_at, iy_eq hB, c0v_at, hB.crd]
  rfl

private theorem rel1_eq (s : Fin 512) :
    k0_pay30 (c1v x0) (k0_pay27 (k0_pay24 (c1v x0)) (Scalar.ofBits .f32 0x3F7FFFEF#32) (k0_pay25 (F := Ideal))) (ix2 (0 : Fin 1) s)
      = Spec.rel SA 1 (qq t s) 1 := by
  rw [pay30_at, ix_eq hB, c1v_at, hB.crd]
  rfl

/-- The modulated frequencies. -/
private theorem zf_eq (k : Fin 128) (s : Fin 512) :
    k0_pay28 (tbv x2) iov (k0_pay23 (c0v x0)) (k0_pay24 (c1v x0)) (Scalar.ofBits .f32 0x3F7FFFEF#32) (k0_pay25 (F := Ideal))
        (ix2 (⟨256 + k.val, by omega⟩ : Fin 384) s)
      * (wc0v x10 (ix2 k (0 : Fin 1)) * k0_pay29 (c0v x0) (k0_pay26 (k0_pay23 (c0v x0))) (ix2 (0 : Fin 1) s)
        + wc1v x10 (ix2 k (0 : Fin 1))
          * k0_pay30 (c1v x0) (k0_pay27 (k0_pay24 (c1v x0)) (Scalar.ofBits .f32 0x3F7FFFEF#32) (k0_pay25 (F := Ideal))) (ix2 (0 : Fin 1) s))
      + phv x1 x11 (ix2 k s) = Spec.zf SA 1 (qq t s) k := by
  rw [pick_eq hB, hB.freq, wc0v_at, wc1v_at, hB.wcf, hB.wcf, rel0_eq hB, rel1_eq hB, phv_at, hB.wph, hB.wph, hB.cel, hB.cel]
  rfl

/-- The first layer before its rectifier. -/
private theorem first_eq (d : Fin 256) (s : Fin 512) :
    k0_pay31 (c0v x0) (c1v x0) (wc0v x10) (wc1v x10) (phv x1 x11) (W1v x4) (B1v x7) (k0_pay26 (k0_pay23 (c0v x0)))
        (k0_pay27 (k0_pay24 (c1v x0)) (Scalar.ofBits .f32 0x3F7FFFEF#32) (k0_pay25 (F := Ideal)))
        (k0_pay28 (tbv x2) iov (k0_pay23 (c0v x0)) (k0_pay24 (c1v x0)) (Scalar.ofBits .f32 0x3F7FFFEF#32) (k0_pay25 (F := Ideal))) (ix2 d s)
      = (∑ c : Fin 256, SA.w1 d c * Spec.x0 SA 1 (qq t s) c) + SA.b1 d := by
  rw [pay31_at _ _ _ _ _ _ _ _ _ _ d s (Spec.zf SA 1 (qq t s)) (fun c => SA.coef c (Spec.row (Spec.lin SA 1 (qq t s)))) (SA.w1 d) (SA.b1 d)
    (fun k => zf_eq hB k s) (fun c => by rw [pick_eq hB, hB.coef]) (fun c => by rw [W1v_at, hB.w1]) (by rw [B1v_at, hB.b1])]
  rfl

end blocks

/-- Offset 1's prediction at channel j, column s is the specification's. -/
theorem pred1_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (j : Fin 3) (s : Fin 512) :
    pred1 x0 x1 x2 x3 x4 x5 x6 x7 x8 x9 x10 x11 (ix2 (r3 j) s) = Spec.pred SA 1 (qq t s) j := by
  unfold pred1
  rw [pay32_at, B3v_at, hB.b3]
  unfold Spec.pred
  congr 1
  refine Finset.sum_congr rfl fun c _ => ?_
  rw [W3v_at, hB.w3, B2v_at, hB.b2]
  unfold Spec.h2
  congr 3
  refine Finset.sum_congr rfl fun e _ => ?_
  rw [W2v_at, hB.w2, first_eq hB]
  rfl

/-- Offset 1's area at column s is the specification's. -/
theorem area1_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (s : Fin 512) :
    area1 x0 x1 x2 x3 x4 x5 x6 x7 x8 x9 x10 x11 (ix2 (0 : Fin 1) s) = Spec.area SA 1 (qq t s) := by
  unfold area1
  rw [pay33_at, rel0_eq hB, rel1_eq hB]
  rfl

end Cert.KernelIdeal.KV

end
-- ==== Proof.K2.lean ====
/-
  Offset 2 of the kernel's block read at an index: the shifted, clipped coordinates, the nearest pixel, the one-hot
  product with the feature table (a pick of one row), the Fourier features and the perceptron: the prediction and the area.
-/
import proofs.«148257_j30657476559104_1_alg».proof.Proof.KTerms
import proofs.«148257_j30657476559104_1_alg».proof.Proof.KLib
import proofs.«148257_j30657476559104_1_alg».proof.Proof.MathW
import proofs.«148257_j30657476559104_1_alg».proof.Proof.MathS
import Idealize.ShloMosaic.PureOps.IdealRules

noncomputable section

namespace Cert.KernelIdeal.KV

open Idealize.ShloMosaic Idealize.ShloMosaic.ValueIdx Cert.KernelIdeal Cert.KernelIdeal.Gen

/-- The two coordinate rows are the rows of the coordinate block. -/
private theorem c0_at (x0 : Vec Ideal S2x512 .f32) (s : Fin 512) : c0v x0 (ix2 (0 : Fin 1) s) = x0 (ix2 (0 : Fin 2) s) := by
  exact (congrFun (shapeCast_self (s := S1x512) _ _) _).trans (ld_row0 x0 s)

private theorem c1_at (x0 : Vec Ideal S2x512 .f32) (s : Fin 512) : c1v x0 (ix2 (0 : Fin 1) s) = x0 (ix2 (1 : Fin 2) s) := by
  exact (congrFun (shapeCast_self (s := S1x512) _ _) _).trans (ld_row1 x0 s)

/-- The named shifts are the specification's shifts of offset 2: plus along the rows, minus along the columns. -/
private theorem shift_20 : Named.named (F := Ideal) κ "shift_pos" (φ := .f32) 0x3C800219#32 = Spec.shift 2 0 := by
  rw [Math.shift_pos 2 0 (by simp [Spec.sgn])]
  exact IdealRules.named_const.ideal_named_scalar _ _ _ _ rfl

private theorem shift_21 : Named.named (F := Ideal) κ "shift_neg" (φ := .f32) 0xBC7FFBCE#32 = Spec.shift 2 1 := by
  rw [Math.shift_neg 2 1 (by simp [Spec.sgn])]
  exact IdealRules.named_const.ideal_named_scalar _ _ _ _ rfl

/-- The row coordinate, shifted, clipped and turned into a pixel coordinate. -/
private theorem pay34_at (v1 : FVec Ideal S1x512 .f32) (i : S1x512.Idx) :
    k0_pay34 v1 i = Spec.pix (Spec.clipc (v1 i + Spec.shift 2 0)) := by
  show ((min (Spec.w32 0x3F7FFFEF#32) (max (Spec.w32 0xBF7FFFEF#32) (v1 i + Named.named (F := Ideal) κ "shift_pos" (φ := .f32) 0x3C800219#32))
    + Spec.w32 0x3F800000#32) * Spec.w32 0x42800000#32 - Spec.w32 0x3F800000#32) * Spec.w32 0x3F000000#32 = _
  rw [shift_20, Math.mul_half]
  rfl

/-- The column coordinate, shifted and clipped, as twice a pixel coordinate. -/
private theorem pay35_at (v3 : FVec Ideal S1x512 .f32) (i : S1x512.Idx) :
    k0_pay35 v3 i = (Spec.clipc (v3 i + Spec.shift 2 1) + Spec.w32 0x3F800000#32) * Spec.w32 0x42800000#32 - Spec.w32 0x3F800000#32 := by
  show (min (Spec.w32 0x3F7FFFEF#32) (max (Spec.w32 0xBF7FFFEF#32) (v3 i + Named.named (F := Ideal) κ "shift_neg" (φ := .f32) 0xBC7FFBCE#32))
    + Spec.w32 0x3F800000#32) * Spec.w32 0x42800000#32 - Spec.w32 0x3F800000#32 = _
  rw [shift_21]
  rfl

/-- The nearest pixel along the rows and along the columns. -/
private theorem pay36_at (v : FVec Ideal S1x512 .f32) (i : S1x512.Idx) :
    k0_pay36 v i = Spec.clampI (Spec.floorI (v i + Spec.w32 0x3F000000#32)) := rfl

private theorem pay37_at (v : FVec Ideal S1x512 .f32) (i : S1x512.Idx) :
    k0_pay37 v i = Spec.clampI (Spec.floorI (Ideal.div (v i) (Spec.w32 0x40000000#32) + Spec.w32 0x3F000000#32)) := by
  rw [← Math.mul_half]
  rfl

/-- The flat pixel number of two clamped words is a row number of the table. -/
private theorem lin_lt (a b : BitVec 32) : (Spec.flat (Spec.clampI a) (Spec.clampI b)).toNat < 4096 :=
  (Math.flat_range _ _ (Math.clampI_range a) (Math.clampI_range b)).1

/-- The one-hot product picks, from every table row, the entry of the nearest pixel. -/
private theorem pay38_at (tb : FVec Ideal S384x4096 .bf16) (a b : FVec Ideal S1x512 .f32) (r : Fin 384) (s : Fin 512) :
    k0_pay38 tb iov a b (ix2 r s)
      = tb (ix2 r (Spec.row (Spec.flat (k0_pay36 a (ix2 (0 : Fin 1) s)) (k0_pay37 b (ix2 (0 : Fin 1) s))))) := by
  unfold k0_pay38
  rw [mm_tab]
  have h : ∀ n : Fin 4096,
      tb (ix2 r n) * (truncf .bf16 (sitofp .f32 (extui 32 (cmpi .eq iov (broadcastTo S4096x512
        (addi (muli (k0_pay36 a) (broadcast S1x512 64#32)) (k0_pay37 b)) broadcasts_S1x512_S4096x512)) natLt_1_32)) bitsLt_bf16_f32
          : FVec Ideal S4096x512 .bf16) (ix2 n s)
      = tb (ix2 r n) * Math.oh (BitVec.ofNat 32 n.val) (Spec.flat (k0_pay36 a (ix2 (0 : Fin 1) s)) (k0_pay37 b (ix2 (0 : Fin 1) s))) := by
    intro n
    show tb (ix2 r n) * Math.oh (iov (ix2 n s)) (broadcastTo S4096x512
        (addi (muli (k0_pay36 a) (broadcast S1x512 64#32)) (k0_pay37 b)) broadcasts_S1x512_S4096x512 (ix2 n s)) = _
    rw [iota_at, bc_row4096]
    rfl
  rw [Finset.sum_congr rfl (fun n _ => h n)]
  exact Math.sum_onehot (fun n => tb (ix2 r n)) _ (by rw [pay36_at, pay37_at]; exact lin_lt _ _)

/-- The pixel centre along the rows; twice the pixel number plus one along the columns; the offsets in pixels. -/
private theorem pay41_at (v : FVec Ideal S1x512 .f32) (i : S1x512.Idx) : k0_pay41 v i = Spec.pcen (k0_pay36 v i) := rfl

private theorem pay42_at (v : FVec Ideal S1x512 .f32) (i : S1x512.Idx) :
    k0_pay42 v i = Spec.w32 0x40000000#32 * Spec.ofI (k0_pay37 v i) + Spec.w32 0x3F800000#32 := rfl

private theorem pay43_at (i : S1x512.Idx) : k0_pay43 (F := Ideal) i = Spec.w32 0x42800000#32 := rfl

private theorem pay44_at (v1 v335 : FVec Ideal S1x512 .f32) (i : S1x512.Idx) :
    k0_pay44 v1 v335 i = (v1 i - v335 i) * Spec.w32 0x42800000#32 := rfl

private theorem pay45_at (v3 v339 v340 : FVec Ideal S1x512 .f32) (i : S1x512.Idx) :
    k0_pay45 v3 v339 v340 i = (v3 i - (Spec.w32 0xBF800000#32 + Ideal.div (v339 i) (v340 i))) * Spec.w32 0x42800000#32 := rfl

/-- The area: the absolute product of the two offsets, plus the small constant. -/
private theorem pay47_at (v1 v3 v335 v339 v340 : FVec Ideal S1x512 .f32) (i : S1x512.Idx) :
    k0_pay47 v1 v3 v335 v339 v340 i
      = FloatOps.absf (F := Ideal) (φ := .f32) (k0_pay44 v1 v335 i * k0_pay45 v3 v339 v340 i) + Spec.w32 0x3089705F#32 := rfl

private theorem cos_at {s : Shape} {φ : FTy} (x : FVec Ideal s φ) (i : s.Idx) : Idealize.ShloMosaic.cos x i = Ideal.cos (x i) := rfl
private theorem sin_at {s : Shape} {φ : FTy} (x : FVec Ideal s φ) (i : s.Idx) : Idealize.ShloMosaic.sin x i = Ideal.sin (x i) := rfl
private theorem ofBits_zero : FloatOps.ofBits (F := Ideal) .f32 0x00000000#32 = 0 := Math.w32_zero

/-- The features, the coefficients times the features and the three layers, read at a row r and a column s, over
    tables W1 W2 W3 b1 b2 b3 of the weights, C of the picked coefficients and Z of the modulated frequencies. -/
private theorem pay46_at (v1 v3 : FVec Ideal S1x512 .f32) (v8 v9 : Vec Ideal S128x1 .f32) (v22 : FVec Ideal S128x512 .f32)
    (v26 v28 : FVec Ideal S256x256 .bf16) (v30 : FVec Ideal S128x256 .bf16) (v32 v34 : FVec Ideal S256x1 .f32) (v37 : FVec Ideal S128x1 .f32)
    (v324 : FVec Ideal S256x512 .f32) (v325 : FVec Ideal S128x512 .f32) (v335 v339 v340 : FVec Ideal S1x512 .f32)
    (r : Fin 128) (s : Fin 512)
    (W1 W2 : Fin 256 → Fin 256 → EReal) (W3 : Fin 256 → EReal) (b1 b2 : Fin 256 → EReal) (b3 : EReal)
    (C : Fin 256 → EReal) (Z : Fin 128 → EReal)
    (h26 : ∀ d c : Fin 256, v26 (ix2 d c) = W1 d c) (h28 : ∀ d c : Fin 256, v28 (ix2 d c) = W2 d c)
    (h30 : ∀ c : Fin 256, v30 (ix2 r c) = W3 c)
    (h32 : ∀ d : Fin 256, v32 (ix2 d (0 : Fin 1)) = b1 d) (h34 : ∀ d : Fin 256, v34 (ix2 d (0 : Fin 1)) = b2 d)
    (h37 : v37 (ix2 r (0 : Fin 1)) = b3)
    (hC : ∀ c : Fin 256, v324 (ix2 c s) = C c)
    (hZ : ∀ k : Fin 128, v325 (ix2 k s) * (v8 (ix2 k (0 : Fin 1)) * k0_pay44 v1 v335 (ix2 (0 : Fin 1) s)
        + v9 (ix2 k (0 : Fin 1)) * k0_pay45 v3 v339 v340 (ix2 (0 : Fin 1) s)) + v22 (ix2 k s) = Z k) :
    k0_pay46 v1 v3 v8 v9 v22 v26 v28 v30 v32 v34 v37 v324 v325 v335 v339 v340 (ix2 r s)
      = (∑ d : Fin 256, W3 d * max ((∑ c : Fin 256, W2 d c * max ((∑ e : Fin 256, W1 c e
          * (C e * (if h : e.val < 128 then Ideal.cos (Spec.w32 0x40490FDB#32 * Z ⟨e.val, h⟩)
              else Ideal.sin (Spec.w32 0x40490FDB#32 * Z ⟨e.val - 128, by omega⟩)))) + b1 c) 0) + b2 d) 0) + b3 := by
  unfold k0_pay46
  simp only [addf_apply, mulf_apply, maximumf_apply, truncf_apply, broadcast_apply, mm_128, mm_256, bc_col128, bc_col256, bc_row128,
    cat_rows, cos_at, sin_at, h26, h28, h30, h32, h34, h37, hC, hZ, ofBits_zero]
  rfl

/-- The rows of a two-row block and the resident tables, read at an index. -/
private theorem row0_at (x : Vec Ideal S2x512 .f32) (s : Fin 512) :
    shapeCast S1x512 (View.ld x r0_0) shapeCasts_S1x512_S1x512 (ix2 (0 : Fin 1) s) = x (ix2 (0 : Fin 2) s) := c0_at x s

private theorem row1_at (x : Vec Ideal S2x512 .f32) (s : Fin 512) :
    shapeCast S1x512 (View.ld x r0_1) shapeCasts_S1x512_S1x512 (ix2 (0 : Fin 1) s) = x (ix2 (1 : Fin 2) s) := c1_at x s

private theorem tbv_eq (x2 : Vec Ideal S384x4096 .bf16) : tbv x2 = x2 :=
  (shapeCast_self (s := S384x4096) _ _).trans (ld_tab x2)

private theorem W1v_eq (x4 : Vec Ideal S256x256 .bf16) : W1v x4 = x4 :=
  (shapeCast_self (s := S256x256) _ _).trans (ld_w256 x4)

private theorem W2v_eq (x5 : Vec Ideal S256x256 .bf16) : W2v x5 = x5 :=
  (shapeCast_self (s := S256x256) _ _).trans (ld_w256 x5)

private theorem W3v_eq (x6 : Vec Ideal S128x256 .bf16) : W3v x6 = x6 :=
  (shapeCast_self (s := S128x256) _ _).trans (ld_w128 x6)

private theorem B1v_at (x7 : Vec Ideal S256 .f32) (d : Fin 256) : B1v x7 (ix2 d (0 : Fin 1)) = x7 (ix1 d) := by
  show shapeCast S256x1 (View.ld x7 r0_7) shapeCasts_S256_S256x1 (ix2 d (0 : Fin 1)) = _
  rw [col256, ld_b256]

private theorem B2v_at (x8 : Vec Ideal S256 .f32) (d : Fin 256) : B2v x8 (ix2 d (0 : Fin 1)) = x8 (ix1 d) := by
  show shapeCast S256x1 (View.ld x8 r0_7) shapeCasts_S256_S256x1 (ix2 d (0 : Fin 1)) = _
  rw [col256, ld_b256]

private theorem B3v_at (x9 : Vec Ideal S128 .f32) (r : Fin 128) : B3v x9 (ix2 r (0 : Fin 1)) = x9 (ix1 r) := by
  show shapeCast S128x1 (shapeCast S128 (View.ld x9 r0_8) shapeCasts_S128_S128) shapeCasts_S128_S128x1 (ix2 r (0 : Fin 1)) = _
  rw [col128]
  exact (congrFun (shapeCast_self (s := S128) _ _) _).trans (congrFun (ld_b128 x9) _)

/-- The phase part is the specification's linear form of the cell size. -/
private theorem phv_at (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (k : Fin 128) (s : Fin 512) :
    phv x1 x11 (ix2 k s) = Spec.php SA (qq t s) k := by
  show k0_pay4 (F := Ideal) (View.ld x1 r0_0) (View.ld x1 r0_1) (View.ld x11 r0_2) (View.ld x11 r0_3) (ix2 k s) = _
  unfold k0_pay4
  simp only [addf_apply, mulf_apply, broadcast_apply, bc_col128, bc_row128]
  rw [ld_col0, ld_col1, row0_at, row1_at, hB.cel, hB.cel, hB.wph, hB.wph]
  rfl

private theorem wc0_at (x10 : Vec Ideal S128x2 .f32) (k : Fin 128) : wc0v x10 (ix2 k (0 : Fin 1)) = x10 (ix2 k (0 : Fin 2)) := ld_col0 x10 k
private theorem wc1_at (x10 : Vec Ideal S128x2 .f32) (k : Fin 128) : wc1v x10 (ix2 k (0 : Fin 1)) = x10 (ix2 k (1 : Fin 2)) := ld_col1 x10 k

/-- The nearest pixel of offset 2 along the two axes. -/
private theorem ni0_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (s : Fin 512) :
    k0_pay36 (k0_pay34 (c0v x0)) (ix2 (0 : Fin 1) s) = Spec.ni SA 2 (qq t s) 0 := by
  rw [pay36_at, pay34_at, c0_at, hB.crd]
  rfl

private theorem ni1_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (s : Fin 512) :
    k0_pay37 (k0_pay35 (c1v x0)) (ix2 (0 : Fin 1) s) = Spec.ni SA 2 (qq t s) 1 := by
  rw [pay37_at, pay35_at, c1_at, hB.crd]
  rfl

/-- The offsets of the query from the nearest pixel's centre. -/
private theorem rel0_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (s : Fin 512) :
    k0_pay44 (c0v x0) (k0_pay41 (k0_pay34 (c0v x0))) (ix2 (0 : Fin 1) s) = Spec.rel SA 2 (qq t s) 0 := by
  rw [pay44_at, pay41_at, ni0_eq SA t x0 x1 x2 x3 x4 x5 x6 x7 x8 x9 x10 x11 hB, c0_at, hB.crd]
  rfl

private theorem rel1_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (s : Fin 512) :
    k0_pay45 (c1v x0) (k0_pay42 (k0_pay35 (c1v x0))) (k0_pay43 (F := Ideal)) (ix2 (0 : Fin 1) s) = Spec.rel SA 2 (qq t s) 1 := by
  rw [pay45_at, pay42_at, pay43_at, ni1_eq SA t x0 x1 x2 x3 x4 x5 x6 x7 x8 x9 x10 x11 hB, c1_at, hB.crd]
  rfl

/-- The picked table rows are the nearest pixel's entries. -/
private theorem pick_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (r : Fin 384) (s : Fin 512) :
    k0_pay38 (tbv x2) iov (k0_pay34 (c0v x0)) (k0_pay35 (c1v x0)) (ix2 r s) = x2 (ix2 r (Spec.row (Spec.lin SA 2 (qq t s)))) := by
  rw [pay38_at, ni0_eq SA t x0 x1 x2 x3 x4 x5 x6 x7 x8 x9 x10 x11 hB, ni1_eq SA t x0 x1 x2 x3 x4 x5 x6 x7 x8 x9 x10 x11 hB, tbv_eq]
  rfl

private theorem coef_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (c : Fin 256) (s : Fin 512) :
    k0_pay39 (tbv x2) iov (k0_pay34 (c0v x0)) (k0_pay35 (c1v x0)) (ix2 c s) = SA.coef c (Spec.row (Spec.lin SA 2 (qq t s))) := by
  unfold k0_pay39
  rw [sl_coef, pick_eq SA t x0 x1 x2 x3 x4 x5 x6 x7 x8 x9 x10 x11 hB, hB.coef]

private theorem freq_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (k : Fin 128) (s : Fin 512) :
    k0_pay40 (tbv x2) iov (k0_pay34 (c0v x0)) (k0_pay35 (c1v x0)) (ix2 k s) = SA.freq k (Spec.row (Spec.lin SA 2 (qq t s))) := by
  unfold k0_pay40
  rw [sl_freq, pick_eq SA t x0 x1 x2 x3 x4 x5 x6 x7 x8 x9 x10 x11 hB, hB.freq]

/-- Offset 2's prediction at channel j, column s is the specification's. -/
theorem pred2_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (j : Fin 3) (s : Fin 512) :
    pred2 x0 x1 x2 x3 x4 x5 x6 x7 x8 x9 x10 x11 (ix2 (r3 j) s) = Spec.pred SA 2 (qq t s) j := by
  unfold pred2
  refine (pay46_at _ _ _ _ _ _ _ _ _ _ _ _ _ _ _ _ (r3 j) s SA.w1 SA.w2 (SA.w3 j) SA.b1 SA.b2 (SA.b3 j)
    (fun c => SA.coef c (Spec.row (Spec.lin SA 2 (qq t s)))) (Spec.zf SA 2 (qq t s)) ?_ ?_ ?_ ?_ ?_ ?_ ?_ ?_).trans ?_
  · intro d c
    rw [W1v_eq, hB.w1]
  · intro d c
    rw [W2v_eq, hB.w2]
  · intro c
    rw [W3v_eq, hB.w3]
  · intro d
    rw [B1v_at, hB.b1]
  · intro d
    rw [B2v_at, hB.b2]
  · rw [B3v_at, hB.b3]
  · intro c
    exact coef_eq SA t x0 x1 x2 x3 x4 x5 x6 x7 x8 x9 x10 x11 hB c s
  · intro k
    rw [freq_eq SA t x0 x1 x2 x3 x4 x5 x6 x7 x8 x9 x10 x11 hB, wc0_at, wc1_at, hB.wcf, hB.wcf, rel0_eq SA t x0 x1 x2 x3 x4 x5 x6 x7 x8 x9 x10 x11 hB, rel1_eq SA t x0 x1 x2 x3 x4 x5 x6 x7 x8 x9 x10 x11 hB, phv_at SA t x0 x1 x2 x3 x4 x5 x6 x7 x8 x9 x10 x11 hB]
    rfl
  · rfl

/-- Offset 2's area at column s is the specification's. -/
theorem area2_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11) (s : Fin 512) :
    area2 x0 x1 x2 x3 x4 x5 x6 x7 x8 x9 x10 x11 (ix2 (0 : Fin 1) s) = Spec.area SA 2 (qq t s) := by
  unfold area2
  rw [pay47_at, rel0_eq SA t x0 x1 x2 x3 x4 x5 x6 x7 x8 x9 x10 x11 hB, rel1_eq SA t x0 x1 x2 x3 x4 x5 x6 x7 x8 x9 x10 x11 hB]
  rfl

end Cert.KernelIdeal.KV

end
-- ==== Proof.K3.lean ====
/-
  The ensemble of the kernel's block read at an index: offset 3's own prediction and area, the four areas' sum, and the
  predictions weighted by the opposite corners' shares.
-/
import proofs.«148257_j30657476559104_1_alg».proof.Proof.KTerms
import proofs.«148257_j30657476559104_1_alg».proof.Proof.KLib
import proofs.«148257_j30657476559104_1_alg».proof.Proof.MathW
import proofs.«148257_j30657476559104_1_alg».proof.Proof.MathS
import Idealize.ShloMosaic.PureOps.IdealRules

noncomputable section

namespace Cert.KernelIdeal.KV

open Idealize.ShloMosaic Idealize.ShloMosaic.ValueIdx Cert.KernelIdeal Cert.KernelIdeal.Gen

/-- The Fourier features of the kernel: the cos rows over the sin rows, read at feature c. -/
private def featK (v474 v476 : FVec Ideal S128x512 .f32) (c : Fin 256) (s : Fin 512) : EReal :=
  if h : c.val < 128 then Ideal.cos (v476 (ix2 (⟨c.val, h⟩ : Fin 128) s))
  else Ideal.sin (Spec.w32 0x40490FDB#32 * v474 (ix2 (⟨c.val - 128, by omega⟩ : Fin 128) s))

/-- The first hidden layer of the kernel at unit d. -/
private def h1K (v26 : FVec Ideal S256x256 .bf16) (v32 : FVec Ideal S256x1 .f32) (v440 : FVec Ideal S256x512 .f32)
    (v474 v476 : FVec Ideal S128x512 .f32) (d : Fin 256) (s : Fin 512) : EReal :=
  max ((∑ c : Fin 256, v26 (ix2 d c) * (v440 (ix2 c s) * featK v474 v476 c s)) + v32 (ix2 d (0 : Fin 1))) (Spec.w32 0x00000000#32)

/-- The second hidden layer of the kernel at unit d. -/
private def h2K (v26 v28 : FVec Ideal S256x256 .bf16) (v32 v34 : FVec Ideal S256x1 .f32) (v440 : FVec Ideal S256x512 .f32)
    (v474 v476 : FVec Ideal S128x512 .f32) (d : Fin 256) (s : Fin 512) : EReal :=
  max ((∑ c : Fin 256, v28 (ix2 d c) * h1K v26 v32 v440 v474 v476 c s) + v34 (ix2 d (0 : Fin 1))) (Spec.w32 0x00000000#32)

/-- The last layer of the kernel at padded row r. -/
private def p3K (v26 v28 : FVec Ideal S256x256 .bf16) (v30 : FVec Ideal S128x256 .bf16) (v32 v34 : FVec Ideal S256x1 .f32)
    (v37 : FVec Ideal S128x1 .f32) (v440 : FVec Ideal S256x512 .f32)
    (v474 v476 : FVec Ideal S128x512 .f32) (r : Fin 128) (s : Fin 512) : EReal :=
  (∑ c : Fin 256, v30 (ix2 r c) * h2K v26 v28 v32 v34 v440 v474 v476 c s) + v37 (ix2 r (0 : Fin 1))

/-- The area of the last offset's rectangle in the kernel. -/
private def a3K (v462 v465 : FVec Ideal S1x512 .f32) (s : Fin 512) : EReal :=
  FloatOps.absf (F := Ideal) (φ := .f32) (v462 (ix2 (0 : Fin 1) s) * v465 (ix2 (0 : Fin 1) s)) + Spec.w32 0x3089705F#32

private theorem cos_at {s : Shape} {φ : FTy} (v : FVec Ideal s φ) (i : s.Idx) : cos v i = Ideal.cos (v i) := rfl
private theorem sin_at {s : Shape} {φ : FTy} (v : FVec Ideal s φ) (i : s.Idx) : sin v i = Ideal.sin (v i) := rfl
private theorem absf_at {s : Shape} {φ : FTy} (v : FVec Ideal s φ) (i : s.Idx) : absf v i = FloatOps.absf (F := Ideal) (φ := φ) (v i) := rfl

/-- The ensemble payload read at row r, column s, over arbitrary inputs. -/
private theorem pay59_at (v26 v28 : FVec Ideal S256x256 .bf16) (v30 : FVec Ideal S128x256 .bf16) (v32 v34 : FVec Ideal S256x1 .f32)
    (v37 : FVec Ideal S128x1 .f32) (v150 : FVec Ideal S128x512 .f32) (v154 : FVec Ideal S1x512 .f32)
    (v266 : FVec Ideal S128x512 .f32) (v270 : FVec Ideal S1x512 .f32) (v382 : FVec Ideal S128x512 .f32)
    (v386 : FVec Ideal S1x512 .f32) (v440 : FVec Ideal S256x512 .f32) (v462 v465 : FVec Ideal S1x512 .f32)
    (v474 v476 : FVec Ideal S128x512 .f32) (r : Fin 128) (s : Fin 512) :
    k0_pay59 (F := Ideal) v26 v28 v30 v32 v34 v37 v150 v154 v266 v270 v382 v386 v440 v462 v465 v474 v476 (ix2 r s)
      = v150 (ix2 r s) * Ideal.div (a3K v462 v465 s)
            (v154 (ix2 (0 : Fin 1) s) + v270 (ix2 (0 : Fin 1) s) + v386 (ix2 (0 : Fin 1) s) + a3K v462 v465 s)
        + v266 (ix2 r s) * Ideal.div (v386 (ix2 (0 : Fin 1) s))
            (v154 (ix2 (0 : Fin 1) s) + v270 (ix2 (0 : Fin 1) s) + v386 (ix2 (0 : Fin 1) s) + a3K v462 v465 s)
        + v382 (ix2 r s) * Ideal.div (v270 (ix2 (0 : Fin 1) s))
            (v154 (ix2 (0 : Fin 1) s) + v270 (ix2 (0 : Fin 1) s) + v386 (ix2 (0 : Fin 1) s) + a3K v462 v465 s)
        + p3K v26 v28 v30 v32 v34 v37 v440 v474 v476 r s * Ideal.div (v154 (ix2 (0 : Fin 1) s))
            (v154 (ix2 (0 : Fin 1) s) + v270 (ix2 (0 : Fin 1) s) + v386 (ix2 (0 : Fin 1) s) + a3K v462 v465 s) := by
  simp only [k0_pay59, addf_apply, mulf_apply, divf_apply, bc_row128, bc_col128, bc_col256, mm_128, mm_256,
    truncf_apply, maximumf_apply, broadcast_apply, cat_rows, cos_at, sin_at, absf_at]
  rfl

/-! ## The last offset's pieces over arbitrary inputs -/

/-- The kernel's named positive shift is the rational the specification's shift is. -/
private theorem named_pos :
    Named.named (F := Ideal) κ "shift_pos" (φ := .f32) 0x3C800219#32 = ((137447749565 / 8796093022208 : ℝ) : EReal) :=
  IdealRules.named_const.ideal_named_scalar _ _ _ _ rfl

/-- Both signs of the last offset are +1, so its shift along either axis is the named positive shift. -/
private theorem shift3 (d : Fin 2) :
    Spec.shift 3 d = Named.named (F := Ideal) κ "shift_pos" (φ := .f32) 0x3C800219#32 := by
  rw [named_pos]
  apply Cert.Math.shift_pos
  fin_cases d <;> simp [Spec.sgn]

private theorem maxsi_at {s : Shape} {w : Nat} (a b : IVec s w) (i : s.Idx) : maxsi a b i = IntOp.maxsi (a i) (b i) := rfl
private theorem minsi_at {s : Shape} {w : Nat} (a b : IVec s w) (i : s.Idx) : minsi a b i = IntOp.minsi (a i) (b i) := rfl
private theorem addi_at {s : Shape} {w : Nat} (a b : IVec s w) (i : s.Idx) : addi a b i = IntOp.addi (a i) (b i) := rfl
private theorem muli_at {s : Shape} {w : Nat} (a b : IVec s w) (i : s.Idx) : muli a b i = IntOp.muli (a i) (b i) := rfl
private theorem cmpi_at {s : Shape} {w : Nat} (p : CmpIPredicate) (a b : IVec s w) (i : s.Idx) :
    cmpi p a b i = IntOp.cmpi p (a i) (b i) := rfl

/-- The nearest pixel along axis 0: shift, clip, pixel coordinate (halved by a product), round half up, clamp. -/
private theorem ni0_at (c : FVec Ideal S1x512 .f32) (s : Fin 512) :
    k0_pay49 (F := Ideal) (k0_pay48 (F := Ideal) c) (ix2 (0 : Fin 1) s)
      = Spec.clampI (Spec.floorI (Spec.pix (Spec.clipc (c (ix2 (0 : Fin 1) s) + Spec.shift 3 0)) + Spec.w32 0x3F000000#32)) := by
  rw [shift3, Spec.pix, ← Cert.Math.mul_half]
  rfl

/-- The nearest pixel along axis 1. -/
private theorem ni1_at (c : FVec Ideal S1x512 .f32) (s : Fin 512) :
    k0_pay52 (k0_pay50 (F := Ideal) c) k0_pay51 (ix2 (0 : Fin 1) s)
      = Spec.clampI (Spec.floorI (Spec.pix (Spec.clipc (c (ix2 (0 : Fin 1) s) + Spec.shift 3 1)) + Spec.w32 0x3F000000#32)) := by
  rw [shift3, Spec.pix, ← Cert.Math.mul_half]
  rfl

/-- The product of the table with the one-hot columns picks, in column s, the table column the flat pixel number names. -/
private theorem pick_at (tb : FVec Ideal S384x4096 .bf16) (a b b51 : IVec S1x512 32) (r : Fin 384) (s : Fin 512)
    (hv : (Spec.flat (a (ix2 (0 : Fin 1) s)) (k0_pay52 b b51 (ix2 (0 : Fin 1) s))).toNat < 4096) :
    k0_pay53 (F := Ideal) tb iov a b b51 (ix2 r s)
      = tb (ix2 r (Spec.row (Spec.flat (a (ix2 (0 : Fin 1) s)) (k0_pay52 b b51 (ix2 (0 : Fin 1) s))))) := by
  simp only [k0_pay53, mm_tab, truncf_apply, sitofp_apply, extui_apply, cmpi_at, iota_at, bc_row4096, addi_at, muli_at,
    broadcast_apply]
  exact Cert.Math.sum_onehot (fun n => tb (ix2 r n)) _ hv

/-- The offset from the pixel centre along axis 0, in pixels. -/
private theorem rel0_at (c : FVec Ideal S1x512 .f32) (a : IVec S1x512 32) (s : Fin 512) :
    k0_pay55 (F := Ideal) c a (ix2 (0 : Fin 1) s)
      = (c (ix2 (0 : Fin 1) s) - Spec.pcen (a (ix2 (0 : Fin 1) s))) * Spec.w32 0x42800000#32 := rfl

/-- The offset from the pixel centre along axis 1, in pixels. -/
private theorem rel1_at (c : FVec Ideal S1x512 .f32) (b b51 : IVec S1x512 32) (s : Fin 512) :
    k0_pay56 (F := Ideal) c b b51 (ix2 (0 : Fin 1) s)
      = (c (ix2 (0 : Fin 1) s) - Spec.pcen (k0_pay52 b b51 (ix2 (0 : Fin 1) s))) * Spec.w32 0x42800000#32 := rfl

/-- The modulated frequency: the picked frequency row times the linear form of the two offsets, plus the phase part. -/
private theorem pay57_at (c0 c1 : FVec Ideal S1x512 .f32) (w0 w1 : Vec Ideal S128x1 .f32) (ph : FVec Ideal S128x512 .f32)
    (tb : FVec Ideal S384x4096 .bf16) (a b b51 : IVec S1x512 32) (k : Fin 128) (s : Fin 512) :
    k0_pay57 (F := Ideal) c0 c1 w0 w1 ph tb iov a b b51 (ix2 k s)
      = k0_pay53 (F := Ideal) tb iov a b b51 (ix2 (⟨256 + k.val, by omega⟩ : Fin 384) s)
          * (w0 (ix2 k (0 : Fin 1)) * k0_pay55 (F := Ideal) c0 a (ix2 (0 : Fin 1) s)
            + w1 (ix2 k (0 : Fin 1)) * k0_pay56 (F := Ideal) c1 b b51 (ix2 (0 : Fin 1) s))
        + ph (ix2 k s) := by
  simp only [k0_pay57, addf_apply, mulf_apply, sl_freq, bc_col128, bc_row128]

/-- The phase part: the linear form of the cell sizes in pixels. -/
private theorem pay4_at (v4 v6 : Vec Ideal S1x512 .f32) (v10 v11 : Vec Ideal S128x1 .f32) (k : Fin 128) (s : Fin 512) :
    k0_pay4 (F := Ideal) v4 v6 v10 v11 (ix2 k s)
      = v10 (ix2 k (0 : Fin 1)) * (v4 (ix2 (0 : Fin 1) s) * Spec.w32 0x42800000#32)
        + v11 (ix2 k (0 : Fin 1)) * (v6 (ix2 (0 : Fin 1) s) * Spec.w32 0x42800000#32) := by
  simp only [k0_pay4, addf_apply, mulf_apply, bc_col128, bc_row128, shapeCast_self, broadcast_apply]
  rfl

/-! ## The last offset at the specification's tables -/

section AtBlocks

variable (SA : Spec.Args) (t : Fin 128) (x0 : Vec Ideal S2x512 .f32) (x1 : Vec Ideal S2x512 .f32)
  (x2 : Vec Ideal S384x4096 .bf16) (x3 : Vec Ideal S128x4096 .bf16) (x4 : Vec Ideal S256x256 .bf16)
  (x5 : Vec Ideal S256x256 .bf16) (x6 : Vec Ideal S128x256 .bf16) (x7 : Vec Ideal S256 .f32) (x8 : Vec Ideal S256 .f32)
  (x9 : Vec Ideal S128 .f32) (x10 : Vec Ideal S128x2 .f32) (x11 : Vec Ideal S128x2 .f32)
  (hB : Blocks SA t x0 x1 x2 x3 x4 x5 x6 x7 x8 x9 x10 x11)

include hB

/-- The two coordinate rows hold the query's two coordinates. -/
private theorem c0_eq (s : Fin 512) : c0v x0 (ix2 (0 : Fin 1) s) = SA.crd (qq t s) 0 := by
  show k0_pay2 (F := Ideal) (View.ld x0 r0_0) (ix2 (0 : Fin 1) s) = _
  simp only [k0_pay2, shapeCast_self]
  rw [ld_row0, hB.crd]

private theorem c1_eq (s : Fin 512) : c1v x0 (ix2 (0 : Fin 1) s) = SA.crd (qq t s) 1 := by
  show k0_pay3 (F := Ideal) (View.ld x0 r0_1) (ix2 (0 : Fin 1) s) = _
  simp only [k0_pay3, shapeCast_self]
  rw [ld_row1, hB.crd]

/-- The kernel's two pixel numbers of the last offset are the specification's. -/
private theorem n0_eq (s : Fin 512) :
    k0_pay49 (F := Ideal) (k0_pay48 (F := Ideal) (c0v x0)) (ix2 (0 : Fin 1) s) = Spec.ni SA 3 (qq t s) 0 := by
  rw [ni0_at, c0_eq SA t x0 x1 x2 x3 x4 x5 x6 x7 x8 x9 x10 x11 hB]
  rfl

private theorem n1_eq (s : Fin 512) :
    k0_pay52 (k0_pay50 (F := Ideal) (c1v x0)) k0_pay51 (ix2 (0 : Fin 1) s) = Spec.ni SA 3 (qq t s) 1 := by
  rw [ni1_at, c1_eq SA t x0 x1 x2 x3 x4 x5 x6 x7 x8 x9 x10 x11 hB]
  rfl

/-- The flat pixel number of the last offset is a row number of the table. -/
private theorem lin_lt (s : Fin 512) : (Spec.lin SA 3 (qq t s)).toNat < 4096 :=
  (Cert.Math.flat_range _ _ (Cert.Math.clampI_range _) (Cert.Math.clampI_range _)).1

/-- The picked table row r of the last offset. -/
private theorem pick_eq (r : Fin 384) (s : Fin 512) :
    k0_pay53 (F := Ideal) (tbv x2) iov (k0_pay49 (k0_pay48 (c0v x0))) (k0_pay50 (c1v x0)) k0_pay51 (ix2 r s)
      = x2 (ix2 r (Spec.row (Spec.lin SA 3 (qq t s)))) := by
  have hl : Spec.flat (k0_pay49 (F := Ideal) (k0_pay48 (F := Ideal) (c0v x0)) (ix2 (0 : Fin 1) s))
      (k0_pay52 (k0_pay50 (F := Ideal) (c1v x0)) k0_pay51 (ix2 (0 : Fin 1) s)) = Spec.lin SA 3 (qq t s) := by
    rw [n0_eq SA t x0 x1 x2 x3 x4 x5 x6 x7 x8 x9 x10 x11 hB, n1_eq SA t x0 x1 x2 x3 x4 x5 x6 x7 x8 x9 x10 x11 hB]
    rfl
  rw [pick_at _ _ _ _ _ _ (by rw [hl]; exact lin_lt SA t x0 x1 x2 x3 x4 x5 x6 x7 x8 x9 x10 x11 hB s), hl]
  show k0_pay5 (F := Ideal) (View.ld x2 r0_4) _ = _
  simp only [k0_pay5, shapeCast_self, ld_tab]

/-- The gathered coefficients. -/
private theorem coef_eq (c : Fin 256) (s : Fin 512) :
    o3coef x0 x1 x2 x3 x4 x5 x6 x7 x8 x9 x10 x11 (ix2 c s) = SA.coef c (Spec.row (Spec.lin SA 3 (qq t s))) := by
  show k0_pay54 (F := Ideal) (tbv x2) iov (k0_pay49 (k0_pay48 (c0v x0))) (k0_pay50 (c1v x0)) k0_pay51 (ix2 c s) = _
  simp only [k0_pay54, sl_coef]
  rw [pick_eq SA t x0 x1 x2 x3 x4 x5 x6 x7 x8 x9 x10 x11 hB, hB.coef]

/-- The two offsets from the pixel centre. -/
private theorem rel0_eq (s : Fin 512) :
    o3rel0 x0 x1 x2 x3 x4 x5 x6 x7 x8 x9 x10 x11 (ix2 (0 : Fin 1) s) = Spec.rel SA 3 (qq t s) 0 := by
  show k0_pay55 (F := Ideal) (c0v x0) (k0_pay49 (k0_pay48 (c0v x0))) (ix2 (0 : Fin 1) s) = _
  rw [rel0_at, n0_eq SA t x0 x1 x2 x3 x4 x5 x6 x7 x8 x9 x10 x11 hB, c0_eq SA t x0 x1 x2 x3 x4 x5 x6 x7 x8 x9 x10 x11 hB]
  rfl

private theorem rel1_eq (s : Fin 512) :
    o3rel1 x0 x1 x2 x3 x4 x5 x6 x7 x8 x9 x10 x11 (ix2 (0 : Fin 1) s) = Spec.rel SA 3 (qq t s) 1 := by
  show k0_pay56 (F := Ideal) (c1v x0) (k0_pay50 (c1v x0)) k0_pay51 (ix2 (0 : Fin 1) s) = _
  rw [rel1_at, n1_eq SA t x0 x1 x2 x3 x4 x5 x6 x7 x8 x9 x10 x11 hB, c1_eq SA t x0 x1 x2 x3 x4 x5 x6 x7 x8 x9 x10 x11 hB]
  rfl

/-- The phase part is the specification's linear form of the cell size. -/
private theorem ph_eq (k : Fin 128) (s : Fin 512) : phv x1 x11 (ix2 k s) = Spec.php SA (qq t s) k := by
  show k0_pay4 (F := Ideal) (View.ld x1 r0_0) (View.ld x1 r0_1) (View.ld x11 r0_2) (View.ld x11 r0_3) (ix2 k s) = _
  rw [pay4_at, ld_row0, ld_row1, ld_col0, ld_col1, hB.cel, hB.cel, hB.wph, hB.wph]
  rfl

/-- The modulated frequencies. -/
private theorem zf_eq (k : Fin 128) (s : Fin 512) :
    o3a x0 x1 x2 x3 x4 x5 x6 x7 x8 x9 x10 x11 (ix2 k s) = Spec.zf SA 3 (qq t s) k := by
  show k0_pay57 (F := Ideal) (c0v x0) (c1v x0) (wc0v x10) (wc1v x10) (phv x1 x11) (tbv x2) iov
    (k0_pay49 (k0_pay48 (c0v x0))) (k0_pay50 (c1v x0)) k0_pay51 (ix2 k s) = _
  rw [pay57_at, pick_eq SA t x0 x1 x2 x3 x4 x5 x6 x7 x8 x9 x10 x11 hB, hB.freq,
    ph_eq SA t x0 x1 x2 x3 x4 x5 x6 x7 x8 x9 x10 x11 hB]
  have e0 := rel0_eq SA t x0 x1 x2 x3 x4 x5 x6 x7 x8 x9 x10 x11 hB s
  have e1 := rel1_eq SA t x0 x1 x2 x3 x4 x5 x6 x7 x8 x9 x10 x11 hB s
  unfold o3rel0 at e0
  unfold o3rel1 at e1
  rw [e0, e1]
  show _ * (View.ld x10 r0_2 (ix2 k (0 : Fin 1)) * _ + View.ld x10 r0_3 (ix2 k (0 : Fin 1)) * _) + _ = _
  rw [ld_col0, ld_col1, hB.wcf, hB.wcf]
  rfl

/-- The modulated frequencies times pi. -/
private theorem zb_eq (k : Fin 128) (s : Fin 512) :
    o3b x0 x1 x2 x3 x4 x5 x6 x7 x8 x9 x10 x11 (ix2 k s) = Spec.w32 0x40490FDB#32 * Spec.zf SA 3 (qq t s) k := by
  rw [← zf_eq SA t x0 x1 x2 x3 x4 x5 x6 x7 x8 x9 x10 x11 hB]
  rfl

/-- The Fourier features. -/
private theorem feat_eq (c : Fin 256) (s : Fin 512) :
    featK (o3a x0 x1 x2 x3 x4 x5 x6 x7 x8 x9 x10 x11) (o3b x0 x1 x2 x3 x4 x5 x6 x7 x8 x9 x10 x11) c s
      = Spec.feat SA 3 (qq t s) c := by
  unfold featK Spec.feat
  simp only [zf_eq SA t x0 x1 x2 x3 x4 x5 x6 x7 x8 x9 x10 x11 hB, zb_eq SA t x0 x1 x2 x3 x4 x5 x6 x7 x8 x9 x10 x11 hB]

/-- The weights and biases are the specification's. -/
private theorem W1_eq (d c : Fin 256) : W1v x4 (ix2 d c) = SA.w1 d c := by
  show k0_pay6 (F := Ideal) (View.ld x4 r0_5) (ix2 d c) = _
  simp only [k0_pay6, shapeCast_self, ld_w256, hB.w1]

private theorem W2_eq (d c : Fin 256) : W2v x5 (ix2 d c) = SA.w2 d c := by
  show k0_pay7 (F := Ideal) (View.ld x5 r0_5) (ix2 d c) = _
  simp only [k0_pay7, shapeCast_self, ld_w256, hB.w2]

private theorem W3_eq (j : Fin 3) (c : Fin 256) : W3v x6 (ix2 (r3 j) c) = SA.w3 j c := by
  show k0_pay8 (F := Ideal) (View.ld x6 r0_6) (ix2 (r3 j) c) = _
  simp only [k0_pay8, shapeCast_self, ld_w128, hB.w3]

private theorem B1_eq (d : Fin 256) : B1v x7 (ix2 d (0 : Fin 1)) = SA.b1 d := by
  show k0_pay9 (F := Ideal) (View.ld x7 r0_7) (ix2 d (0 : Fin 1)) = _
  simp only [k0_pay9, col256, ld_b256, hB.b1]

private theorem B2_eq (d : Fin 256) : B2v x8 (ix2 d (0 : Fin 1)) = SA.b2 d := by
  show k0_pay10 (F := Ideal) (View.ld x8 r0_7) (ix2 d (0 : Fin 1)) = _
  simp only [k0_pay10, col256, ld_b256, hB.b2]

private theorem B3_eq (j : Fin 3) : B3v x9 (ix2 (r3 j) (0 : Fin 1)) = SA.b3 j := by
  show k0_pay11 (F := Ideal) (View.ld x9 r0_8) (ix2 (r3 j) (0 : Fin 1)) = _
  simp only [k0_pay11, col128, shapeCast_self, ld_b128, hB.b3]

/-- The first hidden layer. -/
private theorem h1_eq (d : Fin 256) (s : Fin 512) :
    h1K (W1v x4) (B1v x7) (o3coef x0 x1 x2 x3 x4 x5 x6 x7 x8 x9 x10 x11) (o3a x0 x1 x2 x3 x4 x5 x6 x7 x8 x9 x10 x11)
      (o3b x0 x1 x2 x3 x4 x5 x6 x7 x8 x9 x10 x11) d s = Spec.h1 SA 3 (qq t s) d := by
  unfold h1K Spec.h1 Spec.x0
  simp only [W1_eq SA t x0 x1 x2 x3 x4 x5 x6 x7 x8 x9 x10 x11 hB, B1_eq SA t x0 x1 x2 x3 x4 x5 x6 x7 x8 x9 x10 x11 hB,
    coef_eq SA t x0 x1 x2 x3 x4 x5 x6 x7 x8 x9 x10 x11 hB, feat_eq SA t x0 x1 x2 x3 x4 x5 x6 x7 x8 x9 x10 x11 hB,
    Cert.Math.w32_zero]

/-- The second hidden layer. -/
private theorem h2_eq (d : Fin 256) (s : Fin 512) :
    h2K (W1v x4) (W2v x5) (B1v x7) (B2v x8) (o3coef x0 x1 x2 x3 x4 x5 x6 x7 x8 x9 x10 x11)
      (o3a x0 x1 x2 x3 x4 x5 x6 x7 x8 x9 x10 x11) (o3b x0 x1 x2 x3 x4 x5 x6 x7 x8 x9 x10 x11) d s
      = Spec.h2 SA 3 (qq t s) d := by
  unfold h2K Spec.h2
  simp only [W2_eq SA t x0 x1 x2 x3 x4 x5 x6 x7 x8 x9 x10 x11 hB, B2_eq SA t x0 x1 x2 x3 x4 x5 x6 x7 x8 x9 x10 x11 hB,
    h1_eq SA t x0 x1 x2 x3 x4 x5 x6 x7 x8 x9 x10 x11 hB, Cert.Math.w32_zero]

/-- The last offset's prediction. -/
private theorem p3_eq (j : Fin 3) (s : Fin 512) :
    p3K (W1v x4) (W2v x5) (W3v x6) (B1v x7) (B2v x8) (B3v x9) (o3coef x0 x1 x2 x3 x4 x5 x6 x7 x8 x9 x10 x11)
      (o3a x0 x1 x2 x3 x4 x5 x6 x7 x8 x9 x10 x11) (o3b x0 x1 x2 x3 x4 x5 x6 x7 x8 x9 x10 x11) (r3 j) s
      = Spec.pred SA 3 (qq t s) j := by
  unfold p3K Spec.pred
  simp only [W3_eq SA t x0 x1 x2 x3 x4 x5 x6 x7 x8 x9 x10 x11 hB, B3_eq SA t x0 x1 x2 x3 x4 x5 x6 x7 x8 x9 x10 x11 hB,
    h2_eq SA t x0 x1 x2 x3 x4 x5 x6 x7 x8 x9 x10 x11 hB]

/-- The last offset's area. -/
private theorem a3_eq (s : Fin 512) :
    a3K (o3rel0 x0 x1 x2 x3 x4 x5 x6 x7 x8 x9 x10 x11) (o3rel1 x0 x1 x2 x3 x4 x5 x6 x7 x8 x9 x10 x11) s
      = Spec.area SA 3 (qq t s) := by
  unfold a3K Spec.area
  rw [rel0_eq SA t x0 x1 x2 x3 x4 x5 x6 x7 x8 x9 x10 x11 hB, rel1_eq SA t x0 x1 x2 x3 x4 x5 x6 x7 x8 x9 x10 x11 hB]

end AtBlocks

/-- The ensemble at channel j, column s is the specification's, given the first three offsets' predictions and areas. -/
theorem retp_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11)
    (hp0 : ∀ (j : Fin 3) (s : Fin 512), pred0 x0 x1 x2 x3 x4 x5 x6 x7 x8 x9 x10 x11 (ix2 (r3 j) s) = Spec.pred SA 0 (qq t s) j)
    (ha0 : ∀ s : Fin 512, area0 x0 x1 x2 x3 x4 x5 x6 x7 x8 x9 x10 x11 (ix2 (0 : Fin 1) s) = Spec.area SA 0 (qq t s))
    (hp1 : ∀ (j : Fin 3) (s : Fin 512), pred1 x0 x1 x2 x3 x4 x5 x6 x7 x8 x9 x10 x11 (ix2 (r3 j) s) = Spec.pred SA 1 (qq t s) j)
    (ha1 : ∀ s : Fin 512, area1 x0 x1 x2 x3 x4 x5 x6 x7 x8 x9 x10 x11 (ix2 (0 : Fin 1) s) = Spec.area SA 1 (qq t s))
    (hp2 : ∀ (j : Fin 3) (s : Fin 512), pred2 x0 x1 x2 x3 x4 x5 x6 x7 x8 x9 x10 x11 (ix2 (r3 j) s) = Spec.pred SA 2 (qq t s) j)
    (ha2 : ∀ s : Fin 512, area2 x0 x1 x2 x3 x4 x5 x6 x7 x8 x9 x10 x11 (ix2 (0 : Fin 1) s) = Spec.area SA 2 (qq t s))
    (j : Fin 3) (s : Fin 512) :
    retp x0 x1 x2 x3 x4 x5 x6 x7 x8 x9 x10 x11 (ix2 (r3 j) s) = Spec.ret SA (qq t s) j := by
  unfold retp
  rw [pay59_at, hp0, hp1, hp2, ha0, ha1, ha2,
    a3_eq SA t x0 x1 x2 x3 x4 x5 x6 x7 x8 x9 x10 x11 hB, p3_eq SA t x0 x1 x2 x3 x4 x5 x6 x7 x8 x9 x10 x11 hB]
  rfl

end Cert.KernelIdeal.KV

end
-- ==== Proof.KS.lean ====
/-
  The bilinear sample of the kernel's block read at an index: the clipped pixel coordinates, their floors and clamped
  successors, the four weighted one-hot columns summed, and their product with the image table (four picked entries).
-/
import proofs.«148257_j30657476559104_1_alg».proof.Proof.KTerms
import proofs.«148257_j30657476559104_1_alg».proof.Proof.KLib
import proofs.«148257_j30657476559104_1_alg».proof.Proof.MathW
import proofs.«148257_j30657476559104_1_alg».proof.Proof.MathS

noncomputable section

namespace Cert.KernelIdeal.KV

open Idealize.ShloMosaic Idealize.ShloMosaic.ValueIdx Cert.KernelIdeal Cert.KernelIdeal.Gen

/-- The clipped pixel coordinate of a normalised coordinate. -/
private def gpc (c : EReal) : EReal := min (Spec.w32 0x427C0000#32) (max (Spec.w32 0x00000000#32) (Spec.pix c))

private theorem gp_eq (SA : Spec.Args) (q : Fin 65536) (d : Fin 2) : Spec.gp SA q d = gpc (SA.crd q d) := rfl

/-- The first coordinate's pixel coordinate before halving and clipping. -/
private theorem pay60_at (v : FVec Ideal S1x512 .f32) (i : S1x512.Idx) :
    k0_pay60 (F := Ideal) v i = (v i + Spec.w32 0x3F800000#32) * Spec.w32 0x42800000#32 - Spec.w32 0x3F800000#32 := rfl

/-- Halved and clipped: the clipped pixel coordinate. -/
private theorem pay61_60_at (v : FVec Ideal S1x512 .f32) (i : S1x512.Idx) :
    k0_pay61 (F := Ideal) (k0_pay60 (F := Ideal) v) i = gpc (v i) := by
  show min (Spec.w32 0x427C0000#32) (max (Spec.w32 0x00000000#32)
    (((v i + Spec.w32 0x3F800000#32) * Spec.w32 0x42800000#32 - Spec.w32 0x3F800000#32) * Spec.w32 0x3F000000#32)) = _
  rw [Math.mul_half]
  rfl

private theorem pay62_at (v : FVec Ideal S1x512 .f32) (i : S1x512.Idx) :
    k0_pay62 (F := Ideal) v i = gpc (v i) := by
  show min (Spec.w32 0x427C0000#32) (max (Spec.w32 0x00000000#32)
    (((v i + Spec.w32 0x3F800000#32) * Spec.w32 0x42800000#32 - Spec.w32 0x3F800000#32) * Spec.w32 0x3F000000#32)) = _
  rw [Math.mul_half]
  rfl

/-- The floors, the clamped successors, the fractional parts and the flat numbers, over a variable first coordinate
    row u (before halving) and second coordinate row v. -/
private theorem pay63_at (u : FVec Ideal S1x512 .f32) (i : S1x512.Idx) :
    k0_pay63 (F := Ideal) u i = Spec.floorI (k0_pay61 (F := Ideal) u i) := rfl
private theorem pay64_at (v : FVec Ideal S1x512 .f32) (i : S1x512.Idx) :
    k0_pay64 (F := Ideal) v i = Spec.floorI (k0_pay62 (F := Ideal) v i) := rfl
private theorem pay65_at (u : FVec Ideal S1x512 .f32) (i : S1x512.Idx) :
    k0_pay65 (F := Ideal) u i = Spec.clampI (IntOp.addi (k0_pay63 (F := Ideal) u i) 1#32) := rfl
private theorem pay66_at (v : FVec Ideal S1x512 .f32) (i : S1x512.Idx) :
    k0_pay66 (F := Ideal) v i = Spec.clampI (IntOp.addi (k0_pay64 (F := Ideal) v i) 1#32) := rfl
private theorem pay67_at (u : FVec Ideal S1x512 .f32) (i : S1x512.Idx) :
    k0_pay67 (F := Ideal) u i = k0_pay61 (F := Ideal) u i - Spec.ofI (k0_pay63 (F := Ideal) u i) := rfl
private theorem pay68_at (v : FVec Ideal S1x512 .f32) (i : S1x512.Idx) :
    k0_pay68 (F := Ideal) v i = k0_pay62 (F := Ideal) v i - Spec.ofI (k0_pay64 (F := Ideal) v i) := rfl
private theorem pay69_at (v u : FVec Ideal S1x512 .f32) (i : S1x512.Idx) :
    k0_pay69 (F := Ideal) v u i = Spec.flat (k0_pay63 (F := Ideal) u i) (k0_pay64 (F := Ideal) v i) := rfl
private theorem pay70_at (u : FVec Ideal S1x512 .f32) (i : S1x512.Idx) :
    k0_pay70 (F := Ideal) u i = IntOp.muli (k0_pay63 (F := Ideal) u i) 64#32 := rfl

/-- A one-hot column of the table axis against a row of index words, read at table row n, column s. -/
private theorem onehot_at (w : IVec S1x512 32) (n : Fin 4096) (s : Fin 512) :
    (sitofp .f32 (extui 32 (cmpi .eq iov (broadcastTo S4096x512 w broadcasts_S1x512_S4096x512)) natLt_1_32) :
        FVec Ideal S4096x512 .f32) (ix2 n s)
      = Math.oh (BitVec.ofNat 32 n.val) (w (ix2 (0 : Fin 1) s)) := by
  show Math.oh (iov (ix2 n s)) (broadcastTo S4096x512 w broadcasts_S1x512_S4096x512 (ix2 n s)) = _
  rw [iota_at, bc_row4096]

/-- The product of the image table with the four weighted one-hot columns, read at row r, column s. -/
private theorem pay71_at (v548 v554 v560 : IVec S1x512 32) (v562 v564 : FVec Ideal S1x512 .f32) (v567 v569 : IVec S1x512 32)
    (im : Vec Ideal S128x4096 .bf16) (r : Fin 128) (s : Fin 512) :
    k0_pay71 (F := Ideal) iov v548 v554 v560 v562 v564 v567 v569 im (ix2 r s)
      = ∑ n : Fin 4096, im (ix2 r n) *
          (Math.oh (BitVec.ofNat 32 n.val) (v567 (ix2 (0 : Fin 1) s))
              * ((Spec.w32 0x3F800000#32 - v562 (ix2 (0 : Fin 1) s)) * (Spec.w32 0x3F800000#32 - v564 (ix2 (0 : Fin 1) s)))
            + Math.oh (BitVec.ofNat 32 n.val) (IntOp.addi (v569 (ix2 (0 : Fin 1) s)) (v560 (ix2 (0 : Fin 1) s)))
              * ((Spec.w32 0x3F800000#32 - v562 (ix2 (0 : Fin 1) s)) * v564 (ix2 (0 : Fin 1) s))
            + Math.oh (BitVec.ofNat 32 n.val) (IntOp.addi (IntOp.muli (v554 (ix2 (0 : Fin 1) s)) 64#32) (v548 (ix2 (0 : Fin 1) s)))
              * (v562 (ix2 (0 : Fin 1) s) * (Spec.w32 0x3F800000#32 - v564 (ix2 (0 : Fin 1) s)))
            + Math.oh (BitVec.ofNat 32 n.val) (IntOp.addi (IntOp.muli (v554 (ix2 (0 : Fin 1) s)) 64#32) (v560 (ix2 (0 : Fin 1) s)))
              * (v562 (ix2 (0 : Fin 1) s) * v564 (ix2 (0 : Fin 1) s))) := by
  simp only [k0_pay71, shapeCast_self]
  rw [mm_img]
  refine Finset.sum_congr rfl fun n _ => ?_
  congr 1
  simp only [truncf_apply, addf_apply, mulf_apply, onehot_at, bc_row4096]
  rfl

/-- The sample at channel j, column s is the specification's, when the image is real-valued. -/
theorem smp_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11)
    (hImg : ∀ (j : Fin 3) (n : Fin 4096), ∃ r : ℝ, SA.img j n = (r : EReal)) (j : Fin 3) (s : Fin 512) :
    smp x0 x1 x2 x3 x4 x5 x6 x7 x8 x9 x10 x11 (ix2 (r3 j) s) = Spec.samp SA (qq t s) j := by
  -- the two coordinate rows hold the query's coordinates
  have hc0 : k0_pay2 (F := Ideal) (View.ld x0 r0_0) (ix2 (0 : Fin 1) s) = SA.crd (qq t s) 0 :=
    (congrFun (shapeCast_self (s := S1x512) (View.ld x0 r0_0) shapeCasts_S1x512_S1x512) (ix2 (0 : Fin 1) s)).trans
      ((ld_row0 x0 s).trans (hB.crd 0 s))
  have hc1 : k0_pay3 (F := Ideal) (View.ld x0 r0_1) (ix2 (0 : Fin 1) s) = SA.crd (qq t s) 1 :=
    (congrFun (shapeCast_self (s := S1x512) (View.ld x0 r0_1) shapeCasts_S1x512_S1x512) (ix2 (0 : Fin 1) s)).trans
      ((ld_row1 x0 s).trans (hB.crd 1 s))
  -- the four flat numbers are rows of the table, and the four weights are real
  have gr0 := Math.gp_range SA (qq t s) 0
  have gr1 := Math.gp_range SA (qq t s) 1
  have hlo0 : 0 ≤ (Spec.lo SA (qq t s) 0).toInt ∧ (Spec.lo SA (qq t s) 0).toInt ≤ 63 := Math.floorI_range _ gr0.1 gr0.2
  have hlo1 : 0 ≤ (Spec.lo SA (qq t s) 1).toInt ∧ (Spec.lo SA (qq t s) 1).toInt ≤ 63 := Math.floorI_range _ gr1.1 gr1.2
  have hup0 : 0 ≤ (Spec.up SA (qq t s) 0).toInt ∧ (Spec.up SA (qq t s) 0).toInt ≤ 63 := Math.clampI_range _
  have hup1 : 0 ≤ (Spec.up SA (qq t s) 1).toInt ∧ (Spec.up SA (qq t s) 1).toInt ≤ 63 := Math.clampI_range _
  obtain ⟨f0, hf0⟩ := Math.fr_real SA (qq t s) 0
  obtain ⟨f1, hf1⟩ := Math.fr_real SA (qq t s) 1
  have ha : ∃ r : ℝ, (Spec.w32 0x3F800000#32 - Spec.fr SA (qq t s) 0) * (Spec.w32 0x3F800000#32 - Spec.fr SA (qq t s) 1) = (r : EReal) :=
    ⟨(1 - f0) * (1 - f1), by rw [hf0, hf1, Math.w32_one, ← EReal.coe_sub, ← EReal.coe_sub, ← EReal.coe_mul]⟩
  have hb : ∃ r : ℝ, (Spec.w32 0x3F800000#32 - Spec.fr SA (qq t s) 0) * Spec.fr SA (qq t s) 1 = (r : EReal) :=
    ⟨(1 - f0) * f1, by rw [hf0, hf1, Math.w32_one, ← EReal.coe_sub, ← EReal.coe_mul]⟩
  have hc : ∃ r : ℝ, Spec.fr SA (qq t s) 0 * (Spec.w32 0x3F800000#32 - Spec.fr SA (qq t s) 1) = (r : EReal) :=
    ⟨f0 * (1 - f1), by rw [hf0, hf1, Math.w32_one, ← EReal.coe_sub, ← EReal.coe_mul]⟩
  have hd : ∃ r : ℝ, Spec.fr SA (qq t s) 0 * Spec.fr SA (qq t s) 1 = (r : EReal) :=
    ⟨f0 * f1, by rw [hf0, hf1, ← EReal.coe_mul]⟩
  -- the image table's first three rows are the specification's image
  have himg : ∀ n : Fin 4096, imv x3 (ix2 (r3 j) n) = SA.img j n := fun n =>
    (congrFun (ld_img x3) (ix2 (r3 j) n)).trans (hB.img j n)
  unfold smp
  rw [pay71_at]
  simp only [pay69_at, pay70_at, pay67_at, pay68_at, pay65_at, pay66_at, pay63_at, pay64_at, pay61_60_at, pay62_at,
    hc0, hc1, ← gp_eq, himg]
  exact Math.sum_onehot4 (SA.img j) (hImg j) _ _ _ _ (Math.flat_range _ _ hlo0 hlo1).1 (Math.flat_range _ _ hlo0 hup1).1
    (Math.flat_range _ _ hup0 hlo1).1 (Math.flat_range _ _ hup0 hup1).1 _ _ _ _ ha hb hc hd

end Cert.KernelIdeal.KV

end
-- ==== Proof.KBlock.lean ====
/-
  The block the kernel writes at grid point t is the specification's result at queries 512 t … 512 t + 511, transposed.
-/
import proofs.«148257_j30657476559104_1_alg».proof.Proof.K0
import proofs.«148257_j30657476559104_1_alg».proof.Proof.K1
import proofs.«148257_j30657476559104_1_alg».proof.Proof.K2
import proofs.«148257_j30657476559104_1_alg».proof.Proof.K3
import proofs.«148257_j30657476559104_1_alg».proof.Proof.KS

noncomputable section

namespace Cert.KernelIdeal.KV

open Idealize.ShloMosaic Idealize.ShloMosaic.ValueIdx Cert.KernelIdeal Cert.KernelIdeal.Gen

/-- The store's offsets are zero: its rectangle is the whole block. -/
private theorem hz : (![0, 0] : Fin S3x512.rank → Nat) = fun _ => 0 := funext fun a => by fin_cases a <;> rfl

theorem block_eq (SA : Spec.Args) (t : Fin 128) (x0 : Vec Ideal S2x512 .f32) (x1 : Vec Ideal S2x512 .f32) (x2 : Vec Ideal S384x4096 .bf16) (x3 : Vec Ideal S128x4096 .bf16) (x4 : Vec Ideal S256x256 .bf16) (x5 : Vec Ideal S256x256 .bf16) (x6 : Vec Ideal S128x256 .bf16) (x7 : Vec Ideal S256 .f32) (x8 : Vec Ideal S256 .f32) (x9 : Vec Ideal S128 .f32) (x10 : Vec Ideal S128x2 .f32) (x11 : Vec Ideal S128x2 .f32) (hB : Blocks SA t x0 x1 x2 x3 x4 x5 x6 x7 x8 x9 x10 x11)
    (hImg : ∀ (j : Fin 3) (n : Fin 4096), ∃ r : ℝ, SA.img j n = (r : EReal)) (j : Fin 3) (s : Fin 512) :
    out0_12 (F := Ideal) x0 x1 x2 x3 x4 x5 x6 x7 x8 x9 x10 x11 (ix2 j s) = Spec.out SA (qq t s) j := by
  -- the block is the first three rows of the ensemble plus those of the sample
  rw [out0_12_eq, View.canon_unit_zero hz]
  simp only [k0_pay1, k0_pay72]
  rw [addf_apply, sl_top3, sl_top3]
  -- the ensemble, from the three offsets' predictions and areas, and the sample
  rw [retp_eq SA t x0 x1 x2 x3 x4 x5 x6 x7 x8 x9 x10 x11 hB
      (fun j s => pred0_eq SA t x0 x1 x2 x3 x4 x5 x6 x7 x8 x9 x10 x11 hB j s) (fun s => area0_eq SA t x0 x1 x2 x3 x4 x5 x6 x7 x8 x9 x10 x11 hB s)
      (fun j s => pred1_eq SA t x0 x1 x2 x3 x4 x5 x6 x7 x8 x9 x10 x11 hB j s) (fun s => area1_eq SA t x0 x1 x2 x3 x4 x5 x6 x7 x8 x9 x10 x11 hB s)
      (fun j s => pred2_eq SA t x0 x1 x2 x3 x4 x5 x6 x7 x8 x9 x10 x11 hB j s) (fun s => area2_eq SA t x0 x1 x2 x3 x4 x5 x6 x7 x8 x9 x10 x11 hB s) j s,
    smp_eq SA t x0 x1 x2 x3 x4 x5 x6 x7 x8 x9 x10 x11 hB hImg j s]
  rfl

end Cert.KernelIdeal.KV

end
-- ==== Proof.KIn.lean ====
/-
  At every grid point the twelve input blocks the kernel stages are the blocks of the specification's tables: the
  host lines before the call only flatten, stack, pad and transpose the argument arrays.
-/
import proofs.«148257_j30657476559104_1_alg».proof.Proof.KTerms
import Idealize.ShloMosaic.Lib.Pipeline.Value
import Idealize.ShloMosaic.Lib.StableHlo.Run

noncomputable section

namespace Cert.KernelIdeal.KV

open Idealize.ShloMosaic Idealize.ShloMosaic.ValueIdx Cert.KernelIdeal Cert.KernelIdeal.Gen

variable (m : (ℓ : Loc nD τ sig) → Buf (Elt Ideal) ℓ)

/-- The specification's tables of core c's argument arrays. -/
abbrev SAm (c : Dev nD) : Spec.Args := Spec.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- A grid point as a number below 128. -/
def tt (t : Fin cfg0.N) : Fin 128 := ⟨t.val, by have h := t.isLt; have e : cfg0.N = 128 := N_0; omega⟩

/-! ## The windows' block indices over the grid -/

/-- The printed index maps, decided over the grid: the coordinate and cell windows move along the queries with the
    point, every other input window stays at its one block. -/
private theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 1) = 0
    ∧ win0_9.index t (0 : Fin 1) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## The arrays the host lines write, as operations of the argument arrays -/

private theorem v12_eq (c : Dev nD) : (V m c main_v12 : S2x65536.Idx → EReal)
    = transpose S2x65536 [1, 0] (shapeCast S65536x2 (m ((c.tc : Thread nD τ).loc main_arg3)) shapeCasts_S1x65536x2_S65536x2) transposes_S65536x2_S2x65536_1_0 := by
  dsimp only [Gen.V, Gen.V0]
  simp only [Gen.hostOps0, List.flatten_cons, List.flatten_nil, List.append_nil]
  after_results
  rfl

private theorem v14_eq (c : Dev nD) : (V m c main_v14 : S2x65536.Idx → EReal)
    = transpose S2x65536 [1, 0] (shapeCast S65536x2 (m ((c.tc : Thread nD τ).loc main_arg4)) shapeCasts_S1x65536x2_S65536x2) transposes_S65536x2_S2x65536_1_0 := by
  dsimp only [Gen.V, Gen.V0]
  simp only [Gen.hostOps0, List.flatten_cons, List.flatten_nil, List.append_nil]
  after_results
  rfl

private theorem v5_eq (c : Dev nD) : (V m c main_v5 : S384x4096.Idx → EReal)
    = truncf (F := Ideal) (φ := .f32) .bf16 (concatenate S384x4096 0
        [⟨S256x4096, shapeCast S256x4096 (shapeCast S256x64x64 (m ((c.tc : Thread nD τ).loc main_arg1)) shapeCasts_S1x256x64x64_S256x64x64) shapeCasts_S256x64x64_S256x4096⟩,
         ⟨S128x4096, shapeCast S128x4096 (shapeCast S128x64x64 (m ((c.tc : Thread nD τ).loc main_arg2)) shapeCasts_S1x128x64x64_S128x64x64) shapeCasts_S128x64x64_S128x4096⟩]
        concatenates_S256x4096_S128x4096_S384x4096_d0) bitsLt_bf16_f32 := by
  dsimp only [Gen.V, Gen.V0]
  simp only [Gen.hostOps0, List.flatten_cons, List.flatten_nil, List.append_nil]
  after_results
  rfl

private theorem v10_eq (c : Dev nD) : (V m c main_v10 : S128x4096.Idx → EReal)
    = truncf (F := Ideal) (φ := .f32) .bf16 (concatenate S128x4096 0
        [⟨S3x4096, shapeCast S3x4096 (shapeCast S3x64x64 (m ((c.tc : Thread nD τ).loc main_arg0)) shapeCasts_S1x3x64x64_S3x64x64) shapeCasts_S3x64x64_S3x4096⟩,
         ⟨S125x4096, broadcastInDim S125x4096 ![] bcast_S_S125x4096 (constant (F := Ideal) S_ .f32 0x00000000#32)⟩]
        concatenates_S3x4096_S125x4096_S128x4096_d0) bitsLt_bf16_f32 := by
  dsimp only [Gen.V, Gen.V0]
  simp only [Gen.hostOps0, List.flatten_cons, List.flatten_nil, List.append_nil]
  after_results
  rfl

private theorem v15_eq (c : Dev nD) : (V m c main_v15 : S256x256.Idx → EReal)
    = truncf (F := Ideal) (φ := .f32) .bf16 (m ((c.tc : Thread nD τ).loc main_arg7)) bitsLt_bf16_f32 := by
  dsimp only [Gen.V, Gen.V0]
  simp only [Gen.hostOps0, List.flatten_cons, List.flatten_nil, List.append_nil]
  after_results

private theorem v16_eq (c : Dev nD) : (V m c main_v16 : S256x256.Idx → EReal)
    = truncf (F := Ideal) (φ := .f32) .bf16 (m ((c.tc : Thread nD τ).loc main_arg9)) bitsLt_bf16_f32 := by
  dsimp only [Gen.V, Gen.V0]
  simp only [Gen.hostOps0, List.flatten_cons, List.flatten_nil, List.append_nil]
  after_results

private theorem v19_eq (c : Dev nD) : (V m c main_v19 : S128x256.Idx → EReal)
    = truncf (F := Ideal) (φ := .f32) .bf16 (concatenate S128x256 0
        [⟨S3x256, (m ((c.tc : Thread nD τ).loc main_arg11))⟩,
         ⟨S125x256, broadcastInDim S125x256 ![] bcast_S_S125x256 (constant (F := Ideal) S_ .f32 0x00000000#32)⟩]
        concatenates_S3x256_S125x256_S128x256_d0) bitsLt_bf16_f32 := by
  dsimp only [Gen.V, Gen.V0]
  simp only [Gen.hostOps0, List.flatten_cons, List.flatten_nil, List.append_nil]
  after_results

private theorem v21_eq (c : Dev nD) : (V m c main_v21 : S128.Idx → EReal)
    = concatenate S128 0
        [⟨S3, (m ((c.tc : Thread nD τ).loc main_arg12))⟩,
         ⟨S125, broadcastInDim S125 ![] bcast_S_S125 (constant (F := Ideal) S_ .f32 0x00000000#32)⟩]
        concatenates_S3_S125_S128_d0 := by
  dsimp only [Gen.V, Gen.V0]
  simp only [Gen.hostOps0, List.flatten_cons, List.flatten_nil, List.append_nil]
  after_results

/-! ## Those arrays read at an index -/

/-- A flattened feature map: [1, C, 64, 64] to [C, 64, 64] to [C, 4096] keeps the row-major position n = 64 h + w. -/
private theorem flat_apply {C : Nat} (x : (⟨4, ![1, C, 64, 64]⟩ : Shape).Idx → EReal)
    (h1 : (⟨4, ![1, C, 64, 64]⟩ : Shape).ShapeCasts ⟨3, ![C, 64, 64]⟩) (h2 : (⟨3, ![C, 64, 64]⟩ : Shape).ShapeCasts ⟨2, ![C, 4096]⟩)
    (cc : Fin C) (n : Fin 4096) :
    shapeCast ⟨2, ![C, 4096]⟩ (shapeCast ⟨3, ![C, 64, 64]⟩ x h1) h2 (ix2 cc n)
      = x (ix4 (0 : Fin 1) cc (⟨n.val / 64, by omega⟩ : Fin 64) (⟨n.val % 64, by omega⟩ : Fin 64)) := by
  refine (shapeCast_apply _ h2 (ix2 cc n) (ix3 cc (⟨n.val / 64, by omega⟩ : Fin 64) (⟨n.val % 64, by omega⟩ : Fin 64)) ?_).trans ?_
  · rw [Shape.rowMajor_val_three, Shape.rowMajor_val_two]
    show (cc.val * 64 + n.val / 64) * 64 + n.val % 64 = cc.val * 4096 + n.val
    omega
  refine shapeCast_apply _ h1 _ (ix4 (0 : Fin 1) cc (⟨n.val / 64, by omega⟩ : Fin 64) (⟨n.val % 64, by omega⟩ : Fin 64)) ?_
  rw [Shape.rowMajor_val_four, Shape.rowMajor_val_three]
  show ((0 * C + cc.val) * 64 + n.val / 64) * 64 + n.val % 64 = (cc.val * 64 + n.val / 64) * 64 + n.val % 64
  omega

/-- A [1, 65536, 2] array flattened and transposed: entry (d, q) is the array's (0, q, d). -/
private theorem tr_apply (x : S1x65536x2.Idx → EReal) (d : Fin 2) (q : Fin 65536) :
    transpose S2x65536 [1, 0] (shapeCast S65536x2 x shapeCasts_S1x65536x2_S65536x2) transposes_S65536x2_S2x65536_1_0 (ix2 d q)
      = x (ix3 (0 : Fin 1) q d) := by
  refine (transpose_apply _ _ _ (ix2 d q) (ix2 q d) ?_).trans ?_
  · intro b
    match b with
    | ⟨0, _⟩ => rfl
    | ⟨1, _⟩ => rfl
  refine shapeCast_apply _ _ (ix2 q d) (ix3 (0 : Fin 1) q d) ?_
  rw [Shape.rowMajor_val_three, Shape.rowMajor_val_two]
  show (0 * 65536 + q.val) * 2 + d.val = q.val * 2 + d.val
  omega

private theorem v12_apply (c : Dev nD) (d : Fin 2) (q : Fin 65536) :
    V m c main_v12 (ix2 d q) = (m ((c.tc : Thread nD τ).loc main_arg3)) (ix3 (0 : Fin 1) q d) :=
  (congrFun (v12_eq m c) (ix2 d q)).trans (tr_apply _ d q)

private theorem v14_apply (c : Dev nD) (d : Fin 2) (q : Fin 65536) :
    V m c main_v14 (ix2 d q) = (m ((c.tc : Thread nD τ).loc main_arg4)) (ix3 (0 : Fin 1) q d) :=
  (congrFun (v14_eq m c) (ix2 d q)).trans (tr_apply _ d q)

/-- The feature table's first 256 rows are the coefficient rows. -/
private theorem v5_apply_coef (c : Dev nD) (cc : Fin 256) (n : Fin 4096) :
    V m c main_v5 (ix2 (⟨cc.val, by omega⟩ : Fin 384) n)
      = (m ((c.tc : Thread nD τ).loc main_arg1)) (ix4 (0 : Fin 1) cc (⟨n.val / 64, by omega⟩ : Fin 64) (⟨n.val % 64, by omega⟩ : Fin 64)) := by
  refine (congrFun (v5_eq m c) (ix2 (⟨cc.val, by omega⟩ : Fin 384) n)).trans ?_
  refine (truncf_apply (s := S384x4096) (φ := .f32) (ψ := .bf16) _ bitsLt_bf16_f32 _).trans ?_
  refine (concatenate_pair_apply_left (t := S384x4096) (s₁ := S256x4096) (s₂ := S128x4096) _ _ _ _
    (ix2 (⟨cc.val, by omega⟩ : Fin 384) n) rfl (ix2 cc n) ?_).trans (flat_apply _ _ _ cc n)
  intro b
  match b with
  | ⟨0, _⟩ => rfl
  | ⟨1, _⟩ => rfl

/-- Its last 128 rows are the frequency rows. -/
private theorem v5_apply_freq (c : Dev nD) (k : Fin 128) (n : Fin 4096) :
    V m c main_v5 (ix2 (⟨256 + k.val, by omega⟩ : Fin 384) n)
      = (m ((c.tc : Thread nD τ).loc main_arg2)) (ix4 (0 : Fin 1) k (⟨n.val / 64, by omega⟩ : Fin 64) (⟨n.val % 64, by omega⟩ : Fin 64)) := by
  refine (congrFun (v5_eq m c) (ix2 (⟨256 + k.val, by omega⟩ : Fin 384) n)).trans ?_
  refine (truncf_apply (s := S384x4096) (φ := .f32) (ψ := .bf16) _ bitsLt_bf16_f32 _).trans ?_
  refine (concatenate_pair_apply_right (t := S384x4096) (s₁ := S256x4096) (s₂ := S128x4096) _ _ _ _
    (ix2 (⟨256 + k.val, by omega⟩ : Fin 384) n) rfl rfl (ix2 k n) ?_ ?_).trans (flat_apply _ _ _ k n)
  · intro b hb
    match b with
    | ⟨0, _⟩ => exact absurd rfl hb
    | ⟨1, _⟩ => rfl
  · show k.val + 256 = 256 + k.val
    omega

/-- The image table's first three rows are the image's channels. -/
private theorem v10_apply (c : Dev nD) (j : Fin 3) (n : Fin 4096) :
    V m c main_v10 (ix2 (r3 j) n)
      = (m ((c.tc : Thread nD τ).loc main_arg0)) (ix4 (0 : Fin 1) j (⟨n.val / 64, by omega⟩ : Fin 64) (⟨n.val % 64, by omega⟩ : Fin 64)) := by
  refine (congrFun (v10_eq m c) (ix2 (r3 j) n)).trans ?_
  refine (truncf_apply (s := S128x4096) (φ := .f32) (ψ := .bf16) _ bitsLt_bf16_f32 _).trans ?_
  refine (concatenate_pair_apply_left (t := S128x4096) (s₁ := S3x4096) (s₂ := S125x4096) _ _ _ _
    (ix2 (r3 j) n) rfl (ix2 j n) ?_).trans (flat_apply _ _ _ j n)
  intro b
  match b with
  | ⟨0, _⟩ => rfl
  | ⟨1, _⟩ => rfl

private theorem v15_apply (c : Dev nD) (d cc : Fin 256) : V m c main_v15 (ix2 d cc) = (m ((c.tc : Thread nD τ).loc main_arg7)) (ix2 d cc) :=
  congrFun (v15_eq m c) (ix2 d cc)

private theorem v16_apply (c : Dev nD) (d cc : Fin 256) : V m c main_v16 (ix2 d cc) = (m ((c.tc : Thread nD τ).loc main_arg9)) (ix2 d cc) :=
  congrFun (v16_eq m c) (ix2 d cc)

/-- The padded last-layer weights' first three rows are the weights. -/
private theorem v19_apply (c : Dev nD) (j : Fin 3) (cc : Fin 256) :
    V m c main_v19 (ix2 (r3 j) cc) = (m ((c.tc : Thread nD τ).loc main_arg11)) (ix2 j cc) := by
  refine (congrFun (v19_eq m c) (ix2 (r3 j) cc)).trans ?_
  refine (truncf_apply (s := S128x256) (φ := .f32) (ψ := .bf16) _ bitsLt_bf16_f32 _).trans ?_
  refine concatenate_pair_apply_left (t := S128x256) (s₁ := S3x256) (s₂ := S125x256) _ _ _ _
    (ix2 (r3 j) cc) rfl (ix2 j cc) ?_
  intro b
  match b with
  | ⟨0, _⟩ => rfl
  | ⟨1, _⟩ => rfl

/-- The padded last-layer bias's first three entries are the bias. -/
private theorem v21_apply (c : Dev nD) (j : Fin 3) :
    V m c main_v21 (ix1 (r3 j)) = (m ((c.tc : Thread nD τ).loc main_arg12)) (ix1 j) := by
  refine (congrFun (v21_eq m c) (ix1 (r3 j))).trans ?_
  refine concatenate_pair_apply_left (t := S128) (s₁ := S3) (s₂ := S125) _ _ _ _
    (ix1 (r3 j)) rfl (ix1 j) ?_
  intro b
  match b with
  | ⟨0, _⟩ => rfl

/-! ## The blocks the windows stage at a grid point -/

/-- The coordinate block: columns 512 t … 512 t + 511 of the transposed coordinates. -/
private theorem blk0 (c : Dev nD) (t : Fin cfg0.N) (d : Fin 2) (s : Fin 512) :
    iblk m c 0 t (ix2 d s) = (m ((c.tc : Thread nD τ).loc main_arg3)) (ix3 (0 : Fin 1) (qq (tt t) s) d) := by
  show V m c main_v12 (((cfg0.win 0).blk t).view.emb (ix2 d s)) = _
  have he : ((cfg0.win 0).blk t).view.emb (ix2 d s) = ix2 d (qq (tt t) s) := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_0.index t (0 : Fin 2) * 2 + 1 * d.val = d.val; omega
    | ⟨1, _⟩ => show win0_0.index t (1 : Fin 2) * 512 + 1 * s.val = 512 * t.val + s.val; omega
  rw [he]
  exact v12_apply m c d (qq (tt t) s)

/-- The cell block, likewise. -/
private theorem blk1 (c : Dev nD) (t : Fin cfg0.N) (d : Fin 2) (s : Fin 512) :
    iblk m c 1 t (ix2 d s) = (m ((c.tc : Thread nD τ).loc main_arg4)) (ix3 (0 : Fin 1) (qq (tt t) s) d) := by
  show V m c main_v14 (((cfg0.win 1).blk t).view.emb (ix2 d s)) = _
  have he : ((cfg0.win 1).blk t).view.emb (ix2 d s) = ix2 d (qq (tt t) s) := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_1.index t (0 : Fin 2) * 2 + 1 * d.val = d.val; omega
    | ⟨1, _⟩ => show win0_1.index t (1 : Fin 2) * 512 + 1 * s.val = 512 * t.val + s.val; omega
  rw [he]
  exact v14_apply m c d (qq (tt t) s)

/-- The feature table's coefficient rows. -/
private theorem blk2c (c : Dev nD) (t : Fin cfg0.N) (cc : Fin 256) (n : Fin 4096) :
    iblk m c 2 t (ix2 (⟨cc.val, by omega⟩ : Fin 384) n) = (m ((c.tc : Thread nD τ).loc main_arg1)) (ix4 (0 : Fin 1) cc (⟨n.val / 64, by omega⟩ : Fin 64) (⟨n.val % 64, by omega⟩ : Fin 64)) := by
  show V m c main_v5 (((cfg0.win 2).blk t).view.emb (ix2 (⟨cc.val, by omega⟩ : Fin 384) n)) = _
  have he : ((cfg0.win 2).blk t).view.emb (ix2 (⟨cc.val, by omega⟩ : Fin 384) n) = ix2 (⟨cc.val, by omega⟩ : Fin 384) n := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_2.index t (0 : Fin 2) * 384 + 1 * cc.val = cc.val; omega
    | ⟨1, _⟩ => show win0_2.index t (1 : Fin 2) * 4096 + 1 * n.val = n.val; omega
  rw [he]
  exact v5_apply_coef m c cc n

/-- The feature table's frequency rows. -/
private theorem blk2f (c : Dev nD) (t : Fin cfg0.N) (k : Fin 128) (n : Fin 4096) :
    iblk m c 2 t (ix2 (⟨256 + k.val, by omega⟩ : Fin 384) n) = (m ((c.tc : Thread nD τ).loc main_arg2)) (ix4 (0 : Fin 1) k (⟨n.val / 64, by omega⟩ : Fin 64) (⟨n.val % 64, by omega⟩ : Fin 64)) := by
  show V m c main_v5 (((cfg0.win 2).blk t).view.emb (ix2 (⟨256 + k.val, by omega⟩ : Fin 384) n)) = _
  have he : ((cfg0.win 2).blk t).view.emb (ix2 (⟨256 + k.val, by omega⟩ : Fin 384) n) = ix2 (⟨256 + k.val, by omega⟩ : Fin 384) n := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_2.index t (0 : Fin 2) * 384 + 1 * (256 + k.val) = 256 + k.val; omega
    | ⟨1, _⟩ => show win0_2.index t (1 : Fin 2) * 4096 + 1 * n.val = n.val; omega
  rw [he]
  exact v5_apply_freq m c k n

/-- The image table's three channel rows. -/
private theorem blk3 (c : Dev nD) (t : Fin cfg0.N) (j : Fin 3) (n : Fin 4096) :
    iblk m c 3 t (ix2 (r3 j) n) = (m ((c.tc : Thread nD τ).loc main_arg0)) (ix4 (0 : Fin 1) j (⟨n.val / 64, by omega⟩ : Fin 64) (⟨n.val % 64, by omega⟩ : Fin 64)) := by
  show V m c main_v10 (((cfg0.win 3).blk t).view.emb (ix2 (r3 j) n)) = _
  have he : ((cfg0.win 3).blk t).view.emb (ix2 (r3 j) n) = ix2 (r3 j) n := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_3.index t (0 : Fin 2) * 128 + 1 * j.val = j.val; omega
    | ⟨1, _⟩ => show win0_3.index t (1 : Fin 2) * 4096 + 1 * n.val = n.val; omega
  rw [he]
  exact v10_apply m c j n

/-- The first layer's weights. -/
private theorem blk4 (c : Dev nD) (t : Fin cfg0.N) (d cc : Fin 256) :
    iblk m c 4 t (ix2 d cc) = (m ((c.tc : Thread nD τ).loc main_arg7)) (ix2 d cc) := by
  show V m c main_v15 (((cfg0.win 4).blk t).view.emb (ix2 d cc)) = _
  have he : ((cfg0.win 4).blk t).view.emb (ix2 d cc) = ix2 d cc := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_4.index t (0 : Fin 2) * 256 + 1 * d.val = d.val; omega
    | ⟨1, _⟩ => show win0_4.index t (1 : Fin 2) * 256 + 1 * cc.val = cc.val; omega
  rw [he]
  exact v15_apply m c d cc

/-- The second layer's weights. -/
private theorem blk5 (c : Dev nD) (t : Fin cfg0.N) (d cc : Fin 256) :
    iblk m c 5 t (ix2 d cc) = (m ((c.tc : Thread nD τ).loc main_arg9)) (ix2 d cc) := by
  show V m c main_v16 (((cfg0.win 5).blk t).view.emb (ix2 d cc)) = _
  have he : ((cfg0.win 5).blk t).view.emb (ix2 d cc) = ix2 d cc := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_5.index t (0 : Fin 2) * 256 + 1 * d.val = d.val; omega
    | ⟨1, _⟩ => show win0_5.index t (1 : Fin 2) * 256 + 1 * cc.val = cc.val; omega
  rw [he]
  exact v16_apply m c d cc

/-- The last layer's three weight rows. -/
private theorem blk6 (c : Dev nD) (t : Fin cfg0.N) (j : Fin 3) (cc : Fin 256) :
    iblk m c 6 t (ix2 (r3 j) cc) = (m ((c.tc : Thread nD τ).loc main_arg11)) (ix2 j cc) := by
  show V m c main_v19 (((cfg0.win 6).blk t).view.emb (ix2 (r3 j) cc)) = _
  have he : ((cfg0.win 6).blk t).view.emb (ix2 (r3 j) cc) = ix2 (r3 j) cc := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_6.index t (0 : Fin 2) * 128 + 1 * j.val = j.val; omega
    | ⟨1, _⟩ => show win0_6.index t (1 : Fin 2) * 256 + 1 * cc.val = cc.val; omega
  rw [he]
  exact v19_apply m c j cc

/-- The first layer's bias. -/
private theorem blk7 (c : Dev nD) (t : Fin cfg0.N) (d : Fin 256) :
    iblk m c 7 t (ix1 d) = (m ((c.tc : Thread nD τ).loc main_arg8)) (ix1 d) := by
  show V m c main_arg8 (((cfg0.win 7).blk t).view.emb (ix1 d)) = _
  have he : ((cfg0.win 7).blk t).view.emb (ix1 d) = ix1 d := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_7.index t (0 : Fin 1) * 256 + 1 * d.val = d.val; omega
  rw [he]
  exact congrFun (V_main_arg8 m c) (ix1 d)

/-- The second layer's bias. -/
private theorem blk8 (c : Dev nD) (t : Fin cfg0.N) (d : Fin 256) :
    iblk m c 8 t (ix1 d) = (m ((c.tc : Thread nD τ).loc main_arg10)) (ix1 d) := by
  show V m c main_arg10 (((cfg0.win 8).blk t).view.emb (ix1 d)) = _
  have he : ((cfg0.win 8).blk t).view.emb (ix1 d) = ix1 d := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_8.index t (0 : Fin 1) * 256 + 1 * d.val = d.val; omega
  rw [he]
  exact congrFun (V_main_arg10 m c) (ix1 d)

/-- The last layer's three bias entries. -/
private theorem blk9 (c : Dev nD) (t : Fin cfg0.N) (j : Fin 3) :
    iblk m c 9 t (ix1 (r3 j)) = (m ((c.tc : Thread nD τ).loc main_arg12)) (ix1 j) := by
  show V m c main_v21 (((cfg0.win 9).blk t).view.emb (ix1 (r3 j))) = _
  have he : ((cfg0.win 9).blk t).view.emb (ix1 (r3 j)) = ix1 (r3 j) := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_9.index t (0 : Fin 1) * 128 + 1 * j.val = j.val; omega
  rw [he]
  exact v21_apply m c j

/-- The frequency channels' weights on the two offsets. -/
private theorem blk10 (c : Dev nD) (t : Fin cfg0.N) (k : Fin 128) (d : Fin 2) :
    iblk m c 10 t (ix2 k d) = (m ((c.tc : Thread nD τ).loc main_arg5)) (ix2 k d) := by
  show V m c main_arg5 (((cfg0.win 10).blk t).view.emb (ix2 k d)) = _
  have he : ((cfg0.win 10).blk t).view.emb (ix2 k d) = ix2 k d := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_10.index t (0 : Fin 2) * 128 + 1 * k.val = k.val; omega
    | ⟨1, _⟩ => show win0_10.index t (1 : Fin 2) * 2 + 1 * d.val = d.val; omega
  rw [he]
  exact congrFun (V_main_arg5 m c) (ix2 k d)

/-- The phase channels' weights on the two cell sizes. -/
private theorem blk11 (c : Dev nD) (t : Fin cfg0.N) (k : Fin 128) (d : Fin 2) :
    iblk m c 11 t (ix2 k d) = (m ((c.tc : Thread nD τ).loc main_arg6)) (ix2 k d) := by
  show V m c main_arg6 (((cfg0.win 11).blk t).view.emb (ix2 k d)) = _
  have he : ((cfg0.win 11).blk t).view.emb (ix2 k d) = ix2 k d := by
    obtain ⟨f0a, f0b, f1a, f1b, f2a, f2b, f3a, f3b, f4a, f4b, f5a, f5b, f6a, f6b, f7, f8, f9, f10a, f10b, f11a, f11b⟩ := idx_facts t
    funext a; apply Fin.ext
    match a with
    | ⟨0, _⟩ => show win0_11.index t (0 : Fin 2) * 128 + 1 * k.val = k.val; omega
    | ⟨1, _⟩ => show win0_11.index t (1 : Fin 2) * 2 + 1 * d.val = d.val; omega
  rw [he]
  exact congrFun (V_main_arg6 m c) (ix2 k d)

theorem blocks_at (c : Dev nD) (t : Fin cfg0.N) : Blocks (SAm m c) (tt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  crd d s := blk0 m c t d s
  cel d s := blk1 m c t d s
  coef cc n := blk2c m c t cc n
  freq k n := blk2f m c t k n
  img j n := blk3 m c t j n
  w1 d cc := blk4 m c t d cc
  w2 d cc := blk5 m c t d cc
  w3 j cc := blk6 m c t j cc
  b1 d := blk7 m c t d
  b2 d := blk8 m c t d
  b3 j := blk9 m c t j
  wcf k d := blk10 m c t k d
  wph k d := blk11 m c t k d

end Cert.KernelIdeal.KV

end
-- ==== Proof.KOut.lean ====
/-
  The kernel's run: every weakly fair execution ends with the result buffer at the specification's result of the
  argument arrays. The output array is covered by the 128 blocks, each the specification's result at its 512 queries;
  the host lines after the call transpose it and add a unit axis.
-/
import proofs.«148257_j30657476559104_1_alg».proof.Proof.KBlock
import proofs.«148257_j30657476559104_1_alg».proof.Proof.KIn
import Idealize.ShloMosaic.Lib.Pipeline.Value
import Idealize.ShloMosaic.Lib.StableHlo.Run

noncomputable section

namespace Cert.KernelIdeal.KV

open Idealize.ShloMosaic Idealize.ShloMosaic.ValueIdx Cert.KernelIdeal Cert.KernelIdeal.Gen
open Idealize.ShloMosaic.TcCoe Idealize.SL.Sem
open Idealize.ShloMosaic.Pipeline (Dat)

variable (m : (ℓ : Loc nD τ sig) → Buf (Elt Ideal) ℓ)

/-- What the output array [3, 65536] ends holding: the specification's result, transposed. -/
private def G (c : Dev nD) : S3x65536.Idx → EReal :=
  fun y => Spec.out (SAm m c) (⟨(y 1).val, (y 1).isLt⟩ : Fin 65536) (⟨(y 0).val, (y 0).isLt⟩ : Fin 3)

/-- The output window's index map over the grid: point t holds rows 0 … 2 of columns 512 t … 512 t + 511. -/
private theorem idx12 : ∀ t : Fin cfg0.N, win0_12.index t (0 : Fin 2) = 0 ∧ win0_12.index t (1 : Fin 2) = t.val :=
  (by decide +kernel : ∀ t : Fin grid0.N, _)

/-- What point t writes back is block t of G. -/
private theorem flushed12_eq (hImg : ∀ (c : Dev nD) (i : S1x3x64x64.Idx), ∃ r : ℝ, m ((c.tc : Thread nD τ).loc main_arg0) i = (r : EReal))
    (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  obtain ⟨e0, e1⟩ := idx12 t
  funext j
  have hj0 : (j 0).val < 3 := (j 0).isLt
  have hj1 : (j 1).val < 512 := (j 1).isLt
  have key := block_eq (SAm m c) (tt t) _ _ _ _ _ _ _ _ _ _ _ _ (blocks_at m c t) (fun jj n => hImg c _)
    (⟨(j 0).val, hj0⟩ : Fin 3) (⟨(j 1).val, hj1⟩ : Fin 512)
  refine Eq.trans ?_ (key.trans ?_)
  · exact congrArg (out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t))
      (funext fun a => match a with | ⟨0, _⟩ => rfl | ⟨1, _⟩ => rfl)
  · show Spec.out (SAm m c) (qq (tt t) ⟨(j 1).val, hj1⟩) ⟨(j 0).val, hj0⟩
      = Spec.out (SAm m c) (⟨((((cfg0.win 12).blk t).view.emb j) 1).val, _⟩ : Fin 65536) (⟨((((cfg0.win 12).blk t).view.emb j) 0).val, _⟩ : Fin 3)
    congr 1 <;> apply Fin.ext
    · show 512 * t.val + (j 1).val = win0_12.index t (1 : Fin 2) * 512 + 1 * (j 1).val
      omega
    · show (j 0).val = win0_12.index t (0 : Fin 2) * 3 + 1 * (j 0).val
      omega

/-- An index of the output array is in point t's block iff each coordinate is in the block's range on its axis. -/
private theorem mem_blk12 (t : Fin cfg0.N) (i : S3x65536.Idx) :
    i ∈ ((cfg0.win 12).blk t).view.set ↔ ∀ a : Fin 2, win0_12.index t a * S3x512.size a ≤ (i a).val
      ∧ (i a).val < win0_12.index t a * S3x512.size a + S3x512.size a := by
  show i ∈ ((View.whole main_v22).slice (win0_12.rect t)).set ↔ _
  rw [View.set_slice_whole, Rect.mem_set_unit]
  exact Iff.rfl

/-- Every index of the output array is in some point's block: column q is in the block of point q / 512. -/
private theorem cover12 (i : S3x65536.Idx) :
    ∃ t : Fin cfg0.N, (cfg0.win 12).flush t = true ∧ i ∈ ((cfg0.win 12).blk t).view.set := by
  have hi0 : (i 0).val < 3 := (i 0).isLt
  have hi1 : (i 1).val < 65536 := (i 1).isLt
  have hN : cfg0.N = 128 := N_0
  obtain ⟨t, ht⟩ : ∃ t : Fin cfg0.N, t.val = (i 1).val / 512 := ⟨⟨(i 1).val / 512, by omega⟩, rfl⟩
  obtain ⟨e0, e1⟩ := idx12 t
  refine ⟨t, flush0_12 t, ?_⟩
  rw [mem_blk12]
  intro a
  match a with
  | ⟨0, _⟩ =>
    show win0_12.index t (0 : Fin 2) * 3 ≤ (i 0).val ∧ (i 0).val < win0_12.index t (0 : Fin 2) * 3 + 3
    omega
  | ⟨1, _⟩ =>
    show win0_12.index t (1 : Fin 2) * 512 ≤ (i 1).val ∧ (i 1).val < win0_12.index t (1 : Fin 2) * 512 + 512
    omega

/-- The output array after the run: the specification's result, transposed. -/
private theorem final12 (hImg : ∀ (c : Dev nD) (i : S1x3x64x64.Idx), ∃ r : ℝ, m ((c.tc : Thread nD τ).loc main_arg0) i = (r : EReal))
    (c : Dev nD) : (dats m 0 c).arrAt 12 cfg0.N = G m c :=
  (dats m 0 c).arrAt_eq_of_cover 12 (G m c) (fun t _ => flushed12_eq m hImg c t) cover12

/-- The result buffer after the host lines that follow the call: the output array transposed, under a unit axis. -/
private theorem tail24 (hImg : ∀ (c : Dev nD) (i : S1x3x64x64.Idx), ∃ r : ℝ, m ((c.tc : Thread nD τ).loc main_arg0) i = (r : EReal))
    (c : Dev nD) :
    Pipeline.afterTail₀ cfgs (dats m) 0 (V0 m) [hostOps1] c main_v24
      = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Pipeline.afterTail₀
  show StableHlo.after hostOps1 _ (Proc.devRef .tc main_v24) = _
  after_results
  have e : Pipeline.withArrays (cfgs 0).spec c (V0 m c) (fun w => (dats m 0 c).arrAt w (cfgs 0).N) (Proc.devRef .tc main_v22)
      = G m c := (Pipeline.withArrays_arr spec0 launch0.win.arr_inj c _ _ 12).trans (final12 m hImg c)
  rw [e]
  funext i
  obtain ⟨q, j, rfl⟩ : ∃ (q : Fin 65536) (j : Fin 3), i = ix3 (0 : Fin 1) q j :=
    ⟨⟨(i 1).val, (i 1).isLt⟩, ⟨(i 2).val, (i 2).isLt⟩, by
      funext a
      match a with
      | ⟨0, _⟩ => exact Fin.ext (Nat.lt_one_iff.mp (i 0).isLt)
      | ⟨1, _⟩ => rfl
      | ⟨2, _⟩ => rfl⟩
  show G m c (Shape.Transposes.src transposes_S3x65536_S65536x3_1_0 _) = Spec.out (SAm m c) q j
  unfold G
  congr 1 <;> exact Fin.ext rfl

theorem run (m : (ℓ : Loc nD τ sig) → Buf (Elt Ideal) ℓ) (ρ : Dev nD → PrngReg)
    (hImg : ∀ (c : Dev nD) (i : S1x3x64x64.Idx), ∃ r : ℝ, m ((c.tc : Thread nD τ).loc main_arg0) i = (r : EReal)) :
    θ_run defs (onTc (τ := τ) (main (F := Ideal))) ⟨m, fun _ => 0, ρ⟩ (fun r => ∀ c : Dev nD,
      r.2.mem ((c.tc : Thread nD τ).loc main_v24) = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) := by
  exact (θ_run defs _ _).mono (fun r h c =>
    ⟨((h c).2 main_v24 (Pipeline.mem_restRefs_of main_v24 (by decide) (by decide))).trans (tail24 m hImg c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 10).trans (((dats m 0 c).arrAt_in 10 rfl _).trans ((A_eq m c 10).trans (V_main_arg5 m c))),
      ((h c).1 11).trans (((dats m 0 c).arrAt_in 11 rfl _).trans ((A_eq m c 11).trans (V_main_arg6 m c))),
      ((h c).2 main_arg7 (Pipeline.mem_restRefs_of main_arg7 (by decide) (by decide))).trans (W_main_arg7 m (dats m) c),
      ((h c).1 7).trans (((dats m 0 c).arrAt_in 7 rfl _).trans ((A_eq m c 7).trans (V_main_arg8 m c))),
      ((h c).2 main_arg9 (Pipeline.mem_restRefs_of main_arg9 (by decide) (by decide))).trans (W_main_arg9 m (dats m) c),
      ((h c).1 8).trans (((dats m 0 c).arrAt_in 8 rfl _).trans ((A_eq m c 8).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.KV

end
-- ==== Proof.RDefs.lean ====
import proofs.«148257_j30657476559104_1_alg».proof.Proof.Gen.ReferenceIdeal

noncomputable section

namespace Cert.ReferenceIdeal.RDefs

open Cert.ReferenceIdeal Cert.ReferenceIdeal.Gen Idealize.ShloMosaic

variable {F : FTy → Type} [FloatOps F]

/-- The thirteen argument arrays. -/
structure RArgs (F : FTy → Type) where
  a0 : (⟨S1x3x64x64, .f32⟩ : BufTy).Contents (Elt F)
  a1 : (⟨S1x256x64x64, .f32⟩ : BufTy).Contents (Elt F)
  a2 : (⟨S1x128x64x64, .f32⟩ : BufTy).Contents (Elt F)
  a3 : (⟨S1x65536x2, .f32⟩ : BufTy).Contents (Elt F)
  a4 : (⟨S1x65536x2, .f32⟩ : BufTy).Contents (Elt F)
  a5 : (⟨S128x2, .f32⟩ : BufTy).Contents (Elt F)
  a6 : (⟨S128x2, .f32⟩ : BufTy).Contents (Elt F)
  a7 : (⟨S256x256, .f32⟩ : BufTy).Contents (Elt F)
  a8 : (⟨S256, .f32⟩ : BufTy).Contents (Elt F)
  a9 : (⟨S256x256, .f32⟩ : BufTy).Contents (Elt F)
  a10 : (⟨S256, .f32⟩ : BufTy).Contents (Elt F)
  a11 : (⟨S3x256, .f32⟩ : BufTy).Contents (Elt F)
  a12 : (⟨S3, .f32⟩ : BufTy).Contents (Elt F)

abbrev r_main_arg0 (A : RArgs F) : (⟨S1x3x64x64, .f32⟩ : BufTy).Contents (Elt F) := A.a0
abbrev r_main_arg1 (A : RArgs F) : (⟨S1x256x64x64, .f32⟩ : BufTy).Contents (Elt F) := A.a1
abbrev r_main_arg2 (A : RArgs F) : (⟨S1x128x64x64, .f32⟩ : BufTy).Contents (Elt F) := A.a2
abbrev r_main_arg3 (A : RArgs F) : (⟨S1x65536x2, .f32⟩ : BufTy).Contents (Elt F) := A.a3
abbrev r_main_arg4 (A : RArgs F) : (⟨S1x65536x2, .f32⟩ : BufTy).Contents (Elt F) := A.a4
abbrev r_main_arg5 (A : RArgs F) : (⟨S128x2, .f32⟩ : BufTy).Contents (Elt F) := A.a5
abbrev r_main_arg6 (A : RArgs F) : (⟨S128x2, .f32⟩ : BufTy).Contents (Elt F) := A.a6
abbrev r_main_arg7 (A : RArgs F) : (⟨S256x256, .f32⟩ : BufTy).Contents (Elt F) := A.a7
abbrev r_main_arg8 (A : RArgs F) : (⟨S256, .f32⟩ : BufTy).Contents (Elt F) := A.a8
abbrev r_main_arg9 (A : RArgs F) : (⟨S256x256, .f32⟩ : BufTy).Contents (Elt F) := A.a9
abbrev r_main_arg10 (A : RArgs F) : (⟨S256, .f32⟩ : BufTy).Contents (Elt F) := A.a10
abbrev r_main_arg11 (A : RArgs F) : (⟨S3x256, .f32⟩ : BufTy).Contents (Elt F) := A.a11
abbrev r_main_arg12 (A : RArgs F) : (⟨S3, .f32⟩ : BufTy).Contents (Elt F) := A.a12

/-- %cst = stablehlo.constant dense<[[-1.000000e+00, -1.000000e+00], [-1.000000e+00, 1.000000e+00], [1.000000e+00, -1.000000e+00], [1.000000e+00, 1.000000e+00]]> : tensor<4x2xf32> -/
def r_main_cst (A : RArgs F) : (⟨S4x2, .f32⟩ : BufTy).Contents (Elt F) :=
  (fun i => FloatOps.ofBits .f32 (lit0 (S4x2.rowMajor i)))
/-- %cst_0 = stablehlo.constant dense<1.562500e-02> : tensor<2xf32> -/
def r_main_cst_0 (A : RArgs F) : (⟨S2, .f32⟩ : BufTy).Contents (Elt F) :=
  (constant S2 .f32 0x3C800000#32)
/-- %cst_1 = stablehlo.constant dense<6.400000e+01> : tensor<2xf32> -/
def r_main_cst_1 (A : RArgs F) : (⟨S2, .f32⟩ : BufTy).Contents (Elt F) :=
  (constant S2 .f32 0x42800000#32)
/-- %0 = stablehlo.broadcast_in_dim %cst_0, dims = [1] : (tensor<2xf32>) -> tensor<1x2xf32>  @ reference:44 -/
def r_main_v0 (A : RArgs F) : (⟨S1x2, .f32⟩ : BufTy).Contents (Elt F) :=
  (broadcastInDim S1x2 ![1] bcast_S2_S1x2_1) (r_main_cst_0 A)
/-- %1 = stablehlo.broadcast_in_dim %0, dims = [0, 1] : (tensor<1x2xf32>) -> tensor<4x2xf32>  @ reference:44 -/
def r_main_v1 (A : RArgs F) : (⟨S4x2, .f32⟩ : BufTy).Contents (Elt F) :=
  (broadcastInDim S4x2 ![0, 1] bcast_S1x2_S4x2_0_1) (r_main_v0 A)
/-- %2 = stablehlo.multiply %cst, %1 : tensor<4x2xf32>  @ reference:44 -/
def r_main_v2 (A : RArgs F) : (⟨S4x2, .f32⟩ : BufTy).Contents (Elt F) :=
  (mulf) (r_main_cst A) (r_main_v1 A)
/-- %cst_2 = stablehlo.constant dense<9.99999997E-7> : tensor<f32> -/
def r_main_cst_2 (A : RArgs F) : (⟨S_, .f32⟩ : BufTy).Contents (Elt F) :=
  (constant S_ .f32 0x358637BD#32)
/-- %3 = stablehlo.broadcast_in_dim %cst_2, dims = [] : (tensor<f32>) -> tensor<4x2xf32>  @ reference:44 -/
def r_main_v3 (A : RArgs F) : (⟨S4x2, .f32⟩ : BufTy).Contents (Elt F) :=
  (broadcastInDim S4x2 ![] bcast_S_S4x2) (r_main_cst_2 A)
/-- %4 = stablehlo.add %2, %3 : tensor<4x2xf32>  @ reference:44 -/
def r_main_v4 (A : RArgs F) : (⟨S4x2, .f32⟩ : BufTy).Contents (Elt F) :=
  (addf) (r_main_v2 A) (r_main_v3 A)
/-- %5 = stablehlo.broadcast_in_dim %arg3, dims = [0, 2, 3] : (tensor<1x65536x2xf32>) -> tensor<1x1x65536x2xf32>  @ reference:45 -/
def r_main_v5 (A : RArgs F) : (⟨S1x1x65536x2, .f32⟩ : BufTy).Contents (Elt F) :=
  (broadcastInDim S1x1x65536x2 ![0, 2, 3] bcast_S1x65536x2_S1x1x65536x2_0_2_3) (r_main_arg3 A)
/-- %6 = stablehlo.broadcast_in_dim %4, dims = [1, 3] : (tensor<4x2xf32>) -> tensor<1x4x1x2xf32>  @ reference:45 -/
def r_main_v6 (A : RArgs F) : (⟨S1x4x1x2, .f32⟩ : BufTy).Contents (Elt F) :=
  (broadcastInDim S1x4x1x2 ![1, 3] bcast_S4x2_S1x4x1x2_1_3) (r_main_v4 A)
/-- %7 = stablehlo.broadcast_in_dim %5, dims = [0, 1, 2, 3] : (tensor<1x1x65536x2xf32>) -> tensor<1x4x65536x2xf32>  @ reference:45 -/
def r_main_v7 (A : RArgs F) : (⟨S1x4x65536x2, .f32⟩ : BufTy).Contents (Elt F) :=
  (broadcastInDim S1x4x65536x2 ![0, 1, 2, 3] bcast_S1x1x65536x2_S1x4x65536x2_0_1_2_3) (r_main_v5 A)
/-- %8 = stablehlo.broadcast_in_dim %6, dims = [0, 1, 2, 3] : (tensor<1x4x1x2xf32>) -> tensor<1x4x65536x2xf32>  @ reference:45 -/
def r_main_v8 (A : RArgs F) : (⟨S1x4x65536x2, .f32⟩ : BufTy).Contents (Elt F) :=
  (broadcastInDim S1x4x65536x2 ![0, 1, 2, 3] bcast_S1x4x1x2_S1x4x65536x2_0_1_2_3) (r_main_v6 A)
/-- %9 = stablehlo.add %7, %8 : tensor<1x4x65536x2xf32>  @ reference:45 -/
def r_main_v9 (A : RArgs F) : (⟨S1x4x65536x2, .f32⟩ : BufTy).Contents (Elt F) :=
  (addf) (r_main_v7 A) (r_main_v8 A)
/-- %cst_3 = stablehlo.constant dense<-0.999998986> : tensor<f32> -/
def r_main_cst_3 (A : RArgs F) : (⟨S_, .f32⟩ : BufTy).Contents (Elt F) :=
  (constant S_ .f32 0xBF7FFFEF#32)
/-- %cst_4 = stablehlo.constant dense<0.999998986> : tensor<f32> -/
def r_main_cst_4 (A : RArgs F) : (⟨S_, .f32⟩ : BufTy).Contents (Elt F) :=
  (constant S_ .f32 0x3F7FFFEF#32)
/-- %10 = func.call @clip(%9, %cst_3, %cst_4) : (tensor<1x4x65536x2xf32>, tensor<f32>, tensor<f32>) -> tensor<1x4x65536x2xf32>  @ reference:45  (the call's maximum) -/
def r_main_call0_v2 (A : RArgs F) : (⟨S1x4x65536x2, .f32⟩ : BufTy).Contents (Elt F) :=
  maximumf (broadcastInDim S1x4x65536x2 ![] bcast_S_S1x4x65536x2 (r_main_cst_3 A)) (r_main_v9 A)
/-- %10 = func.call @clip(%9, %cst_3, %cst_4) : (tensor<1x4x65536x2xf32>, tensor<f32>, tensor<f32>) -> tensor<1x4x65536x2xf32>  @ reference:45  (the call's minimum) -/
def r_main_v10 (A : RArgs F) : (⟨S1x4x65536x2, .f32⟩ : BufTy).Contents (Elt F) :=
  minimumf (broadcastInDim S1x4x65536x2 ![] bcast_S_S1x4x65536x2 (r_main_cst_4 A)) (r_main_call0_v2 A)
/-- %11 = stablehlo.slice %10 [0:1, 0:4, 0:65536, 0:1] : (tensor<1x4x65536x2xf32>) -> tensor<1x4x65536x1xf32>  @ reference:48 -/
def r_main_v11 (A : RArgs F) : (⟨S1x4x65536x1, .f32⟩ : BufTy).Contents (Elt F) :=
  ((extractStridedSlice S1x4x65536x1 ![0, 0, 0, 0] · slices_S1x4x65536x2_S1x4x65536x1_0_0_0_0)) (r_main_v10 A)
/-- %12 = stablehlo.reshape %11 : (tensor<1x4x65536x1xf32>) -> tensor<1x4x65536xf32>  @ reference:48 -/
def r_main_v12 (A : RArgs F) : (⟨S1x4x65536, .f32⟩ : BufTy).Contents (Elt F) :=
  shapeCast S1x4x65536 (r_main_v11 A) shapeCasts_S1x4x65536x1_S1x4x65536
/-- %cst_5 = stablehlo.constant dense<1.000000e+00> : tensor<f32> -/
def r_main_cst_5 (A : RArgs F) : (⟨S_, .f32⟩ : BufTy).Contents (Elt F) :=
  (constant S_ .f32 0x3F800000#32)
/-- %13 = stablehlo.broadcast_in_dim %cst_5, dims = [] : (tensor<f32>) -> tensor<1x4x65536xf32>  @ reference:9 -/
def r_main_v13 (A : RArgs F) : (⟨S1x4x65536, .f32⟩ : BufTy).Contents (Elt F) :=
  (broadcastInDim S1x4x65536 ![] bcast_S_S1x4x65536) (r_main_cst_5 A)
/-- %14 = stablehlo.add %12, %13 : tensor<1x4x65536xf32>  @ reference:9 -/
def r_main_v14 (A : RArgs F) : (⟨S1x4x65536, .f32⟩ : BufTy).Contents (Elt F) :=
  (addf) (r_main_v12 A) (r_main_v13 A)
/-- %cst_6 = stablehlo.constant dense<6.400000e+01> : tensor<f32> -/
def r_main_cst_6 (A : RArgs F) : (⟨S_, .f32⟩ : BufTy).Contents (Elt F) :=
  (constant S_ .f32 0x42800000#32)
/-- %15 = stablehlo.broadcast_in_dim %cst_6, dims = [] : (tensor<f32>) -> tensor<1x4x65536xf32>  @ reference:9 -/
def r_main_v15 (A : RArgs F) : (⟨S1x4x65536, .f32⟩ : BufTy).Contents (Elt F) :=
  (broadcastInDim S1x4x65536 ![] bcast_S_S1x4x65536) (r_main_cst_6 A)
/-- %16 = stablehlo.multiply %14, %15 : tensor<1x4x65536xf32>  @ reference:9 -/
def r_main_v16 (A : RArgs F) : (⟨S1x4x65536, .f32⟩ : BufTy).Contents (Elt F) :=
  (mulf) (r_main_v14 A) (r_main_v15 A)
/-- %cst_7 = stablehlo.constant dense<1.000000e+00> : tensor<f32> -/
def r_main_cst_7 (A : RArgs F) : (⟨S_, .f32⟩ : BufTy).Contents (Elt F) :=
  (constant S_ .f32 0x3F800000#32)
/-- %17 = stablehlo.broadcast_in_dim %cst_7, dims = [] : (tensor<f32>) -> tensor<1x4x65536xf32>  @ reference:9 -/
def r_main_v17 (A : RArgs F) : (⟨S1x4x65536, .f32⟩ : BufTy).Contents (Elt F) :=
  (broadcastInDim S1x4x65536 ![] bcast_S_S1x4x65536) (r_main_cst_7 A)
/-- %18 = stablehlo.subtract %16, %17 : tensor<1x4x65536xf32>  @ reference:9 -/
def r_main_v18 (A : RArgs F) : (⟨S1x4x65536, .f32⟩ : BufTy).Contents (Elt F) :=
  (subf) (r_main_v16 A) (r_main_v17 A)
/-- %cst_8 = stablehlo.constant dense<2.000000e+00> : tensor<f32> -/
def r_main_cst_8 (A : RArgs F) : (⟨S_, .f32⟩ : BufTy).Contents (Elt F) :=
  (constant S_ .f32 0x40000000#32)
/-- %19 = stablehlo.broadcast_in_dim %cst_8, dims = [] : (tensor<f32>) -> tensor<1x4x65536xf32>  @ reference:9 -/
def r_main_v19 (A : RArgs F) : (⟨S1x4x65536, .f32⟩ : BufTy).Contents (Elt F) :=
  (broadcastInDim S1x4x65536 ![] bcast_S_S1x4x65536) (r_main_cst_8 A)
/-- %20 = stablehlo.divide %18, %19 : tensor<1x4x65536xf32>  @ reference:9 -/
def r_main_v20 (A : RArgs F) : (⟨S1x4x65536, .f32⟩ : BufTy).Contents (Elt F) :=
  (Host.divf) (r_main_v18 A) (r_main_v19 A)
/-- %cst_9 = stablehlo.constant dense<5.000000e-01> : tensor<f32> -/
def r_main_cst_9 (A : RArgs F) : (⟨S_, .f32⟩ : BufTy).Contents (Elt F) :=
  (constant S_ .f32 0x3F000000#32)
/-- %21 = stablehlo.broadcast_in_dim %cst_9, dims = [] : (tensor<f32>) -> tensor<1x4x65536xf32>  @ reference:10 -/
def r_main_v21 (A : RArgs F) : (⟨S1x4x65536, .f32⟩ : BufTy).Contents (Elt F) :=
  (broadcastInDim S1x4x65536 ![] bcast_S_S1x4x65536) (r_main_cst_9 A)
/-- %22 = stablehlo.add %20, %21 : tensor<1x4x65536xf32>  @ reference:10 -/
def r_main_v22 (A : RArgs F) : (⟨S1x4x65536, .f32⟩ : BufTy).Contents (Elt F) :=
  (addf) (r_main_v20 A) (r_main_v21 A)
/-- %23 = stablehlo.floor %22 : tensor<1x4x65536xf32>  @ reference:10 -/
def r_main_v23 (A : RArgs F) : (⟨S1x4x65536, .f32⟩ : BufTy).Contents (Elt F) :=
  (Host.floor) (r_main_v22 A)
/-- %24 = stablehlo.convert %23 : (tensor<1x4x65536xf32>) -> tensor<1x4x65536xi32>  @ reference:10 -/
def r_main_v24 (A : RArgs F) : (⟨S1x4x65536, .i32⟩ : BufTy).Contents (Elt F) :=
  (fptosi 32) (r_main_v23 A)
/-- %c = stablehlo.constant dense<0> : tensor<i32> -/
def r_main_c (A : RArgs F) : (⟨S_, .i32⟩ : BufTy).Contents (Elt F) :=
  (constantI S_ 32 0#32)
/-- %c_10 = stablehlo.constant dense<63> : tensor<i32> -/
def r_main_c_10 (A : RArgs F) : (⟨S_, .i32⟩ : BufTy).Contents (Elt F) :=
  (constantI S_ 32 63#32)
/-- %25 = func.call @clip_0(%24, %c, %c_10) : (tensor<1x4x65536xi32>, tensor<i32>, tensor<i32>) -> tensor<1x4x65536xi32>  @ reference:10  (the call's maximum) -/
def r_main_call1_v2 (A : RArgs F) : (⟨S1x4x65536, .i32⟩ : BufTy).Contents (Elt F) :=
  maxsi (broadcastInDim S1x4x65536 ![] bcast_S_S1x4x65536 (r_main_c A)) (r_main_v24 A)
/-- %25 = func.call @clip_0(%24, %c, %c_10) : (tensor<1x4x65536xi32>, tensor<i32>, tensor<i32>) -> tensor<1x4x65536xi32>  @ reference:10  (the call's minimum) -/
def r_main_v25 (A : RArgs F) : (⟨S1x4x65536, .i32⟩ : BufTy).Contents (Elt F) :=
  minsi (broadcastInDim S1x4x65536 ![] bcast_S_S1x4x65536 (r_main_c_10 A)) (r_main_call1_v2 A)
/-- %26 = stablehlo.slice %10 [0:1, 0:4, 0:65536, 1:2] : (tensor<1x4x65536x2xf32>) -> tensor<1x4x65536x1xf32>  @ reference:49 -/
def r_main_v26 (A : RArgs F) : (⟨S1x4x65536x1, .f32⟩ : BufTy).Contents (Elt F) :=
  ((extractStridedSlice S1x4x65536x1 ![0, 0, 0, 1] · slices_S1x4x65536x2_S1x4x65536x1_0_0_0_1)) (r_main_v10 A)
/-- %27 = stablehlo.reshape %26 : (tensor<1x4x65536x1xf32>) -> tensor<1x4x65536xf32>  @ reference:49 -/
def r_main_v27 (A : RArgs F) : (⟨S1x4x65536, .f32⟩ : BufTy).Contents (Elt F) :=
  shapeCast S1x4x65536 (r_main_v26 A) shapeCasts_S1x4x65536x1_S1x4x65536
/-- %cst_11 = stablehlo.constant dense<1.000000e+00> : tensor<f32> -/
def r_main_cst_11 (A : RArgs F) : (⟨S_, .f32⟩ : BufTy).Contents (Elt F) :=
  (constant S_ .f32 0x3F800000#32)
/-- %28 = stablehlo.broadcast_in_dim %cst_11, dims = [] : (tensor<f32>) -> tensor<1x4x65536xf32>  @ reference:9 -/
def r_main_v28 (A : RArgs F) : (⟨S1x4x65536, .f32⟩ : BufTy).Contents (Elt F) :=
  (broadcastInDim S1x4x65536 ![] bcast_S_S1x4x65536) (r_main_cst_11 A)
/-- %29 = stablehlo.add %27, %28 : tensor<1x4x65536xf32>  @ reference:9 -/
def r_main_v29 (A : RArgs F) : (⟨S1x4x65536, .f32⟩ : BufTy).Contents (Elt F) :=
  (addf) (r_main_v27 A) (r_main_v28 A)
/-- %cst_12 = stablehlo.constant dense<6.400000e+01> : tensor<f32> -/
def r_main_cst_12 (A : RArgs F) : (⟨S_, .f32⟩ : BufTy).Contents (Elt F) :=
  (constant S_ .f32 0x42800000#32)
/-- %30 = stablehlo.broadcast_in_dim %cst_12, dims = [] : (tensor<f32>) -> tensor<1x4x65536xf32>  @ reference:9 -/
def r_main_v30 (A : RArgs F) : (⟨S1x4x65536, .f32⟩ : BufTy).Contents (Elt F) :=
  (broadcastInDim S1x4x65536 ![] bcast_S_S1x4x65536) (r_main_cst_12 A)
/-- %31 = stablehlo.multiply %29, %30 : tensor<1x4x65536xf32>  @ reference:9 -/
def r_main_v31 (A : RArgs F) : (⟨S1x4x65536, .f32⟩ : BufTy).Contents (Elt F) :=
  (mulf) (r_main_v29 A) (r_main_v30 A)
/-- %cst_13 = stablehlo.constant dense<1.000000e+00> : tensor<f32> -/
def r_main_cst_13 (A : RArgs F) : (⟨S_, .f32⟩ : BufTy).Contents (Elt F) :=
  (constant S_ .f32 0x3F800000#32)
/-- %32 = stablehlo.broadcast_in_dim %cst_13, dims = [] : (tensor<f32>) -> tensor<1x4x65536xf32>  @ reference:9 -/
def r_main_v32 (A : RArgs F) : (⟨S1x4x65536, .f32⟩ : BufTy).Contents (Elt F) :=
  (broadcastInDim S1x4x65536 ![] bcast_S_S1x4x65536) (r_main_cst_13 A)
/-- %33 = stablehlo.subtract %31, %32 : tensor<1x4x65536xf32>  @ reference:9 -/
def r_main_v33 (A : RArgs F) : (⟨S1x4x65536, .f32⟩ : BufTy).Contents (Elt F) :=
  (subf) (r_main_v31 A) (r_main_v32 A)
/-- %cst_14 = stablehlo.constant dense<2.000000e+00> : tensor<f32> -/
def r_main_cst_14 (A : RArgs F) : (⟨S_, .f32⟩ : BufTy).Contents (Elt F) :=
  (constant S_ .f32 0x40000000#32)
/-- %34 = stablehlo.broadcast_in_dim %cst_14, dims = [] : (tensor<f32>) -> tensor<1x4x65536xf32>  @ reference:9 -/
def r_main_v34 (A : RArgs F) : (⟨S1x4x65536, .f32⟩ : BufTy).Contents (Elt F) :=
  (broadcastInDim S1x4x65536 ![] bcast_S_S1x4x65536) (r_main_cst_14 A)
/-- %35 = stablehlo.divide %33, %34 : tensor<1x4x65536xf32>  @ reference:9 -/
def r_main_v35 (A : RArgs F) : (⟨S1x4x65536, .f32⟩ : BufTy).Contents (Elt F) :=
  (Host.divf) (r_main_v33 A) (r_main_v34 A)
/-- %cst_15 = stablehlo.constant dense<5.000000e-01> : tensor<f32> -/
def r_main_cst_15 (A : RArgs F) : (⟨S_, .f32⟩ : BufTy).Contents (Elt F) :=
  (constant S_ .f32 0x3F000000#32)
/-- %36 = stablehlo.broadcast_in_dim %cst_15, dims = [] : (tensor<f32>) -> tensor<1x4x65536xf32>  @ reference:10 -/
def r_main_v36 (A : RArgs F) : (⟨S1x4x65536, .f32⟩ : BufTy).Contents (Elt F) :=
  (broadcastInDim S1x4x65536 ![] bcast_S_S1x4x65536) (r_main_cst_15 A)
/-- %37 = stablehlo.add %35, %36 : tensor<1x4x65536xf32>  @ reference:10 -/
def r_main_v37 (A : RArgs F) : (⟨S1x4x65536, .f32⟩ : BufTy).Contents (Elt F) :=
  (addf) (r_main_v35 A) (r_main_v36 A)
/-- %38 = stablehlo.floor %37 : tensor<1x4x65536xf32>  @ reference:10 -/
def r_main_v38 (A : RArgs F) : (⟨S1x4x65536, .f32⟩ : BufTy).Contents (Elt F) :=
  (Host.floor) (r_main_v37 A)
/-- %39 = stablehlo.convert %38 : (tensor<1x4x65536xf32>) -> tensor<1x4x65536xi32>  @ reference:10 -/
def r_main_v39 (A : RArgs F) : (⟨S1x4x65536, .i32⟩ : BufTy).Contents (Elt F) :=
  (fptosi 32) (r_main_v38 A)
/-- %c_16 = stablehlo.constant dense<0> : tensor<i32> -/
def r_main_c_16 (A : RArgs F) : (⟨S_, .i32⟩ : BufTy).Contents (Elt F) :=
  (constantI S_ 32 0#32)
/-- %c_17 = stablehlo.constant dense<63> : tensor<i32> -/
def r_main_c_17 (A : RArgs F) : (⟨S_, .i32⟩ : BufTy).Contents (Elt F) :=
  (constantI S_ 32 63#32)
/-- %40 = func.call @clip_0(%39, %c_16, %c_17) : (tensor<1x4x65536xi32>, tensor<i32>, tensor<i32>) -> tensor<1x4x65536xi32>  @ reference:10  (the call's maximum) -/
def r_main_call2_v2 (A : RArgs F) : (⟨S1x4x65536, .i32⟩ : BufTy).Contents (Elt F) :=
  maxsi (broadcastInDim S1x4x65536 ![] bcast_S_S1x4x65536 (r_main_c_16 A)) (r_main_v39 A)
/-- %40 = func.call @clip_0(%39, %c_16, %c_17) : (tensor<1x4x65536xi32>, tensor<i32>, tensor<i32>) -> tensor<1x4x65536xi32>  @ reference:10  (the call's minimum) -/
def r_main_v40 (A : RArgs F) : (⟨S1x4x65536, .i32⟩ : BufTy).Contents (Elt F) :=
  minsi (broadcastInDim S1x4x65536 ![] bcast_S_S1x4x65536 (r_main_c_17 A)) (r_main_call2_v2 A)
/-- %c_18 = stablehlo.constant dense<64> : tensor<i32> -/
def r_main_c_18 (A : RArgs F) : (⟨S_, .i32⟩ : BufTy).Contents (Elt F) :=
  (constantI S_ 32 64#32)
/-- %41 = stablehlo.broadcast_in_dim %c_18, dims = [] : (tensor<i32>) -> tensor<1x4x65536xi32>  @ reference:50 -/
def r_main_v41 (A : RArgs F) : (⟨S1x4x65536, .i32⟩ : BufTy).Contents (Elt F) :=
  (broadcastInDim S1x4x65536 ![] bcast_S_S1x4x65536) (r_main_c_18 A)
/-- %42 = stablehlo.multiply %25, %41 : tensor<1x4x65536xi32>  @ reference:50 -/
def r_main_v42 (A : RArgs F) : (⟨S1x4x65536, .i32⟩ : BufTy).Contents (Elt F) :=
  (muli) (r_main_v25 A) (r_main_v41 A)
/-- %43 = stablehlo.add %42, %40 : tensor<1x4x65536xi32>  @ reference:50 -/
def r_main_v43 (A : RArgs F) : (⟨S1x4x65536, .i32⟩ : BufTy).Contents (Elt F) :=
  (addi) (r_main_v42 A) (r_main_v40 A)
/-- %44 = stablehlo.reshape %arg1 : (tensor<1x256x64x64xf32>) -> tensor<1x256x4096xf32>  @ reference:54 -/
def r_main_v44 (A : RArgs F) : (⟨S1x256x4096, .f32⟩ : BufTy).Contents (Elt F) :=
  shapeCast S1x256x4096 (r_main_arg1 A) shapeCasts_S1x256x64x64_S1x256x4096
/-- %45 = stablehlo.transpose %44, dims = [0, 2, 1] : (tensor<1x256x4096xf32>) -> tensor<1x4096x256xf32>  @ reference:54 -/
def r_main_v45 (A : RArgs F) : (⟨S1x4096x256, .f32⟩ : BufTy).Contents (Elt F) :=
  ((transpose S1x4096x256 [0, 2, 1] · transposes_S1x256x4096_S1x4096x256_0_2_1)) (r_main_v44 A)
/-- %46 = stablehlo.reshape %43 : (tensor<1x4x65536xi32>) -> tensor<1x262144xi32>  @ reference:55 -/
def r_main_v46 (A : RArgs F) : (⟨S1x262144, .i32⟩ : BufTy).Contents (Elt F) :=
  shapeCast S1x262144 (r_main_v43 A) shapeCasts_S1x4x65536_S1x262144
/-- %c_19 = stablehlo.constant dense<0> : tensor<i32> -/
def r_main_c_19 (A : RArgs F) : (⟨S_, .i32⟩ : BufTy).Contents (Elt F) :=
  (constantI S_ 32 0#32)
/-- %47 = stablehlo.broadcast_in_dim %c_19, dims = [] : (tensor<i32>) -> tensor<1x262144xi32>  @ reference:55 -/
def r_main_v47 (A : RArgs F) : (⟨S1x262144, .i32⟩ : BufTy).Contents (Elt F) :=
  (broadcastInDim S1x262144 ![] bcast_S_S1x262144) (r_main_c_19 A)
/-- %48 = stablehlo.compare LT, %46, %47, SIGNED : (tensor<1x262144xi32>, tensor<1x262144xi32>) -> tensor<1x262144xi1>  @ reference:55 -/
def r_main_v48 (A : RArgs F) : (⟨S1x262144, .i1⟩ : BufTy).Contents (Elt F) :=
  (cmpi .slt) (r_main_v46 A) (r_main_v47 A)
/-- %c_20 = stablehlo.constant dense<4096> : tensor<i32> -/
def r_main_c_20 (A : RArgs F) : (⟨S_, .i32⟩ : BufTy).Contents (Elt F) :=
  (constantI S_ 32 4096#32)
/-- %49 = stablehlo.broadcast_in_dim %c_20, dims = [] : (tensor<i32>) -> tensor<1x262144xi32>  @ reference:55 -/
def r_main_v49 (A : RArgs F) : (⟨S1x262144, .i32⟩ : BufTy).Contents (Elt F) :=
  (broadcastInDim S1x262144 ![] bcast_S_S1x262144) (r_main_c_20 A)
/-- %50 = stablehlo.add %46, %49 : tensor<1x262144xi32>  @ reference:55 -/
def r_main_v50 (A : RArgs F) : (⟨S1x262144, .i32⟩ : BufTy).Contents (Elt F) :=
  (addi) (r_main_v46 A) (r_main_v49 A)
/-- %51 = stablehlo.select %48, %50, %46 : tensor<1x262144xi1>, tensor<1x262144xi32>  @ reference:55 -/
def r_main_v51 (A : RArgs F) : (⟨S1x262144, .i32⟩ : BufTy).Contents (Elt F) :=
  (select) (r_main_v48 A) (r_main_v50 A) (r_main_v46 A)
/-- %52 = stablehlo.broadcast_in_dim %51, dims = [0, 1] : (tensor<1x262144xi32>) -> tensor<1x262144x1xi32>  @ reference:55 -/
def r_main_v52 (A : RArgs F) : (⟨S1x262144x1, .i32⟩ : BufTy).Contents (Elt F) :=
  (broadcastInDim S1x262144x1 ![0, 1] bcast_S1x262144_S1x262144x1_0_1) (r_main_v51 A)
/-- %53 = "stablehlo.gather"(%45, %52) <{dimension_numbers = #stablehlo.gather<offset_dims = [2], collapsed_slice_dims = [1], operand_batching_dims = [0], start_indices_batching_dims = [0], start_index_map = [1], index_vector_dim = 2>, indices_are_sorted = false, slice_sizes = array<i64: 1, 1, 256>}> : (tensor<1x4096x256xf32>, tensor<1x262144x1xi32>) -> tensor<1x262144x256xf32>  @ reference:55 -/
def r_main_v53 (A : RArgs F) : (⟨S1x262144x256, .f32⟩ : BufTy).Contents (Elt F) :=
  ((fun x i => Host.gather gather_S1x4096x256_S1x262144x1_S1x262144x256_2_1_0_0_1_2_11256 x i)) (r_main_v45 A) (r_main_v52 A)
/-- %54 = stablehlo.reshape %53 : (tensor<1x262144x256xf32>) -> tensor<1x4x65536x256xf32>  @ reference:55 -/
def r_main_v54 (A : RArgs F) : (⟨S1x4x65536x256, .f32⟩ : BufTy).Contents (Elt F) :=
  shapeCast S1x4x65536x256 (r_main_v53 A) shapeCasts_S1x262144x256_S1x4x65536x256
/-- %55 = stablehlo.reshape %arg2 : (tensor<1x128x64x64xf32>) -> tensor<1x128x4096xf32>  @ reference:54 -/
def r_main_v55 (A : RArgs F) : (⟨S1x128x4096, .f32⟩ : BufTy).Contents (Elt F) :=
  shapeCast S1x128x4096 (r_main_arg2 A) shapeCasts_S1x128x64x64_S1x128x4096
/-- %56 = stablehlo.transpose %55, dims = [0, 2, 1] : (tensor<1x128x4096xf32>) -> tensor<1x4096x128xf32>  @ reference:54 -/
def r_main_v56 (A : RArgs F) : (⟨S1x4096x128, .f32⟩ : BufTy).Contents (Elt F) :=
  ((transpose S1x4096x128 [0, 2, 1] · transposes_S1x128x4096_S1x4096x128_0_2_1)) (r_main_v55 A)
/-- %57 = stablehlo.reshape %43 : (tensor<1x4x65536xi32>) -> tensor<1x262144xi32>  @ reference:55 -/
def r_main_v57 (A : RArgs F) : (⟨S1x262144, .i32⟩ : BufTy).Contents (Elt F) :=
  shapeCast S1x262144 (r_main_v43 A) shapeCasts_S1x4x65536_S1x262144
/-- %c_21 = stablehlo.constant dense<0> : tensor<i32> -/
def r_main_c_21 (A : RArgs F) : (⟨S_, .i32⟩ : BufTy).Contents (Elt F) :=
  (constantI S_ 32 0#32)
/-- %58 = stablehlo.broadcast_in_dim %c_21, dims = [] : (tensor<i32>) -> tensor<1x262144xi32>  @ reference:55 -/
def r_main_v58 (A : RArgs F) : (⟨S1x262144, .i32⟩ : BufTy).Contents (Elt F) :=
  (broadcastInDim S1x262144 ![] bcast_S_S1x262144) (r_main_c_21 A)
/-- %59 = stablehlo.compare LT, %57, %58, SIGNED : (tensor<1x262144xi32>, tensor<1x262144xi32>) -> tensor<1x262144xi1>  @ reference:55 -/
def r_main_v59 (A : RArgs F) : (⟨S1x262144, .i1⟩ : BufTy).Contents (Elt F) :=
  (cmpi .slt) (r_main_v57 A) (r_main_v58 A)
/-- %c_22 = stablehlo.constant dense<4096> : tensor<i32> -/
def r_main_c_22 (A : RArgs F) : (⟨S_, .i32⟩ : BufTy).Contents (Elt F) :=
  (constantI S_ 32 4096#32)
/-- %60 = stablehlo.broadcast_in_dim %c_22, dims = [] : (tensor<i32>) -> tensor<1x262144xi32>  @ reference:55 -/
def r_main_v60 (A : RArgs F) : (⟨S1x262144, .i32⟩ : BufTy).Contents (Elt F) :=
  (broadcastInDim S1x262144 ![] bcast_S_S1x262144) (r_main_c_22 A)
/-- %61 = stablehlo.add %57, %60 : tensor<1x262144xi32>  @ reference:55 -/
def r_main_v61 (A : RArgs F) : (⟨S1x262144, .i32⟩ : BufTy).Contents (Elt F) :=
  (addi) (r_main_v57 A) (r_main_v60 A)
/-- %62 = stablehlo.select %59, %61, %57 : tensor<1x262144xi1>, tensor<1x262144xi32>  @ reference:55 -/
def r_main_v62 (A : RArgs F) : (⟨S1x262144, .i32⟩ : BufTy).Contents (Elt F) :=
  (select) (r_main_v59 A) (r_main_v61 A) (r_main_v57 A)
/-- %63 = stablehlo.broadcast_in_dim %62, dims = [0, 1] : (tensor<1x262144xi32>) -> tensor<1x262144x1xi32>  @ reference:55 -/
def r_main_v63 (A : RArgs F) : (⟨S1x262144x1, .i32⟩ : BufTy).Contents (Elt F) :=
  (broadcastInDim S1x262144x1 ![0, 1] bcast_S1x262144_S1x262144x1_0_1) (r_main_v62 A)
/-- %64 = "stablehlo.gather"(%56, %63) <{dimension_numbers = #stablehlo.gather<offset_dims = [2], collapsed_slice_dims = [1], operand_batching_dims = [0], start_indices_batching_dims = [0], start_index_map = [1], index_vector_dim = 2>, indices_are_sorted = false, slice_sizes = array<i64: 1, 1, 128>}> : (tensor<1x4096x128xf32>, tensor<1x262144x1xi32>) -> tensor<1x262144x128xf32>  @ reference:55 -/
def r_main_v64 (A : RArgs F) : (⟨S1x262144x128, .f32⟩ : BufTy).Contents (Elt F) :=
  ((fun x i => Host.gather gather_S1x4096x128_S1x262144x1_S1x262144x128_2_1_0_0_1_2_11128 x i)) (r_main_v56 A) (r_main_v63 A)
/-- %65 = stablehlo.reshape %64 : (tensor<1x262144x128xf32>) -> tensor<1x4x65536x128xf32>  @ reference:55 -/
def r_main_v65 (A : RArgs F) : (⟨S1x4x65536x128, .f32⟩ : BufTy).Contents (Elt F) :=
  shapeCast S1x4x65536x128 (r_main_v64 A) shapeCasts_S1x262144x128_S1x4x65536x128
/-- %66 = stablehlo.convert %25 : (tensor<1x4x65536xi32>) -> tensor<1x4x65536xf32>  @ reference:61 -/
def r_main_v66 (A : RArgs F) : (⟨S1x4x65536, .f32⟩ : BufTy).Contents (Elt F) :=
  (sitofp .f32) (r_main_v25 A)
/-- %cst_23 = stablehlo.constant dense<2.000000e+00> : tensor<f32> -/
def r_main_cst_23 (A : RArgs F) : (⟨S_, .f32⟩ : BufTy).Contents (Elt F) :=
  (constant S_ .f32 0x40000000#32)
/-- %67 = stablehlo.broadcast_in_dim %cst_23, dims = [] : (tensor<f32>) -> tensor<1x4x65536xf32>  @ reference:61 -/
def r_main_v67 (A : RArgs F) : (⟨S1x4x65536, .f32⟩ : BufTy).Contents (Elt F) :=
  (broadcastInDim S1x4x65536 ![] bcast_S_S1x4x65536) (r_main_cst_23 A)
/-- %68 = stablehlo.multiply %67, %66 : tensor<1x4x65536xf32>  @ reference:61 -/
def r_main_v68 (A : RArgs F) : (⟨S1x4x65536, .f32⟩ : BufTy).Contents (Elt F) :=
  (mulf) (r_main_v67 A) (r_main_v66 A)
/-- %cst_24 = stablehlo.constant dense<1.000000e+00> : tensor<f32> -/
def r_main_cst_24 (A : RArgs F) : (⟨S_, .f32⟩ : BufTy).Contents (Elt F) :=
  (constant S_ .f32 0x3F800000#32)
/-- %69 = stablehlo.broadcast_in_dim %cst_24, dims = [] : (tensor<f32>) -> tensor<1x4x65536xf32>  @ reference:61 -/
def r_main_v69 (A : RArgs F) : (⟨S1x4x65536, .f32⟩ : BufTy).Contents (Elt F) :=
  (broadcastInDim S1x4x65536 ![] bcast_S_S1x4x65536) (r_main_cst_24 A)
/-- %70 = stablehlo.add %68, %69 : tensor<1x4x65536xf32>  @ reference:61 -/
def r_main_v70 (A : RArgs F) : (⟨S1x4x65536, .f32⟩ : BufTy).Contents (Elt F) :=
  (addf) (r_main_v68 A) (r_main_v69 A)
/-- %cst_25 = stablehlo.constant dense<6.400000e+01> : tensor<f32> -/
def r_main_cst_25 (A : RArgs F) : (⟨S_, .f32⟩ : BufTy).Contents (Elt F) :=
  (constant S_ .f32 0x42800000#32)
/-- %71 = stablehlo.broadcast_in_dim %cst_25, dims = [] : (tensor<f32>) -> tensor<1x4x65536xf32>  @ reference:61 -/
def r_main_v71 (A : RArgs F) : (⟨S1x4x65536, .f32⟩ : BufTy).Contents (Elt F) :=
  (broadcastInDim S1x4x65536 ![] bcast_S_S1x4x65536) (r_main_cst_25 A)
/-- %72 = stablehlo.divide %70, %71 : tensor<1x4x65536xf32>  @ reference:61 -/
def r_main_v72 (A : RArgs F) : (⟨S1x4x65536, .f32⟩ : BufTy).Contents (Elt F) :=
  (Host.divf) (r_main_v70 A) (r_main_v71 A)
/-- %cst_26 = stablehlo.constant dense<-1.000000e+00> : tensor<f32> -/
def r_main_cst_26 (A : RArgs F) : (⟨S_, .f32⟩ : BufTy).Contents (Elt F) :=
  (constant S_ .f32 0xBF800000#32)
/-- %73 = stablehlo.broadcast_in_dim %cst_26, dims = [] : (tensor<f32>) -> tensor<1x4x65536xf32>  @ reference:61 -/
def r_main_v73 (A : RArgs F) : (⟨S1x4x65536, .f32⟩ : BufTy).Contents (Elt F) :=
  (broadcastInDim S1x4x65536 ![] bcast_S_S1x4x65536) (r_main_cst_26 A)
/-- %74 = stablehlo.add %73, %72 : tensor<1x4x65536xf32>  @ reference:61 -/
def r_main_v74 (A : RArgs F) : (⟨S1x4x65536, .f32⟩ : BufTy).Contents (Elt F) :=
  (addf) (r_main_v73 A) (r_main_v72 A)
/-- %75 = stablehlo.convert %40 : (tensor<1x4x65536xi32>) -> tensor<1x4x65536xf32>  @ reference:62 -/
def r_main_v75 (A : RArgs F) : (⟨S1x4x65536, .f32⟩ : BufTy).Contents (Elt F) :=
  (sitofp .f32) (r_main_v40 A)
/-- %cst_27 = stablehlo.constant dense<2.000000e+00> : tensor<f32> -/
def r_main_cst_27 (A : RArgs F) : (⟨S_, .f32⟩ : BufTy).Contents (Elt F) :=
  (constant S_ .f32 0x40000000#32)
/-- %76 = stablehlo.broadcast_in_dim %cst_27, dims = [] : (tensor<f32>) -> tensor<1x4x65536xf32>  @ reference:62 -/
def r_main_v76 (A : RArgs F) : (⟨S1x4x65536, .f32⟩ : BufTy).Contents (Elt F) :=
  (broadcastInDim S1x4x65536 ![] bcast_S_S1x4x65536) (r_main_cst_27 A)
/-- %77 = stablehlo.multiply %76, %75 : tensor<1x4x65536xf32>  @ reference:62 -/
def r_main_v77 (A : RArgs F) : (⟨S1x4x65536, .f32⟩ : BufTy).Contents (Elt F) :=
  (mulf) (r_main_v76 A) (r_main_v75 A)
/-- %cst_28 = stablehlo.constant dense<1.000000e+00> : tensor<f32> -/
def r_main_cst_28 (A : RArgs F) : (⟨S_, .f32⟩ : BufTy).Contents (Elt F) :=
  (constant S_ .f32 0x3F800000#32)
/-- %78 = stablehlo.broadcast_in_dim %cst_28, dims = [] : (tensor<f32>) -> tensor<1x4x65536xf32>  @ reference:62 -/
def r_main_v78 (A : RArgs F) : (⟨S1x4x65536, .f32⟩ : BufTy).Contents (Elt F) :=
  (broadcastInDim S1x4x65536 ![] bcast_S_S1x4x65536) (r_main_cst_28 A)
/-- %79 = stablehlo.add %77, %78 : tensor<1x4x65536xf32>  @ reference:62 -/
def r_main_v79 (A : RArgs F) : (⟨S1x4x65536, .f32⟩ : BufTy).Contents (Elt F) :=
  (addf) (r_main_v77 A) (r_main_v78 A)
/-- %cst_29 = stablehlo.constant dense<6.400000e+01> : tensor<f32> -/
def r_main_cst_29 (A : RArgs F) : (⟨S_, .f32⟩ : BufTy).Contents (Elt F) :=
  (constant S_ .f32 0x42800000#32)
/-- %80 = stablehlo.broadcast_in_dim %cst_29, dims = [] : (tensor<f32>) -> tensor<1x4x65536xf32>  @ reference:62 -/
def r_main_v80 (A : RArgs F) : (⟨S1x4x65536, .f32⟩ : BufTy).Contents (Elt F) :=
  (broadcastInDim S1x4x65536 ![] bcast_S_S1x4x65536) (r_main_cst_29 A)
/-- %81 = stablehlo.divide %79, %80 : tensor<1x4x65536xf32>  @ reference:62 -/
def r_main_v81 (A : RArgs F) : (⟨S1x4x65536, .f32⟩ : BufTy).Contents (Elt F) :=
  (Host.divf) (r_main_v79 A) (r_main_v80 A)
/-- %cst_30 = stablehlo.constant dense<-1.000000e+00> : tensor<f32> -/
def r_main_cst_30 (A : RArgs F) : (⟨S_, .f32⟩ : BufTy).Contents (Elt F) :=
  (constant S_ .f32 0xBF800000#32)
/-- %82 = stablehlo.broadcast_in_dim %cst_30, dims = [] : (tensor<f32>) -> tensor<1x4x65536xf32>  @ reference:62 -/
def r_main_v82 (A : RArgs F) : (⟨S1x4x65536, .f32⟩ : BufTy).Contents (Elt F) :=
  (broadcastInDim S1x4x65536 ![] bcast_S_S1x4x65536) (r_main_cst_30 A)
/-- %83 = stablehlo.add %82, %81 : tensor<1x4x65536xf32>  @ reference:62 -/
def r_main_v83 (A : RArgs F) : (⟨S1x4x65536, .f32⟩ : BufTy).Contents (Elt F) :=
  (addf) (r_main_v82 A) (r_main_v81 A)
/-- %84 = stablehlo.slice %arg3 [0:1, 0:65536, 0:1] : (tensor<1x65536x2xf32>) -> tensor<1x65536x1xf32>  @ reference:63 -/
def r_main_v84 (A : RArgs F) : (⟨S1x65536x1, .f32⟩ : BufTy).Contents (Elt F) :=
  ((extractStridedSlice S1x65536x1 ![0, 0, 0] · slices_S1x65536x2_S1x65536x1_0_0_0)) (r_main_arg3 A)
/-- %85 = stablehlo.reshape %84 : (tensor<1x65536x1xf32>) -> tensor<1x65536xf32>  @ reference:63 -/
def r_main_v85 (A : RArgs F) : (⟨S1x65536, .f32⟩ : BufTy).Contents (Elt F) :=
  shapeCast S1x65536 (r_main_v84 A) shapeCasts_S1x65536x1_S1x65536
/-- %86 = stablehlo.broadcast_in_dim %85, dims = [0, 2] : (tensor<1x65536xf32>) -> tensor<1x1x65536xf32>  @ reference:63 -/
def r_main_v86 (A : RArgs F) : (⟨S1x1x65536, .f32⟩ : BufTy).Contents (Elt F) :=
  (broadcastInDim S1x1x65536 ![0, 2] bcast_S1x65536_S1x1x65536_0_2) (r_main_v85 A)
/-- %87 = stablehlo.broadcast_in_dim %86, dims = [0, 1, 2] : (tensor<1x1x65536xf32>) -> tensor<1x4x65536xf32>  @ reference:63 -/
def r_main_v87 (A : RArgs F) : (⟨S1x4x65536, .f32⟩ : BufTy).Contents (Elt F) :=
  (broadcastInDim S1x4x65536 ![0, 1, 2] bcast_S1x1x65536_S1x4x65536_0_1_2) (r_main_v86 A)
/-- %88 = stablehlo.subtract %87, %74 : tensor<1x4x65536xf32>  @ reference:63 -/
def r_main_v88 (A : RArgs F) : (⟨S1x4x65536, .f32⟩ : BufTy).Contents (Elt F) :=
  (subf) (r_main_v87 A) (r_main_v74 A)
/-- %cst_31 = stablehlo.constant dense<6.400000e+01> : tensor<f32> -/
def r_main_cst_31 (A : RArgs F) : (⟨S_, .f32⟩ : BufTy).Contents (Elt F) :=
  (constant S_ .f32 0x42800000#32)
/-- %89 = stablehlo.broadcast_in_dim %cst_31, dims = [] : (tensor<f32>) -> tensor<1x4x65536xf32>  @ reference:63 -/
def r_main_v89 (A : RArgs F) : (⟨S1x4x65536, .f32⟩ : BufTy).Contents (Elt F) :=
  (broadcastInDim S1x4x65536 ![] bcast_S_S1x4x65536) (r_main_cst_31 A)
/-- %90 = stablehlo.multiply %88, %89 : tensor<1x4x65536xf32>  @ reference:63 -/
def r_main_v90 (A : RArgs F) : (⟨S1x4x65536, .f32⟩ : BufTy).Contents (Elt F) :=
  (mulf) (r_main_v88 A) (r_main_v89 A)
/-- %91 = stablehlo.slice %arg3 [0:1, 0:65536, 1:2] : (tensor<1x65536x2xf32>) -> tensor<1x65536x1xf32>  @ reference:64 -/
def r_main_v91 (A : RArgs F) : (⟨S1x65536x1, .f32⟩ : BufTy).Contents (Elt F) :=
  ((extractStridedSlice S1x65536x1 ![0, 0, 1] · slices_S1x65536x2_S1x65536x1_0_0_1)) (r_main_arg3 A)
/-- %92 = stablehlo.reshape %91 : (tensor<1x65536x1xf32>) -> tensor<1x65536xf32>  @ reference:64 -/
def r_main_v92 (A : RArgs F) : (⟨S1x65536, .f32⟩ : BufTy).Contents (Elt F) :=
  shapeCast S1x65536 (r_main_v91 A) shapeCasts_S1x65536x1_S1x65536
/-- %93 = stablehlo.broadcast_in_dim %92, dims = [0, 2] : (tensor<1x65536xf32>) -> tensor<1x1x65536xf32>  @ reference:64 -/
def r_main_v93 (A : RArgs F) : (⟨S1x1x65536, .f32⟩ : BufTy).Contents (Elt F) :=
  (broadcastInDim S1x1x65536 ![0, 2] bcast_S1x65536_S1x1x65536_0_2) (r_main_v92 A)
/-- %94 = stablehlo.broadcast_in_dim %93, dims = [0, 1, 2] : (tensor<1x1x65536xf32>) -> tensor<1x4x65536xf32>  @ reference:64 -/
def r_main_v94 (A : RArgs F) : (⟨S1x4x65536, .f32⟩ : BufTy).Contents (Elt F) :=
  (broadcastInDim S1x4x65536 ![0, 1, 2] bcast_S1x1x65536_S1x4x65536_0_1_2) (r_main_v93 A)
/-- %95 = stablehlo.subtract %94, %83 : tensor<1x4x65536xf32>  @ reference:64 -/
def r_main_v95 (A : RArgs F) : (⟨S1x4x65536, .f32⟩ : BufTy).Contents (Elt F) :=
  (subf) (r_main_v94 A) (r_main_v83 A)
/-- %cst_32 = stablehlo.constant dense<6.400000e+01> : tensor<f32> -/
def r_main_cst_32 (A : RArgs F) : (⟨S_, .f32⟩ : BufTy).Contents (Elt F) :=
  (constant S_ .f32 0x42800000#32)
/-- %96 = stablehlo.broadcast_in_dim %cst_32, dims = [] : (tensor<f32>) -> tensor<1x4x65536xf32>  @ reference:64 -/
def r_main_v96 (A : RArgs F) : (⟨S1x4x65536, .f32⟩ : BufTy).Contents (Elt F) :=
  (broadcastInDim S1x4x65536 ![] bcast_S_S1x4x65536) (r_main_cst_32 A)
/-- %97 = stablehlo.multiply %95, %96 : tensor<1x4x65536xf32>  @ reference:64 -/
def r_main_v97 (A : RArgs F) : (⟨S1x4x65536, .f32⟩ : BufTy).Contents (Elt F) :=
  (mulf) (r_main_v95 A) (r_main_v96 A)
/-- %98 = stablehlo.broadcast_in_dim %90, dims = [0, 1, 2] : (tensor<1x4x65536xf32>) -> tensor<1x4x65536x1xf32>  @ reference:65 -/
def r_main_v98 (A : RArgs F) : (⟨S1x4x65536x1, .f32⟩ : BufTy).Contents (Elt F) :=
  (broadcastInDim S1x4x65536x1 ![0, 1, 2] bcast_S1x4x65536_S1x4x65536x1_0_1_2) (r_main_v90 A)
/-- %99 = stablehlo.broadcast_in_dim %97, dims = [0, 1, 2] : (tensor<1x4x65536xf32>) -> tensor<1x4x65536x1xf32>  @ reference:65 -/
def r_main_v99 (A : RArgs F) : (⟨S1x4x65536x1, .f32⟩ : BufTy).Contents (Elt F) :=
  (broadcastInDim S1x4x65536x1 ![0, 1, 2] bcast_S1x4x65536_S1x4x65536x1_0_1_2) (r_main_v97 A)
/-- %100 = stablehlo.concatenate %98, %99, dim = 3 : (tensor<1x4x65536x1xf32>, tensor<1x4x65536x1xf32>) -> tensor<1x4x65536x2xf32>  @ reference:65 -/
def r_main_v100 (A : RArgs F) : (⟨S1x4x65536x2, .f32⟩ : BufTy).Contents (Elt F) :=
  ((fun a b => concatenate S1x4x65536x2 3 [⟨S1x4x65536x1, a⟩, ⟨S1x4x65536x1, b⟩] concatenates_S1x4x65536x1_S1x4x65536x1_S1x4x65536x2_d3)) (r_main_v98 A) (r_main_v99 A)
/-- %101 = stablehlo.broadcast_in_dim %cst_1, dims = [2] : (tensor<2xf32>) -> tensor<1x1x2xf32>  @ reference:66 -/
def r_main_v101 (A : RArgs F) : (⟨S1x1x2, .f32⟩ : BufTy).Contents (Elt F) :=
  (broadcastInDim S1x1x2 ![2] bcast_S2_S1x1x2_2) (r_main_cst_1 A)
/-- %102 = stablehlo.broadcast_in_dim %101, dims = [0, 1, 2] : (tensor<1x1x2xf32>) -> tensor<1x65536x2xf32>  @ reference:66 -/
def r_main_v102 (A : RArgs F) : (⟨S1x65536x2, .f32⟩ : BufTy).Contents (Elt F) :=
  (broadcastInDim S1x65536x2 ![0, 1, 2] bcast_S1x1x2_S1x65536x2_0_1_2) (r_main_v101 A)
/-- %103 = stablehlo.multiply %arg4, %102 : tensor<1x65536x2xf32>  @ reference:66 -/
def r_main_v103 (A : RArgs F) : (⟨S1x65536x2, .f32⟩ : BufTy).Contents (Elt F) :=
  (mulf) (r_main_arg4 A) (r_main_v102 A)
/-- %104 = stablehlo.dot_general %100, %arg5, contracting_dims = [3] x [1], precision = [DEFAULT, DEFAULT] : (tensor<1x4x65536x2xf32>, tensor<128x2xf32>) -> tensor<1x4x65536x128xf32>  @ reference:68 -/
def r_main_v104 (A : RArgs F) : (⟨S1x4x65536x128, .f32⟩ : BufTy).Contents (Elt F) :=
  ((fun l r => Host.dotGeneral dot_S1x4x65536x2_S128x2_S1x4x65536x128_3_1_012_0_n_n none l r)) (r_main_v100 A) (r_main_arg5 A)
/-- %105 = stablehlo.multiply %65, %104 : tensor<1x4x65536x128xf32>  @ reference:68 -/
def r_main_v105 (A : RArgs F) : (⟨S1x4x65536x128, .f32⟩ : BufTy).Contents (Elt F) :=
  (mulf) (r_main_v65 A) (r_main_v104 A)
/-- %106 = stablehlo.dot_general %103, %arg6, contracting_dims = [2] x [1], precision = [DEFAULT, DEFAULT] : (tensor<1x65536x2xf32>, tensor<128x2xf32>) -> tensor<1x65536x128xf32>  @ reference:69 -/
def r_main_v106 (A : RArgs F) : (⟨S1x65536x128, .f32⟩ : BufTy).Contents (Elt F) :=
  ((fun l r => Host.dotGeneral dot_S1x65536x2_S128x2_S1x65536x128_2_1_01_0_n_n none l r)) (r_main_v103 A) (r_main_arg6 A)
/-- %107 = stablehlo.broadcast_in_dim %106, dims = [0, 2, 3] : (tensor<1x65536x128xf32>) -> tensor<1x1x65536x128xf32>  @ reference:69 -/
def r_main_v107 (A : RArgs F) : (⟨S1x1x65536x128, .f32⟩ : BufTy).Contents (Elt F) :=
  (broadcastInDim S1x1x65536x128 ![0, 2, 3] bcast_S1x65536x128_S1x1x65536x128_0_2_3) (r_main_v106 A)
/-- %108 = stablehlo.broadcast_in_dim %107, dims = [0, 1, 2, 3] : (tensor<1x1x65536x128xf32>) -> tensor<1x4x65536x128xf32>  @ reference:69 -/
def r_main_v108 (A : RArgs F) : (⟨S1x4x65536x128, .f32⟩ : BufTy).Contents (Elt F) :=
  (broadcastInDim S1x4x65536x128 ![0, 1, 2, 3] bcast_S1x1x65536x128_S1x4x65536x128_0_1_2_3) (r_main_v107 A)
/-- %109 = stablehlo.add %105, %108 : tensor<1x4x65536x128xf32>  @ reference:69 -/
def r_main_v109 (A : RArgs F) : (⟨S1x4x65536x128, .f32⟩ : BufTy).Contents (Elt F) :=
  (addf) (r_main_v105 A) (r_main_v108 A)
/-- %cst_33 = stablehlo.constant dense<3.14159274> : tensor<f32> -/
def r_main_cst_33 (A : RArgs F) : (⟨S_, .f32⟩ : BufTy).Contents (Elt F) :=
  (constant S_ .f32 0x40490FDB#32)
/-- %110 = stablehlo.broadcast_in_dim %cst_33, dims = [] : (tensor<f32>) -> tensor<1x4x65536x128xf32>  @ reference:70 -/
def r_main_v110 (A : RArgs F) : (⟨S1x4x65536x128, .f32⟩ : BufTy).Contents (Elt F) :=
  (broadcastInDim S1x4x65536x128 ![] bcast_S_S1x4x65536x128) (r_main_cst_33 A)
/-- %111 = stablehlo.multiply %110, %109 : tensor<1x4x65536x128xf32>  @ reference:70 -/
def r_main_v111 (A : RArgs F) : (⟨S1x4x65536x128, .f32⟩ : BufTy).Contents (Elt F) :=
  (mulf) (r_main_v110 A) (r_main_v109 A)
/-- %112 = stablehlo.cosine %111 : tensor<1x4x65536x128xf32>  @ reference:70 -/
def r_main_v112 (A : RArgs F) : (⟨S1x4x65536x128, .f32⟩ : BufTy).Contents (Elt F) :=
  (Host.cos) (r_main_v111 A)
/-- %cst_34 = stablehlo.constant dense<3.14159274> : tensor<f32> -/
def r_main_cst_34 (A : RArgs F) : (⟨S_, .f32⟩ : BufTy).Contents (Elt F) :=
  (constant S_ .f32 0x40490FDB#32)
/-- %113 = stablehlo.broadcast_in_dim %cst_34, dims = [] : (tensor<f32>) -> tensor<1x4x65536x128xf32>  @ reference:70 -/
def r_main_v113 (A : RArgs F) : (⟨S1x4x65536x128, .f32⟩ : BufTy).Contents (Elt F) :=
  (broadcastInDim S1x4x65536x128 ![] bcast_S_S1x4x65536x128) (r_main_cst_34 A)
/-- %114 = stablehlo.multiply %113, %109 : tensor<1x4x65536x128xf32>  @ reference:70 -/
def r_main_v114 (A : RArgs F) : (⟨S1x4x65536x128, .f32⟩ : BufTy).Contents (Elt F) :=
  (mulf) (r_main_v113 A) (r_main_v109 A)
/-- %115 = stablehlo.sine %114 : tensor<1x4x65536x128xf32>  @ reference:70 -/
def r_main_v115 (A : RArgs F) : (⟨S1x4x65536x128, .f32⟩ : BufTy).Contents (Elt F) :=
  (Host.sin) (r_main_v114 A)
/-- %116 = stablehlo.concatenate %112, %115, dim = 3 : (tensor<1x4x65536x128xf32>, tensor<1x4x65536x128xf32>) -> tensor<1x4x65536x256xf32>  @ reference:70 -/
def r_main_v116 (A : RArgs F) : (⟨S1x4x65536x256, .f32⟩ : BufTy).Contents (Elt F) :=
  ((fun a b => concatenate S1x4x65536x256 3 [⟨S1x4x65536x128, a⟩, ⟨S1x4x65536x128, b⟩] concatenates_S1x4x65536x128_S1x4x65536x128_S1x4x65536x256_d3)) (r_main_v112 A) (r_main_v115 A)
/-- %117 = stablehlo.multiply %54, %116 : tensor<1x4x65536x256xf32>  @ reference:72 -/
def r_main_v117 (A : RArgs F) : (⟨S1x4x65536x256, .f32⟩ : BufTy).Contents (Elt F) :=
  (mulf) (r_main_v54 A) (r_main_v116 A)
/-- %118 = stablehlo.dot_general %117, %arg7, contracting_dims = [3] x [1], precision = [DEFAULT, DEFAULT] : (tensor<1x4x65536x256xf32>, tensor<256x256xf32>) -> tensor<1x4x65536x256xf32>  @ reference:73 -/
def r_main_v118 (A : RArgs F) : (⟨S1x4x65536x256, .f32⟩ : BufTy).Contents (Elt F) :=
  ((fun l r => Host.dotGeneral dot_S1x4x65536x256_S256x256_S1x4x65536x256_3_1_012_0_n_n none l r)) (r_main_v117 A) (r_main_arg7 A)
/-- %119 = stablehlo.broadcast_in_dim %arg8, dims = [3] : (tensor<256xf32>) -> tensor<1x1x1x256xf32>  @ reference:73 -/
def r_main_v119 (A : RArgs F) : (⟨S1x1x1x256, .f32⟩ : BufTy).Contents (Elt F) :=
  (broadcastInDim S1x1x1x256 ![3] bcast_S256_S1x1x1x256_3) (r_main_arg8 A)
/-- %120 = stablehlo.broadcast_in_dim %119, dims = [0, 1, 2, 3] : (tensor<1x1x1x256xf32>) -> tensor<1x4x65536x256xf32>  @ reference:73 -/
def r_main_v120 (A : RArgs F) : (⟨S1x4x65536x256, .f32⟩ : BufTy).Contents (Elt F) :=
  (broadcastInDim S1x4x65536x256 ![0, 1, 2, 3] bcast_S1x1x1x256_S1x4x65536x256_0_1_2_3) (r_main_v119 A)
/-- %121 = stablehlo.add %118, %120 : tensor<1x4x65536x256xf32>  @ reference:73 -/
def r_main_v121 (A : RArgs F) : (⟨S1x4x65536x256, .f32⟩ : BufTy).Contents (Elt F) :=
  (addf) (r_main_v118 A) (r_main_v120 A)
/-- %122 = func.call @relu(%121) : (tensor<1x4x65536x256xf32>) -> tensor<1x4x65536x256xf32>  @ reference:73 -/
def r_main_v122 (A : RArgs F) : (⟨S1x4x65536x256, .f32⟩ : BufTy).Contents (Elt F) :=
  maximumf (r_main_v121 A) (broadcastInDim S1x4x65536x256 ![] bcast_S_S1x4x65536x256 (constant S_ .f32 0x00000000#32))
/-- %123 = stablehlo.dot_general %122, %arg9, contracting_dims = [3] x [1], precision = [DEFAULT, DEFAULT] : (tensor<1x4x65536x256xf32>, tensor<256x256xf32>) -> tensor<1x4x65536x256xf32>  @ reference:74 -/
def r_main_v123 (A : RArgs F) : (⟨S1x4x65536x256, .f32⟩ : BufTy).Contents (Elt F) :=
  ((fun l r => Host.dotGeneral dot_S1x4x65536x256_S256x256_S1x4x65536x256_3_1_012_0_n_n none l r)) (r_main_v122 A) (r_main_arg9 A)
/-- %124 = stablehlo.broadcast_in_dim %arg10, dims = [3] : (tensor<256xf32>) -> tensor<1x1x1x256xf32>  @ reference:74 -/
def r_main_v124 (A : RArgs F) : (⟨S1x1x1x256, .f32⟩ : BufTy).Contents (Elt F) :=
  (broadcastInDim S1x1x1x256 ![3] bcast_S256_S1x1x1x256_3) (r_main_arg10 A)
/-- %125 = stablehlo.broadcast_in_dim %124, dims = [0, 1, 2, 3] : (tensor<1x1x1x256xf32>) -> tensor<1x4x65536x256xf32>  @ reference:74 -/
def r_main_v125 (A : RArgs F) : (⟨S1x4x65536x256, .f32⟩ : BufTy).Contents (Elt F) :=
  (broadcastInDim S1x4x65536x256 ![0, 1, 2, 3] bcast_S1x1x1x256_S1x4x65536x256_0_1_2_3) (r_main_v124 A)
/-- %126 = stablehlo.add %123, %125 : tensor<1x4x65536x256xf32>  @ reference:74 -/
def r_main_v126 (A : RArgs F) : (⟨S1x4x65536x256, .f32⟩ : BufTy).Contents (Elt F) :=
  (addf) (r_main_v123 A) (r_main_v125 A)
/-- %127 = func.call @relu(%126) : (tensor<1x4x65536x256xf32>) -> tensor<1x4x65536x256xf32>  @ reference:74 -/
def r_main_v127 (A : RArgs F) : (⟨S1x4x65536x256, .f32⟩ : BufTy).Contents (Elt F) :=
  maximumf (r_main_v126 A) (broadcastInDim S1x4x65536x256 ![] bcast_S_S1x4x65536x256 (constant S_ .f32 0x00000000#32))
/-- %128 = stablehlo.dot_general %127, %arg11, contracting_dims = [3] x [1], precision = [DEFAULT, DEFAULT] : (tensor<1x4x65536x256xf32>, tensor<3x256xf32>) -> tensor<1x4x65536x3xf32>  @ reference:75 -/
def r_main_v128 (A : RArgs F) : (⟨S1x4x65536x3, .f32⟩ : BufTy).Contents (Elt F) :=
  ((fun l r => Host.dotGeneral dot_S1x4x65536x256_S3x256_S1x4x65536x3_3_1_012_0_n_n none l r)) (r_main_v127 A) (r_main_arg11 A)
/-- %129 = stablehlo.broadcast_in_dim %arg12, dims = [3] : (tensor<3xf32>) -> tensor<1x1x1x3xf32>  @ reference:75 -/
def r_main_v129 (A : RArgs F) : (⟨S1x1x1x3, .f32⟩ : BufTy).Contents (Elt F) :=
  (broadcastInDim S1x1x1x3 ![3] bcast_S3_S1x1x1x3_3) (r_main_arg12 A)
/-- %130 = stablehlo.broadcast_in_dim %129, dims = [0, 1, 2, 3] : (tensor<1x1x1x3xf32>) -> tensor<1x4x65536x3xf32>  @ reference:75 -/
def r_main_v130 (A : RArgs F) : (⟨S1x4x65536x3, .f32⟩ : BufTy).Contents (Elt F) :=
  (broadcastInDim S1x4x65536x3 ![0, 1, 2, 3] bcast_S1x1x1x3_S1x4x65536x3_0_1_2_3) (r_main_v129 A)
/-- %131 = stablehlo.add %128, %130 : tensor<1x4x65536x3xf32>  @ reference:75 -/
def r_main_v131 (A : RArgs F) : (⟨S1x4x65536x3, .f32⟩ : BufTy).Contents (Elt F) :=
  (addf) (r_main_v128 A) (r_main_v130 A)
/-- %132 = stablehlo.multiply %90, %97 : tensor<1x4x65536xf32>  @ reference:77 -/
def r_main_v132 (A : RArgs F) : (⟨S1x4x65536, .f32⟩ : BufTy).Contents (Elt F) :=
  (mulf) (r_main_v90 A) (r_main_v97 A)
/-- %133 = stablehlo.abs %132 : tensor<1x4x65536xf32>  @ reference:77 -/
def r_main_v133 (A : RArgs F) : (⟨S1x4x65536, .f32⟩ : BufTy).Contents (Elt F) :=
  (Host.absf) (r_main_v132 A)
/-- %cst_35 = stablehlo.constant dense<9.99999971E-10> : tensor<f32> -/
def r_main_cst_35 (A : RArgs F) : (⟨S_, .f32⟩ : BufTy).Contents (Elt F) :=
  (constant S_ .f32 0x3089705F#32)
/-- %134 = stablehlo.broadcast_in_dim %cst_35, dims = [] : (tensor<f32>) -> tensor<1x4x65536xf32>  @ reference:77 -/
def r_main_v134 (A : RArgs F) : (⟨S1x4x65536, .f32⟩ : BufTy).Contents (Elt F) :=
  (broadcastInDim S1x4x65536 ![] bcast_S_S1x4x65536) (r_main_cst_35 A)
/-- %135 = stablehlo.add %133, %134 : tensor<1x4x65536xf32>  @ reference:77 -/
def r_main_v135 (A : RArgs F) : (⟨S1x4x65536, .f32⟩ : BufTy).Contents (Elt F) :=
  (addf) (r_main_v133 A) (r_main_v134 A)
/-- %cst_36 = stablehlo.constant dense<0.000000e+00> : tensor<f32> -/
def r_main_cst_36 (A : RArgs F) : (⟨S_, .f32⟩ : BufTy).Contents (Elt F) :=
  (constant S_ .f32 0x00000000#32)
/-- %136 = stablehlo.reduce(%135 init: %cst_36) applies stablehlo.add across dimensions = [1] : (tensor<1x4x65536xf32>, tensor<f32>) -> tensor<1x65536xf32> {  @ reference:78 -/
def r_main_v136 (A : RArgs F) : (⟨S1x65536, .f32⟩ : BufTy).Contents (Elt F) :=
  ((fun x v => Host.reduceAdd x v reducesTo_S1x4x65536_S1x65536_d1 h_S_)) (r_main_v135 A) (r_main_cst_36 A)
/-- %137 = stablehlo.broadcast_in_dim %136, dims = [0, 2] : (tensor<1x65536xf32>) -> tensor<1x1x65536xf32>  @ reference:78 -/
def r_main_v137 (A : RArgs F) : (⟨S1x1x65536, .f32⟩ : BufTy).Contents (Elt F) :=
  (broadcastInDim S1x1x65536 ![0, 2] bcast_S1x65536_S1x1x65536_0_2) (r_main_v136 A)
/-- %138 = stablehlo.reverse %135, dims = [1] : tensor<1x4x65536xf32>  @ reference:79 -/
def r_main_v138 (A : RArgs F) : (⟨S1x4x65536, .f32⟩ : BufTy).Contents (Elt F) :=
  (Host.reverse [1]) (r_main_v135 A)
/-- %139 = stablehlo.broadcast_in_dim %137, dims = [0, 1, 2] : (tensor<1x1x65536xf32>) -> tensor<1x4x65536xf32>  @ reference:79 -/
def r_main_v139 (A : RArgs F) : (⟨S1x4x65536, .f32⟩ : BufTy).Contents (Elt F) :=
  (broadcastInDim S1x4x65536 ![0, 1, 2] bcast_S1x1x65536_S1x4x65536_0_1_2) (r_main_v137 A)
/-- %140 = stablehlo.divide %138, %139 : tensor<1x4x65536xf32>  @ reference:79 -/
def r_main_v140 (A : RArgs F) : (⟨S1x4x65536, .f32⟩ : BufTy).Contents (Elt F) :=
  (Host.divf) (r_main_v138 A) (r_main_v139 A)
/-- %141 = stablehlo.broadcast_in_dim %140, dims = [0, 1, 2] : (tensor<1x4x65536xf32>) -> tensor<1x4x65536x1xf32>  @ reference:80 -/
def r_main_v141 (A : RArgs F) : (⟨S1x4x65536x1, .f32⟩ : BufTy).Contents (Elt F) :=
  (broadcastInDim S1x4x65536x1 ![0, 1, 2] bcast_S1x4x65536_S1x4x65536x1_0_1_2) (r_main_v140 A)
/-- %142 = stablehlo.broadcast_in_dim %141, dims = [0, 1, 2, 3] : (tensor<1x4x65536x1xf32>) -> tensor<1x4x65536x3xf32>  @ reference:80 -/
def r_main_v142 (A : RArgs F) : (⟨S1x4x65536x3, .f32⟩ : BufTy).Contents (Elt F) :=
  (broadcastInDim S1x4x65536x3 ![0, 1, 2, 3] bcast_S1x4x65536x1_S1x4x65536x3_0_1_2_3) (r_main_v141 A)
/-- %143 = stablehlo.multiply %131, %142 : tensor<1x4x65536x3xf32>  @ reference:80 -/
def r_main_v143 (A : RArgs F) : (⟨S1x4x65536x3, .f32⟩ : BufTy).Contents (Elt F) :=
  (mulf) (r_main_v131 A) (r_main_v142 A)
/-- %cst_37 = stablehlo.constant dense<0.000000e+00> : tensor<f32> -/
def r_main_cst_37 (A : RArgs F) : (⟨S_, .f32⟩ : BufTy).Contents (Elt F) :=
  (constant S_ .f32 0x00000000#32)
/-- %144 = stablehlo.reduce(%143 init: %cst_37) applies stablehlo.add across dimensions = [1] : (tensor<1x4x65536x3xf32>, tensor<f32>) -> tensor<1x65536x3xf32> {  @ reference:80 -/
def r_main_v144 (A : RArgs F) : (⟨S1x65536x3, .f32⟩ : BufTy).Contents (Elt F) :=
  ((fun x v => Host.reduceAdd x v reducesTo_S1x4x65536x3_S1x65536x3_d1 h_S_)) (r_main_v143 A) (r_main_cst_37 A)
/-- %145 = stablehlo.slice %arg3 [0:1, 0:65536, 0:1] : (tensor<1x65536x2xf32>) -> tensor<1x65536x1xf32>  @ reference:84 -/
def r_main_v145 (A : RArgs F) : (⟨S1x65536x1, .f32⟩ : BufTy).Contents (Elt F) :=
  ((extractStridedSlice S1x65536x1 ![0, 0, 0] · slices_S1x65536x2_S1x65536x1_0_0_0)) (r_main_arg3 A)
/-- %146 = stablehlo.reshape %145 : (tensor<1x65536x1xf32>) -> tensor<1x65536xf32>  @ reference:84 -/
def r_main_v146 (A : RArgs F) : (⟨S1x65536, .f32⟩ : BufTy).Contents (Elt F) :=
  shapeCast S1x65536 (r_main_v145 A) shapeCasts_S1x65536x1_S1x65536
/-- %cst_38 = stablehlo.constant dense<1.000000e+00> : tensor<f32> -/
def r_main_cst_38 (A : RArgs F) : (⟨S_, .f32⟩ : BufTy).Contents (Elt F) :=
  (constant S_ .f32 0x3F800000#32)
/-- %147 = stablehlo.broadcast_in_dim %cst_38, dims = [] : (tensor<f32>) -> tensor<1x65536xf32>  @ reference:84 -/
def r_main_v147 (A : RArgs F) : (⟨S1x65536, .f32⟩ : BufTy).Contents (Elt F) :=
  (broadcastInDim S1x65536 ![] bcast_S_S1x65536) (r_main_cst_38 A)
/-- %148 = stablehlo.add %146, %147 : tensor<1x65536xf32>  @ reference:84 -/
def r_main_v148 (A : RArgs F) : (⟨S1x65536, .f32⟩ : BufTy).Contents (Elt F) :=
  (addf) (r_main_v146 A) (r_main_v147 A)
/-- %cst_39 = stablehlo.constant dense<6.400000e+01> : tensor<f32> -/
def r_main_cst_39 (A : RArgs F) : (⟨S_, .f32⟩ : BufTy).Contents (Elt F) :=
  (constant S_ .f32 0x42800000#32)
/-- %149 = stablehlo.broadcast_in_dim %cst_39, dims = [] : (tensor<f32>) -> tensor<1x65536xf32>  @ reference:84 -/
def r_main_v149 (A : RArgs F) : (⟨S1x65536, .f32⟩ : BufTy).Contents (Elt F) :=
  (broadcastInDim S1x65536 ![] bcast_S_S1x65536) (r_main_cst_39 A)
/-- %150 = stablehlo.multiply %148, %149 : tensor<1x65536xf32>  @ reference:84 -/
def r_main_v150 (A : RArgs F) : (⟨S1x65536, .f32⟩ : BufTy).Contents (Elt F) :=
  (mulf) (r_main_v148 A) (r_main_v149 A)
/-- %cst_40 = stablehlo.constant dense<1.000000e+00> : tensor<f32> -/
def r_main_cst_40 (A : RArgs F) : (⟨S_, .f32⟩ : BufTy).Contents (Elt F) :=
  (constant S_ .f32 0x3F800000#32)
/-- %151 = stablehlo.broadcast_in_dim %cst_40, dims = [] : (tensor<f32>) -> tensor<1x65536xf32>  @ reference:84 -/
def r_main_v151 (A : RArgs F) : (⟨S1x65536, .f32⟩ : BufTy).Contents (Elt F) :=
  (broadcastInDim S1x65536 ![] bcast_S_S1x65536) (r_main_cst_40 A)
/-- %152 = stablehlo.subtract %150, %151 : tensor<1x65536xf32>  @ reference:84 -/
def r_main_v152 (A : RArgs F) : (⟨S1x65536, .f32⟩ : BufTy).Contents (Elt F) :=
  (subf) (r_main_v150 A) (r_main_v151 A)
/-- %cst_41 = stablehlo.constant dense<2.000000e+00> : tensor<f32> -/
def r_main_cst_41 (A : RArgs F) : (⟨S_, .f32⟩ : BufTy).Contents (Elt F) :=
  (constant S_ .f32 0x40000000#32)
/-- %153 = stablehlo.broadcast_in_dim %cst_41, dims = [] : (tensor<f32>) -> tensor<1x65536xf32>  @ reference:84 -/
def r_main_v153 (A : RArgs F) : (⟨S1x65536, .f32⟩ : BufTy).Contents (Elt F) :=
  (broadcastInDim S1x65536 ![] bcast_S_S1x65536) (r_main_cst_41 A)
/-- %154 = stablehlo.divide %152, %153 : tensor<1x65536xf32>  @ reference:84 -/
def r_main_v154 (A : RArgs F) : (⟨S1x65536, .f32⟩ : BufTy).Contents (Elt F) :=
  (Host.divf) (r_main_v152 A) (r_main_v153 A)
/-- %cst_42 = stablehlo.constant dense<0.000000e+00> : tensor<f32> -/
def r_main_cst_42 (A : RArgs F) : (⟨S_, .f32⟩ : BufTy).Contents (Elt F) :=
  (constant S_ .f32 0x00000000#32)
/-- %cst_43 = stablehlo.constant dense<6.300000e+01> : tensor<f32> -/
def r_main_cst_43 (A : RArgs F) : (⟨S_, .f32⟩ : BufTy).Contents (Elt F) :=
  (constant S_ .f32 0x427C0000#32)
/-- %155 = func.call @clip_1(%154, %cst_42, %cst_43) : (tensor<1x65536xf32>, tensor<f32>, tensor<f32>) -> tensor<1x65536xf32>  @ reference:84  (the call's maximum) -/
def r_main_call5_v2 (A : RArgs F) : (⟨S1x65536, .f32⟩ : BufTy).Contents (Elt F) :=
  maximumf (broadcastInDim S1x65536 ![] bcast_S_S1x65536 (r_main_cst_42 A)) (r_main_v154 A)
/-- %155 = func.call @clip_1(%154, %cst_42, %cst_43) : (tensor<1x65536xf32>, tensor<f32>, tensor<f32>) -> tensor<1x65536xf32>  @ reference:84  (the call's minimum) -/
def r_main_v155 (A : RArgs F) : (⟨S1x65536, .f32⟩ : BufTy).Contents (Elt F) :=
  minimumf (broadcastInDim S1x65536 ![] bcast_S_S1x65536 (r_main_cst_43 A)) (r_main_call5_v2 A)
/-- %156 = stablehlo.slice %arg3 [0:1, 0:65536, 1:2] : (tensor<1x65536x2xf32>) -> tensor<1x65536x1xf32>  @ reference:85 -/
def r_main_v156 (A : RArgs F) : (⟨S1x65536x1, .f32⟩ : BufTy).Contents (Elt F) :=
  ((extractStridedSlice S1x65536x1 ![0, 0, 1] · slices_S1x65536x2_S1x65536x1_0_0_1)) (r_main_arg3 A)
/-- %157 = stablehlo.reshape %156 : (tensor<1x65536x1xf32>) -> tensor<1x65536xf32>  @ reference:85 -/
def r_main_v157 (A : RArgs F) : (⟨S1x65536, .f32⟩ : BufTy).Contents (Elt F) :=
  shapeCast S1x65536 (r_main_v156 A) shapeCasts_S1x65536x1_S1x65536
/-- %cst_44 = stablehlo.constant dense<1.000000e+00> : tensor<f32> -/
def r_main_cst_44 (A : RArgs F) : (⟨S_, .f32⟩ : BufTy).Contents (Elt F) :=
  (constant S_ .f32 0x3F800000#32)
/-- %158 = stablehlo.broadcast_in_dim %cst_44, dims = [] : (tensor<f32>) -> tensor<1x65536xf32>  @ reference:85 -/
def r_main_v158 (A : RArgs F) : (⟨S1x65536, .f32⟩ : BufTy).Contents (Elt F) :=
  (broadcastInDim S1x65536 ![] bcast_S_S1x65536) (r_main_cst_44 A)
/-- %159 = stablehlo.add %157, %158 : tensor<1x65536xf32>  @ reference:85 -/
def r_main_v159 (A : RArgs F) : (⟨S1x65536, .f32⟩ : BufTy).Contents (Elt F) :=
  (addf) (r_main_v157 A) (r_main_v158 A)
/-- %cst_45 = stablehlo.constant dense<6.400000e+01> : tensor<f32> -/
def r_main_cst_45 (A : RArgs F) : (⟨S_, .f32⟩ : BufTy).Contents (Elt F) :=
  (constant S_ .f32 0x42800000#32)
/-- %160 = stablehlo.broadcast_in_dim %cst_45, dims = [] : (tensor<f32>) -> tensor<1x65536xf32>  @ reference:85 -/
def r_main_v160 (A : RArgs F) : (⟨S1x65536, .f32⟩ : BufTy).Contents (Elt F) :=
  (broadcastInDim S1x65536 ![] bcast_S_S1x65536) (r_main_cst_45 A)
/-- %161 = stablehlo.multiply %159, %160 : tensor<1x65536xf32>  @ reference:85 -/
def r_main_v161 (A : RArgs F) : (⟨S1x65536, .f32⟩ : BufTy).Contents (Elt F) :=
  (mulf) (r_main_v159 A) (r_main_v160 A)
/-- %cst_46 = stablehlo.constant dense<1.000000e+00> : tensor<f32> -/
def r_main_cst_46 (A : RArgs F) : (⟨S_, .f32⟩ : BufTy).Contents (Elt F) :=
  (constant S_ .f32 0x3F800000#32)
/-- %162 = stablehlo.broadcast_in_dim %cst_46, dims = [] : (tensor<f32>) -> tensor<1x65536xf32>  @ reference:85 -/
def r_main_v162 (A : RArgs F) : (⟨S1x65536, .f32⟩ : BufTy).Contents (Elt F) :=
  (broadcastInDim S1x65536 ![] bcast_S_S1x65536) (r_main_cst_46 A)
/-- %163 = stablehlo.subtract %161, %162 : tensor<1x65536xf32>  @ reference:85 -/
def r_main_v163 (A : RArgs F) : (⟨S1x65536, .f32⟩ : BufTy).Contents (Elt F) :=
  (subf) (r_main_v161 A) (r_main_v162 A)
/-- %cst_47 = stablehlo.constant dense<2.000000e+00> : tensor<f32> -/
def r_main_cst_47 (A : RArgs F) : (⟨S_, .f32⟩ : BufTy).Contents (Elt F) :=
  (constant S_ .f32 0x40000000#32)
/-- %164 = stablehlo.broadcast_in_dim %cst_47, dims = [] : (tensor<f32>) -> tensor<1x65536xf32>  @ reference:85 -/
def r_main_v164 (A : RArgs F) : (⟨S1x65536, .f32⟩ : BufTy).Contents (Elt F) :=
  (broadcastInDim S1x65536 ![] bcast_S_S1x65536) (r_main_cst_47 A)
/-- %165 = stablehlo.divide %163, %164 : tensor<1x65536xf32>  @ reference:85 -/
def r_main_v165 (A : RArgs F) : (⟨S1x65536, .f32⟩ : BufTy).Contents (Elt F) :=
  (Host.divf) (r_main_v163 A) (r_main_v164 A)
/-- %cst_48 = stablehlo.constant dense<0.000000e+00> : tensor<f32> -/
def r_main_cst_48 (A : RArgs F) : (⟨S_, .f32⟩ : BufTy).Contents (Elt F) :=
  (constant S_ .f32 0x00000000#32)
/-- %cst_49 = stablehlo.constant dense<6.300000e+01> : tensor<f32> -/
def r_main_cst_49 (A : RArgs F) : (⟨S_, .f32⟩ : BufTy).Contents (Elt F) :=
  (constant S_ .f32 0x427C0000#32)
/-- %166 = func.call @clip_1(%165, %cst_48, %cst_49) : (tensor<1x65536xf32>, tensor<f32>, tensor<f32>) -> tensor<1x65536xf32>  @ reference:85  (the call's maximum) -/
def r_main_call6_v2 (A : RArgs F) : (⟨S1x65536, .f32⟩ : BufTy).Contents (Elt F) :=
  maximumf (broadcastInDim S1x65536 ![] bcast_S_S1x65536 (r_main_cst_48 A)) (r_main_v165 A)
/-- %166 = func.call @clip_1(%165, %cst_48, %cst_49) : (tensor<1x65536xf32>, tensor<f32>, tensor<f32>) -> tensor<1x65536xf32>  @ reference:85  (the call's minimum) -/
def r_main_v166 (A : RArgs F) : (⟨S1x65536, .f32⟩ : BufTy).Contents (Elt F) :=
  minimumf (broadcastInDim S1x65536 ![] bcast_S_S1x65536 (r_main_cst_49 A)) (r_main_call6_v2 A)
/-- %167 = stablehlo.floor %155 : tensor<1x65536xf32>  @ reference:86 -/
def r_main_v167 (A : RArgs F) : (⟨S1x65536, .f32⟩ : BufTy).Contents (Elt F) :=
  (Host.floor) (r_main_v155 A)
/-- %168 = stablehlo.convert %167 : (tensor<1x65536xf32>) -> tensor<1x65536xi32>  @ reference:86 -/
def r_main_v168 (A : RArgs F) : (⟨S1x65536, .i32⟩ : BufTy).Contents (Elt F) :=
  (fptosi 32) (r_main_v167 A)
/-- %169 = stablehlo.floor %166 : tensor<1x65536xf32>  @ reference:86 -/
def r_main_v169 (A : RArgs F) : (⟨S1x65536, .f32⟩ : BufTy).Contents (Elt F) :=
  (Host.floor) (r_main_v166 A)
/-- %170 = stablehlo.convert %169 : (tensor<1x65536xf32>) -> tensor<1x65536xi32>  @ reference:86 -/
def r_main_v170 (A : RArgs F) : (⟨S1x65536, .i32⟩ : BufTy).Contents (Elt F) :=
  (fptosi 32) (r_main_v169 A)
/-- %c_50 = stablehlo.constant dense<1> : tensor<i32> -/
def r_main_c_50 (A : RArgs F) : (⟨S_, .i32⟩ : BufTy).Contents (Elt F) :=
  (constantI S_ 32 1#32)
/-- %171 = stablehlo.broadcast_in_dim %c_50, dims = [] : (tensor<i32>) -> tensor<1x65536xi32>  @ reference:87 -/
def r_main_v171 (A : RArgs F) : (⟨S1x65536, .i32⟩ : BufTy).Contents (Elt F) :=
  (broadcastInDim S1x65536 ![] bcast_S_S1x65536) (r_main_c_50 A)
/-- %172 = stablehlo.add %168, %171 : tensor<1x65536xi32>  @ reference:87 -/
def r_main_v172 (A : RArgs F) : (⟨S1x65536, .i32⟩ : BufTy).Contents (Elt F) :=
  (addi) (r_main_v168 A) (r_main_v171 A)
/-- %c_51 = stablehlo.constant dense<0> : tensor<i32> -/
def r_main_c_51 (A : RArgs F) : (⟨S_, .i32⟩ : BufTy).Contents (Elt F) :=
  (constantI S_ 32 0#32)
/-- %c_52 = stablehlo.constant dense<63> : tensor<i32> -/
def r_main_c_52 (A : RArgs F) : (⟨S_, .i32⟩ : BufTy).Contents (Elt F) :=
  (constantI S_ 32 63#32)
/-- %173 = func.call @clip_2(%172, %c_51, %c_52) : (tensor<1x65536xi32>, tensor<i32>, tensor<i32>) -> tensor<1x65536xi32>  @ reference:87  (the call's maximum) -/
def r_main_call7_v2 (A : RArgs F) : (⟨S1x65536, .i32⟩ : BufTy).Contents (Elt F) :=
  maxsi (broadcastInDim S1x65536 ![] bcast_S_S1x65536 (r_main_c_51 A)) (r_main_v172 A)
/-- %173 = func.call @clip_2(%172, %c_51, %c_52) : (tensor<1x65536xi32>, tensor<i32>, tensor<i32>) -> tensor<1x65536xi32>  @ reference:87  (the call's minimum) -/
def r_main_v173 (A : RArgs F) : (⟨S1x65536, .i32⟩ : BufTy).Contents (Elt F) :=
  minsi (broadcastInDim S1x65536 ![] bcast_S_S1x65536 (r_main_c_52 A)) (r_main_call7_v2 A)
/-- %c_53 = stablehlo.constant dense<1> : tensor<i32> -/
def r_main_c_53 (A : RArgs F) : (⟨S_, .i32⟩ : BufTy).Contents (Elt F) :=
  (constantI S_ 32 1#32)
/-- %174 = stablehlo.broadcast_in_dim %c_53, dims = [] : (tensor<i32>) -> tensor<1x65536xi32>  @ reference:87 -/
def r_main_v174 (A : RArgs F) : (⟨S1x65536, .i32⟩ : BufTy).Contents (Elt F) :=
  (broadcastInDim S1x65536 ![] bcast_S_S1x65536) (r_main_c_53 A)
/-- %175 = stablehlo.add %170, %174 : tensor<1x65536xi32>  @ reference:87 -/
def r_main_v175 (A : RArgs F) : (⟨S1x65536, .i32⟩ : BufTy).Contents (Elt F) :=
  (addi) (r_main_v170 A) (r_main_v174 A)
/-- %c_54 = stablehlo.constant dense<0> : tensor<i32> -/
def r_main_c_54 (A : RArgs F) : (⟨S_, .i32⟩ : BufTy).Contents (Elt F) :=
  (constantI S_ 32 0#32)
/-- %c_55 = stablehlo.constant dense<63> : tensor<i32> -/
def r_main_c_55 (A : RArgs F) : (⟨S_, .i32⟩ : BufTy).Contents (Elt F) :=
  (constantI S_ 32 63#32)
/-- %176 = func.call @clip_2(%175, %c_54, %c_55) : (tensor<1x65536xi32>, tensor<i32>, tensor<i32>) -> tensor<1x65536xi32>  @ reference:87  (the call's maximum) -/
def r_main_call8_v2 (A : RArgs F) : (⟨S1x65536, .i32⟩ : BufTy).Contents (Elt F) :=
  maxsi (broadcastInDim S1x65536 ![] bcast_S_S1x65536 (r_main_c_54 A)) (r_main_v175 A)
/-- %176 = func.call @clip_2(%175, %c_54, %c_55) : (tensor<1x65536xi32>, tensor<i32>, tensor<i32>) -> tensor<1x65536xi32>  @ reference:87  (the call's minimum) -/
def r_main_v176 (A : RArgs F) : (⟨S1x65536, .i32⟩ : BufTy).Contents (Elt F) :=
  minsi (broadcastInDim S1x65536 ![] bcast_S_S1x65536 (r_main_c_55 A)) (r_main_call8_v2 A)
/-- %177 = stablehlo.convert %168 : (tensor<1x65536xi32>) -> tensor<1x65536xf32>  @ reference:88 -/
def r_main_v177 (A : RArgs F) : (⟨S1x65536, .f32⟩ : BufTy).Contents (Elt F) :=
  (sitofp .f32) (r_main_v168 A)
/-- %178 = stablehlo.subtract %155, %177 : tensor<1x65536xf32>  @ reference:88 -/
def r_main_v178 (A : RArgs F) : (⟨S1x65536, .f32⟩ : BufTy).Contents (Elt F) :=
  (subf) (r_main_v155 A) (r_main_v177 A)
/-- %179 = stablehlo.convert %170 : (tensor<1x65536xi32>) -> tensor<1x65536xf32>  @ reference:88 -/
def r_main_v179 (A : RArgs F) : (⟨S1x65536, .f32⟩ : BufTy).Contents (Elt F) :=
  (sitofp .f32) (r_main_v170 A)
/-- %180 = stablehlo.subtract %166, %179 : tensor<1x65536xf32>  @ reference:88 -/
def r_main_v180 (A : RArgs F) : (⟨S1x65536, .f32⟩ : BufTy).Contents (Elt F) :=
  (subf) (r_main_v166 A) (r_main_v179 A)
/-- %181 = stablehlo.reshape %arg0 : (tensor<1x3x64x64xf32>) -> tensor<1x3x4096xf32>  @ reference:89 -/
def r_main_v181 (A : RArgs F) : (⟨S1x3x4096, .f32⟩ : BufTy).Contents (Elt F) :=
  shapeCast S1x3x4096 (r_main_arg0 A) shapeCasts_S1x3x64x64_S1x3x4096
/-- %182 = stablehlo.transpose %181, dims = [0, 2, 1] : (tensor<1x3x4096xf32>) -> tensor<1x4096x3xf32>  @ reference:89 -/
def r_main_v182 (A : RArgs F) : (⟨S1x4096x3, .f32⟩ : BufTy).Contents (Elt F) :=
  ((transpose S1x4096x3 [0, 2, 1] · transposes_S1x3x4096_S1x4096x3_0_2_1)) (r_main_v181 A)
/-- %c_56 = stablehlo.constant dense<64> : tensor<i32> -/
def r_main_c_56 (A : RArgs F) : (⟨S_, .i32⟩ : BufTy).Contents (Elt F) :=
  (constantI S_ 32 64#32)
/-- %183 = stablehlo.broadcast_in_dim %c_56, dims = [] : (tensor<i32>) -> tensor<1x65536xi32>  @ reference:90 -/
def r_main_v183 (A : RArgs F) : (⟨S1x65536, .i32⟩ : BufTy).Contents (Elt F) :=
  (broadcastInDim S1x65536 ![] bcast_S_S1x65536) (r_main_c_56 A)
/-- %184 = stablehlo.multiply %168, %183 : tensor<1x65536xi32>  @ reference:90 -/
def r_main_v184 (A : RArgs F) : (⟨S1x65536, .i32⟩ : BufTy).Contents (Elt F) :=
  (muli) (r_main_v168 A) (r_main_v183 A)
/-- %185 = stablehlo.add %184, %170 : tensor<1x65536xi32>  @ reference:90 -/
def r_main_v185 (A : RArgs F) : (⟨S1x65536, .i32⟩ : BufTy).Contents (Elt F) :=
  (addi) (r_main_v184 A) (r_main_v170 A)
/-- %c_57 = stablehlo.constant dense<0> : tensor<i32> -/
def r_main_c_57 (A : RArgs F) : (⟨S_, .i32⟩ : BufTy).Contents (Elt F) :=
  (constantI S_ 32 0#32)
/-- %186 = stablehlo.broadcast_in_dim %c_57, dims = [] : (tensor<i32>) -> tensor<1x65536xi32>  @ reference:90 -/
def r_main_v186 (A : RArgs F) : (⟨S1x65536, .i32⟩ : BufTy).Contents (Elt F) :=
  (broadcastInDim S1x65536 ![] bcast_S_S1x65536) (r_main_c_57 A)
/-- %187 = stablehlo.compare LT, %185, %186, SIGNED : (tensor<1x65536xi32>, tensor<1x65536xi32>) -> tensor<1x65536xi1>  @ reference:90 -/
def r_main_v187 (A : RArgs F) : (⟨S1x65536, .i1⟩ : BufTy).Contents (Elt F) :=
  (cmpi .slt) (r_main_v185 A) (r_main_v186 A)
/-- %c_58 = stablehlo.constant dense<4096> : tensor<i32> -/
def r_main_c_58 (A : RArgs F) : (⟨S_, .i32⟩ : BufTy).Contents (Elt F) :=
  (constantI S_ 32 4096#32)
/-- %188 = stablehlo.broadcast_in_dim %c_58, dims = [] : (tensor<i32>) -> tensor<1x65536xi32>  @ reference:90 -/
def r_main_v188 (A : RArgs F) : (⟨S1x65536, .i32⟩ : BufTy).Contents (Elt F) :=
  (broadcastInDim S1x65536 ![] bcast_S_S1x65536) (r_main_c_58 A)
/-- %189 = stablehlo.add %185, %188 : tensor<1x65536xi32>  @ reference:90 -/
def r_main_v189 (A : RArgs F) : (⟨S1x65536, .i32⟩ : BufTy).Contents (Elt F) :=
  (addi) (r_main_v185 A) (r_main_v188 A)
/-- %190 = stablehlo.select %187, %189, %185 : tensor<1x65536xi1>, tensor<1x65536xi32>  @ reference:90 -/
def r_main_v190 (A : RArgs F) : (⟨S1x65536, .i32⟩ : BufTy).Contents (Elt F) :=
  (select) (r_main_v187 A) (r_main_v189 A) (r_main_v185 A)
/-- %191 = stablehlo.broadcast_in_dim %190, dims = [0, 1] : (tensor<1x65536xi32>) -> tensor<1x65536x1xi32>  @ reference:90 -/
def r_main_v191 (A : RArgs F) : (⟨S1x65536x1, .i32⟩ : BufTy).Contents (Elt F) :=
  (broadcastInDim S1x65536x1 ![0, 1] bcast_S1x65536_S1x65536x1_0_1) (r_main_v190 A)
/-- %192 = "stablehlo.gather"(%182, %191) <{dimension_numbers = #stablehlo.gather<offset_dims = [2], collapsed_slice_dims = [1], operand_batching_dims = [0], start_indices_batching_dims = [0], start_index_map = [1], index_vector_dim = 2>, indices_are_sorted = false, slice_sizes = array<i64: 1, 1, 3>}> : (tensor<1x4096x3xf32>, tensor<1x65536x1xi32>) -> tensor<1x65536x3xf32>  @ reference:90 -/
def r_main_v192 (A : RArgs F) : (⟨S1x65536x3, .f32⟩ : BufTy).Contents (Elt F) :=
  ((fun x i => Host.gather gather_S1x4096x3_S1x65536x1_S1x65536x3_2_1_0_0_1_2_113 x i)) (r_main_v182 A) (r_main_v191 A)
/-- %cst_59 = stablehlo.constant dense<1.000000e+00> : tensor<f32> -/
def r_main_cst_59 (A : RArgs F) : (⟨S_, .f32⟩ : BufTy).Contents (Elt F) :=
  (constant S_ .f32 0x3F800000#32)
/-- %193 = stablehlo.broadcast_in_dim %cst_59, dims = [] : (tensor<f32>) -> tensor<1x65536xf32>  @ reference:91 -/
def r_main_v193 (A : RArgs F) : (⟨S1x65536, .f32⟩ : BufTy).Contents (Elt F) :=
  (broadcastInDim S1x65536 ![] bcast_S_S1x65536) (r_main_cst_59 A)
/-- %194 = stablehlo.subtract %193, %178 : tensor<1x65536xf32>  @ reference:91 -/
def r_main_v194 (A : RArgs F) : (⟨S1x65536, .f32⟩ : BufTy).Contents (Elt F) :=
  (subf) (r_main_v193 A) (r_main_v178 A)
/-- %cst_60 = stablehlo.constant dense<1.000000e+00> : tensor<f32> -/
def r_main_cst_60 (A : RArgs F) : (⟨S_, .f32⟩ : BufTy).Contents (Elt F) :=
  (constant S_ .f32 0x3F800000#32)
/-- %195 = stablehlo.broadcast_in_dim %cst_60, dims = [] : (tensor<f32>) -> tensor<1x65536xf32>  @ reference:91 -/
def r_main_v195 (A : RArgs F) : (⟨S1x65536, .f32⟩ : BufTy).Contents (Elt F) :=
  (broadcastInDim S1x65536 ![] bcast_S_S1x65536) (r_main_cst_60 A)
/-- %196 = stablehlo.subtract %195, %180 : tensor<1x65536xf32>  @ reference:91 -/
def r_main_v196 (A : RArgs F) : (⟨S1x65536, .f32⟩ : BufTy).Contents (Elt F) :=
  (subf) (r_main_v195 A) (r_main_v180 A)
/-- %197 = stablehlo.multiply %194, %196 : tensor<1x65536xf32>  @ reference:91 -/
def r_main_v197 (A : RArgs F) : (⟨S1x65536, .f32⟩ : BufTy).Contents (Elt F) :=
  (mulf) (r_main_v194 A) (r_main_v196 A)
/-- %198 = stablehlo.broadcast_in_dim %197, dims = [0, 1] : (tensor<1x65536xf32>) -> tensor<1x65536x1xf32>  @ reference:91 -/
def r_main_v198 (A : RArgs F) : (⟨S1x65536x1, .f32⟩ : BufTy).Contents (Elt F) :=
  (broadcastInDim S1x65536x1 ![0, 1] bcast_S1x65536_S1x65536x1_0_1) (r_main_v197 A)
/-- %199 = stablehlo.broadcast_in_dim %198, dims = [0, 1, 2] : (tensor<1x65536x1xf32>) -> tensor<1x65536x3xf32>  @ reference:91 -/
def r_main_v199 (A : RArgs F) : (⟨S1x65536x3, .f32⟩ : BufTy).Contents (Elt F) :=
  (broadcastInDim S1x65536x3 ![0, 1, 2] bcast_S1x65536x1_S1x65536x3_0_1_2) (r_main_v198 A)
/-- %200 = stablehlo.multiply %192, %199 : tensor<1x65536x3xf32>  @ reference:91 -/
def r_main_v200 (A : RArgs F) : (⟨S1x65536x3, .f32⟩ : BufTy).Contents (Elt F) :=
  (mulf) (r_main_v192 A) (r_main_v199 A)
/-- %c_61 = stablehlo.constant dense<64> : tensor<i32> -/
def r_main_c_61 (A : RArgs F) : (⟨S_, .i32⟩ : BufTy).Contents (Elt F) :=
  (constantI S_ 32 64#32)
/-- %201 = stablehlo.broadcast_in_dim %c_61, dims = [] : (tensor<i32>) -> tensor<1x65536xi32>  @ reference:90 -/
def r_main_v201 (A : RArgs F) : (⟨S1x65536, .i32⟩ : BufTy).Contents (Elt F) :=
  (broadcastInDim S1x65536 ![] bcast_S_S1x65536) (r_main_c_61 A)
/-- %202 = stablehlo.multiply %168, %201 : tensor<1x65536xi32>  @ reference:90 -/
def r_main_v202 (A : RArgs F) : (⟨S1x65536, .i32⟩ : BufTy).Contents (Elt F) :=
  (muli) (r_main_v168 A) (r_main_v201 A)
/-- %203 = stablehlo.add %202, %176 : tensor<1x65536xi32>  @ reference:90 -/
def r_main_v203 (A : RArgs F) : (⟨S1x65536, .i32⟩ : BufTy).Contents (Elt F) :=
  (addi) (r_main_v202 A) (r_main_v176 A)
/-- %c_62 = stablehlo.constant dense<0> : tensor<i32> -/
def r_main_c_62 (A : RArgs F) : (⟨S_, .i32⟩ : BufTy).Contents (Elt F) :=
  (constantI S_ 32 0#32)
/-- %204 = stablehlo.broadcast_in_dim %c_62, dims = [] : (tensor<i32>) -> tensor<1x65536xi32>  @ reference:90 -/
def r_main_v204 (A : RArgs F) : (⟨S1x65536, .i32⟩ : BufTy).Contents (Elt F) :=
  (broadcastInDim S1x65536 ![] bcast_S_S1x65536) (r_main_c_62 A)
/-- %205 = stablehlo.compare LT, %203, %204, SIGNED : (tensor<1x65536xi32>, tensor<1x65536xi32>) -> tensor<1x65536xi1>  @ reference:90 -/
def r_main_v205 (A : RArgs F) : (⟨S1x65536, .i1⟩ : BufTy).Contents (Elt F) :=
  (cmpi .slt) (r_main_v203 A) (r_main_v204 A)
/-- %c_63 = stablehlo.constant dense<4096> : tensor<i32> -/
def r_main_c_63 (A : RArgs F) : (⟨S_, .i32⟩ : BufTy).Contents (Elt F) :=
  (constantI S_ 32 4096#32)
/-- %206 = stablehlo.broadcast_in_dim %c_63, dims = [] : (tensor<i32>) -> tensor<1x65536xi32>  @ reference:90 -/
def r_main_v206 (A : RArgs F) : (⟨S1x65536, .i32⟩ : BufTy).Contents (Elt F) :=
  (broadcastInDim S1x65536 ![] bcast_S_S1x65536) (r_main_c_63 A)
/-- %207 = stablehlo.add %203, %206 : tensor<1x65536xi32>  @ reference:90 -/
def r_main_v207 (A : RArgs F) : (⟨S1x65536, .i32⟩ : BufTy).Contents (Elt F) :=
  (addi) (r_main_v203 A) (r_main_v206 A)
/-- %208 = stablehlo.select %205, %207, %203 : tensor<1x65536xi1>, tensor<1x65536xi32>  @ reference:90 -/
def r_main_v208 (A : RArgs F) : (⟨S1x65536, .i32⟩ : BufTy).Contents (Elt F) :=
  (select) (r_main_v205 A) (r_main_v207 A) (r_main_v203 A)
/-- %209 = stablehlo.broadcast_in_dim %208, dims = [0, 1] : (tensor<1x65536xi32>) -> tensor<1x65536x1xi32>  @ reference:90 -/
def r_main_v209 (A : RArgs F) : (⟨S1x65536x1, .i32⟩ : BufTy).Contents (Elt F) :=
  (broadcastInDim S1x65536x1 ![0, 1] bcast_S1x65536_S1x65536x1_0_1) (r_main_v208 A)
/-- %210 = "stablehlo.gather"(%182, %209) <{dimension_numbers = #stablehlo.gather<offset_dims = [2], collapsed_slice_dims = [1], operand_batching_dims = [0], start_indices_batching_dims = [0], start_index_map = [1], index_vector_dim = 2>, indices_are_sorted = false, slice_sizes = array<i64: 1, 1, 3>}> : (tensor<1x4096x3xf32>, tensor<1x65536x1xi32>) -> tensor<1x65536x3xf32>  @ reference:90 -/
def r_main_v210 (A : RArgs F) : (⟨S1x65536x3, .f32⟩ : BufTy).Contents (Elt F) :=
  ((fun x i => Host.gather gather_S1x4096x3_S1x65536x1_S1x65536x3_2_1_0_0_1_2_113 x i)) (r_main_v182 A) (r_main_v209 A)
/-- %cst_64 = stablehlo.constant dense<1.000000e+00> : tensor<f32> -/
def r_main_cst_64 (A : RArgs F) : (⟨S_, .f32⟩ : BufTy).Contents (Elt F) :=
  (constant S_ .f32 0x3F800000#32)
/-- %211 = stablehlo.broadcast_in_dim %cst_64, dims = [] : (tensor<f32>) -> tensor<1x65536xf32>  @ reference:92 -/
def r_main_v211 (A : RArgs F) : (⟨S1x65536, .f32⟩ : BufTy).Contents (Elt F) :=
  (broadcastInDim S1x65536 ![] bcast_S_S1x65536) (r_main_cst_64 A)
/-- %212 = stablehlo.subtract %211, %178 : tensor<1x65536xf32>  @ reference:92 -/
def r_main_v212 (A : RArgs F) : (⟨S1x65536, .f32⟩ : BufTy).Contents (Elt F) :=
  (subf) (r_main_v211 A) (r_main_v178 A)
/-- %213 = stablehlo.multiply %212, %180 : tensor<1x65536xf32>  @ reference:92 -/
def r_main_v213 (A : RArgs F) : (⟨S1x65536, .f32⟩ : BufTy).Contents (Elt F) :=
  (mulf) (r_main_v212 A) (r_main_v180 A)
/-- %214 = stablehlo.broadcast_in_dim %213, dims = [0, 1] : (tensor<1x65536xf32>) -> tensor<1x65536x1xf32>  @ reference:92 -/
def r_main_v214 (A : RArgs F) : (⟨S1x65536x1, .f32⟩ : BufTy).Contents (Elt F) :=
  (broadcastInDim S1x65536x1 ![0, 1] bcast_S1x65536_S1x65536x1_0_1) (r_main_v213 A)
/-- %215 = stablehlo.broadcast_in_dim %214, dims = [0, 1, 2] : (tensor<1x65536x1xf32>) -> tensor<1x65536x3xf32>  @ reference:92 -/
def r_main_v215 (A : RArgs F) : (⟨S1x65536x3, .f32⟩ : BufTy).Contents (Elt F) :=
  (broadcastInDim S1x65536x3 ![0, 1, 2] bcast_S1x65536x1_S1x65536x3_0_1_2) (r_main_v214 A)
/-- %216 = stablehlo.multiply %210, %215 : tensor<1x65536x3xf32>  @ reference:92 -/
def r_main_v216 (A : RArgs F) : (⟨S1x65536x3, .f32⟩ : BufTy).Contents (Elt F) :=
  (mulf) (r_main_v210 A) (r_main_v215 A)
/-- %217 = stablehlo.add %200, %216 : tensor<1x65536x3xf32>  @ reference:91 -/
def r_main_v217 (A : RArgs F) : (⟨S1x65536x3, .f32⟩ : BufTy).Contents (Elt F) :=
  (addf) (r_main_v200 A) (r_main_v216 A)
/-- %c_65 = stablehlo.constant dense<64> : tensor<i32> -/
def r_main_c_65 (A : RArgs F) : (⟨S_, .i32⟩ : BufTy).Contents (Elt F) :=
  (constantI S_ 32 64#32)
/-- %218 = stablehlo.broadcast_in_dim %c_65, dims = [] : (tensor<i32>) -> tensor<1x65536xi32>  @ reference:90 -/
def r_main_v218 (A : RArgs F) : (⟨S1x65536, .i32⟩ : BufTy).Contents (Elt F) :=
  (broadcastInDim S1x65536 ![] bcast_S_S1x65536) (r_main_c_65 A)
/-- %219 = stablehlo.multiply %173, %218 : tensor<1x65536xi32>  @ reference:90 -/
def r_main_v219 (A : RArgs F) : (⟨S1x65536, .i32⟩ : BufTy).Contents (Elt F) :=
  (muli) (r_main_v173 A) (r_main_v218 A)
/-- %220 = stablehlo.add %219, %170 : tensor<1x65536xi32>  @ reference:90 -/
def r_main_v220 (A : RArgs F) : (⟨S1x65536, .i32⟩ : BufTy).Contents (Elt F) :=
  (addi) (r_main_v219 A) (r_main_v170 A)
/-- %c_66 = stablehlo.constant dense<0> : tensor<i32> -/
def r_main_c_66 (A : RArgs F) : (⟨S_, .i32⟩ : BufTy).Contents (Elt F) :=
  (constantI S_ 32 0#32)
/-- %221 = stablehlo.broadcast_in_dim %c_66, dims = [] : (tensor<i32>) -> tensor<1x65536xi32>  @ reference:90 -/
def r_main_v221 (A : RArgs F) : (⟨S1x65536, .i32⟩ : BufTy).Contents (Elt F) :=
  (broadcastInDim S1x65536 ![] bcast_S_S1x65536) (r_main_c_66 A)
/-- %222 = stablehlo.compare LT, %220, %221, SIGNED : (tensor<1x65536xi32>, tensor<1x65536xi32>) -> tensor<1x65536xi1>  @ reference:90 -/
def r_main_v222 (A : RArgs F) : (⟨S1x65536, .i1⟩ : BufTy).Contents (Elt F) :=
  (cmpi .slt) (r_main_v220 A) (r_main_v221 A)
/-- %c_67 = stablehlo.constant dense<4096> : tensor<i32> -/
def r_main_c_67 (A : RArgs F) : (⟨S_, .i32⟩ : BufTy).Contents (Elt F) :=
  (constantI S_ 32 4096#32)
/-- %223 = stablehlo.broadcast_in_dim %c_67, dims = [] : (tensor<i32>) -> tensor<1x65536xi32>  @ reference:90 -/
def r_main_v223 (A : RArgs F) : (⟨S1x65536, .i32⟩ : BufTy).Contents (Elt F) :=
  (broadcastInDim S1x65536 ![] bcast_S_S1x65536) (r_main_c_67 A)
/-- %224 = stablehlo.add %220, %223 : tensor<1x65536xi32>  @ reference:90 -/
def r_main_v224 (A : RArgs F) : (⟨S1x65536, .i32⟩ : BufTy).Contents (Elt F) :=
  (addi) (r_main_v220 A) (r_main_v223 A)
/-- %225 = stablehlo.select %222, %224, %220 : tensor<1x65536xi1>, tensor<1x65536xi32>  @ reference:90 -/
def r_main_v225 (A : RArgs F) : (⟨S1x65536, .i32⟩ : BufTy).Contents (Elt F) :=
  (select) (r_main_v222 A) (r_main_v224 A) (r_main_v220 A)
/-- %226 = stablehlo.broadcast_in_dim %225, dims = [0, 1] : (tensor<1x65536xi32>) -> tensor<1x65536x1xi32>  @ reference:90 -/
def r_main_v226 (A : RArgs F) : (⟨S1x65536x1, .i32⟩ : BufTy).Contents (Elt F) :=
  (broadcastInDim S1x65536x1 ![0, 1] bcast_S1x65536_S1x65536x1_0_1) (r_main_v225 A)
/-- %227 = "stablehlo.gather"(%182, %226) <{dimension_numbers = #stablehlo.gather<offset_dims = [2], collapsed_slice_dims = [1], operand_batching_dims = [0], start_indices_batching_dims = [0], start_index_map = [1], index_vector_dim = 2>, indices_are_sorted = false, slice_sizes = array<i64: 1, 1, 3>}> : (tensor<1x4096x3xf32>, tensor<1x65536x1xi32>) -> tensor<1x65536x3xf32>  @ reference:90 -/
def r_main_v227 (A : RArgs F) : (⟨S1x65536x3, .f32⟩ : BufTy).Contents (Elt F) :=
  ((fun x i => Host.gather gather_S1x4096x3_S1x65536x1_S1x65536x3_2_1_0_0_1_2_113 x i)) (r_main_v182 A) (r_main_v226 A)
/-- %cst_68 = stablehlo.constant dense<1.000000e+00> : tensor<f32> -/
def r_main_cst_68 (A : RArgs F) : (⟨S_, .f32⟩ : BufTy).Contents (Elt F) :=
  (constant S_ .f32 0x3F800000#32)
/-- %228 = stablehlo.broadcast_in_dim %cst_68, dims = [] : (tensor<f32>) -> tensor<1x65536xf32>  @ reference:93 -/
def r_main_v228 (A : RArgs F) : (⟨S1x65536, .f32⟩ : BufTy).Contents (Elt F) :=
  (broadcastInDim S1x65536 ![] bcast_S_S1x65536) (r_main_cst_68 A)
/-- %229 = stablehlo.subtract %228, %180 : tensor<1x65536xf32>  @ reference:93 -/
def r_main_v229 (A : RArgs F) : (⟨S1x65536, .f32⟩ : BufTy).Contents (Elt F) :=
  (subf) (r_main_v228 A) (r_main_v180 A)
/-- %230 = stablehlo.multiply %178, %229 : tensor<1x65536xf32>  @ reference:93 -/
def r_main_v230 (A : RArgs F) : (⟨S1x65536, .f32⟩ : BufTy).Contents (Elt F) :=
  (mulf) (r_main_v178 A) (r_main_v229 A)
/-- %231 = stablehlo.broadcast_in_dim %230, dims = [0, 1] : (tensor<1x65536xf32>) -> tensor<1x65536x1xf32>  @ reference:93 -/
def r_main_v231 (A : RArgs F) : (⟨S1x65536x1, .f32⟩ : BufTy).Contents (Elt F) :=
  (broadcastInDim S1x65536x1 ![0, 1] bcast_S1x65536_S1x65536x1_0_1) (r_main_v230 A)
/-- %232 = stablehlo.broadcast_in_dim %231, dims = [0, 1, 2] : (tensor<1x65536x1xf32>) -> tensor<1x65536x3xf32>  @ reference:93 -/
def r_main_v232 (A : RArgs F) : (⟨S1x65536x3, .f32⟩ : BufTy).Contents (Elt F) :=
  (broadcastInDim S1x65536x3 ![0, 1, 2] bcast_S1x65536x1_S1x65536x3_0_1_2) (r_main_v231 A)
/-- %233 = stablehlo.multiply %227, %232 : tensor<1x65536x3xf32>  @ reference:93 -/
def r_main_v233 (A : RArgs F) : (⟨S1x65536x3, .f32⟩ : BufTy).Contents (Elt F) :=
  (mulf) (r_main_v227 A) (r_main_v232 A)
/-- %234 = stablehlo.add %217, %233 : tensor<1x65536x3xf32>  @ reference:91 -/
def r_main_v234 (A : RArgs F) : (⟨S1x65536x3, .f32⟩ : BufTy).Contents (Elt F) :=
  (addf) (r_main_v217 A) (r_main_v233 A)
/-- %c_69 = stablehlo.constant dense<64> : tensor<i32> -/
def r_main_c_69 (A : RArgs F) : (⟨S_, .i32⟩ : BufTy).Contents (Elt F) :=
  (constantI S_ 32 64#32)
/-- %235 = stablehlo.broadcast_in_dim %c_69, dims = [] : (tensor<i32>) -> tensor<1x65536xi32>  @ reference:90 -/
def r_main_v235 (A : RArgs F) : (⟨S1x65536, .i32⟩ : BufTy).Contents (Elt F) :=
  (broadcastInDim S1x65536 ![] bcast_S_S1x65536) (r_main_c_69 A)
/-- %236 = stablehlo.multiply %173, %235 : tensor<1x65536xi32>  @ reference:90 -/
def r_main_v236 (A : RArgs F) : (⟨S1x65536, .i32⟩ : BufTy).Contents (Elt F) :=
  (muli) (r_main_v173 A) (r_main_v235 A)
/-- %237 = stablehlo.add %236, %176 : tensor<1x65536xi32>  @ reference:90 -/
def r_main_v237 (A : RArgs F) : (⟨S1x65536, .i32⟩ : BufTy).Contents (Elt F) :=
  (addi) (r_main_v236 A) (r_main_v176 A)
/-- %c_70 = stablehlo.constant dense<0> : tensor<i32> -/
def r_main_c_70 (A : RArgs F) : (⟨S_, .i32⟩ : BufTy).Contents (Elt F) :=
  (constantI S_ 32 0#32)
/-- %238 = stablehlo.broadcast_in_dim %c_70, dims = [] : (tensor<i32>) -> tensor<1x65536xi32>  @ reference:90 -/
def r_main_v238 (A : RArgs F) : (⟨S1x65536, .i32⟩ : BufTy).Contents (Elt F) :=
  (broadcastInDim S1x65536 ![] bcast_S_S1x65536) (r_main_c_70 A)
/-- %239 = stablehlo.compare LT, %237, %238, SIGNED : (tensor<1x65536xi32>, tensor<1x65536xi32>) -> tensor<1x65536xi1>  @ reference:90 -/
def r_main_v239 (A : RArgs F) : (⟨S1x65536, .i1⟩ : BufTy).Contents (Elt F) :=
  (cmpi .slt) (r_main_v237 A) (r_main_v238 A)
/-- %c_71 = stablehlo.constant dense<4096> : tensor<i32> -/
def r_main_c_71 (A : RArgs F) : (⟨S_, .i32⟩ : BufTy).Contents (Elt F) :=
  (constantI S_ 32 4096#32)
/-- %240 = stablehlo.broadcast_in_dim %c_71, dims = [] : (tensor<i32>) -> tensor<1x65536xi32>  @ reference:90 -/
def r_main_v240 (A : RArgs F) : (⟨S1x65536, .i32⟩ : BufTy).Contents (Elt F) :=
  (broadcastInDim S1x65536 ![] bcast_S_S1x65536) (r_main_c_71 A)
/-- %241 = stablehlo.add %237, %240 : tensor<1x65536xi32>  @ reference:90 -/
def r_main_v241 (A : RArgs F) : (⟨S1x65536, .i32⟩ : BufTy).Contents (Elt F) :=
  (addi) (r_main_v237 A) (r_main_v240 A)
/-- %242 = stablehlo.select %239, %241, %237 : tensor<1x65536xi1>, tensor<1x65536xi32>  @ reference:90 -/
def r_main_v242 (A : RArgs F) : (⟨S1x65536, .i32⟩ : BufTy).Contents (Elt F) :=
  (select) (r_main_v239 A) (r_main_v241 A) (r_main_v237 A)
/-- %243 = stablehlo.broadcast_in_dim %242, dims = [0, 1] : (tensor<1x65536xi32>) -> tensor<1x65536x1xi32>  @ reference:90 -/
def r_main_v243 (A : RArgs F) : (⟨S1x65536x1, .i32⟩ : BufTy).Contents (Elt F) :=
  (broadcastInDim S1x65536x1 ![0, 1] bcast_S1x65536_S1x65536x1_0_1) (r_main_v242 A)
/-- %244 = "stablehlo.gather"(%182, %243) <{dimension_numbers = #stablehlo.gather<offset_dims = [2], collapsed_slice_dims = [1], operand_batching_dims = [0], start_indices_batching_dims = [0], start_index_map = [1], index_vector_dim = 2>, indices_are_sorted = false, slice_sizes = array<i64: 1, 1, 3>}> : (tensor<1x4096x3xf32>, tensor<1x65536x1xi32>) -> tensor<1x65536x3xf32>  @ reference:90 -/
def r_main_v244 (A : RArgs F) : (⟨S1x65536x3, .f32⟩ : BufTy).Contents (Elt F) :=
  ((fun x i => Host.gather gather_S1x4096x3_S1x65536x1_S1x65536x3_2_1_0_0_1_2_113 x i)) (r_main_v182 A) (r_main_v243 A)
/-- %245 = stablehlo.multiply %178, %180 : tensor<1x65536xf32>  @ reference:94 -/
def r_main_v245 (A : RArgs F) : (⟨S1x65536, .f32⟩ : BufTy).Contents (Elt F) :=
  (mulf) (r_main_v178 A) (r_main_v180 A)
/-- %246 = stablehlo.broadcast_in_dim %245, dims = [0, 1] : (tensor<1x65536xf32>) -> tensor<1x65536x1xf32>  @ reference:94 -/
def r_main_v246 (A : RArgs F) : (⟨S1x65536x1, .f32⟩ : BufTy).Contents (Elt F) :=
  (broadcastInDim S1x65536x1 ![0, 1] bcast_S1x65536_S1x65536x1_0_1) (r_main_v245 A)
/-- %247 = stablehlo.broadcast_in_dim %246, dims = [0, 1, 2] : (tensor<1x65536x1xf32>) -> tensor<1x65536x3xf32>  @ reference:94 -/
def r_main_v247 (A : RArgs F) : (⟨S1x65536x3, .f32⟩ : BufTy).Contents (Elt F) :=
  (broadcastInDim S1x65536x3 ![0, 1, 2] bcast_S1x65536x1_S1x65536x3_0_1_2) (r_main_v246 A)
/-- %248 = stablehlo.multiply %244, %247 : tensor<1x65536x3xf32>  @ reference:94 -/
def r_main_v248 (A : RArgs F) : (⟨S1x65536x3, .f32⟩ : BufTy).Contents (Elt F) :=
  (mulf) (r_main_v244 A) (r_main_v247 A)
/-- %249 = stablehlo.add %234, %248 : tensor<1x65536x3xf32>  @ reference:91 -/
def r_main_v249 (A : RArgs F) : (⟨S1x65536x3, .f32⟩ : BufTy).Contents (Elt F) :=
  (addf) (r_main_v234 A) (r_main_v248 A)
/-- %250 = stablehlo.add %144, %249 : tensor<1x65536x3xf32>  @ reference:95 -/
def r_main_v250 (A : RArgs F) : (⟨S1x65536x3, .f32⟩ : BufTy).Contents (Elt F) :=
  (addf) (r_main_v144 A) (r_main_v249 A)

end Cert.ReferenceIdeal.RDefs

end
-- ==== Proof.ROps.lean ====
import proofs.«148257_j30657476559104_1_alg».proof.Proof.Gen.ReferenceIdeal
import Idealize.ShloMosaic.Lib.StableHlo.Run

noncomputable section

namespace Cert.ReferenceIdeal.ROps

open Cert.ReferenceIdeal Cert.ReferenceIdeal.Gen Idealize.ShloMosaic Idealize.ShloMosaic.TcCoe Idealize.SL.Sem Idealize.ShloMosaic.StableHlo

variable {F : FTy → Type} [FloatOps F]

/-- 70 operations of @main, in order: the list ops0. -/
abbrev ops0 : List (HloOp τ sig (Elt F)) :=
  [ StableHlo.nullary main_cst (fun i => FloatOps.ofBits .f32 (lit0 (S4x2.rowMajor i))),
    StableHlo.nullary main_cst_0 (constant S2 .f32 0x3C800000#32),
    StableHlo.nullary main_cst_1 (constant S2 .f32 0x42800000#32),
    StableHlo.unary main_cst_0 main_v0 (broadcastInDim S1x2 ![1] bcast_S2_S1x2_1 : (⟨S2, .f32⟩ : BufTy).Contents (Elt F) → (⟨S1x2, .f32⟩ : BufTy).Contents (Elt F)),
    StableHlo.unary main_v0 main_v1 (broadcastInDim S4x2 ![0, 1] bcast_S1x2_S4x2_0_1 : (⟨S1x2, .f32⟩ : BufTy).Contents (Elt F) → (⟨S4x2, .f32⟩ : BufTy).Contents (Elt F)),
    StableHlo.binary main_cst main_v1 main_v2 (mulf : (⟨S4x2, .f32⟩ : BufTy).Contents (Elt F) → (⟨S4x2, .f32⟩ : BufTy).Contents (Elt F) → (⟨S4x2, .f32⟩ : BufTy).Contents (Elt F)),
    StableHlo.nullary main_cst_2 (constant S_ .f32 0x358637BD#32),
    StableHlo.unary main_cst_2 main_v3 (broadcastInDim S4x2 ![] bcast_S_S4x2 : (⟨S_, .f32⟩ : BufTy).Contents (Elt F) → (⟨S4x2, .f32⟩ : BufTy).Contents (Elt F)),
    StableHlo.binary main_v2 main_v3 main_v4 (addf : (⟨S4x2, .f32⟩ : BufTy).Contents (Elt F) → (⟨S4x2, .f32⟩ : BufTy).Contents (Elt F) → (⟨S4x2, .f32⟩ : BufTy).Contents (Elt F)),
    StableHlo.unary main_arg3 main_v5 (broadcastInDim S1x1x65536x2 ![0, 2, 3] bcast_S1x65536x2_S1x1x65536x2_0_2_3 : (⟨S1x65536x2, .f32⟩ : BufTy).Contents (Elt F) → (⟨S1x1x65536x2, .f32⟩ : BufTy).Contents (Elt F)),
    StableHlo.unary main_v4 main_v6 (broadcastInDim S1x4x1x2 ![1, 3] bcast_S4x2_S1x4x1x2_1_3 : (⟨S4x2, .f32⟩ : BufTy).Contents (Elt F) → (⟨S1x4x1x2, .f32⟩ : BufTy).Contents (Elt F)),
    StableHlo.unary main_v5 main_v7 (broadcastInDim S1x4x65536x2 ![0, 1, 2, 3] bcast_S1x1x65536x2_S1x4x65536x2_0_1_2_3 : (⟨S1x1x65536x2, .f32⟩ : BufTy).Contents (Elt F) → (⟨S1x4x65536x2, .f32⟩ : BufTy).Contents (Elt F)),
    StableHlo.unary main_v6 main_v8 (broadcastInDim S1x4x65536x2 ![0, 1, 2, 3] bcast_S1x4x1x2_S1x4x65536x2_0_1_2_3 : (⟨S1x4x1x2, .f32⟩ : BufTy).Contents (Elt F) → (⟨S1x4x65536x2, .f32⟩ : BufTy).Contents (Elt F)),
    StableHlo.binary main_v7 main_v8 main_v9 (addf : (⟨S1x4x65536x2, .f32⟩ : BufTy).Contents (Elt F) → (⟨S1x4x65536x2, .f32⟩ : BufTy).Contents (Elt F) → (⟨S1x4x65536x2, .f32⟩ : BufTy).Contents (Elt F)),
    StableHlo.nullary main_cst_3 (constant S_ .f32 0xBF7FFFEF#32),
    StableHlo.nullary main_cst_4 (constant S_ .f32 0x3F7FFFEF#32),
    StableHlo.TRef.unary (.of main_cst_3 : StableHlo.TRef sig ⟨S_, .f32⟩) main_call0.v0 id,
    StableHlo.TRef.unary main_call0.v0 main_call0.v1 (broadcastInDim S1x4x65536x2 ![] bcast_S_S1x4x65536x2),
    StableHlo.TRef.binary main_call0.v1 (.of main_v9 : StableHlo.TRef sig ⟨S1x4x65536x2, .f32⟩) main_call0.v2 maximumf,
    StableHlo.TRef.unary (.of main_cst_4 : StableHlo.TRef sig ⟨S_, .f32⟩) main_call0.v3 id,
    StableHlo.TRef.unary main_call0.v3 main_call0.v4 (broadcastInDim S1x4x65536x2 ![] bcast_S_S1x4x65536x2),
    StableHlo.TRef.binary main_call0.v4 main_call0.v2 main_call0.v5 minimumf,
    StableHlo.unary main_v10 main_v11 ((extractStridedSlice S1x4x65536x1 ![0, 0, 0, 0] · slices_S1x4x65536x2_S1x4x65536x1_0_0_0_0) : (⟨S1x4x65536x2, .f32⟩ : BufTy).Contents (Elt F) → (⟨S1x4x65536x1, .f32⟩ : BufTy).Contents (Elt F)),
    StableHlo.reshape main_v11 main_v12 rfl shapeCasts_S1x4x65536x1_S1x4x65536,
    StableHlo.nullary main_cst_5 (constant S_ .f32 0x3F800000#32),
    StableHlo.unary main_cst_5 main_v13 (broadcastInDim S1x4x65536 ![] bcast_S_S1x4x65536 : (⟨S_, .f32⟩ : BufTy).Contents (Elt F) → (⟨S1x4x65536, .f32⟩ : BufTy).Contents (Elt F)),
    StableHlo.binary main_v12 main_v13 main_v14 (addf : (⟨S1x4x65536, .f32⟩ : BufTy).Contents (Elt F) → (⟨S1x4x65536, .f32⟩ : BufTy).Contents (Elt F) → (⟨S1x4x65536, .f32⟩ : BufTy).Contents (Elt F)),
    StableHlo.nullary main_cst_6 (constant S_ .f32 0x42800000#32),
    StableHlo.unary main_cst_6 main_v15 (broadcastInDim S1x4x65536 ![] bcast_S_S1x4x65536 : (⟨S_, .f32⟩ : BufTy).Contents (Elt F) → (⟨S1x4x65536, .f32⟩ : BufTy).Contents (Elt F)),
    StableHlo.binary main_v14 main_v15 main_v16 (mulf : (⟨S1x4x65536, .f32⟩ : BufTy).Contents (Elt F) → (⟨S1x4x65536, .f32⟩ : BufTy).Contents (Elt F) → (⟨S1x4x65536, .f32⟩ : BufTy).Contents (Elt F)),
    StableHlo.nullary main_cst_7 (constant S_ .f32 0x3F800000#32),
    StableHlo.unary main_cst_7 main_v17 (broadcastInDim S1x4x65536 ![] bcast_S_S1x4x65536 : (⟨S_, .f32⟩ : BufTy).Contents (Elt F) → (⟨S1x4x65536, .f32⟩ : BufTy).Contents (Elt F)),
    StableHlo.binary main_v16 main_v17 main_v18 (subf : (⟨S1x4x65536, .f32⟩ : BufTy).Contents (Elt F) → (⟨S1x4x65536, .f32⟩ : BufTy).Contents (Elt F) → (⟨S1x4x65536, .f32⟩ : BufTy).Contents (Elt F)),
    StableHlo.nullary main_cst_8 (constant S_ .f32 0x40000000#32),
    StableHlo.unary main_cst_8 main_v19 (broadcastInDim S1x4x65536 ![] bcast_S_S1x4x65536 : (⟨S_, .f32⟩ : BufTy).Contents (Elt F) → (⟨S1x4x65536, .f32⟩ : BufTy).Contents (Elt F)),
    StableHlo.binary main_v18 main_v19 main_v20 (Host.divf : (⟨S1x4x65536, .f32⟩ : BufTy).Contents (Elt F) → (⟨S1x4x65536, .f32⟩ : BufTy).Contents (Elt F) → (⟨S1x4x65536, .f32⟩ : BufTy).Contents (Elt F)),
    StableHlo.nullary main_cst_9 (constant S_ .f32 0x3F000000#32),
    StableHlo.unary main_cst_9 main_v21 (broadcastInDim S1x4x65536 ![] bcast_S_S1x4x65536 : (⟨S_, .f32⟩ : BufTy).Contents (Elt F) → (⟨S1x4x65536, .f32⟩ : BufTy).Contents (Elt F)),
    StableHlo.binary main_v20 main_v21 main_v22 (addf : (⟨S1x4x65536, .f32⟩ : BufTy).Contents (Elt F) → (⟨S1x4x65536, .f32⟩ : BufTy).Contents (Elt F) → (⟨S1x4x65536, .f32⟩ : BufTy).Contents (Elt F)),
    StableHlo.unary main_v22 main_v23 (Host.floor : (⟨S1x4x65536, .f32⟩ : BufTy).Contents (Elt F) → (⟨S1x4x65536, .f32⟩ : BufTy).Contents (Elt F)),
    StableHlo.unary main_v23 main_v24 (fptosi 32 : (⟨S1x4x65536, .f32⟩ : BufTy).Contents (Elt F) → (⟨S1x4x65536, .i32⟩ : BufTy).Contents (Elt F)),
    StableHlo.nullary main_c (constantI S_ 32 0#32),
    StableHlo.nullary main_c_10 (constantI S_ 32 63#32),
    StableHlo.TRef.unary (.of main_c : StableHlo.TRef sig ⟨S_, .i32⟩) main_call1.v0 id,
    StableHlo.TRef.unary main_call1.v0 main_call1.v1 (broadcastInDim S1x4x65536 ![] bcast_S_S1x4x65536),
    StableHlo.TRef.binary main_call1.v1 (.of main_v24 : StableHlo.TRef sig ⟨S1x4x65536, .i32⟩) main_call1.v2 maxsi,
    StableHlo.TRef.unary (.of main_c_10 : StableHlo.TRef sig ⟨S_, .i32⟩) main_call1.v3 id,
    StableHlo.TRef.unary main_call1.v3 main_call1.v4 (broadcastInDim S1x4x65536 ![] bcast_S_S1x4x65536),
    StableHlo.TRef.binary main_call1.v4 main_call1.v2 main_call1.v5 minsi,
    StableHlo.unary main_v10 main_v26 ((extractStridedSlice S1x4x65536x1 ![0, 0, 0, 1] · slices_S1x4x65536x2_S1x4x65536x1_0_0_0_1) : (⟨S1x4x65536x2, .f32⟩ : BufTy).Contents (Elt F) → (⟨S1x4x65536x1, .f32⟩ : BufTy).Contents (Elt F)),
    StableHlo.reshape main_v26 main_v27 rfl shapeCasts_S1x4x65536x1_S1x4x65536,
    StableHlo.nullary main_cst_11 (constant S_ .f32 0x3F800000#32),
    StableHlo.unary main_cst_11 main_v28 (broadcastInDim S1x4x65536 ![] bcast_S_S1x4x65536 : (⟨S_, .f32⟩ : BufTy).Contents (Elt F) → (⟨S1x4x65536, .f32⟩ : BufTy).Contents (Elt F)),
    StableHlo.binary main_v27 main_v28 main_v29 (addf : (⟨S1x4x65536, .f32⟩ : BufTy).Contents (Elt F) → (⟨S1x4x65536, .f32⟩ : BufTy).Contents (Elt F) → (⟨S1x4x65536, .f32⟩ : BufTy).Contents (Elt F)),
    StableHlo.nullary main_cst_12 (constant S_ .f32 0x42800000#32),
    StableHlo.unary main_cst_12 main_v30 (broadcastInDim S1x4x65536 ![] bcast_S_S1x4x65536 : (⟨S_, .f32⟩ : BufTy).Contents (Elt F) → (⟨S1x4x65536, .f32⟩ : BufTy).Contents (Elt F)),
    StableHlo.binary main_v29 main_v30 main_v31 (mulf : (⟨S1x4x65536, .f32⟩ : BufTy).Contents (Elt F) → (⟨S1x4x65536, .f32⟩ : BufTy).Contents (Elt F) → (⟨S1x4x65536, .f32⟩ : BufTy).Contents (Elt F)),
    StableHlo.nullary main_cst_13 (constant S_ .f32 0x3F800000#32),
    StableHlo.unary main_cst_13 main_v32 (broadcastInDim S1x4x65536 ![] bcast_S_S1x4x65536 : (⟨S_, .f32⟩ : BufTy).Contents (Elt F) → (⟨S1x4x65536, .f32⟩ : BufTy).Contents (Elt F)),
    StableHlo.binary main_v31 main_v32 main_v33 (subf : (⟨S1x4x65536, .f32⟩ : BufTy).Contents (Elt F) → (⟨S1x4x65536, .f32⟩ : BufTy).Contents (Elt F) → (⟨S1x4x65536, .f32⟩ : BufTy).Contents (Elt F)),
    StableHlo.nullary main_cst_14 (constant S_ .f32 0x40000000#32),
    StableHlo.unary main_cst_14 main_v34 (broadcastInDim S1x4x65536 ![] bcast_S_S1x4x65536 : (⟨S_, .f32⟩ : BufTy).Contents (Elt F) → (⟨S1x4x65536, .f32⟩ : BufTy).Contents (Elt F)),
    StableHlo.binary main_v33 main_v34 main_v35 (Host.divf : (⟨S1x4x65536, .f32⟩ : BufTy).Contents (Elt F) → (⟨S1x4x65536, .f32⟩ : BufTy).Contents (Elt F) → (⟨S1x4x65536, .f32⟩ : BufTy).Contents (Elt F)),
    StableHlo.nullary main_cst_15 (constant S_ .f32 0x3F000000#32),
    StableHlo.unary main_cst_15 main_v36 (broadcastInDim S1x4x65536 ![] bcast_S_S1x4x65536 : (⟨S_, .f32⟩ : BufTy).Contents (Elt F) → (⟨S1x4x65536, .f32⟩ : BufTy).Contents (Elt F)),
    StableHlo.binary main_v35 main_v36 main_v37 (addf : (⟨S1x4x65536, .f32⟩ : BufTy).Contents (Elt F) → (⟨S1x4x65536, .f32⟩ : BufTy).Contents (Elt F) → (⟨S1x4x65536, .f32⟩ : BufTy).Contents (Elt F)),
    StableHlo.unary main_v37 main_v38 (Host.floor : (⟨S1x4x65536, .f32⟩ : BufTy).Contents (Elt F) → (⟨S1x4x65536, .f32⟩ : BufTy).Contents (Elt F)),
    StableHlo.unary main_v38 main_v39 (fptosi 32 : (⟨S1x4x65536, .f32⟩ : BufTy).Contents (Elt F) → (⟨S1x4x65536, .i32⟩ : BufTy).Contents (Elt F)),
    StableHlo.nullary main_c_16 (constantI S_ 32 0#32),
    StableHlo.nullary main_c_17 (constantI S_ 32 63#32) ]

/-- 65 operations of @main, in order: the list ops1. -/
abbrev ops1 : List (HloOp τ sig (Elt F)) :=
  [ StableHlo.TRef.unary (.of main_c_16 : StableHlo.TRef sig ⟨S_, .i32⟩) main_call2.v0 id,
    StableHlo.TRef.unary main_call2.v0 main_call2.v1 (broadcastInDim S1x4x65536 ![] bcast_S_S1x4x65536),
    StableHlo.TRef.binary main_call2.v1 (.of main_v39 : StableHlo.TRef sig ⟨S1x4x65536, .i32⟩) main_call2.v2 maxsi,
    StableHlo.TRef.unary (.of main_c_17 : StableHlo.TRef sig ⟨S_, .i32⟩) main_call2.v3 id,
    StableHlo.TRef.unary main_call2.v3 main_call2.v4 (broadcastInDim S1x4x65536 ![] bcast_S_S1x4x65536),
    StableHlo.TRef.binary main_call2.v4 main_call2.v2 main_call2.v5 minsi,
    StableHlo.nullary main_c_18 (constantI S_ 32 64#32),
    StableHlo.unary main_c_18 main_v41 (broadcastInDim S1x4x65536 ![] bcast_S_S1x4x65536 : (⟨S_, .i32⟩ : BufTy).Contents (Elt F) → (⟨S1x4x65536, .i32⟩ : BufTy).Contents (Elt F)),
    StableHlo.binary main_v25 main_v41 main_v42 (muli : (⟨S1x4x65536, .i32⟩ : BufTy).Contents (Elt F) → (⟨S1x4x65536, .i32⟩ : BufTy).Contents (Elt F) → (⟨S1x4x65536, .i32⟩ : BufTy).Contents (Elt F)),
    StableHlo.binary main_v42 main_v40 main_v43 (addi : (⟨S1x4x65536, .i32⟩ : BufTy).Contents (Elt F) → (⟨S1x4x65536, .i32⟩ : BufTy).Contents (Elt F) → (⟨S1x4x65536, .i32⟩ : BufTy).Contents (Elt F)),
    StableHlo.reshape main_arg1 main_v44 rfl shapeCasts_S1x256x64x64_S1x256x4096,
    StableHlo.unary main_v44 main_v45 ((transpose S1x4096x256 [0, 2, 1] · transposes_S1x256x4096_S1x4096x256_0_2_1) : (⟨S1x256x4096, .f32⟩ : BufTy).Contents (Elt F) → (⟨S1x4096x256, .f32⟩ : BufTy).Contents (Elt F)),
    StableHlo.reshape main_v43 main_v46 rfl shapeCasts_S1x4x65536_S1x262144,
    StableHlo.nullary main_c_19 (constantI S_ 32 0#32),
    StableHlo.unary main_c_19 main_v47 (broadcastInDim S1x262144 ![] bcast_S_S1x262144 : (⟨S_, .i32⟩ : BufTy).Contents (Elt F) → (⟨S1x262144, .i32⟩ : BufTy).Contents (Elt F)),
    StableHlo.binary main_v46 main_v47 main_v48 (cmpi .slt : (⟨S1x262144, .i32⟩ : BufTy).Contents (Elt F) → (⟨S1x262144, .i32⟩ : BufTy).Contents (Elt F) → (⟨S1x262144, .i1⟩ : BufTy).Contents (Elt F)),
    StableHlo.nullary main_c_20 (constantI S_ 32 4096#32),
    StableHlo.unary main_c_20 main_v49 (broadcastInDim S1x262144 ![] bcast_S_S1x262144 : (⟨S_, .i32⟩ : BufTy).Contents (Elt F) → (⟨S1x262144, .i32⟩ : BufTy).Contents (Elt F)),
    StableHlo.binary main_v46 main_v49 main_v50 (addi : (⟨S1x262144, .i32⟩ : BufTy).Contents (Elt F) → (⟨S1x262144, .i32⟩ : BufTy).Contents (Elt F) → (⟨S1x262144, .i32⟩ : BufTy).Contents (Elt F)),
    StableHlo.ternary main_v48 main_v50 main_v46 main_v51 (select : (⟨S1x262144, .i1⟩ : BufTy).Contents (Elt F) → (⟨S1x262144, .i32⟩ : BufTy).Contents (Elt F) → (⟨S1x262144, .i32⟩ : BufTy).Contents (Elt F) → (⟨S1x262144, .i32⟩ : BufTy).Contents (Elt F)),
    StableHlo.unary main_v51 main_v52 (broadcastInDim S1x262144x1 ![0, 1] bcast_S1x262144_S1x262144x1_0_1 : (⟨S1x262144, .i32⟩ : BufTy).Contents (Elt F) → (⟨S1x262144x1, .i32⟩ : BufTy).Contents (Elt F)),
    StableHlo.binary main_v45 main_v52 main_v53 ((fun x i => Host.gather gather_S1x4096x256_S1x262144x1_S1x262144x256_2_1_0_0_1_2_11256 x i) : (⟨S1x4096x256, .f32⟩ : BufTy).Contents (Elt F) → (⟨S1x262144x1, .i32⟩ : BufTy).Contents (Elt F) → (⟨S1x262144x256, .f32⟩ : BufTy).Contents (Elt F)),
    StableHlo.reshape main_v53 main_v54 rfl shapeCasts_S1x262144x256_S1x4x65536x256,
    StableHlo.reshape main_arg2 main_v55 rfl shapeCasts_S1x128x64x64_S1x128x4096,
    StableHlo.unary main_v55 main_v56 ((transpose S1x4096x128 [0, 2, 1] · transposes_S1x128x4096_S1x4096x128_0_2_1) : (⟨S1x128x4096, .f32⟩ : BufTy).Contents (Elt F) → (⟨S1x4096x128, .f32⟩ : BufTy).Contents (Elt F)),
    StableHlo.reshape main_v43 main_v57 rfl shapeCasts_S1x4x65536_S1x262144,
    StableHlo.nullary main_c_21 (constantI S_ 32 0#32),
    StableHlo.unary main_c_21 main_v58 (broadcastInDim S1x262144 ![] bcast_S_S1x262144 : (⟨S_, .i32⟩ : BufTy).Contents (Elt F) → (⟨S1x262144, .i32⟩ : BufTy).Contents (Elt F)),
    StableHlo.binary main_v57 main_v58 main_v59 (cmpi .slt : (⟨S1x262144, .i32⟩ : BufTy).Contents (Elt F) → (⟨S1x262144, .i32⟩ : BufTy).Contents (Elt F) → (⟨S1x262144, .i1⟩ : BufTy).Contents (Elt F)),
    StableHlo.nullary main_c_22 (constantI S_ 32 4096#32),
    StableHlo.unary main_c_22 main_v60 (broadcastInDim S1x262144 ![] bcast_S_S1x262144 : (⟨S_, .i32⟩ : BufTy).Contents (Elt F) → (⟨S1x262144, .i32⟩ : BufTy).Contents (Elt F)),
    StableHlo.binary main_v57 main_v60 main_v61 (addi : (⟨S1x262144, .i32⟩ : BufTy).Contents (Elt F) → (⟨S1x262144, .i32⟩ : BufTy).Contents (Elt F) → (⟨S1x262144, .i32⟩ : BufTy).Contents (Elt F)),
    StableHlo.ternary main_v59 main_v61 main_v57 main_v62 (select : (⟨S1x262144, .i1⟩ : BufTy).Contents (Elt F) → (⟨S1x262144, .i32⟩ : BufTy).Contents (Elt F) → (⟨S1x262144, .i32⟩ : BufTy).Contents (Elt F) → (⟨S1x262144, .i32⟩ : BufTy).Contents (Elt F)),
    StableHlo.unary main_v62 main_v63 (broadcastInDim S1x262144x1 ![0, 1] bcast_S1x262144_S1x262144x1_0_1 : (⟨S1x262144, .i32⟩ : BufTy).Contents (Elt F) → (⟨S1x262144x1, .i32⟩ : BufTy).Contents (Elt F)),
    StableHlo.binary main_v56 main_v63 main_v64 ((fun x i => Host.gather gather_S1x4096x128_S1x262144x1_S1x262144x128_2_1_0_0_1_2_11128 x i) : (⟨S1x4096x128, .f32⟩ : BufTy).Contents (Elt F) → (⟨S1x262144x1, .i32⟩ : BufTy).Contents (Elt F) → (⟨S1x262144x128, .f32⟩ : BufTy).Contents (Elt F)),
    StableHlo.reshape main_v64 main_v65 rfl shapeCasts_S1x262144x128_S1x4x65536x128,
    StableHlo.unary main_v25 main_v66 (sitofp .f32 : (⟨S1x4x65536, .i32⟩ : BufTy).Contents (Elt F) → (⟨S1x4x65536, .f32⟩ : BufTy).Contents (Elt F)),
    StableHlo.nullary main_cst_23 (constant S_ .f32 0x40000000#32),
    StableHlo.unary main_cst_23 main_v67 (broadcastInDim S1x4x65536 ![] bcast_S_S1x4x65536 : (⟨S_, .f32⟩ : BufTy).Contents (Elt F) → (⟨S1x4x65536, .f32⟩ : BufTy).Contents (Elt F)),
    StableHlo.binary main_v67 main_v66 main_v68 (mulf : (⟨S1x4x65536, .f32⟩ : BufTy).Contents (Elt F) → (⟨S1x4x65536, .f32⟩ : BufTy).Contents (Elt F) → (⟨S1x4x65536, .f32⟩ : BufTy).Contents (Elt F)),
    StableHlo.nullary main_cst_24 (constant S_ .f32 0x3F800000#32),
    StableHlo.unary main_cst_24 main_v69 (broadcastInDim S1x4x65536 ![] bcast_S_S1x4x65536 : (⟨S_, .f32⟩ : BufTy).Contents (Elt F) → (⟨S1x4x65536, .f32⟩ : BufTy).Contents (Elt F)),
    StableHlo.binary main_v68 main_v69 main_v70 (addf : (⟨S1x4x65536, .f32⟩ : BufTy).Contents (Elt F) → (⟨S1x4x65536, .f32⟩ : BufTy).Contents (Elt F) → (⟨S1x4x65536, .f32⟩ : BufTy).Contents (Elt F)),
    StableHlo.nullary main_cst_25 (constant S_ .f32 0x42800000#32),
    StableHlo.unary main_cst_25 main_v71 (broadcastInDim S1x4x65536 ![] bcast_S_S1x4x65536 : (⟨S_, .f32⟩ : BufTy).Contents (Elt F) → (⟨S1x4x65536, .f32⟩ : BufTy).Contents (Elt F)),
    StableHlo.binary main_v70 main_v71 main_v72 (Host.divf : (⟨S1x4x65536, .f32⟩ : BufTy).Contents (Elt F) → (⟨S1x4x65536, .f32⟩ : BufTy).Contents (Elt F) → (⟨S1x4x65536, .f32⟩ : BufTy).Contents (Elt F)),
    StableHlo.nullary main_cst_26 (constant S_ .f32 0xBF800000#32),
    StableHlo.unary main_cst_26 main_v73 (broadcastInDim S1x4x65536 ![] bcast_S_S1x4x65536 : (⟨S_, .f32⟩ : BufTy).Contents (Elt F) → (⟨S1x4x65536, .f32⟩ : BufTy).Contents (Elt F)),
    StableHlo.binary main_v73 main_v72 main_v74 (addf : (⟨S1x4x65536, .f32⟩ : BufTy).Contents (Elt F) → (⟨S1x4x65536, .f32⟩ : BufTy).Contents (Elt F) → (⟨S1x4x65536, .f32⟩ : BufTy).Contents (Elt F)),
    StableHlo.unary main_v40 main_v75 (sitofp .f32 : (⟨S1x4x65536, .i32⟩ : BufTy).Contents (Elt F) → (⟨S1x4x65536, .f32⟩ : BufTy).Contents (Elt F)),
    StableHlo.nullary main_cst_27 (constant S_ .f32 0x40000000#32),
    StableHlo.unary main_cst_27 main_v76 (broadcastInDim S1x4x65536 ![] bcast_S_S1x4x65536 : (⟨S_, .f32⟩ : BufTy).Contents (Elt F) → (⟨S1x4x65536, .f32⟩ : BufTy).Contents (Elt F)),
    StableHlo.binary main_v76 main_v75 main_v77 (mulf : (⟨S1x4x65536, .f32⟩ : BufTy).Contents (Elt F) → (⟨S1x4x65536, .f32⟩ : BufTy).Contents (Elt F) → (⟨S1x4x65536, .f32⟩ : BufTy).Contents (Elt F)),
    StableHlo.nullary main_cst_28 (constant S_ .f32 0x3F800000#32),
    StableHlo.unary main_cst_28 main_v78 (broadcastInDim S1x4x65536 ![] bcast_S_S1x4x65536 : (⟨S_, .f32⟩ : BufTy).Contents (Elt F) → (⟨S1x4x65536, .f32⟩ : BufTy).Contents (Elt F)),
    StableHlo.binary main_v77 main_v78 main_v79 (addf : (⟨S1x4x65536, .f32⟩ : BufTy).Contents (Elt F) → (⟨S1x4x65536, .f32⟩ : BufTy).Contents (Elt F) → (⟨S1x4x65536, .f32⟩ : BufTy).Contents (Elt F)),
    StableHlo.nullary main_cst_29 (constant S_ .f32 0x42800000#32),
    StableHlo.unary main_cst_29 main_v80 (broadcastInDim S1x4x65536 ![] bcast_S_S1x4x65536 : (⟨S_, .f32⟩ : BufTy).Contents (Elt F) → (⟨S1x4x65536, .f32⟩ : BufTy).Contents (Elt F)),
    StableHlo.binary main_v79 main_v80 main_v81 (Host.divf : (⟨S1x4x65536, .f32⟩ : BufTy).Contents (Elt F) → (⟨S1x4x65536, .f32⟩ : BufTy).Contents (Elt F) → (⟨S1x4x65536, .f32⟩ : BufTy).Contents (Elt F)),
    StableHlo.nullary main_cst_30 (constant S_ .f32 0xBF800000#32),
    StableHlo.unary main_cst_30 main_v82 (broadcastInDim S1x4x65536 ![] bcast_S_S1x4x65536 : (⟨S_, .f32⟩ : BufTy).Contents (Elt F) → (⟨S1x4x65536, .f32⟩ : BufTy).Contents (Elt F)),
    StableHlo.binary main_v82 main_v81 main_v83 (addf : (⟨S1x4x65536, .f32⟩ : BufTy).Contents (Elt F) → (⟨S1x4x65536, .f32⟩ : BufTy).Contents (Elt F) → (⟨S1x4x65536, .f32⟩ : BufTy).Contents (Elt F)),
    StableHlo.unary main_arg3 main_v84 ((extractStridedSlice S1x65536x1 ![0, 0, 0] · slices_S1x65536x2_S1x65536x1_0_0_0) : (⟨S1x65536x2, .f32⟩ : BufTy).Contents (Elt F) → (⟨S1x65536x1, .f32⟩ : BufTy).Contents (Elt F)),
    StableHlo.reshape main_v84 main_v85 rfl shapeCasts_S1x65536x1_S1x65536,
    StableHlo.unary main_v85 main_v86 (broadcastInDim S1x1x65536 ![0, 2] bcast_S1x65536_S1x1x65536_0_2 : (⟨S1x65536, .f32⟩ : BufTy).Contents (Elt F) → (⟨S1x1x65536, .f32⟩ : BufTy).Contents (Elt F)) ]

/-- 15 operations of @main, in order: the list ops2a. -/
abbrev ops2a : List (HloOp τ sig (Elt F)) :=
  [ StableHlo.unary main_v86 main_v87 (broadcastInDim S1x4x65536 ![0, 1, 2] bcast_S1x1x65536_S1x4x65536_0_1_2 : (⟨S1x1x65536, .f32⟩ : BufTy).Contents (Elt F) → (⟨S1x4x65536, .f32⟩ : BufTy).Contents (Elt F)),
    StableHlo.binary main_v87 main_v74 main_v88 (subf : (⟨S1x4x65536, .f32⟩ : BufTy).Contents (Elt F) → (⟨S1x4x65536, .f32⟩ : BufTy).Contents (Elt F) → (⟨S1x4x65536, .f32⟩ : BufTy).Contents (Elt F)),
    StableHlo.nullary main_cst_31 (constant S_ .f32 0x42800000#32),
    StableHlo.unary main_cst_31 main_v89 (broadcastInDim S1x4x65536 ![] bcast_S_S1x4x65536 : (⟨S_, .f32⟩ : BufTy).Contents (Elt F) → (⟨S1x4x65536, .f32⟩ : BufTy).Contents (Elt F)),
    StableHlo.binary main_v88 main_v89 main_v90 (mulf : (⟨S1x4x65536, .f32⟩ : BufTy).Contents (Elt F) → (⟨S1x4x65536, .f32⟩ : BufTy).Contents (Elt F) → (⟨S1x4x65536, .f32⟩ : BufTy).Contents (Elt F)),
    StableHlo.unary main_arg3 main_v91 ((extractStridedSlice S1x65536x1 ![0, 0, 1] · slices_S1x65536x2_S1x65536x1_0_0_1) : (⟨S1x65536x2, .f32⟩ : BufTy).Contents (Elt F) → (⟨S1x65536x1, .f32⟩ : BufTy).Contents (Elt F)),
    StableHlo.reshape main_v91 main_v92 rfl shapeCasts_S1x65536x1_S1x65536,
    StableHlo.unary main_v92 main_v93 (broadcastInDim S1x1x65536 ![0, 2] bcast_S1x65536_S1x1x65536_0_2 : (⟨S1x65536, .f32⟩ : BufTy).Contents (Elt F) → (⟨S1x1x65536, .f32⟩ : BufTy).Contents (Elt F)),
    StableHlo.unary main_v93 main_v94 (broadcastInDim S1x4x65536 ![0, 1, 2] bcast_S1x1x65536_S1x4x65536_0_1_2 : (⟨S1x1x65536, .f32⟩ : BufTy).Contents (Elt F) → (⟨S1x4x65536, .f32⟩ : BufTy).Contents (Elt F)),
    StableHlo.binary main_v94 main_v83 main_v95 (subf : (⟨S1x4x65536, .f32⟩ : BufTy).Contents (Elt F) → (⟨S1x4x65536, .f32⟩ : BufTy).Contents (Elt F) → (⟨S1x4x65536, .f32⟩ : BufTy).Contents (Elt F)),
    StableHlo.nullary main_cst_32 (constant S_ .f32 0x42800000#32),
    StableHlo.unary main_cst_32 main_v96 (broadcastInDim S1x4x65536 ![] bcast_S_S1x4x65536 : (⟨S_, .f32⟩ : BufTy).Contents (Elt F) → (⟨S1x4x65536, .f32⟩ : BufTy).Contents (Elt F)),
    StableHlo.binary main_v95 main_v96 main_v97 (mulf : (⟨S1x4x65536, .f32⟩ : BufTy).Contents (Elt F) → (⟨S1x4x65536, .f32⟩ : BufTy).Contents (Elt F) → (⟨S1x4x65536, .f32⟩ : BufTy).Contents (Elt F)),
    StableHlo.unary main_v90 main_v98 (broadcastInDim S1x4x65536x1 ![0, 1, 2] bcast_S1x4x65536_S1x4x65536x1_0_1_2 : (⟨S1x4x65536, .f32⟩ : BufTy).Contents (Elt F) → (⟨S1x4x65536x1, .f32⟩ : BufTy).Contents (Elt F)),
    StableHlo.unary main_v97 main_v99 (broadcastInDim S1x4x65536x1 ![0, 1, 2] bcast_S1x4x65536_S1x4x65536x1_0_1_2 : (⟨S1x4x65536, .f32⟩ : BufTy).Contents (Elt F) → (⟨S1x4x65536x1, .f32⟩ : BufTy).Contents (Elt F)) ]

/-- 18 operations of @main, in order: the list ops2b. -/
abbrev ops2b : List (HloOp τ sig (Elt F)) :=
  [ StableHlo.binary main_v98 main_v99 main_v100 ((fun a b => concatenate S1x4x65536x2 3 [⟨S1x4x65536x1, a⟩, ⟨S1x4x65536x1, b⟩] concatenates_S1x4x65536x1_S1x4x65536x1_S1x4x65536x2_d3) : (⟨S1x4x65536x1, .f32⟩ : BufTy).Contents (Elt F) → (⟨S1x4x65536x1, .f32⟩ : BufTy).Contents (Elt F) → (⟨S1x4x65536x2, .f32⟩ : BufTy).Contents (Elt F)),
    StableHlo.unary main_cst_1 main_v101 (broadcastInDim S1x1x2 ![2] bcast_S2_S1x1x2_2 : (⟨S2, .f32⟩ : BufTy).Contents (Elt F) → (⟨S1x1x2, .f32⟩ : BufTy).Contents (Elt F)),
    StableHlo.unary main_v101 main_v102 (broadcastInDim S1x65536x2 ![0, 1, 2] bcast_S1x1x2_S1x65536x2_0_1_2 : (⟨S1x1x2, .f32⟩ : BufTy).Contents (Elt F) → (⟨S1x65536x2, .f32⟩ : BufTy).Contents (Elt F)),
    StableHlo.binary main_arg4 main_v102 main_v103 (mulf : (⟨S1x65536x2, .f32⟩ : BufTy).Contents (Elt F) → (⟨S1x65536x2, .f32⟩ : BufTy).Contents (Elt F) → (⟨S1x65536x2, .f32⟩ : BufTy).Contents (Elt F)),
    StableHlo.binary main_v100 main_arg5 main_v104 ((fun l r => Host.dotGeneral dot_S1x4x65536x2_S128x2_S1x4x65536x128_3_1_012_0_n_n none l r) : (⟨S1x4x65536x2, .f32⟩ : BufTy).Contents (Elt F) → (⟨S128x2, .f32⟩ : BufTy).Contents (Elt F) → (⟨S1x4x65536x128, .f32⟩ : BufTy).Contents (Elt F)),
    StableHlo.binary main_v65 main_v104 main_v105 (mulf : (⟨S1x4x65536x128, .f32⟩ : BufTy).Contents (Elt F) → (⟨S1x4x65536x128, .f32⟩ : BufTy).Contents (Elt F) → (⟨S1x4x65536x128, .f32⟩ : BufTy).Contents (Elt F)),
    StableHlo.binary main_v103 main_arg6 main_v106 ((fun l r => Host.dotGeneral dot_S1x65536x2_S128x2_S1x65536x128_2_1_01_0_n_n none l r) : (⟨S1x65536x2, .f32⟩ : BufTy).Contents (Elt F) → (⟨S128x2, .f32⟩ : BufTy).Contents (Elt F) → (⟨S1x65536x128, .f32⟩ : BufTy).Contents (Elt F)),
    StableHlo.unary main_v106 main_v107 (broadcastInDim S1x1x65536x128 ![0, 2, 3] bcast_S1x65536x128_S1x1x65536x128_0_2_3 : (⟨S1x65536x128, .f32⟩ : BufTy).Contents (Elt F) → (⟨S1x1x65536x128, .f32⟩ : BufTy).Contents (Elt F)),
    StableHlo.unary main_v107 main_v108 (broadcastInDim S1x4x65536x128 ![0, 1, 2, 3] bcast_S1x1x65536x128_S1x4x65536x128_0_1_2_3 : (⟨S1x1x65536x128, .f32⟩ : BufTy).Contents (Elt F) → (⟨S1x4x65536x128, .f32⟩ : BufTy).Contents (Elt F)),
    StableHlo.binary main_v105 main_v108 main_v109 (addf : (⟨S1x4x65536x128, .f32⟩ : BufTy).Contents (Elt F) → (⟨S1x4x65536x128, .f32⟩ : BufTy).Contents (Elt F) → (⟨S1x4x65536x128, .f32⟩ : BufTy).Contents (Elt F)),
    StableHlo.nullary main_cst_33 (constant S_ .f32 0x40490FDB#32),
    StableHlo.unary main_cst_33 main_v110 (broadcastInDim S1x4x65536x128 ![] bcast_S_S1x4x65536x128 : (⟨S_, .f32⟩ : BufTy).Contents (Elt F) → (⟨S1x4x65536x128, .f32⟩ : BufTy).Contents (Elt F)),
    StableHlo.binary main_v110 main_v109 main_v111 (mulf : (⟨S1x4x65536x128, .f32⟩ : BufTy).Contents (Elt F) → (⟨S1x4x65536x128, .f32⟩ : BufTy).Contents (Elt F) → (⟨S1x4x65536x128, .f32⟩ : BufTy).Contents (Elt F)),
    StableHlo.unary main_v111 main_v112 (Host.cos : (⟨S1x4x65536x128, .f32⟩ : BufTy).Contents (Elt F) → (⟨S1x4x65536x128, .f32⟩ : BufTy).Contents (Elt F)),
    StableHlo.nullary main_cst_34 (constant S_ .f32 0x40490FDB#32),
    StableHlo.unary main_cst_34 main_v113 (broadcastInDim S1x4x65536x128 ![] bcast_S_S1x4x65536x128 : (⟨S_, .f32⟩ : BufTy).Contents (Elt F) → (⟨S1x4x65536x128, .f32⟩ : BufTy).Contents (Elt F)),
    StableHlo.binary main_v113 main_v109 main_v114 (mulf : (⟨S1x4x65536x128, .f32⟩ : BufTy).Contents (Elt F) → (⟨S1x4x65536x128, .f32⟩ : BufTy).Contents (Elt F) → (⟨S1x4x65536x128, .f32⟩ : BufTy).Contents (Elt F)),
    StableHlo.unary main_v114 main_v115 (Host.sin : (⟨S1x4x65536x128, .f32⟩ : BufTy).Contents (Elt F) → (⟨S1x4x65536x128, .f32⟩ : BufTy).Contents (Elt F)) ]

/-- 31 operations of @main, in order: the list ops2c. -/
abbrev ops2c : List (HloOp τ sig (Elt F)) :=
  [ StableHlo.binary main_v112 main_v115 main_v116 ((fun a b => concatenate S1x4x65536x256 3 [⟨S1x4x65536x128, a⟩, ⟨S1x4x65536x128, b⟩] concatenates_S1x4x65536x128_S1x4x65536x128_S1x4x65536x256_d3) : (⟨S1x4x65536x128, .f32⟩ : BufTy).Contents (Elt F) → (⟨S1x4x65536x128, .f32⟩ : BufTy).Contents (Elt F) → (⟨S1x4x65536x256, .f32⟩ : BufTy).Contents (Elt F)),
    StableHlo.binary main_v54 main_v116 main_v117 (mulf : (⟨S1x4x65536x256, .f32⟩ : BufTy).Contents (Elt F) → (⟨S1x4x65536x256, .f32⟩ : BufTy).Contents (Elt F) → (⟨S1x4x65536x256, .f32⟩ : BufTy).Contents (Elt F)),
    StableHlo.binary main_v117 main_arg7 main_v118 ((fun l r => Host.dotGeneral dot_S1x4x65536x256_S256x256_S1x4x65536x256_3_1_012_0_n_n none l r) : (⟨S1x4x65536x256, .f32⟩ : BufTy).Contents (Elt F) → (⟨S256x256, .f32⟩ : BufTy).Contents (Elt F) → (⟨S1x4x65536x256, .f32⟩ : BufTy).Contents (Elt F)),
    StableHlo.unary main_arg8 main_v119 (broadcastInDim S1x1x1x256 ![3] bcast_S256_S1x1x1x256_3 : (⟨S256, .f32⟩ : BufTy).Contents (Elt F) → (⟨S1x1x1x256, .f32⟩ : BufTy).Contents (Elt F)),
    StableHlo.unary main_v119 main_v120 (broadcastInDim S1x4x65536x256 ![0, 1, 2, 3] bcast_S1x1x1x256_S1x4x65536x256_0_1_2_3 : (⟨S1x1x1x256, .f32⟩ : BufTy).Contents (Elt F) → (⟨S1x4x65536x256, .f32⟩ : BufTy).Contents (Elt F)),
    StableHlo.binary main_v118 main_v120 main_v121 (addf : (⟨S1x4x65536x256, .f32⟩ : BufTy).Contents (Elt F) → (⟨S1x4x65536x256, .f32⟩ : BufTy).Contents (Elt F) → (⟨S1x4x65536x256, .f32⟩ : BufTy).Contents (Elt F)),
    StableHlo.TRef.nullary main_call3.cst (constant S_ .f32 0x00000000#32),
    StableHlo.TRef.unary main_call3.cst main_call3.v0 (broadcastInDim S1x4x65536x256 ![] bcast_S_S1x4x65536x256),
    StableHlo.TRef.binary (.of main_v121 : StableHlo.TRef sig ⟨S1x4x65536x256, .f32⟩) main_call3.v0 main_call3.v1 maximumf,
    StableHlo.binary main_v122 main_arg9 main_v123 ((fun l r => Host.dotGeneral dot_S1x4x65536x256_S256x256_S1x4x65536x256_3_1_012_0_n_n none l r) : (⟨S1x4x65536x256, .f32⟩ : BufTy).Contents (Elt F) → (⟨S256x256, .f32⟩ : BufTy).Contents (Elt F) → (⟨S1x4x65536x256, .f32⟩ : BufTy).Contents (Elt F)),
    StableHlo.unary main_arg10 main_v124 (broadcastInDim S1x1x1x256 ![3] bcast_S256_S1x1x1x256_3 : (⟨S256, .f32⟩ : BufTy).Contents (Elt F) → (⟨S1x1x1x256, .f32⟩ : BufTy).Contents (Elt F)),
    StableHlo.unary main_v124 main_v125 (broadcastInDim S1x4x65536x256 ![0, 1, 2, 3] bcast_S1x1x1x256_S1x4x65536x256_0_1_2_3 : (⟨S1x1x1x256, .f32⟩ : BufTy).Contents (Elt F) → (⟨S1x4x65536x256, .f32⟩ : BufTy).Contents (Elt F)),
    StableHlo.binary main_v123 main_v125 main_v126 (addf : (⟨S1x4x65536x256, .f32⟩ : BufTy).Contents (Elt F) → (⟨S1x4x65536x256, .f32⟩ : BufTy).Contents (Elt F) → (⟨S1x4x65536x256, .f32⟩ : BufTy).Contents (Elt F)),
    StableHlo.TRef.nullary main_call4.cst (constant S_ .f32 0x00000000#32),
    StableHlo.TRef.unary main_call4.cst main_call4.v0 (broadcastInDim S1x4x65536x256 ![] bcast_S_S1x4x65536x256),
    StableHlo.TRef.binary (.of main_v126 : StableHlo.TRef sig ⟨S1x4x65536x256, .f32⟩) main_call4.v0 main_call4.v1 maximumf,
    StableHlo.binary main_v127 main_arg11 main_v128 ((fun l r => Host.dotGeneral dot_S1x4x65536x256_S3x256_S1x4x65536x3_3_1_012_0_n_n none l r) : (⟨S1x4x65536x256, .f32⟩ : BufTy).Contents (Elt F) → (⟨S3x256, .f32⟩ : BufTy).Contents (Elt F) → (⟨S1x4x65536x3, .f32⟩ : BufTy).Contents (Elt F)),
    StableHlo.unary main_arg12 main_v129 (broadcastInDim S1x1x1x3 ![3] bcast_S3_S1x1x1x3_3 : (⟨S3, .f32⟩ : BufTy).Contents (Elt F) → (⟨S1x1x1x3, .f32⟩ : BufTy).Contents (Elt F)),
    StableHlo.unary main_v129 main_v130 (broadcastInDim S1x4x65536x3 ![0, 1, 2, 3] bcast_S1x1x1x3_S1x4x65536x3_0_1_2_3 : (⟨S1x1x1x3, .f32⟩ : BufTy).Contents (Elt F) → (⟨S1x4x65536x3, .f32⟩ : BufTy).Contents (Elt F)),
    StableHlo.binary main_v128 main_v130 main_v131 (addf : (⟨S1x4x65536x3, .f32⟩ : BufTy).Contents (Elt F) → (⟨S1x4x65536x3, .f32⟩ : BufTy).Contents (Elt F) → (⟨S1x4x65536x3, .f32⟩ : BufTy).Contents (Elt F)),
    StableHlo.binary main_v90 main_v97 main_v132 (mulf : (⟨S1x4x65536, .f32⟩ : BufTy).Contents (Elt F) → (⟨S1x4x65536, .f32⟩ : BufTy).Contents (Elt F) → (⟨S1x4x65536, .f32⟩ : BufTy).Contents (Elt F)),
    StableHlo.unary main_v132 main_v133 (Host.absf : (⟨S1x4x65536, .f32⟩ : BufTy).Contents (Elt F) → (⟨S1x4x65536, .f32⟩ : BufTy).Contents (Elt F)),
    StableHlo.nullary main_cst_35 (constant S_ .f32 0x3089705F#32),
    StableHlo.unary main_cst_35 main_v134 (broadcastInDim S1x4x65536 ![] bcast_S_S1x4x65536 : (⟨S_, .f32⟩ : BufTy).Contents (Elt F) → (⟨S1x4x65536, .f32⟩ : BufTy).Contents (Elt F)),
    StableHlo.binary main_v133 main_v134 main_v135 (addf : (⟨S1x4x65536, .f32⟩ : BufTy).Contents (Elt F) → (⟨S1x4x65536, .f32⟩ : BufTy).Contents (Elt F) → (⟨S1x4x65536, .f32⟩ : BufTy).Contents (Elt F)),
    StableHlo.nullary main_cst_36 (constant S_ .f32 0x00000000#32),
    StableHlo.binary main_v135 main_cst_36 main_v136 ((fun x v => Host.reduceAdd x v reducesTo_S1x4x65536_S1x65536_d1 h_S_) : (⟨S1x4x65536, .f32⟩ : BufTy).Contents (Elt F) → (⟨S_, .f32⟩ : BufTy).Contents (Elt F) → (⟨S1x65536, .f32⟩ : BufTy).Contents (Elt F)),
    StableHlo.unary main_v136 main_v137 (broadcastInDim S1x1x65536 ![0, 2] bcast_S1x65536_S1x1x65536_0_2 : (⟨S1x65536, .f32⟩ : BufTy).Contents (Elt F) → (⟨S1x1x65536, .f32⟩ : BufTy).Contents (Elt F)),
    StableHlo.unary main_v135 main_v138 (Host.reverse [1] : (⟨S1x4x65536, .f32⟩ : BufTy).Contents (Elt F) → (⟨S1x4x65536, .f32⟩ : BufTy).Contents (Elt F)),
    StableHlo.unary main_v137 main_v139 (broadcastInDim S1x4x65536 ![0, 1, 2] bcast_S1x1x65536_S1x4x65536_0_1_2 : (⟨S1x1x65536, .f32⟩ : BufTy).Contents (Elt F) → (⟨S1x4x65536, .f32⟩ : BufTy).Contents (Elt F)),
    StableHlo.binary main_v138 main_v139 main_v140 (Host.divf : (⟨S1x4x65536, .f32⟩ : BufTy).Contents (Elt F) → (⟨S1x4x65536, .f32⟩ : BufTy).Contents (Elt F) → (⟨S1x4x65536, .f32⟩ : BufTy).Contents (Elt F)) ]

/-- 80 operations of @main, in order: the list ops3. -/
abbrev ops3 : List (HloOp τ sig (Elt F)) :=
  [ StableHlo.unary main_v140 main_v141 (broadcastInDim S1x4x65536x1 ![0, 1, 2] bcast_S1x4x65536_S1x4x65536x1_0_1_2 : (⟨S1x4x65536, .f32⟩ : BufTy).Contents (Elt F) → (⟨S1x4x65536x1, .f32⟩ : BufTy).Contents (Elt F)),
    StableHlo.unary main_v141 main_v142 (broadcastInDim S1x4x65536x3 ![0, 1, 2, 3] bcast_S1x4x65536x1_S1x4x65536x3_0_1_2_3 : (⟨S1x4x65536x1, .f32⟩ : BufTy).Contents (Elt F) → (⟨S1x4x65536x3, .f32⟩ : BufTy).Contents (Elt F)),
    StableHlo.binary main_v131 main_v142 main_v143 (mulf : (⟨S1x4x65536x3, .f32⟩ : BufTy).Contents (Elt F) → (⟨S1x4x65536x3, .f32⟩ : BufTy).Contents (Elt F) → (⟨S1x4x65536x3, .f32⟩ : BufTy).Contents (Elt F)),
    StableHlo.nullary main_cst_37 (constant S_ .f32 0x00000000#32),
    StableHlo.binary main_v143 main_cst_37 main_v144 ((fun x v => Host.reduceAdd x v reducesTo_S1x4x65536x3_S1x65536x3_d1 h_S_) : (⟨S1x4x65536x3, .f32⟩ : BufTy).Contents (Elt F) → (⟨S_, .f32⟩ : BufTy).Contents (Elt F) → (⟨S1x65536x3, .f32⟩ : BufTy).Contents (Elt F)),
    StableHlo.unary main_arg3 main_v145 ((extractStridedSlice S1x65536x1 ![0, 0, 0] · slices_S1x65536x2_S1x65536x1_0_0_0) : (⟨S1x65536x2, .f32⟩ : BufTy).Contents (Elt F) → (⟨S1x65536x1, .f32⟩ : BufTy).Contents (Elt F)),
    StableHlo.reshape main_v145 main_v146 rfl shapeCasts_S1x65536x1_S1x65536,
    StableHlo.nullary main_cst_38 (constant S_ .f32 0x3F800000#32),
    StableHlo.unary main_cst_38 main_v147 (broadcastInDim S1x65536 ![] bcast_S_S1x65536 : (⟨S_, .f32⟩ : BufTy).Contents (Elt F) → (⟨S1x65536, .f32⟩ : BufTy).Contents (Elt F)),
    StableHlo.binary main_v146 main_v147 main_v148 (addf : (⟨S1x65536, .f32⟩ : BufTy).Contents (Elt F) → (⟨S1x65536, .f32⟩ : BufTy).Contents (Elt F) → (⟨S1x65536, .f32⟩ : BufTy).Contents (Elt F)),
    StableHlo.nullary main_cst_39 (constant S_ .f32 0x42800000#32),
    StableHlo.unary main_cst_39 main_v149 (broadcastInDim S1x65536 ![] bcast_S_S1x65536 : (⟨S_, .f32⟩ : BufTy).Contents (Elt F) → (⟨S1x65536, .f32⟩ : BufTy).Contents (Elt F)),
    StableHlo.binary main_v148 main_v149 main_v150 (mulf : (⟨S1x65536, .f32⟩ : BufTy).Contents (Elt F) → (⟨S1x65536, .f32⟩ : BufTy).Contents (Elt F) → (⟨S1x65536, .f32⟩ : BufTy).Contents (Elt F)),
    StableHlo.nullary main_cst_40 (constant S_ .f32 0x3F800000#32),
    StableHlo.unary main_cst_40 main_v151 (broadcastInDim S1x65536 ![] bcast_S_S1x65536 : (⟨S_, .f32⟩ : BufTy).Contents (Elt F) → (⟨S1x65536, .f32⟩ : BufTy).Contents (Elt F)),
    StableHlo.binary main_v150 main_v151 main_v152 (subf : (⟨S1x65536, .f32⟩ : BufTy).Contents (Elt F) → (⟨S1x65536, .f32⟩ : BufTy).Contents (Elt F) → (⟨S1x65536, .f32⟩ : BufTy).Contents (Elt F)),
    StableHlo.nullary main_cst_41 (constant S_ .f32 0x40000000#32),
    StableHlo.unary main_cst_41 main_v153 (broadcastInDim S1x65536 ![] bcast_S_S1x65536 : (⟨S_, .f32⟩ : BufTy).Contents (Elt F) → (⟨S1x65536, .f32⟩ : BufTy).Contents (Elt F)),
    StableHlo.binary main_v152 main_v153 main_v154 (Host.divf : (⟨S1x65536, .f32⟩ : BufTy).Contents (Elt F) → (⟨S1x65536, .f32⟩ : BufTy).Contents (Elt F) → (⟨S1x65536, .f32⟩ : BufTy).Contents (Elt F)),
    StableHlo.nullary main_cst_42 (constant S_ .f32 0x00000000#32),
    StableHlo.nullary main_cst_43 (constant S_ .f32 0x427C0000#32),
    StableHlo.TRef.unary (.of main_cst_42 : StableHlo.TRef sig ⟨S_, .f32⟩) main_call5.v0 id,
    StableHlo.TRef.unary main_call5.v0 main_call5.v1 (broadcastInDim S1x65536 ![] bcast_S_S1x65536),
    StableHlo.TRef.binary main_call5.v1 (.of main_v154 : StableHlo.TRef sig ⟨S1x65536, .f32⟩) main_call5.v2 maximumf,
    StableHlo.TRef.unary (.of main_cst_43 : StableHlo.TRef sig ⟨S_, .f32⟩) main_call5.v3 id,
    StableHlo.TRef.unary main_call5.v3 main_call5.v4 (broadcastInDim S1x65536 ![] bcast_S_S1x65536),
    StableHlo.TRef.binary main_call5.v4 main_call5.v2 main_call5.v5 minimumf,
    StableHlo.unary main_arg3 main_v156 ((extractStridedSlice S1x65536x1 ![0, 0, 1] · slices_S1x65536x2_S1x65536x1_0_0_1) : (⟨S1x65536x2, .f32⟩ : BufTy).Contents (Elt F) → (⟨S1x65536x1, .f32⟩ : BufTy).Contents (Elt F)),
    StableHlo.reshape main_v156 main_v157 rfl shapeCasts_S1x65536x1_S1x65536,
    StableHlo.nullary main_cst_44 (constant S_ .f32 0x3F800000#32),
    StableHlo.unary main_cst_44 main_v158 (broadcastInDim S1x65536 ![] bcast_S_S1x65536 : (⟨S_, .f32⟩ : BufTy).Contents (Elt F) → (⟨S1x65536, .f32⟩ : BufTy).Contents (Elt F)),
    StableHlo.binary main_v157 main_v158 main_v159 (addf : (⟨S1x65536, .f32⟩ : BufTy).Contents (Elt F) → (⟨S1x65536, .f32⟩ : BufTy).Contents (Elt F) → (⟨S1x65536, .f32⟩ : BufTy).Contents (Elt F)),
    StableHlo.nullary main_cst_45 (constant S_ .f32 0x42800000#32),
    StableHlo.unary main_cst_45 main_v160 (broadcastInDim S1x65536 ![] bcast_S_S1x65536 : (⟨S_, .f32⟩ : BufTy).Contents (Elt F) → (⟨S1x65536, .f32⟩ : BufTy).Contents (Elt F)),
    StableHlo.binary main_v159 main_v160 main_v161 (mulf : (⟨S1x65536, .f32⟩ : BufTy).Contents (Elt F) → (⟨S1x65536, .f32⟩ : BufTy).Contents (Elt F) → (⟨S1x65536, .f32⟩ : BufTy).Contents (Elt F)),
    StableHlo.nullary main_cst_46 (constant S_ .f32 0x3F800000#32),
    StableHlo.unary main_cst_46 main_v162 (broadcastInDim S1x65536 ![] bcast_S_S1x65536 : (⟨S_, .f32⟩ : BufTy).Contents (Elt F) → (⟨S1x65536, .f32⟩ : BufTy).Contents (Elt F)),
    StableHlo.binary main_v161 main_v162 main_v163 (subf : (⟨S1x65536, .f32⟩ : BufTy).Contents (Elt F) → (⟨S1x65536, .f32⟩ : BufTy).Contents (Elt F) → (⟨S1x65536, .f32⟩ : BufTy).Contents (Elt F)),
    StableHlo.nullary main_cst_47 (constant S_ .f32 0x40000000#32),
    StableHlo.unary main_cst_47 main_v164 (broadcastInDim S1x65536 ![] bcast_S_S1x65536 : (⟨S_, .f32⟩ : BufTy).Contents (Elt F) → (⟨S1x65536, .f32⟩ : BufTy).Contents (Elt F)),
    StableHlo.binary main_v163 main_v164 main_v165 (Host.divf : (⟨S1x65536, .f32⟩ : BufTy).Contents (Elt F) → (⟨S1x65536, .f32⟩ : BufTy).Contents (Elt F) → (⟨S1x65536, .f32⟩ : BufTy).Contents (Elt F)),
    StableHlo.nullary main_cst_48 (constant S_ .f32 0x00000000#32),
    StableHlo.nullary main_cst_49 (constant S_ .f32 0x427C0000#32),
    StableHlo.TRef.unary (.of main_cst_48 : StableHlo.TRef sig ⟨S_, .f32⟩) main_call6.v0 id,
    StableHlo.TRef.unary main_call6.v0 main_call6.v1 (broadcastInDim S1x65536 ![] bcast_S_S1x65536),
    StableHlo.TRef.binary main_call6.v1 (.of main_v165 : StableHlo.TRef sig ⟨S1x65536, .f32⟩) main_call6.v2 maximumf,
    StableHlo.TRef.unary (.of main_cst_49 : StableHlo.TRef sig ⟨S_, .f32⟩) main_call6.v3 id,
    StableHlo.TRef.unary main_call6.v3 main_call6.v4 (broadcastInDim S1x65536 ![] bcast_S_S1x65536),
    StableHlo.TRef.binary main_call6.v4 main_call6.v2 main_call6.v5 minimumf,
    StableHlo.unary main_v155 main_v167 (Host.floor : (⟨S1x65536, .f32⟩ : BufTy).Contents (Elt F) → (⟨S1x65536, .f32⟩ : BufTy).Contents (Elt F)),
    StableHlo.unary main_v167 main_v168 (fptosi 32 : (⟨S1x65536, .f32⟩ : BufTy).Contents (Elt F) → (⟨S1x65536, .i32⟩ : BufTy).Contents (Elt F)),
    StableHlo.unary main_v166 main_v169 (Host.floor : (⟨S1x65536, .f32⟩ : BufTy).Contents (Elt F) → (⟨S1x65536, .f32⟩ : BufTy).Contents (Elt F)),
    StableHlo.unary main_v169 main_v170 (fptosi 32 : (⟨S1x65536, .f32⟩ : BufTy).Contents (Elt F) → (⟨S1x65536, .i32⟩ : BufTy).Contents (Elt F)),
    StableHlo.nullary main_c_50 (constantI S_ 32 1#32),
    StableHlo.unary main_c_50 main_v171 (broadcastInDim S1x65536 ![] bcast_S_S1x65536 : (⟨S_, .i32⟩ : BufTy).Contents (Elt F) → (⟨S1x65536, .i32⟩ : BufTy).Contents (Elt F)),
    StableHlo.binary main_v168 main_v171 main_v172 (addi : (⟨S1x65536, .i32⟩ : BufTy).Contents (Elt F) → (⟨S1x65536, .i32⟩ : BufTy).Contents (Elt F) → (⟨S1x65536, .i32⟩ : BufTy).Contents (Elt F)),
    StableHlo.nullary main_c_51 (constantI S_ 32 0#32),
    StableHlo.nullary main_c_52 (constantI S_ 32 63#32),
    StableHlo.TRef.unary (.of main_c_51 : StableHlo.TRef sig ⟨S_, .i32⟩) main_call7.v0 id,
    StableHlo.TRef.unary main_call7.v0 main_call7.v1 (broadcastInDim S1x65536 ![] bcast_S_S1x65536),
    StableHlo.TRef.binary main_call7.v1 (.of main_v172 : StableHlo.TRef sig ⟨S1x65536, .i32⟩) main_call7.v2 maxsi,
    StableHlo.TRef.unary (.of main_c_52 : StableHlo.TRef sig ⟨S_, .i32⟩) main_call7.v3 id,
    StableHlo.TRef.unary main_call7.v3 main_call7.v4 (broadcastInDim S1x65536 ![] bcast_S_S1x65536),
    StableHlo.TRef.binary main_call7.v4 main_call7.v2 main_call7.v5 minsi,
    StableHlo.nullary main_c_53 (constantI S_ 32 1#32),
    StableHlo.unary main_c_53 main_v174 (broadcastInDim S1x65536 ![] bcast_S_S1x65536 : (⟨S_, .i32⟩ : BufTy).Contents (Elt F) → (⟨S1x65536, .i32⟩ : BufTy).Contents (Elt F)),
    StableHlo.binary main_v170 main_v174 main_v175 (addi : (⟨S1x65536, .i32⟩ : BufTy).Contents (Elt F) → (⟨S1x65536, .i32⟩ : BufTy).Contents (Elt F) → (⟨S1x65536, .i32⟩ : BufTy).Contents (Elt F)),
    StableHlo.nullary main_c_54 (constantI S_ 32 0#32),
    StableHlo.nullary main_c_55 (constantI S_ 32 63#32),
    StableHlo.TRef.unary (.of main_c_54 : StableHlo.TRef sig ⟨S_, .i32⟩) main_call8.v0 id,
    StableHlo.TRef.unary main_call8.v0 main_call8.v1 (broadcastInDim S1x65536 ![] bcast_S_S1x65536),
    StableHlo.TRef.binary main_call8.v1 (.of main_v175 : StableHlo.TRef sig ⟨S1x65536, .i32⟩) main_call8.v2 maxsi,
    StableHlo.TRef.unary (.of main_c_55 : StableHlo.TRef sig ⟨S_, .i32⟩) main_call8.v3 id,
    StableHlo.TRef.unary main_call8.v3 main_call8.v4 (broadcastInDim S1x65536 ![] bcast_S_S1x65536),
    StableHlo.TRef.binary main_call8.v4 main_call8.v2 main_call8.v5 minsi,
    StableHlo.unary main_v168 main_v177 (sitofp .f32 : (⟨S1x65536, .i32⟩ : BufTy).Contents (Elt F) → (⟨S1x65536, .f32⟩ : BufTy).Contents (Elt F)),
    StableHlo.binary main_v155 main_v177 main_v178 (subf : (⟨S1x65536, .f32⟩ : BufTy).Contents (Elt F) → (⟨S1x65536, .f32⟩ : BufTy).Contents (Elt F) → (⟨S1x65536, .f32⟩ : BufTy).Contents (Elt F)),
    StableHlo.unary main_v170 main_v179 (sitofp .f32 : (⟨S1x65536, .i32⟩ : BufTy).Contents (Elt F) → (⟨S1x65536, .f32⟩ : BufTy).Contents (Elt F)),
    StableHlo.binary main_v166 main_v179 main_v180 (subf : (⟨S1x65536, .f32⟩ : BufTy).Contents (Elt F) → (⟨S1x65536, .f32⟩ : BufTy).Contents (Elt F) → (⟨S1x65536, .f32⟩ : BufTy).Contents (Elt F)),
    StableHlo.reshape main_arg0 main_v181 rfl shapeCasts_S1x3x64x64_S1x3x4096 ]

/-- 60 operations of @main, in order: the list ops4. -/
abbrev ops4 : List (HloOp τ sig (Elt F)) :=
  [ StableHlo.unary main_v181 main_v182 ((transpose S1x4096x3 [0, 2, 1] · transposes_S1x3x4096_S1x4096x3_0_2_1) : (⟨S1x3x4096, .f32⟩ : BufTy).Contents (Elt F) → (⟨S1x4096x3, .f32⟩ : BufTy).Contents (Elt F)),
    StableHlo.nullary main_c_56 (constantI S_ 32 64#32),
    StableHlo.unary main_c_56 main_v183 (broadcastInDim S1x65536 ![] bcast_S_S1x65536 : (⟨S_, .i32⟩ : BufTy).Contents (Elt F) → (⟨S1x65536, .i32⟩ : BufTy).Contents (Elt F)),
    StableHlo.binary main_v168 main_v183 main_v184 (muli : (⟨S1x65536, .i32⟩ : BufTy).Contents (Elt F) → (⟨S1x65536, .i32⟩ : BufTy).Contents (Elt F) → (⟨S1x65536, .i32⟩ : BufTy).Contents (Elt F)),
    StableHlo.binary main_v184 main_v170 main_v185 (addi : (⟨S1x65536, .i32⟩ : BufTy).Contents (Elt F) → (⟨S1x65536, .i32⟩ : BufTy).Contents (Elt F) → (⟨S1x65536, .i32⟩ : BufTy).Contents (Elt F)),
    StableHlo.nullary main_c_57 (constantI S_ 32 0#32),
    StableHlo.unary main_c_57 main_v186 (broadcastInDim S1x65536 ![] bcast_S_S1x65536 : (⟨S_, .i32⟩ : BufTy).Contents (Elt F) → (⟨S1x65536, .i32⟩ : BufTy).Contents (Elt F)),
    StableHlo.binary main_v185 main_v186 main_v187 (cmpi .slt : (⟨S1x65536, .i32⟩ : BufTy).Contents (Elt F) → (⟨S1x65536, .i32⟩ : BufTy).Contents (Elt F) → (⟨S1x65536, .i1⟩ : BufTy).Contents (Elt F)),
    StableHlo.nullary main_c_58 (constantI S_ 32 4096#32),
    StableHlo.unary main_c_58 main_v188 (broadcastInDim S1x65536 ![] bcast_S_S1x65536 : (⟨S_, .i32⟩ : BufTy).Contents (Elt F) → (⟨S1x65536, .i32⟩ : BufTy).Contents (Elt F)),
    StableHlo.binary main_v185 main_v188 main_v189 (addi : (⟨S1x65536, .i32⟩ : BufTy).Contents (Elt F) → (⟨S1x65536, .i32⟩ : BufTy).Contents (Elt F) → (⟨S1x65536, .i32⟩ : BufTy).Contents (Elt F)),
    StableHlo.ternary main_v187 main_v189 main_v185 main_v190 (select : (⟨S1x65536, .i1⟩ : BufTy).Contents (Elt F) → (⟨S1x65536, .i32⟩ : BufTy).Contents (Elt F) → (⟨S1x65536, .i32⟩ : BufTy).Contents (Elt F) → (⟨S1x65536, .i32⟩ : BufTy).Contents (Elt F)),
    StableHlo.unary main_v190 main_v191 (broadcastInDim S1x65536x1 ![0, 1] bcast_S1x65536_S1x65536x1_0_1 : (⟨S1x65536, .i32⟩ : BufTy).Contents (Elt F) → (⟨S1x65536x1, .i32⟩ : BufTy).Contents (Elt F)),
    StableHlo.binary main_v182 main_v191 main_v192 ((fun x i => Host.gather gather_S1x4096x3_S1x65536x1_S1x65536x3_2_1_0_0_1_2_113 x i) : (⟨S1x4096x3, .f32⟩ : BufTy).Contents (Elt F) → (⟨S1x65536x1, .i32⟩ : BufTy).Contents (Elt F) → (⟨S1x65536x3, .f32⟩ : BufTy).Contents (Elt F)),
    StableHlo.nullary main_cst_59 (constant S_ .f32 0x3F800000#32),
    StableHlo.unary main_cst_59 main_v193 (broadcastInDim S1x65536 ![] bcast_S_S1x65536 : (⟨S_, .f32⟩ : BufTy).Contents (Elt F) → (⟨S1x65536, .f32⟩ : BufTy).Contents (Elt F)),
    StableHlo.binary main_v193 main_v178 main_v194 (subf : (⟨S1x65536, .f32⟩ : BufTy).Contents (Elt F) → (⟨S1x65536, .f32⟩ : BufTy).Contents (Elt F) → (⟨S1x65536, .f32⟩ : BufTy).Contents (Elt F)),
    StableHlo.nullary main_cst_60 (constant S_ .f32 0x3F800000#32),
    StableHlo.unary main_cst_60 main_v195 (broadcastInDim S1x65536 ![] bcast_S_S1x65536 : (⟨S_, .f32⟩ : BufTy).Contents (Elt F) → (⟨S1x65536, .f32⟩ : BufTy).Contents (Elt F)),
    StableHlo.binary main_v195 main_v180 main_v196 (subf : (⟨S1x65536, .f32⟩ : BufTy).Contents (Elt F) → (⟨S1x65536, .f32⟩ : BufTy).Contents (Elt F) → (⟨S1x65536, .f32⟩ : BufTy).Contents (Elt F)),
    StableHlo.binary main_v194 main_v196 main_v197 (mulf : (⟨S1x65536, .f32⟩ : BufTy).Contents (Elt F) → (⟨S1x65536, .f32⟩ : BufTy).Contents (Elt F) → (⟨S1x65536, .f32⟩ : BufTy).Contents (Elt F)),
    StableHlo.unary main_v197 main_v198 (broadcastInDim S1x65536x1 ![0, 1] bcast_S1x65536_S1x65536x1_0_1 : (⟨S1x65536, .f32⟩ : BufTy).Contents (Elt F) → (⟨S1x65536x1, .f32⟩ : BufTy).Contents (Elt F)),
    StableHlo.unary main_v198 main_v199 (broadcastInDim S1x65536x3 ![0, 1, 2] bcast_S1x65536x1_S1x65536x3_0_1_2 : (⟨S1x65536x1, .f32⟩ : BufTy).Contents (Elt F) → (⟨S1x65536x3, .f32⟩ : BufTy).Contents (Elt F)),
    StableHlo.binary main_v192 main_v199 main_v200 (mulf : (⟨S1x65536x3, .f32⟩ : BufTy).Contents (Elt F) → (⟨S1x65536x3, .f32⟩ : BufTy).Contents (Elt F) → (⟨S1x65536x3, .f32⟩ : BufTy).Contents (Elt F)),
    StableHlo.nullary main_c_61 (constantI S_ 32 64#32),
    StableHlo.unary main_c_61 main_v201 (broadcastInDim S1x65536 ![] bcast_S_S1x65536 : (⟨S_, .i32⟩ : BufTy).Contents (Elt F) → (⟨S1x65536, .i32⟩ : BufTy).Contents (Elt F)),
    StableHlo.binary main_v168 main_v201 main_v202 (muli : (⟨S1x65536, .i32⟩ : BufTy).Contents (Elt F) → (⟨S1x65536, .i32⟩ : BufTy).Contents (Elt F) → (⟨S1x65536, .i32⟩ : BufTy).Contents (Elt F)),
    StableHlo.binary main_v202 main_v176 main_v203 (addi : (⟨S1x65536, .i32⟩ : BufTy).Contents (Elt F) → (⟨S1x65536, .i32⟩ : BufTy).Contents (Elt F) → (⟨S1x65536, .i32⟩ : BufTy).Contents (Elt F)),
    StableHlo.nullary main_c_62 (constantI S_ 32 0#32),
    StableHlo.unary main_c_62 main_v204 (broadcastInDim S1x65536 ![] bcast_S_S1x65536 : (⟨S_, .i32⟩ : BufTy).Contents (Elt F) → (⟨S1x65536, .i32⟩ : BufTy).Contents (Elt F)),
    StableHlo.binary main_v203 main_v204 main_v205 (cmpi .slt : (⟨S1x65536, .i32⟩ : BufTy).Contents (Elt F) → (⟨S1x65536, .i32⟩ : BufTy).Contents (Elt F) → (⟨S1x65536, .i1⟩ : BufTy).Contents (Elt F)),
    StableHlo.nullary main_c_63 (constantI S_ 32 4096#32),
    StableHlo.unary main_c_63 main_v206 (broadcastInDim S1x65536 ![] bcast_S_S1x65536 : (⟨S_, .i32⟩ : BufTy).Contents (Elt F) → (⟨S1x65536, .i32⟩ : BufTy).Contents (Elt F)),
    StableHlo.binary main_v203 main_v206 main_v207 (addi : (⟨S1x65536, .i32⟩ : BufTy).Contents (Elt F) → (⟨S1x65536, .i32⟩ : BufTy).Contents (Elt F) → (⟨S1x65536, .i32⟩ : BufTy).Contents (Elt F)),
    StableHlo.ternary main_v205 main_v207 main_v203 main_v208 (select : (⟨S1x65536, .i1⟩ : BufTy).Contents (Elt F) → (⟨S1x65536, .i32⟩ : BufTy).Contents (Elt F) → (⟨S1x65536, .i32⟩ : BufTy).Contents (Elt F) → (⟨S1x65536, .i32⟩ : BufTy).Contents (Elt F)),
    StableHlo.unary main_v208 main_v209 (broadcastInDim S1x65536x1 ![0, 1] bcast_S1x65536_S1x65536x1_0_1 : (⟨S1x65536, .i32⟩ : BufTy).Contents (Elt F) → (⟨S1x65536x1, .i32⟩ : BufTy).Contents (Elt F)),
    StableHlo.binary main_v182 main_v209 main_v210 ((fun x i => Host.gather gather_S1x4096x3_S1x65536x1_S1x65536x3_2_1_0_0_1_2_113 x i) : (⟨S1x4096x3, .f32⟩ : BufTy).Contents (Elt F) → (⟨S1x65536x1, .i32⟩ : BufTy).Contents (Elt F) → (⟨S1x65536x3, .f32⟩ : BufTy).Contents (Elt F)),
    StableHlo.nullary main_cst_64 (constant S_ .f32 0x3F800000#32),
    StableHlo.unary main_cst_64 main_v211 (broadcastInDim S1x65536 ![] bcast_S_S1x65536 : (⟨S_, .f32⟩ : BufTy).Contents (Elt F) → (⟨S1x65536, .f32⟩ : BufTy).Contents (Elt F)),
    StableHlo.binary main_v211 main_v178 main_v212 (subf : (⟨S1x65536, .f32⟩ : BufTy).Contents (Elt F) → (⟨S1x65536, .f32⟩ : BufTy).Contents (Elt F) → (⟨S1x65536, .f32⟩ : BufTy).Contents (Elt F)),
    StableHlo.binary main_v212 main_v180 main_v213 (mulf : (⟨S1x65536, .f32⟩ : BufTy).Contents (Elt F) → (⟨S1x65536, .f32⟩ : BufTy).Contents (Elt F) → (⟨S1x65536, .f32⟩ : BufTy).Contents (Elt F)),
    StableHlo.unary main_v213 main_v214 (broadcastInDim S1x65536x1 ![0, 1] bcast_S1x65536_S1x65536x1_0_1 : (⟨S1x65536, .f32⟩ : BufTy).Contents (Elt F) → (⟨S1x65536x1, .f32⟩ : BufTy).Contents (Elt F)),
    StableHlo.unary main_v214 main_v215 (broadcastInDim S1x65536x3 ![0, 1, 2] bcast_S1x65536x1_S1x65536x3_0_1_2 : (⟨S1x65536x1, .f32⟩ : BufTy).Contents (Elt F) → (⟨S1x65536x3, .f32⟩ : BufTy).Contents (Elt F)),
    StableHlo.binary main_v210 main_v215 main_v216 (mulf : (⟨S1x65536x3, .f32⟩ : BufTy).Contents (Elt F) → (⟨S1x65536x3, .f32⟩ : BufTy).Contents (Elt F) → (⟨S1x65536x3, .f32⟩ : BufTy).Contents (Elt F)),
    StableHlo.binary main_v200 main_v216 main_v217 (addf : (⟨S1x65536x3, .f32⟩ : BufTy).Contents (Elt F) → (⟨S1x65536x3, .f32⟩ : BufTy).Contents (Elt F) → (⟨S1x65536x3, .f32⟩ : BufTy).Contents (Elt F)),
    StableHlo.nullary main_c_65 (constantI S_ 32 64#32),
    StableHlo.unary main_c_65 main_v218 (broadcastInDim S1x65536 ![] bcast_S_S1x65536 : (⟨S_, .i32⟩ : BufTy).Contents (Elt F) → (⟨S1x65536, .i32⟩ : BufTy).Contents (Elt F)),
    StableHlo.binary main_v173 main_v218 main_v219 (muli : (⟨S1x65536, .i32⟩ : BufTy).Contents (Elt F) → (⟨S1x65536, .i32⟩ : BufTy).Contents (Elt F) → (⟨S1x65536, .i32⟩ : BufTy).Contents (Elt F)),
    StableHlo.binary main_v219 main_v170 main_v220 (addi : (⟨S1x65536, .i32⟩ : BufTy).Contents (Elt F) → (⟨S1x65536, .i32⟩ : BufTy).Contents (Elt F) → (⟨S1x65536, .i32⟩ : BufTy).Contents (Elt F)),
    StableHlo.nullary main_c_66 (constantI S_ 32 0#32),
    StableHlo.unary main_c_66 main_v221 (broadcastInDim S1x65536 ![] bcast_S_S1x65536 : (⟨S_, .i32⟩ : BufTy).Contents (Elt F) → (⟨S1x65536, .i32⟩ : BufTy).Contents (Elt F)),
    StableHlo.binary main_v220 main_v221 main_v222 (cmpi .slt : (⟨S1x65536, .i32⟩ : BufTy).Contents (Elt F) → (⟨S1x65536, .i32⟩ : BufTy).Contents (Elt F) → (⟨S1x65536, .i1⟩ : BufTy).Contents (Elt F)),
    StableHlo.nullary main_c_67 (constantI S_ 32 4096#32),
    StableHlo.unary main_c_67 main_v223 (broadcastInDim S1x65536 ![] bcast_S_S1x65536 : (⟨S_, .i32⟩ : BufTy).Contents (Elt F) → (⟨S1x65536, .i32⟩ : BufTy).Contents (Elt F)),
    StableHlo.binary main_v220 main_v223 main_v224 (addi : (⟨S1x65536, .i32⟩ : BufTy).Contents (Elt F) → (⟨S1x65536, .i32⟩ : BufTy).Contents (Elt F) → (⟨S1x65536, .i32⟩ : BufTy).Contents (Elt F)),
    StableHlo.ternary main_v222 main_v224 main_v220 main_v225 (select : (⟨S1x65536, .i1⟩ : BufTy).Contents (Elt F) → (⟨S1x65536, .i32⟩ : BufTy).Contents (Elt F) → (⟨S1x65536, .i32⟩ : BufTy).Contents (Elt F) → (⟨S1x65536, .i32⟩ : BufTy).Contents (Elt F)),
    StableHlo.unary main_v225 main_v226 (broadcastInDim S1x65536x1 ![0, 1] bcast_S1x65536_S1x65536x1_0_1 : (⟨S1x65536, .i32⟩ : BufTy).Contents (Elt F) → (⟨S1x65536x1, .i32⟩ : BufTy).Contents (Elt F)),
    StableHlo.binary main_v182 main_v226 main_v227 ((fun x i => Host.gather gather_S1x4096x3_S1x65536x1_S1x65536x3_2_1_0_0_1_2_113 x i) : (⟨S1x4096x3, .f32⟩ : BufTy).Contents (Elt F) → (⟨S1x65536x1, .i32⟩ : BufTy).Contents (Elt F) → (⟨S1x65536x3, .f32⟩ : BufTy).Contents (Elt F)),
    StableHlo.nullary main_cst_68 (constant S_ .f32 0x3F800000#32),
    StableHlo.unary main_cst_68 main_v228 (broadcastInDim S1x65536 ![] bcast_S_S1x65536 : (⟨S_, .f32⟩ : BufTy).Contents (Elt F) → (⟨S1x65536, .f32⟩ : BufTy).Contents (Elt F)) ]

/-- 25 operations of @main, in order: the list ops5. -/
abbrev ops5 : List (HloOp τ sig (Elt F)) :=
  [ StableHlo.binary main_v228 main_v180 main_v229 (subf : (⟨S1x65536, .f32⟩ : BufTy).Contents (Elt F) → (⟨S1x65536, .f32⟩ : BufTy).Contents (Elt F) → (⟨S1x65536, .f32⟩ : BufTy).Contents (Elt F)),
    StableHlo.binary main_v178 main_v229 main_v230 (mulf : (⟨S1x65536, .f32⟩ : BufTy).Contents (Elt F) → (⟨S1x65536, .f32⟩ : BufTy).Contents (Elt F) → (⟨S1x65536, .f32⟩ : BufTy).Contents (Elt F)),
    StableHlo.unary main_v230 main_v231 (broadcastInDim S1x65536x1 ![0, 1] bcast_S1x65536_S1x65536x1_0_1 : (⟨S1x65536, .f32⟩ : BufTy).Contents (Elt F) → (⟨S1x65536x1, .f32⟩ : BufTy).Contents (Elt F)),
    StableHlo.unary main_v231 main_v232 (broadcastInDim S1x65536x3 ![0, 1, 2] bcast_S1x65536x1_S1x65536x3_0_1_2 : (⟨S1x65536x1, .f32⟩ : BufTy).Contents (Elt F) → (⟨S1x65536x3, .f32⟩ : BufTy).Contents (Elt F)),
    StableHlo.binary main_v227 main_v232 main_v233 (mulf : (⟨S1x65536x3, .f32⟩ : BufTy).Contents (Elt F) → (⟨S1x65536x3, .f32⟩ : BufTy).Contents (Elt F) → (⟨S1x65536x3, .f32⟩ : BufTy).Contents (Elt F)),
    StableHlo.binary main_v217 main_v233 main_v234 (addf : (⟨S1x65536x3, .f32⟩ : BufTy).Contents (Elt F) → (⟨S1x65536x3, .f32⟩ : BufTy).Contents (Elt F) → (⟨S1x65536x3, .f32⟩ : BufTy).Contents (Elt F)),
    StableHlo.nullary main_c_69 (constantI S_ 32 64#32),
    StableHlo.unary main_c_69 main_v235 (broadcastInDim S1x65536 ![] bcast_S_S1x65536 : (⟨S_, .i32⟩ : BufTy).Contents (Elt F) → (⟨S1x65536, .i32⟩ : BufTy).Contents (Elt F)),
    StableHlo.binary main_v173 main_v235 main_v236 (muli : (⟨S1x65536, .i32⟩ : BufTy).Contents (Elt F) → (⟨S1x65536, .i32⟩ : BufTy).Contents (Elt F) → (⟨S1x65536, .i32⟩ : BufTy).Contents (Elt F)),
    StableHlo.binary main_v236 main_v176 main_v237 (addi : (⟨S1x65536, .i32⟩ : BufTy).Contents (Elt F) → (⟨S1x65536, .i32⟩ : BufTy).Contents (Elt F) → (⟨S1x65536, .i32⟩ : BufTy).Contents (Elt F)),
    StableHlo.nullary main_c_70 (constantI S_ 32 0#32),
    StableHlo.unary main_c_70 main_v238 (broadcastInDim S1x65536 ![] bcast_S_S1x65536 : (⟨S_, .i32⟩ : BufTy).Contents (Elt F) → (⟨S1x65536, .i32⟩ : BufTy).Contents (Elt F)),
    StableHlo.binary main_v237 main_v238 main_v239 (cmpi .slt : (⟨S1x65536, .i32⟩ : BufTy).Contents (Elt F) → (⟨S1x65536, .i32⟩ : BufTy).Contents (Elt F) → (⟨S1x65536, .i1⟩ : BufTy).Contents (Elt F)),
    StableHlo.nullary main_c_71 (constantI S_ 32 4096#32),
    StableHlo.unary main_c_71 main_v240 (broadcastInDim S1x65536 ![] bcast_S_S1x65536 : (⟨S_, .i32⟩ : BufTy).Contents (Elt F) → (⟨S1x65536, .i32⟩ : BufTy).Contents (Elt F)),
    StableHlo.binary main_v237 main_v240 main_v241 (addi : (⟨S1x65536, .i32⟩ : BufTy).Contents (Elt F) → (⟨S1x65536, .i32⟩ : BufTy).Contents (Elt F) → (⟨S1x65536, .i32⟩ : BufTy).Contents (Elt F)),
    StableHlo.ternary main_v239 main_v241 main_v237 main_v242 (select : (⟨S1x65536, .i1⟩ : BufTy).Contents (Elt F) → (⟨S1x65536, .i32⟩ : BufTy).Contents (Elt F) → (⟨S1x65536, .i32⟩ : BufTy).Contents (Elt F) → (⟨S1x65536, .i32⟩ : BufTy).Contents (Elt F)),
    StableHlo.unary main_v242 main_v243 (broadcastInDim S1x65536x1 ![0, 1] bcast_S1x65536_S1x65536x1_0_1 : (⟨S1x65536, .i32⟩ : BufTy).Contents (Elt F) → (⟨S1x65536x1, .i32⟩ : BufTy).Contents (Elt F)),
    StableHlo.binary main_v182 main_v243 main_v244 ((fun x i => Host.gather gather_S1x4096x3_S1x65536x1_S1x65536x3_2_1_0_0_1_2_113 x i) : (⟨S1x4096x3, .f32⟩ : BufTy).Contents (Elt F) → (⟨S1x65536x1, .i32⟩ : BufTy).Contents (Elt F) → (⟨S1x65536x3, .f32⟩ : BufTy).Contents (Elt F)),
    StableHlo.binary main_v178 main_v180 main_v245 (mulf : (⟨S1x65536, .f32⟩ : BufTy).Contents (Elt F) → (⟨S1x65536, .f32⟩ : BufTy).Contents (Elt F) → (⟨S1x65536, .f32⟩ : BufTy).Contents (Elt F)),
    StableHlo.unary main_v245 main_v246 (broadcastInDim S1x65536x1 ![0, 1] bcast_S1x65536_S1x65536x1_0_1 : (⟨S1x65536, .f32⟩ : BufTy).Contents (Elt F) → (⟨S1x65536x1, .f32⟩ : BufTy).Contents (Elt F)),
    StableHlo.unary main_v246 main_v247 (broadcastInDim S1x65536x3 ![0, 1, 2] bcast_S1x65536x1_S1x65536x3_0_1_2 : (⟨S1x65536x1, .f32⟩ : BufTy).Contents (Elt F) → (⟨S1x65536x3, .f32⟩ : BufTy).Contents (Elt F)),
    StableHlo.binary main_v244 main_v247 main_v248 (mulf : (⟨S1x65536x3, .f32⟩ : BufTy).Contents (Elt F) → (⟨S1x65536x3, .f32⟩ : BufTy).Contents (Elt F) → (⟨S1x65536x3, .f32⟩ : BufTy).Contents (Elt F)),
    StableHlo.binary main_v234 main_v248 main_v249 (addf : (⟨S1x65536x3, .f32⟩ : BufTy).Contents (Elt F) → (⟨S1x65536x3, .f32⟩ : BufTy).Contents (Elt F) → (⟨S1x65536x3, .f32⟩ : BufTy).Contents (Elt F)),
    StableHlo.binary main_v144 main_v249 main_v250 (addf : (⟨S1x65536x3, .f32⟩ : BufTy).Contents (Elt F) → (⟨S1x65536x3, .f32⟩ : BufTy).Contents (Elt F) → (⟨S1x65536x3, .f32⟩ : BufTy).Contents (Elt F)) ]

/-- The 64 operations of @main's window 2, in order: its lists joined. -/
abbrev ops2 : List (HloOp τ sig (Elt F)) := ops2a ++ (ops2b ++ ops2c)

end Cert.ReferenceIdeal.ROps

end
-- ==== Proof.RRun.lean ====
/- The run of the idealized reference program: @main's 364 operations (the lists of ROps.lean, one per printed window),
   read back window by window. Each window's operations are folded over the buffers' contents; what a later window
   reads of an earlier one is stated by the definition RDefs.lean gives that buffer, so every step compares terms of
   one window's length. The last window's result buffer is r_main_v250 and no operation writes an argument. -/
import proofs.«148257_j30657476559104_1_alg».proof.Proof.RDefs
import proofs.«148257_j30657476559104_1_alg».proof.Proof.ROps
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo
open Cert.ReferenceIdeal.RDefs Cert.ReferenceIdeal.ROps

variable {F : FTy → Type} [FloatOps F]

/-! ## The lists, joined -/

/-- @main's 364 operations, in order: the six windows' lists one after the other (window 2's is itself three). -/
abbrev ops : List (HloOp τ sig (Elt F)) := ops0 ++ (ops1 ++ (ops2 ++ (ops3 ++ (ops4 ++ ops5))))

/-- The buffers after two lists run one after the other: the second list's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after ops5 (after ops4 (after ops3 (after ops2c (after ops2b (after ops2a (after ops1 (after ops0 V))))))) := by
  simp only [ops, ops2, after_append]

/-! ## @main is that straight line, window by window -/

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
set_option maxHeartbeats 4000000 in
theorem part2_eq (c : Dev nD) : main_part2 (F := F) c = seq ops2 := rfl
set_option maxRecDepth 8192 in
set_option maxHeartbeats 4000000 in
theorem part3_eq (c : Dev nD) : main_part3 (F := F) c = seq ops3 := rfl
set_option maxRecDepth 8192 in
set_option maxHeartbeats 4000000 in
theorem part4_eq (c : Dev nD) : main_part4 (F := F) c = seq ops4 := rfl
set_option maxRecDepth 8192 in
set_option maxHeartbeats 4000000 in
theorem part5_eq (c : Dev nD) : main_part5 (F := F) c = seq ops5 := rfl

/-- @main is the six windows in order, and a join's line is its lists' lines in order. -/
theorem main_eq (c : Dev nD) : main (F := F) c = seq ops := by
  have e : seq (nD := nD) (Λ := Pipeline.Sig Λ₀ (Fin 0) fun p => (pcfgs (F := F) p).Adm) (ops (F := F))
      = (seq ops0 >>= fun _ => seq ops1 >>= fun _ => seq ops2 >>= fun _ => seq ops3 >>= fun _ => seq ops4 >>= fun _ => seq ops5) := by
    simp only [ops, seq_append]
  rw [e, ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its results -/

theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]
theorem ops2a_sub : (ops2a : List (HloOp τ sig (Elt F))).Forall fun op => op.bufs ⊆ tcRefs τ sig := by
  simp only [List.Forall, nullary_bufs_sub, unary_bufs_sub, binary_bufs_sub, ternary_bufs_sub, reshape_bufs_sub, and_self]
theorem ops2b_sub : (ops2b : List (HloOp τ sig (Elt F))).Forall fun op => op.bufs ⊆ tcRefs τ sig := by
  simp only [List.Forall, nullary_bufs_sub, unary_bufs_sub, binary_bufs_sub, ternary_bufs_sub, reshape_bufs_sub, and_self]
theorem ops2c_sub : (ops2c : List (HloOp τ sig (Elt F))).Forall fun op => op.bufs ⊆ tcRefs τ sig := by
  simp only [List.Forall, nullary_bufs_sub, unary_bufs_sub, binary_bufs_sub, ternary_bufs_sub, reshape_bufs_sub, and_self]
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, and_self]
theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig := by
  rw [List.forall_iff_forall_mem]
  intro op h
  simp only [ops, ops2, List.mem_append] at h
  rcases h with h | h | (h | h | h) | h | h | h
  · exact List.forall_iff_forall_mem.mp ops0_sub op h
  · exact List.forall_iff_forall_mem.mp ops1_sub op h
  · exact List.forall_iff_forall_mem.mp ops2a_sub op h
  · exact List.forall_iff_forall_mem.mp ops2b_sub op h
  · exact List.forall_iff_forall_mem.mp ops2c_sub op h
  · exact List.forall_iff_forall_mem.mp ops3_sub op h
  · exact List.forall_iff_forall_mem.mp ops4_sub op h
  · exact List.forall_iff_forall_mem.mp ops5_sub op h

set_option maxRecDepth 8192 in
theorem ops0_fresh : ∀ op ∈ (ops0 : List (HloOp τ sig (Elt F))), op.fresh = ∅ := by
  intro _ h; (repeat (cases h with | head => rfl | tail _ h => ?_)); exact nomatch h
set_option maxRecDepth 8192 in
theorem ops1_fresh : ∀ op ∈ (ops1 : List (HloOp τ sig (Elt F))), op.fresh = ∅ := by
  intro _ h; (repeat (cases h with | head => rfl | tail _ h => ?_)); exact nomatch h
set_option maxRecDepth 8192 in
theorem ops2a_fresh : ∀ op ∈ (ops2a : List (HloOp τ sig (Elt F))), op.fresh = ∅ := by
  intro _ h; (repeat (cases h with | head => rfl | tail _ h => ?_)); exact nomatch h
set_option maxRecDepth 8192 in
theorem ops2b_fresh : ∀ op ∈ (ops2b : List (HloOp τ sig (Elt F))), op.fresh = ∅ := by
  intro _ h; (repeat (cases h with | head => rfl | tail _ h => ?_)); exact nomatch h
set_option maxRecDepth 8192 in
theorem ops2c_fresh : ∀ op ∈ (ops2c : List (HloOp τ sig (Elt F))), op.fresh = ∅ := by
  intro _ h; (repeat (cases h with | head => rfl | tail _ h => ?_)); exact nomatch h
set_option maxRecDepth 8192 in
theorem ops3_fresh : ∀ op ∈ (ops3 : List (HloOp τ sig (Elt F))), op.fresh = ∅ := by
  intro _ h; (repeat (cases h with | head => rfl | tail _ h => ?_)); exact nomatch h
set_option maxRecDepth 8192 in
theorem ops4_fresh : ∀ op ∈ (ops4 : List (HloOp τ sig (Elt F))), op.fresh = ∅ := by
  intro _ h; (repeat (cases h with | head => rfl | tail _ h => ?_)); exact nomatch h
set_option maxRecDepth 8192 in
theorem ops5_fresh : ∀ op ∈ (ops5 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, ops2, List.mem_append] at h
  rcases h with h | h | (h | h | h) | h | h | h
  · exact ops0_fresh op h
  · exact ops1_fresh op h
  · exact ops2a_fresh op h
  · exact ops2b_fresh op h
  · exact ops2c_fresh op h
  · exact ops3_fresh op h
  · exact ops4_fresh op h
  · exact ops5_fresh op h

/-! ## Buffers told apart by their indices

Every buffer here is a reference into one table, so two references with different indices are different; the index
of a literal reference is a numeral, and comparing numerals is cheap. -/

section Idx
variable {Val : EltTy → Type} {x a b c y : Ref sig .tc}

theorem idx_ne {r y : Ref sig .tc} (h : r.idx.val ≠ y.idx.val) : r ≠ y := fun e => h (by rw [e])

theorem nullary_ne_idx (v : y.ty.Contents Val) (hy) (G : Valuation τ sig Val) {r : Ref sig .tc} (h : r.idx.val ≠ y.idx.val) :
    (StableHlo.nullary (τ := τ) y v hy).result G (no_index (Proc.devRef .tc r)) = G (Proc.devRef .tc r) :=
  nullary_result_ne' v hy G (idx_ne h)
theorem unary_ne_idx (f : x.ty.Contents Val → y.ty.Contents Val) (hx hy) (G : Valuation τ sig Val) {r : Ref sig .tc}
    (h : r.idx.val ≠ y.idx.val) :
    (StableHlo.unary (τ := τ) x y f hx hy).result G (no_index (Proc.devRef .tc r)) = G (Proc.devRef .tc r) :=
  unary_result_ne' f hx hy G (idx_ne h)
theorem binary_ne_idx (f : a.ty.Contents Val → b.ty.Contents Val → y.ty.Contents Val) (ha hb hy) (G : Valuation τ sig Val)
    {r : Ref sig .tc} (h : r.idx.val ≠ y.idx.val) :
    (StableHlo.binary (τ := τ) a b y f ha hb hy).result G (no_index (Proc.devRef .tc r)) = G (Proc.devRef .tc r) :=
  binary_result_ne' f ha hb hy G (idx_ne h)
theorem ternary_ne_idx (f : c.ty.Contents Val → a.ty.Contents Val → b.ty.Contents Val → y.ty.Contents Val) (hc ha hb hy)
    (G : Valuation τ sig Val) {r : Ref sig .tc} (h : r.idx.val ≠ y.idx.val) :
    (StableHlo.ternary (τ := τ) c a b y f hc ha hb hy).result G (no_index (Proc.devRef .tc r)) = G (Proc.devRef .tc r) :=
  ternary_result_ne' f hc ha hb hy G (idx_ne h)
theorem reshape_ne_idx (he hn hx hy) (G : Valuation τ sig Val) {r : Ref sig .tc} (h : r.idx.val ≠ y.idx.val) :
    (StableHlo.reshape (τ := τ) (Val := Val) x y he hn hx hy).result G (no_index (Proc.devRef .tc r)) = G (Proc.devRef .tc r) :=
  reshape_result_ne' he hn hx hy G (idx_ne h)

/-- A buffer whose index is below a bound is not the one buffer an operation writes, when that one's index is at
    or above the bound. -/
theorem not_mem_single {r y : Ref sig .tc} {lo : Nat} (hr : r.idx.val < lo) (hy : lo ≤ y.idx.val) :
    (Proc.devRef .tc r : DevRef τ sig) ∉ ({Proc.devRef .tc y} : Finset (DevRef τ sig)) := by
  rw [Finset.mem_singleton]
  intro e
  have h : r = y := Proc.devRef_injective _ e
  subst h
  omega

end Idx

/-- The fold at one buffer as ONE simp pass: each operation's result at its own buffer is its function's value, at
    any other buffer what was there, the two buffers told apart by their indices. -/
macro "fold_results" : tactic =>
  `(tactic| (simp (disch := decide) only [after_cons, after_nil,
      nullary_result', unary_result', binary_result', ternary_result', reshape_result',
      nullary_ne_idx, unary_ne_idx, binary_ne_idx, ternary_ne_idx, reshape_ne_idx]))

/-! The buffers are numbered in the program's order, so each list writes a block of consecutive indices: a buffer
    numbered below a list's first index is written by none of its operations. -/

set_option maxRecDepth 8192 in
theorem keep0 (r : Ref sig .tc) (hr : r.idx.val < 13) :
    ∀ op ∈ (ops0 : List (HloOp τ sig (Elt F))), (Proc.devRef .tc r : DevRef τ sig) ∉ op.writes := by
  intro _ h
  repeat (cases h with | head => exact not_mem_single hr (by decide) | tail _ h => ?_)
  exact nomatch h
set_option maxRecDepth 8192 in
theorem keep1 (r : Ref sig .tc) (hr : r.idx.val < 83) :
    ∀ op ∈ (ops1 : List (HloOp τ sig (Elt F))), (Proc.devRef .tc r : DevRef τ sig) ∉ op.writes := by
  intro _ h
  repeat (cases h with | head => exact not_mem_single hr (by decide) | tail _ h => ?_)
  exact nomatch h
set_option maxRecDepth 8192 in
theorem keep2a (r : Ref sig .tc) (hr : r.idx.val < 148) :
    ∀ op ∈ (ops2a : List (HloOp τ sig (Elt F))), (Proc.devRef .tc r : DevRef τ sig) ∉ op.writes := by
  intro _ h
  repeat (cases h with | head => exact not_mem_single hr (by decide) | tail _ h => ?_)
  exact nomatch h
set_option maxRecDepth 8192 in
theorem keep2b (r : Ref sig .tc) (hr : r.idx.val < 163) :
    ∀ op ∈ (ops2b : List (HloOp τ sig (Elt F))), (Proc.devRef .tc r : DevRef τ sig) ∉ op.writes := by
  intro _ h
  repeat (cases h with | head => exact not_mem_single hr (by decide) | tail _ h => ?_)
  exact nomatch h
set_option maxRecDepth 8192 in
theorem keep2c (r : Ref sig .tc) (hr : r.idx.val < 181) :
    ∀ op ∈ (ops2c : List (HloOp τ sig (Elt F))), (Proc.devRef .tc r : DevRef τ sig) ∉ op.writes := by
  intro _ h
  repeat (cases h with | head => exact not_mem_single hr (by decide) | tail _ h => ?_)
  exact nomatch h
set_option maxRecDepth 8192 in
theorem keep3 (r : Ref sig .tc) (hr : r.idx.val < 212) :
    ∀ op ∈ (ops3 : List (HloOp τ sig (Elt F))), (Proc.devRef .tc r : DevRef τ sig) ∉ op.writes := by
  intro _ h
  repeat (cases h with | head => exact not_mem_single hr (by decide) | tail _ h => ?_)
  exact nomatch h
set_option maxRecDepth 8192 in
theorem keep4 (r : Ref sig .tc) (hr : r.idx.val < 292) :
    ∀ op ∈ (ops4 : List (HloOp τ sig (Elt F))), (Proc.devRef .tc r : DevRef τ sig) ∉ op.writes := by
  intro _ h
  repeat (cases h with | head => exact not_mem_single hr (by decide) | tail _ h => ?_)
  exact nomatch h
set_option maxRecDepth 8192 in
theorem keep5 (r : Ref sig .tc) (hr : r.idx.val < 352) :
    ∀ op ∈ (ops5 : List (HloOp τ sig (Elt F))), (Proc.devRef .tc r : DevRef τ sig) ∉ op.writes := by
  intro _ h
  repeat (cases h with | head => exact not_mem_single hr (by decide) | tail _ h => ?_)
  exact nomatch h

/-- What a buffer below a list's first index holds is what it held. -/
theorem keep_at {l : List (HloOp τ sig (Elt F))} {lo : Nat}
    (hk : ∀ r : Ref sig .tc, r.idx.val < lo → ∀ op ∈ l, (Proc.devRef .tc r : DevRef τ sig) ∉ op.writes)
    (r : Ref sig .tc) (hr : r.idx.val < lo) {W : Valuation τ sig (Elt F)}
    {x : (Proc.devRef .tc r : DevRef τ sig).ty.Contents (Elt F)} (h : W (Proc.devRef .tc r) = x) :
    after l W (Proc.devRef .tc r) = x :=
  (after_of_forall_not_mem l W (hk r hr)).trans h

/-! ## The arguments' buffers -/

/-- The thirteen argument buffers hold the arguments A. -/
structure ArgsAt (A : RArgs F) (W : Valuation τ sig (Elt F)) : Prop where
  a0 : W (main_arg0 : DevRef τ sig) = A.a0
  a1 : W (main_arg1 : DevRef τ sig) = A.a1
  a2 : W (main_arg2 : DevRef τ sig) = A.a2
  a3 : W (main_arg3 : DevRef τ sig) = A.a3
  a4 : W (main_arg4 : DevRef τ sig) = A.a4
  a5 : W (main_arg5 : DevRef τ sig) = A.a5
  a6 : W (main_arg6 : DevRef τ sig) = A.a6
  a7 : W (main_arg7 : DevRef τ sig) = A.a7
  a8 : W (main_arg8 : DevRef τ sig) = A.a8
  a9 : W (main_arg9 : DevRef τ sig) = A.a9
  a10 : W (main_arg10 : DevRef τ sig) = A.a10
  a11 : W (main_arg11 : DevRef τ sig) = A.a11
  a12 : W (main_arg12 : DevRef τ sig) = A.a12

/-- The arguments are the first thirteen buffers: a list that writes none below thirteen keeps them. -/
theorem args_keep {l : List (HloOp τ sig (Elt F))} {lo : Nat} (hlo : 13 ≤ lo)
    (hk : ∀ r : Ref sig .tc, r.idx.val < lo → ∀ op ∈ l, (Proc.devRef .tc r : DevRef τ sig) ∉ op.writes)
    {A : RArgs F} {W : Valuation τ sig (Elt F)} (hA : ArgsAt A W) : ArgsAt A (after l W) :=
  ⟨keep_at hk main_arg0 (Nat.lt_of_lt_of_le (by decide) hlo) hA.a0, keep_at hk main_arg1 (Nat.lt_of_lt_of_le (by decide) hlo) hA.a1,
   keep_at hk main_arg2 (Nat.lt_of_lt_of_le (by decide) hlo) hA.a2, keep_at hk main_arg3 (Nat.lt_of_lt_of_le (by decide) hlo) hA.a3,
   keep_at hk main_arg4 (Nat.lt_of_lt_of_le (by decide) hlo) hA.a4, keep_at hk main_arg5 (Nat.lt_of_lt_of_le (by decide) hlo) hA.a5,
   keep_at hk main_arg6 (Nat.lt_of_lt_of_le (by decide) hlo) hA.a6, keep_at hk main_arg7 (Nat.lt_of_lt_of_le (by decide) hlo) hA.a7,
   keep_at hk main_arg8 (Nat.lt_of_lt_of_le (by decide) hlo) hA.a8, keep_at hk main_arg9 (Nat.lt_of_lt_of_le (by decide) hlo) hA.a9,
   keep_at hk main_arg10 (Nat.lt_of_lt_of_le (by decide) hlo) hA.a10, keep_at hk main_arg11 (Nat.lt_of_lt_of_le (by decide) hlo) hA.a11,
   keep_at hk main_arg12 (Nat.lt_of_lt_of_le (by decide) hlo) hA.a12⟩

/-! ## The lists' values

For each list: from buffers holding the arguments, and holding at each buffer the list reads of an earlier one the
value RDefs.lean names for it, the list's fold leaves at each buffer a later list reads the value RDefs.lean names
for that one. The fold is unrolled to the operations' functions applied to what the list read; those are then the
named values; what remains is the definitions of RDefs.lean unfolded, line by line. A concatenate is the first
operation of its list, so that its two operands are buffers the list reads and are replaced by their names directly. -/

set_option maxRecDepth 8192 in
set_option maxHeartbeats 4000000 in
theorem w0 (A : RArgs F) (W : Valuation τ sig (Elt F)) (hA : ArgsAt A W) :
    after ops0 W (main_c_16 : DevRef τ sig) = r_main_c_16 A ∧
    after ops0 W (main_v39 : DevRef τ sig) = r_main_v39 A ∧
    after ops0 W (main_c_17 : DevRef τ sig) = r_main_c_17 A ∧
    after ops0 W (main_v25 : DevRef τ sig) = r_main_v25 A ∧
    after ops0 W (main_cst_1 : DevRef τ sig) = r_main_cst_1 A := by
  refine ⟨?_, ?_, ?_, ?_, ?_⟩ <;>
    (fold_results; first | (simp only [hA.a3]; first | done | rfl) | rfl)

set_option maxRecDepth 8192 in
set_option maxHeartbeats 4000000 in
theorem w1 (A : RArgs F) (W : Valuation τ sig (Elt F)) (hA : ArgsAt A W)
    (h_c_16 : W (main_c_16 : DevRef τ sig) = r_main_c_16 A) (h_v39 : W (main_v39 : DevRef τ sig) = r_main_v39 A)
    (h_c_17 : W (main_c_17 : DevRef τ sig) = r_main_c_17 A) (h_v25 : W (main_v25 : DevRef τ sig) = r_main_v25 A) :
    after ops1 W (main_v86 : DevRef τ sig) = r_main_v86 A ∧
    after ops1 W (main_v74 : DevRef τ sig) = r_main_v74 A ∧
    after ops1 W (main_v83 : DevRef τ sig) = r_main_v83 A ∧
    after ops1 W (main_v65 : DevRef τ sig) = r_main_v65 A ∧
    after ops1 W (main_v54 : DevRef τ sig) = r_main_v54 A := by
  refine ⟨?_, ?_, ?_, ?_, ?_⟩ <;>
    (fold_results; first | (simp only [h_c_16, h_v39, h_c_17, h_v25, hA.a1, hA.a2, hA.a3]; first | done | rfl) | rfl)

set_option maxRecDepth 8192 in
set_option maxHeartbeats 4000000 in
theorem w2a (A : RArgs F) (W : Valuation τ sig (Elt F)) (hA : ArgsAt A W)
    (h_v86 : W (main_v86 : DevRef τ sig) = r_main_v86 A) (h_v74 : W (main_v74 : DevRef τ sig) = r_main_v74 A)
    (h_v83 : W (main_v83 : DevRef τ sig) = r_main_v83 A) :
    after ops2a W (main_v98 : DevRef τ sig) = r_main_v98 A ∧
    after ops2a W (main_v99 : DevRef τ sig) = r_main_v99 A ∧
    after ops2a W (main_v90 : DevRef τ sig) = r_main_v90 A ∧
    after ops2a W (main_v97 : DevRef τ sig) = r_main_v97 A := by
  refine ⟨?_, ?_, ?_, ?_⟩ <;>
    (fold_results; first | (simp only [h_v86, h_v74, h_v83, hA.a3]; first | done | rfl) | rfl)

set_option maxRecDepth 8192 in
set_option maxHeartbeats 4000000 in
theorem w2b (A : RArgs F) (W : Valuation τ sig (Elt F)) (hA : ArgsAt A W)
    (h_v98 : W (main_v98 : DevRef τ sig) = r_main_v98 A) (h_v99 : W (main_v99 : DevRef τ sig) = r_main_v99 A)
    (h_cst_1 : W (main_cst_1 : DevRef τ sig) = r_main_cst_1 A) (h_v65 : W (main_v65 : DevRef τ sig) = r_main_v65 A) :
    after ops2b W (main_v112 : DevRef τ sig) = r_main_v112 A ∧
    after ops2b W (main_v115 : DevRef τ sig) = r_main_v115 A := by
  refine ⟨?_, ?_⟩ <;>
    (fold_results; (try simp only [h_cst_1, h_v65, hA.a4, hA.a5, hA.a6]); (try rw [h_v98, h_v99]); rfl)

set_option maxRecDepth 8192 in
set_option maxHeartbeats 4000000 in
theorem w2c (A : RArgs F) (W : Valuation τ sig (Elt F)) (hA : ArgsAt A W)
    (h_v112 : W (main_v112 : DevRef τ sig) = r_main_v112 A) (h_v115 : W (main_v115 : DevRef τ sig) = r_main_v115 A)
    (h_v54 : W (main_v54 : DevRef τ sig) = r_main_v54 A) (h_v90 : W (main_v90 : DevRef τ sig) = r_main_v90 A)
    (h_v97 : W (main_v97 : DevRef τ sig) = r_main_v97 A) :
    after ops2c W (main_v140 : DevRef τ sig) = r_main_v140 A ∧
    after ops2c W (main_v131 : DevRef τ sig) = r_main_v131 A := by
  refine ⟨?_, ?_⟩ <;>
    (fold_results; (try simp only [h_v54, h_v90, h_v97, hA.a7, hA.a8, hA.a9, hA.a10, hA.a11, hA.a12]); (try rw [h_v112, h_v115]); rfl)

set_option maxRecDepth 8192 in
set_option maxHeartbeats 4000000 in
theorem w3 (A : RArgs F) (W : Valuation τ sig (Elt F)) (hA : ArgsAt A W)
    (h_v140 : W (main_v140 : DevRef τ sig) = r_main_v140 A) (h_v131 : W (main_v131 : DevRef τ sig) = r_main_v131 A) :
    after ops3 W (main_v181 : DevRef τ sig) = r_main_v181 A ∧
    after ops3 W (main_v168 : DevRef τ sig) = r_main_v168 A ∧
    after ops3 W (main_v170 : DevRef τ sig) = r_main_v170 A ∧
    after ops3 W (main_v178 : DevRef τ sig) = r_main_v178 A ∧
    after ops3 W (main_v180 : DevRef τ sig) = r_main_v180 A ∧
    after ops3 W (main_v176 : DevRef τ sig) = r_main_v176 A ∧
    after ops3 W (main_v173 : DevRef τ sig) = r_main_v173 A ∧
    after ops3 W (main_v144 : DevRef τ sig) = r_main_v144 A := by
  refine ⟨?_, ?_, ?_, ?_, ?_, ?_, ?_, ?_⟩ <;>
    (fold_results; first | (simp only [h_v140, h_v131, hA.a0, hA.a3]; first | done | rfl) | rfl)

set_option maxRecDepth 8192 in
set_option maxHeartbeats 4000000 in
theorem w4 (A : RArgs F) (W : Valuation τ sig (Elt F))
    (h_v181 : W (main_v181 : DevRef τ sig) = r_main_v181 A) (h_v168 : W (main_v168 : DevRef τ sig) = r_main_v168 A)
    (h_v170 : W (main_v170 : DevRef τ sig) = r_main_v170 A) (h_v178 : W (main_v178 : DevRef τ sig) = r_main_v178 A)
    (h_v180 : W (main_v180 : DevRef τ sig) = r_main_v180 A) (h_v176 : W (main_v176 : DevRef τ sig) = r_main_v176 A)
    (h_v173 : W (main_v173 : DevRef τ sig) = r_main_v173 A) :
    after ops4 W (main_v228 : DevRef τ sig) = r_main_v228 A ∧
    after ops4 W (main_v227 : DevRef τ sig) = r_main_v227 A ∧
    after ops4 W (main_v217 : DevRef τ sig) = r_main_v217 A ∧
    after ops4 W (main_v182 : DevRef τ sig) = r_main_v182 A := by
  refine ⟨?_, ?_, ?_, ?_⟩ <;>
    (fold_results; first | (simp only [h_v181, h_v168, h_v170, h_v178, h_v180, h_v176, h_v173]; first | done | rfl) | rfl)

set_option maxRecDepth 8192 in
set_option maxHeartbeats 4000000 in
theorem w5 (A : RArgs F) (W : Valuation τ sig (Elt F))
    (h_v228 : W (main_v228 : DevRef τ sig) = r_main_v228 A) (h_v180 : W (main_v180 : DevRef τ sig) = r_main_v180 A)
    (h_v178 : W (main_v178 : DevRef τ sig) = r_main_v178 A) (h_v227 : W (main_v227 : DevRef τ sig) = r_main_v227 A)
    (h_v217 : W (main_v217 : DevRef τ sig) = r_main_v217 A) (h_v173 : W (main_v173 : DevRef τ sig) = r_main_v173 A)
    (h_v176 : W (main_v176 : DevRef τ sig) = r_main_v176 A) (h_v182 : W (main_v182 : DevRef τ sig) = r_main_v182 A)
    (h_v144 : W (main_v144 : DevRef τ sig) = r_main_v144 A) :
    after ops5 W (main_v250 : DevRef τ sig) = r_main_v250 A := by
  fold_results
  simp only [h_v228, h_v180, h_v178, h_v227, h_v217, h_v173, h_v176, h_v182, h_v144]
  rfl

/-! ## The whole line -/

/-- From buffers holding the arguments: after the 364 operations the result buffer holds r_main_v250 and the
    arguments' buffers still hold the arguments. Each list's values are carried to the lists that read them; a
    buffer read two or more lists later is below the first index of every list in between, which keeps it. -/
theorem value (A : RArgs F) (V : Valuation τ sig (Elt F)) (hA : ArgsAt A V) :
    after ops V (main_v250 : DevRef τ sig) = r_main_v250 A ∧ ArgsAt A (after ops V) := by
  rw [after_ops]
  have a1 := args_keep (by decide) keep0 hA
  have a2 := args_keep (by decide) keep1 a1
  have a3 := args_keep (by decide) keep2a a2
  have a4 := args_keep (by decide) keep2b a3
  have a5 := args_keep (by decide) keep2c a4
  have a6 := args_keep (by decide) keep3 a5
  have a7 := args_keep (by decide) keep4 a6
  have a8 := args_keep (by decide) keep5 a7
  obtain ⟨h_c_16, h_v39, h_c_17, h_v25, h_cst_1⟩ := w0 A V hA
  obtain ⟨h_v86, h_v74, h_v83, h_v65, h_v54⟩ := w1 A _ a1 h_c_16 h_v39 h_c_17 h_v25
  have h_cst_1 := keep_at keep1 main_cst_1 (by decide) h_cst_1
  obtain ⟨h_v98, h_v99, h_v90, h_v97⟩ := w2a A _ a2 h_v86 h_v74 h_v83
  have h_cst_1 := keep_at keep2a main_cst_1 (by decide) h_cst_1
  have h_v65 := keep_at keep2a main_v65 (by decide) h_v65
  have h_v54 := keep_at keep2a main_v54 (by decide) h_v54
  obtain ⟨h_v112, h_v115⟩ := w2b A _ a3 h_v98 h_v99 h_cst_1 h_v65
  have h_v54 := keep_at keep2b main_v54 (by decide) h_v54
  have h_v90 := keep_at keep2b main_v90 (by decide) h_v90
  have h_v97 := keep_at keep2b main_v97 (by decide) h_v97
  obtain ⟨h_v140, h_v131⟩ := w2c A _ a4 h_v112 h_v115 h_v54 h_v90 h_v97
  obtain ⟨h_v181, h_v168, h_v170, h_v178, h_v180, h_v176, h_v173, h_v144⟩ := w3 A _ a5 h_v140 h_v131
  obtain ⟨h_v228, h_v227, h_v217, h_v182⟩ := w4 A _ h_v181 h_v168 h_v170 h_v178 h_v180 h_v176 h_v173
  have h_v180 := keep_at keep4 main_v180 (by decide) h_v180
  have h_v178 := keep_at keep4 main_v178 (by decide) h_v178
  have h_v173 := keep_at keep4 main_v173 (by decide) h_v173
  have h_v176 := keep_at keep4 main_v176 (by decide) h_v176
  have h_v144 := keep_at keep4 main_v144 (by decide) h_v144
  exact ⟨w5 A _ h_v228 h_v180 h_v178 h_v227 h_v217 h_v173 h_v176 h_v182 h_v144, a8⟩

/-! ## The run -/

/-- The thirteen arguments as the launch's memory holds them on device c. -/
def argsOf (m : (ℓ : Loc nD τ sig) → Buf (Elt F) ℓ) (c : Dev nD) : RDefs.RArgs F :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12)⟩

theorem argsAt_launch (m : (ℓ : Loc nD τ sig) → Buf (Elt F) ℓ) (c : Dev nD) : ArgsAt (argsOf m c) (launchContents m c) :=
  ⟨rfl, rfl, rfl, rfl, rfl, rfl, rfl, rfl, rfl, rfl, rfl, rfl, rfl⟩

/-- On every device, for any float values, from any memory with zero counters: every weakly fair execution of @main
    terminates with the result buffer at r_main_v250 of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v250) = RDefs.r_main_v250 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      have hv := value (argsOf m c) (launchContents m c) (argsAt_launch m c)
      ⟨(h c main_v250).trans hv.1, (h c main_arg0).trans hv.2.a0, (h c main_arg1).trans hv.2.a1, (h c main_arg2).trans hv.2.a2,
       (h c main_arg3).trans hv.2.a3, (h c main_arg4).trans hv.2.a4, (h c main_arg5).trans hv.2.a5, (h c main_arg6).trans hv.2.a6,
       (h c main_arg7).trans hv.2.a7, (h c main_arg8).trans hv.2.a8, (h c main_arg9).trans hv.2.a9, (h c main_arg10).trans hv.2.a10,
       (h c main_arg11).trans hv.2.a11, (h c main_arg12).trans hv.2.a12⟩)
    (run_seq scopedRefs_eq scopedSems_eq defs main (fun _ => ops) main_eq (fun _ => ops_sub) m ρ (fun _ => ops_fresh))

end Cert.ReferenceIdeal.RV

end
-- ==== Proof.RA.lean ====
/-
  The reference's first stretch read at an index: the shifted and clipped coordinates, the nearest pixel along each
  axis, the flat pixel number, and the two gathered feature rows.
-/
import proofs.«148257_j30657476559104_1_alg».proof.Proof.RDefs
import proofs.«148257_j30657476559104_1_alg».proof.Proof.Spec
import proofs.«148257_j30657476559104_1_alg».proof.Proof.MathW
import proofs.«148257_j30657476559104_1_alg».proof.Proof.MathS
import Idealize.ShloMosaic.Lib.ValueIdx
import Idealize.ShloMosaic.Lib.ValueLayout

noncomputable section

namespace Cert.ReferenceIdeal.RV

open Idealize.ShloMosaic Idealize.ShloMosaic.ValueIdx Cert.ReferenceIdeal Cert.ReferenceIdeal.RDefs

/-- The argument arrays as the tables the specification speaks of. -/
abbrev SA (A : RArgs Ideal) : Spec.Args := Spec.ofArrays A.a0 A.a1 A.a2 A.a3 A.a4 A.a5 A.a6 A.a7 A.a8 A.a9 A.a10 A.a11 A.a12

/-! ## The shifted, clipped coordinate -/

/-- The dense sign table read at (o, d) is the specification's sign. -/
private theorem cst_at (A : RArgs Ideal) (o : Fin 4) (d : Fin 2) : r_main_cst A (ix2 o d) = Spec.sgn o d := by
  have h : S4x2.rowMajor (ix2 o d) = (⟨o.val * 2 + d.val, by omega⟩ : Fin 8) :=
    Fin.ext (by rw [Shape.rowMajor_val_two]; rfl)
  show FloatOps.ofBits (F := Ideal) .f32 (lit0 (S4x2.rowMajor (ix2 o d))) = _
  rw [h]
  fin_cases o <;> fin_cases d <;> rfl

/-- The shift table: sign / 64 plus the small constant. -/
private theorem v4_at (A : RArgs Ideal) (o : Fin 4) (d : Fin 2) : r_main_v4 A (ix2 o d) = Spec.shift o d := by
  show r_main_cst A (ix2 o d) * Spec.w32 0x3C800000#32 + Spec.w32 0x358637BD#32 = _
  rw [cst_at]
  rfl

/-- The coordinates with a unit offset axis added, then repeated over the four offsets. -/
private theorem v7_at (A : RArgs Ideal) (o : Fin 4) (q : Fin 65536) (d : Fin 2) :
    r_main_v7 A (ix4 (0 : Fin 1) o q d) = A.a3 (ix3 (0 : Fin 1) q d) := by
  refine (broadcastInDim_apply _ _ _ _ (ix4 (0 : Fin 1) (0 : Fin 1) q d) (fun a => ?_)).trans ?_
  · match a with
    | ⟨0, _⟩ => rfl
    | ⟨1, _⟩ => rfl
    | ⟨2, _⟩ => rfl
    | ⟨3, _⟩ => rfl
  · exact broadcastInDim_apply _ _ _ _ (ix3 (0 : Fin 1) q d) (fun a => by
      match a with
      | ⟨0, _⟩ => rfl
      | ⟨1, _⟩ => rfl
      | ⟨2, _⟩ => rfl)

/-- The shift table with unit batch and query axes added, then repeated over the queries. -/
private theorem v8_at (A : RArgs Ideal) (o : Fin 4) (q : Fin 65536) (d : Fin 2) :
    r_main_v8 A (ix4 (0 : Fin 1) o q d) = r_main_v4 A (ix2 o d) := by
  refine (broadcastInDim_apply _ _ _ _ (ix4 (0 : Fin 1) o (0 : Fin 1) d) (fun a => ?_)).trans ?_
  · match a with
    | ⟨0, _⟩ => rfl
    | ⟨1, _⟩ => rfl
    | ⟨2, _⟩ => rfl
    | ⟨3, _⟩ => rfl
  · exact broadcastInDim_apply _ _ _ _ (ix2 o d) (fun a => by
      match a with
      | ⟨0, _⟩ => rfl
      | ⟨1, _⟩ => rfl)

/-- The clipped, shifted coordinate. -/
theorem shifted (A : RArgs Ideal) (o : Fin 4) (q : Fin 65536) (d : Fin 2) :
    r_main_v10 A (ix4 (0 : Fin 1) o q d) = Spec.cq (SA A) o q d := by
  show min (Spec.w32 0x3F7FFFEF#32) (max (Spec.w32 0xBF7FFFEF#32)
    (r_main_v7 A (ix4 (0 : Fin 1) o q d) + r_main_v8 A (ix4 (0 : Fin 1) o q d))) = _
  rw [v7_at, v8_at, v4_at]
  rfl

/-! ## The nearest pixel along each axis -/

/-- The first axis of the clipped coordinate: the slice at offset 0, its unit axis dropped. -/
private theorem v12_at (A : RArgs Ideal) (o : Fin 4) (q : Fin 65536) :
    r_main_v12 A (ix3 (0 : Fin 1) o q) = r_main_v10 A (ix4 (0 : Fin 1) o q (0 : Fin 2)) := by
  refine (shapeCast_apply _ _ _ (ix4 (0 : Fin 1) o q (0 : Fin 1)) ?_).trans ?_
  · rw [Shape.rowMajor_val_four, Shape.rowMajor_val_three]
    show ((0 * 4 + o.val) * 65536 + q.val) * 1 + 0 = (0 * 4 + o.val) * 65536 + q.val
    omega
  · unfold r_main_v11
    exact extractStridedSlice_apply _ _ _ _ (ix4 (0 : Fin 1) o q (0 : Fin 2)) (fun a => by
        match a with
        | ⟨0, _⟩ => rfl
        | ⟨1, _⟩ => exact (Nat.zero_add _).symm
        | ⟨2, _⟩ => exact (Nat.zero_add _).symm
        | ⟨3, _⟩ => rfl)

/-- The second axis of the clipped coordinate: the slice at offset 1, its unit axis dropped. -/
private theorem v27_at (A : RArgs Ideal) (o : Fin 4) (q : Fin 65536) :
    r_main_v27 A (ix3 (0 : Fin 1) o q) = r_main_v10 A (ix4 (0 : Fin 1) o q (1 : Fin 2)) := by
  refine (shapeCast_apply _ _ _ (ix4 (0 : Fin 1) o q (0 : Fin 1)) ?_).trans ?_
  · rw [Shape.rowMajor_val_four, Shape.rowMajor_val_three]
    show ((0 * 4 + o.val) * 65536 + q.val) * 1 + 0 = (0 * 4 + o.val) * 65536 + q.val
    omega
  · unfold r_main_v26
    exact extractStridedSlice_apply _ _ _ _ (ix4 (0 : Fin 1) o q (1 : Fin 2)) (fun a => by
        match a with
        | ⟨0, _⟩ => rfl
        | ⟨1, _⟩ => exact (Nat.zero_add _).symm
        | ⟨2, _⟩ => exact (Nat.zero_add _).symm
        | ⟨3, _⟩ => rfl)

/-- The nearest pixel along the first axis. -/
theorem ni0 (A : RArgs Ideal) (o : Fin 4) (q : Fin 65536) : r_main_v25 A (ix3 (0 : Fin 1) o q) = Spec.ni (SA A) o q 0 := by
  show Spec.clampI (Spec.floorI (Spec.pix (r_main_v12 A (ix3 (0 : Fin 1) o q)) + Spec.w32 0x3F000000#32)) = _
  rw [v12_at, shifted]
  rfl

/-- The nearest pixel along the second axis. -/
theorem ni1 (A : RArgs Ideal) (o : Fin 4) (q : Fin 65536) : r_main_v40 A (ix3 (0 : Fin 1) o q) = Spec.ni (SA A) o q 1 := by
  show Spec.clampI (Spec.floorI (Spec.pix (r_main_v27 A (ix3 (0 : Fin 1) o q)) + Spec.w32 0x3F000000#32)) = _
  rw [v27_at, shifted]
  rfl

/-- The flat pixel number. -/
theorem lin_eq (A : RArgs Ideal) (o : Fin 4) (q : Fin 65536) : r_main_v43 A (ix3 (0 : Fin 1) o q) = Spec.lin (SA A) o q := by
  show IntOp.addi (IntOp.muli (r_main_v25 A (ix3 (0 : Fin 1) o q)) 64#32) (r_main_v40 A (ix3 (0 : Fin 1) o q)) = _
  rw [ni0, ni1]
  rfl

/-! ## The gathered feature rows -/

/-- The flat pixel number is below 4096 … -/
private theorem lin_lt (A : RArgs Ideal) (o : Fin 4) (q : Fin 65536) : (Spec.lin (SA A) o q).toNat < 4096 :=
  (Cert.Math.flat_range (Spec.ni (SA A) o q 0) (Spec.ni (SA A) o q 1) (Cert.Math.clampI_range _) (Cert.Math.clampI_range _)).1

/-- … and non-negative as a signed word. -/
private theorem lin_nonneg (A : RArgs Ideal) (o : Fin 4) (q : Fin 65536) : 0 ≤ (Spec.lin (SA A) o q).toInt :=
  (Cert.Math.flat_range (Spec.ni (SA A) o q 0) (Spec.ni (SA A) o q 1) (Cert.Math.clampI_range _) (Cert.Math.clampI_range _)).2.1

/-- A word below 4096, read signed and clamped into [0, 4095], is its own value. -/
private theorem clamp_row (L : BitVec 32) (h1 : L.toNat < 4096) : min L.toInt.toNat 4095 = L.toNat := by
  have h : L.toInt = (L.toNat : Int) := by
    rw [BitVec.toInt_eq_toNat_cond, if_pos (by omega)]
  rw [h, Int.toNat_natCast]
  exact Nat.min_eq_left (by omega)

/-- A word that is non-negative as a signed number is left as it is by the wrap of negative indices. -/
private theorem wrap_nonneg (L : BitVec 32) (h0 : 0 ≤ L.toInt) :
    Scalar.select (IntOp.cmpi .slt L 0#32) (IntOp.addi L 4096#32) L = L := by
  have hz : (0#32 : BitVec 32).toInt = 0 := by decide
  have hs : L.slt 0#32 = false := by
    simp only [BitVec.slt, decide_eq_false_iff_not]
    omega
  show (if BitVec.ofBool (L.slt 0#32) = 1 then IntOp.addi L 4096#32 else L) = L
  rw [hs]
  exact if_neg (by decide)

/-- The two lookups' dimension numbers. -/
abbrev G256 := gather_S1x4096x256_S1x262144x1_S1x262144x256_2_1_0_0_1_2_11256
abbrev G128 := gather_S1x4096x128_S1x262144x1_S1x262144x128_2_1_0_0_1_2_11128

/-- The batched row lookup of the 256-channel table read at (0, r, c): the table at (0, n, c), n the start word of row r
    read signed and clamped into the table's 4096 rows (axis 0 is the batch axis, axis 1 is collapsed and started by the
    index, axis 2 is the offset axis). -/
private theorem gather256_at {α : Type} (x : S1x4096x256.Idx → α) (idx : IVec S1x262144x1 32) (r : Fin 262144) (c : Fin 256)
    (n : Fin 4096) (hn : n.val = min (idx (ix3 (0 : Fin 1) r (0 : Fin 1))).toInt.toNat 4095) :
    Host.gather G256 x idx (ix3 (0 : Fin 1) r c) = x (ix3 (0 : Fin 1) n c) := by
  unfold Host.gather
  congr 1
  funext a
  apply Fin.ext
  match a with
  | ⟨0, _⟩ =>
    simp [GatherDims.operandIdx, GatherDims.start, GatherDims.offCoord, GatherDims.batchCoord, G256,
      gather_S1x4096x256_S1x262144x1_S1x262144x256_2_1_0_0_1_2_11256, GatherDims.sKept, Shape.kept]
  | ⟨1, _⟩ =>
    simp [GatherDims.operandIdx, GatherDims.start, GatherDims.offCoord, GatherDims.batchCoord, G256,
      gather_S1x4096x256_S1x262144x1_S1x262144x256_2_1_0_0_1_2_11256, GatherDims.sKept, Shape.kept]
    have hsi : G256.siIdx (ix3 (0 : Fin 1) r c) ⟨0, by decide⟩ = ix3 (0 : Fin 1) r (0 : Fin 1) := by
      funext b
      refine Fin.ext ?_
      match b with
      | ⟨0, _⟩ => rfl
      | ⟨1, _⟩ => rfl
      | ⟨2, _⟩ => rfl
    show min (idx (G256.siIdx (ix3 (0 : Fin 1) r c) ⟨0, by decide⟩)).toInt.toNat 4095 = n.val
    rw [hsi]
    exact hn.symm
  | ⟨2, _⟩ =>
    simp [GatherDims.operandIdx, GatherDims.start, GatherDims.offCoord, GatherDims.batchCoord, G256,
      gather_S1x4096x256_S1x262144x1_S1x262144x256_2_1_0_0_1_2_11256, GatherDims.sKept, Shape.kept]
    rfl

/-- The batched row lookup of the 128-channel table read at (0, r, c): the table at (0, n, c), n the start word of row r
    read signed and clamped into the table's 4096 rows (axis 0 is the batch axis, axis 1 is collapsed and started by the
    index, axis 2 is the offset axis). -/
private theorem gather128_at {α : Type} (x : S1x4096x128.Idx → α) (idx : IVec S1x262144x1 32) (r : Fin 262144) (c : Fin 128)
    (n : Fin 4096) (hn : n.val = min (idx (ix3 (0 : Fin 1) r (0 : Fin 1))).toInt.toNat 4095) :
    Host.gather G128 x idx (ix3 (0 : Fin 1) r c) = x (ix3 (0 : Fin 1) n c) := by
  unfold Host.gather
  congr 1
  funext a
  apply Fin.ext
  match a with
  | ⟨0, _⟩ =>
    simp [GatherDims.operandIdx, GatherDims.start, GatherDims.offCoord, GatherDims.batchCoord, G128,
      gather_S1x4096x128_S1x262144x1_S1x262144x128_2_1_0_0_1_2_11128, GatherDims.sKept, Shape.kept]
  | ⟨1, _⟩ =>
    simp [GatherDims.operandIdx, GatherDims.start, GatherDims.offCoord, GatherDims.batchCoord, G128,
      gather_S1x4096x128_S1x262144x1_S1x262144x128_2_1_0_0_1_2_11128, GatherDims.sKept, Shape.kept]
    have hsi : G128.siIdx (ix3 (0 : Fin 1) r c) ⟨0, by decide⟩ = ix3 (0 : Fin 1) r (0 : Fin 1) := by
      funext b
      refine Fin.ext ?_
      match b with
      | ⟨0, _⟩ => rfl
      | ⟨1, _⟩ => rfl
      | ⟨2, _⟩ => rfl
    show min (idx (G128.siIdx (ix3 (0 : Fin 1) r c) ⟨0, by decide⟩)).toInt.toNat 4095 = n.val
    rw [hsi]
    exact hn.symm
  | ⟨2, _⟩ =>
    simp [GatherDims.operandIdx, GatherDims.start, GatherDims.offCoord, GatherDims.batchCoord, G128,
      gather_S1x4096x128_S1x262144x1_S1x262144x128_2_1_0_0_1_2_11128, GatherDims.sKept, Shape.kept]
    rfl

/-- The 256-channel table with its two spatial axes flattened and the channel axis last, read at (0, n, c). -/
private theorem v45_at (A : RArgs Ideal) (n : Fin 4096) (c : Fin 256) :
    r_main_v45 A (ix3 (0 : Fin 1) n c)
      = A.a1 (ix4 (0 : Fin 1) c (⟨n.val / 64, by omega⟩ : Fin 64) (⟨n.val % 64, by omega⟩ : Fin 64)) := by
  unfold r_main_v45
  refine (transpose_ix3_021_apply _ _ (0 : Fin 1) n c).trans ?_
  exact shapeCast_apply _ _ _ _ (by
    rw [Shape.rowMajor_val_four, Shape.rowMajor_val_three]
    show ((0 * 256 + c.val) * 64 + n.val / 64) * 64 + n.val % 64 = (0 * 256 + c.val) * 4096 + n.val
    omega)

/-- The flat list of pixel numbers at row 65536 o + q is the flat pixel number of (o, q). -/
private theorem v46_at (A : RArgs Ideal) (o : Fin 4) (q : Fin 65536) (r : Fin 262144) (hr : r.val = 65536 * o.val + q.val) :
    r_main_v46 A (ix2 (0 : Fin 1) r) = r_main_v43 A (ix3 (0 : Fin 1) o q) :=
  shapeCast_apply _ _ _ _ (by
    rw [Shape.rowMajor_val_three, Shape.rowMajor_val_two]
    show (0 * 4 + o.val) * 65536 + q.val = 0 * 262144 + r.val
    omega)

/-- The wrap of negative indices leaves the flat pixel number as it is: it is non-negative. -/
private theorem v51_at (A : RArgs Ideal) (o : Fin 4) (q : Fin 65536) (r : Fin 262144) (hr : r.val = 65536 * o.val + q.val) :
    r_main_v51 A (ix2 (0 : Fin 1) r) = Spec.lin (SA A) o q := by
  show Scalar.select (IntOp.cmpi .slt (r_main_v46 A (ix2 (0 : Fin 1) r)) 0#32)
    (IntOp.addi (r_main_v46 A (ix2 (0 : Fin 1) r)) 4096#32) (r_main_v46 A (ix2 (0 : Fin 1) r)) = _
  rw [v46_at A o q r hr, lin_eq]
  exact wrap_nonneg _ (lin_nonneg A o q)

/-- The index list with a unit index-vector axis added. -/
private theorem v52_at (A : RArgs Ideal) (r : Fin 262144) :
    r_main_v52 A (ix3 (0 : Fin 1) r (0 : Fin 1)) = r_main_v51 A (ix2 (0 : Fin 1) r) :=
  broadcastInDim_apply _ _ _ _ _ (fun a => by
    match a with
    | ⟨0, _⟩ => rfl
    | ⟨1, _⟩ => rfl)

/-- The looked-up rows at row 65536 o + q: the table's row of the flat pixel number of (o, q). -/
private theorem v53_at (A : RArgs Ideal) (o : Fin 4) (q : Fin 65536) (c : Fin 256) (r : Fin 262144)
    (hr : r.val = 65536 * o.val + q.val) :
    r_main_v53 A (ix3 (0 : Fin 1) r c) = (SA A).coef c (Spec.row (Spec.lin (SA A) o q)) := by
  unfold r_main_v53
  refine (gather256_at _ _ r c (Spec.row (Spec.lin (SA A) o q)) ?_).trans (v45_at A _ c)
  show (Spec.lin (SA A) o q).toNat % 4096 = _
  rw [v52_at, v51_at A o q r hr, clamp_row _ (lin_lt A o q)]
  exact Nat.mod_eq_of_lt (lin_lt A o q)

/-- The gathered coefficient row: the gather's index is in range, so it reads the table's row. -/
theorem coef_g (A : RArgs Ideal) (o : Fin 4) (q : Fin 65536) (c : Fin 256) :
    r_main_v54 A (ix4 (0 : Fin 1) o q c) = (SA A).coef c (Spec.row (Spec.lin (SA A) o q)) := by
  refine (shapeCast_apply _ _ _ (ix3 (0 : Fin 1) (⟨65536 * o.val + q.val, by omega⟩ : Fin 262144) c) ?_).trans
    (v53_at A o q c _ rfl)
  rw [Shape.rowMajor_val_three, Shape.rowMajor_val_four]
  show (0 * 262144 + (65536 * o.val + q.val)) * 256 + c.val = ((0 * 4 + o.val) * 65536 + q.val) * 256 + c.val
  omega

/-- The 128-channel table with its two spatial axes flattened and the channel axis last, read at (0, n, c). -/
private theorem v56_at (A : RArgs Ideal) (n : Fin 4096) (c : Fin 128) :
    r_main_v56 A (ix3 (0 : Fin 1) n c)
      = A.a2 (ix4 (0 : Fin 1) c (⟨n.val / 64, by omega⟩ : Fin 64) (⟨n.val % 64, by omega⟩ : Fin 64)) := by
  unfold r_main_v56
  refine (transpose_ix3_021_apply _ _ (0 : Fin 1) n c).trans ?_
  exact shapeCast_apply _ _ _ _ (by
    rw [Shape.rowMajor_val_four, Shape.rowMajor_val_three]
    show ((0 * 128 + c.val) * 64 + n.val / 64) * 64 + n.val % 64 = (0 * 128 + c.val) * 4096 + n.val
    omega)

/-- The flat list of pixel numbers at row 65536 o + q is the flat pixel number of (o, q). -/
private theorem v57_at (A : RArgs Ideal) (o : Fin 4) (q : Fin 65536) (r : Fin 262144) (hr : r.val = 65536 * o.val + q.val) :
    r_main_v57 A (ix2 (0 : Fin 1) r) = r_main_v43 A (ix3 (0 : Fin 1) o q) :=
  shapeCast_apply _ _ _ _ (by
    rw [Shape.rowMajor_val_three, Shape.rowMajor_val_two]
    show (0 * 4 + o.val) * 65536 + q.val = 0 * 262144 + r.val
    omega)

/-- The wrap of negative indices leaves the flat pixel number as it is: it is non-negative. -/
private theorem v62_at (A : RArgs Ideal) (o : Fin 4) (q : Fin 65536) (r : Fin 262144) (hr : r.val = 65536 * o.val + q.val) :
    r_main_v62 A (ix2 (0 : Fin 1) r) = Spec.lin (SA A) o q := by
  show Scalar.select (IntOp.cmpi .slt (r_main_v57 A (ix2 (0 : Fin 1) r)) 0#32)
    (IntOp.addi (r_main_v57 A (ix2 (0 : Fin 1) r)) 4096#32) (r_main_v57 A (ix2 (0 : Fin 1) r)) = _
  rw [v57_at A o q r hr, lin_eq]
  exact wrap_nonneg _ (lin_nonneg A o q)

/-- The index list with a unit index-vector axis added. -/
private theorem v63_at (A : RArgs Ideal) (r : Fin 262144) :
    r_main_v63 A (ix3 (0 : Fin 1) r (0 : Fin 1)) = r_main_v62 A (ix2 (0 : Fin 1) r) :=
  broadcastInDim_apply _ _ _ _ _ (fun a => by
    match a with
    | ⟨0, _⟩ => rfl
    | ⟨1, _⟩ => rfl)

/-- The looked-up rows at row 65536 o + q: the table's row of the flat pixel number of (o, q). -/
private theorem v64_at (A : RArgs Ideal) (o : Fin 4) (q : Fin 65536) (c : Fin 128) (r : Fin 262144)
    (hr : r.val = 65536 * o.val + q.val) :
    r_main_v64 A (ix3 (0 : Fin 1) r c) = (SA A).freq c (Spec.row (Spec.lin (SA A) o q)) := by
  unfold r_main_v64
  refine (gather128_at _ _ r c (Spec.row (Spec.lin (SA A) o q)) ?_).trans (v56_at A _ c)
  show (Spec.lin (SA A) o q).toNat % 4096 = _
  rw [v63_at, v62_at A o q r hr, clamp_row _ (lin_lt A o q)]
  exact Nat.mod_eq_of_lt (lin_lt A o q)

/-- The gathered frequency row. -/
theorem freq_g (A : RArgs Ideal) (o : Fin 4) (q : Fin 65536) (k : Fin 128) :
    r_main_v65 A (ix4 (0 : Fin 1) o q k) = (SA A).freq k (Spec.row (Spec.lin (SA A) o q)) := by
  refine (shapeCast_apply _ _ _ (ix3 (0 : Fin 1) (⟨65536 * o.val + q.val, by omega⟩ : Fin 262144) k) ?_).trans
    (v64_at A o q k _ rfl)
  rw [Shape.rowMajor_val_three, Shape.rowMajor_val_four]
  show (0 * 262144 + (65536 * o.val + q.val)) * 128 + k.val = ((0 * 4 + o.val) * 65536 + q.val) * 128 + k.val
  omega

end Cert.ReferenceIdeal.RV

end
-- ==== Proof.RB.lean ====
/-
  The reference's middle stretch read at an index: the offsets from the pixel's centre, the modulated Fourier
  features, and the three layers of the perceptron (each host contraction a plain sum).
-/
import proofs.«148257_j30657476559104_1_alg».proof.Proof.RA
import Idealize.ShloMosaic.Lib.ValueIdx
import Idealize.ShloMosaic.Lib.Pipeline.Value
import Idealize.ShloMosaic.PureOps.Ideal.Laws

noncomputable section

namespace Cert.ReferenceIdeal.RV

open Idealize.ShloMosaic Idealize.ShloMosaic.ValueIdx Cert.ReferenceIdeal Cert.ReferenceIdeal.RDefs

/-! ## The coordinate's components broadcast over the four offsets -/

/-- The coordinate's first component, copied to every offset. -/
private theorem v87_apply (A : RArgs Ideal) (o : Fin 4) (q : Fin 65536) :
    r_main_v87 A (ix3 (0 : Fin 1) o q) = A.a3 (ix3 (0 : Fin 1) q (0 : Fin 2)) := by
  unfold r_main_v87 r_main_v86 r_main_v85 r_main_v84 r_main_arg3
  refine (broadcastInDim_apply _ _ _ (ix3 (0 : Fin 1) o q) (ix3 (0 : Fin 1) (0 : Fin 1) q) ?_).trans ?_
  · intro a
    match a with
    | ⟨0, _⟩ => rfl
    | ⟨1, _⟩ => rfl
    | ⟨2, _⟩ => rfl
  refine (broadcastInDim_apply _ _ _ (ix3 (0 : Fin 1) (0 : Fin 1) q) (ix2 (0 : Fin 1) q) ?_).trans ?_
  · intro a
    match a with
    | ⟨0, _⟩ => rfl
    | ⟨1, _⟩ => rfl
  refine (shapeCast_apply _ _ (ix2 (0 : Fin 1) q) (ix3 (0 : Fin 1) q (0 : Fin 1)) ?_).trans ?_
  · rw [Shape.rowMajor_val_three, Shape.rowMajor_val_two]
    show (0 * 65536 + q.val) * 1 + 0 = 0 * 65536 + q.val
    omega
  refine extractStridedSlice_apply _ _ _ _ (ix3 (0 : Fin 1) q (0 : Fin 2)) ?_
  intro a
  match a with
  | ⟨0, _⟩ => rfl
  | ⟨1, _⟩ => show q.val = 0 + q.val; omega
  | ⟨2, _⟩ => rfl

/-- The coordinate's second component, copied to every offset. -/
private theorem v94_apply (A : RArgs Ideal) (o : Fin 4) (q : Fin 65536) :
    r_main_v94 A (ix3 (0 : Fin 1) o q) = A.a3 (ix3 (0 : Fin 1) q (1 : Fin 2)) := by
  unfold r_main_v94 r_main_v93 r_main_v92 r_main_v91 r_main_arg3
  refine (broadcastInDim_apply _ _ _ (ix3 (0 : Fin 1) o q) (ix3 (0 : Fin 1) (0 : Fin 1) q) ?_).trans ?_
  · intro a
    match a with
    | ⟨0, _⟩ => rfl
    | ⟨1, _⟩ => rfl
    | ⟨2, _⟩ => rfl
  refine (broadcastInDim_apply _ _ _ (ix3 (0 : Fin 1) (0 : Fin 1) q) (ix2 (0 : Fin 1) q) ?_).trans ?_
  · intro a
    match a with
    | ⟨0, _⟩ => rfl
    | ⟨1, _⟩ => rfl
  refine (shapeCast_apply _ _ (ix2 (0 : Fin 1) q) (ix3 (0 : Fin 1) q (0 : Fin 1)) ?_).trans ?_
  · rw [Shape.rowMajor_val_three, Shape.rowMajor_val_two]
    show (0 * 65536 + q.val) * 1 + 0 = 0 * 65536 + q.val
    omega
  refine extractStridedSlice_apply _ _ _ _ (ix3 (0 : Fin 1) q (1 : Fin 2)) ?_
  intro a
  match a with
  | ⟨0, _⟩ => rfl
  | ⟨1, _⟩ => show q.val = 0 + q.val; omega
  | ⟨2, _⟩ => rfl

/-! ## The offsets from the pixel's centre -/

/-- The centre of the nearest pixel along the first axis. -/
private theorem v74_apply (A : RArgs Ideal) (o : Fin 4) (q : Fin 65536) :
    r_main_v74 A (ix3 (0 : Fin 1) o q) = Spec.pcen (Spec.ni (SA A) o q 0) := by
  show Spec.w32 0xBF800000#32 + Ideal.div (Spec.w32 0x40000000#32 * Spec.ofI (r_main_v25 A (ix3 (0 : Fin 1) o q)) + Spec.w32 0x3F800000#32)
    (Spec.w32 0x42800000#32) = _
  rw [ni0]
  rfl

/-- The centre of the nearest pixel along the second axis. -/
private theorem v83_apply (A : RArgs Ideal) (o : Fin 4) (q : Fin 65536) :
    r_main_v83 A (ix3 (0 : Fin 1) o q) = Spec.pcen (Spec.ni (SA A) o q 1) := by
  show Spec.w32 0xBF800000#32 + Ideal.div (Spec.w32 0x40000000#32 * Spec.ofI (r_main_v40 A (ix3 (0 : Fin 1) o q)) + Spec.w32 0x3F800000#32)
    (Spec.w32 0x42800000#32) = _
  rw [ni1]
  rfl

/-- The offset from the nearest pixel's centre along the first axis. -/
theorem rel0 (A : RArgs Ideal) (o : Fin 4) (q : Fin 65536) : r_main_v90 A (ix3 (0 : Fin 1) o q) = Spec.rel (SA A) o q 0 := by
  show (r_main_v87 A (ix3 (0 : Fin 1) o q) - r_main_v74 A (ix3 (0 : Fin 1) o q)) * Spec.w32 0x42800000#32 = _
  rw [v87_apply, v74_apply]
  rfl

/-- The offset along the second axis. -/
theorem rel1 (A : RArgs Ideal) (o : Fin 4) (q : Fin 65536) : r_main_v97 A (ix3 (0 : Fin 1) o q) = Spec.rel (SA A) o q 1 := by
  show (r_main_v94 A (ix3 (0 : Fin 1) o q) - r_main_v83 A (ix3 (0 : Fin 1) o q)) * Spec.w32 0x42800000#32 = _
  rw [v94_apply, v83_apply]
  rfl

/-! ## The host contractions as plain sums -/

/-- A hidden layer's contraction: the sum over the 256 input channels of input times weight. -/
private theorem dot_hidden (l : FVec Ideal S1x4x65536x256 .f32) (r : FVec Ideal S256x256 .f32) (o : Fin 4) (q : Fin 65536) (j : Fin 256) :
    Host.dotGeneral dot_S1x4x65536x256_S256x256_S1x4x65536x256_3_1_012_0_n_n none l r (ix4 (0 : Fin 1) o q j)
      = ∑ c : Fin 256, l (ix4 (0 : Fin 1) o q c) * r (ix2 j c) := by
  show FloatOps.dotGeneral _ none _ l r (ix4 (0 : Fin 1) o q j) = _
  rw [Ideal.dotGeneral_apply, ← Equiv.sum_comp (contrEquiv1 dot_S1x4x65536x256_S256x256_S1x4x65536x256_3_1_012_0_n_n 256 rfl rfl).symm]
  refine Finset.sum_congr rfl fun c _ => ?_
  have hc := contrEquiv1_symm_val dot_S1x4x65536x256_S256x256_S1x4x65536x256_3_1_012_0_n_n 256 rfl rfl c
  have hl : dot_S1x4x65536x256_S256x256_S1x4x65536x256_3_1_012_0_n_n.lhsIdx (ix4 (0 : Fin 1) o q j) ((contrEquiv1 _ 256 rfl rfl).symm c) = ix4 (0 : Fin 1) o q c := by
    funext ax; apply Fin.ext
    match ax with
    | ⟨0, _⟩ => simp [DotDims.lhsIdx, dot_S1x4x65536x256_S256x256_S1x4x65536x256_3_1_012_0_n_n]
    | ⟨1, _⟩ => simp [DotDims.lhsIdx, dot_S1x4x65536x256_S256x256_S1x4x65536x256_3_1_012_0_n_n]; rfl
    | ⟨2, _⟩ => simp [DotDims.lhsIdx, dot_S1x4x65536x256_S256x256_S1x4x65536x256_3_1_012_0_n_n]; rfl
    | ⟨3, _⟩ => simp [DotDims.lhsIdx, dot_S1x4x65536x256_S256x256_S1x4x65536x256_3_1_012_0_n_n]; exact hc
  have hr : dot_S1x4x65536x256_S256x256_S1x4x65536x256_3_1_012_0_n_n.rhsIdx (ix4 (0 : Fin 1) o q j) ((contrEquiv1 _ 256 rfl rfl).symm c) = ix2 j c := by
    funext ax; apply Fin.ext
    match ax with
    | ⟨0, _⟩ => simp [DotDims.rhsIdx, dot_S1x4x65536x256_S256x256_S1x4x65536x256_3_1_012_0_n_n]; rfl
    | ⟨1, _⟩ => simp [DotDims.rhsIdx, dot_S1x4x65536x256_S256x256_S1x4x65536x256_3_1_012_0_n_n]; exact hc
  rw [hl, hr]

/-- The output layer's contraction: the sum over the 256 hidden channels of input times weight. -/
private theorem dot_out (l : FVec Ideal S1x4x65536x256 .f32) (r : FVec Ideal S3x256 .f32) (o : Fin 4) (q : Fin 65536) (j : Fin 3) :
    Host.dotGeneral dot_S1x4x65536x256_S3x256_S1x4x65536x3_3_1_012_0_n_n none l r (ix4 (0 : Fin 1) o q j)
      = ∑ c : Fin 256, l (ix4 (0 : Fin 1) o q c) * r (ix2 j c) := by
  show FloatOps.dotGeneral _ none _ l r (ix4 (0 : Fin 1) o q j) = _
  rw [Ideal.dotGeneral_apply, ← Equiv.sum_comp (contrEquiv1 dot_S1x4x65536x256_S3x256_S1x4x65536x3_3_1_012_0_n_n 256 rfl rfl).symm]
  refine Finset.sum_congr rfl fun c _ => ?_
  have hc := contrEquiv1_symm_val dot_S1x4x65536x256_S3x256_S1x4x65536x3_3_1_012_0_n_n 256 rfl rfl c
  have hl : dot_S1x4x65536x256_S3x256_S1x4x65536x3_3_1_012_0_n_n.lhsIdx (ix4 (0 : Fin 1) o q j) ((contrEquiv1 _ 256 rfl rfl).symm c) = ix4 (0 : Fin 1) o q c := by
    funext ax; apply Fin.ext
    match ax with
    | ⟨0, _⟩ => simp [DotDims.lhsIdx, dot_S1x4x65536x256_S3x256_S1x4x65536x3_3_1_012_0_n_n]
    | ⟨1, _⟩ => simp [DotDims.lhsIdx, dot_S1x4x65536x256_S3x256_S1x4x65536x3_3_1_012_0_n_n]; rfl
    | ⟨2, _⟩ => simp [DotDims.lhsIdx, dot_S1x4x65536x256_S3x256_S1x4x65536x3_3_1_012_0_n_n]; rfl
    | ⟨3, _⟩ => simp [DotDims.lhsIdx, dot_S1x4x65536x256_S3x256_S1x4x65536x3_3_1_012_0_n_n]; exact hc
  have hr : dot_S1x4x65536x256_S3x256_S1x4x65536x3_3_1_012_0_n_n.rhsIdx (ix4 (0 : Fin 1) o q j) ((contrEquiv1 _ 256 rfl rfl).symm c) = ix2 j c := by
    funext ax; apply Fin.ext
    match ax with
    | ⟨0, _⟩ => simp [DotDims.rhsIdx, dot_S1x4x65536x256_S3x256_S1x4x65536x3_3_1_012_0_n_n]; rfl
    | ⟨1, _⟩ => simp [DotDims.rhsIdx, dot_S1x4x65536x256_S3x256_S1x4x65536x3_3_1_012_0_n_n]; exact hc
  rw [hl, hr]

/-- The frequency channels' linear form of the two offsets. -/
private theorem dot_cfc (l : FVec Ideal S1x4x65536x2 .f32) (r : FVec Ideal S128x2 .f32) (o : Fin 4) (q : Fin 65536) (j : Fin 128) :
    Host.dotGeneral dot_S1x4x65536x2_S128x2_S1x4x65536x128_3_1_012_0_n_n none l r (ix4 (0 : Fin 1) o q j)
      = ∑ c : Fin 2, l (ix4 (0 : Fin 1) o q c) * r (ix2 j c) := by
  show FloatOps.dotGeneral _ none _ l r (ix4 (0 : Fin 1) o q j) = _
  rw [Ideal.dotGeneral_apply, ← Equiv.sum_comp (contrEquiv1 dot_S1x4x65536x2_S128x2_S1x4x65536x128_3_1_012_0_n_n 2 rfl rfl).symm]
  refine Finset.sum_congr rfl fun c _ => ?_
  have hc := contrEquiv1_symm_val dot_S1x4x65536x2_S128x2_S1x4x65536x128_3_1_012_0_n_n 2 rfl rfl c
  have hl : dot_S1x4x65536x2_S128x2_S1x4x65536x128_3_1_012_0_n_n.lhsIdx (ix4 (0 : Fin 1) o q j) ((contrEquiv1 _ 2 rfl rfl).symm c) = ix4 (0 : Fin 1) o q c := by
    funext ax; apply Fin.ext
    match ax with
    | ⟨0, _⟩ => simp [DotDims.lhsIdx, dot_S1x4x65536x2_S128x2_S1x4x65536x128_3_1_012_0_n_n]
    | ⟨1, _⟩ => simp [DotDims.lhsIdx, dot_S1x4x65536x2_S128x2_S1x4x65536x128_3_1_012_0_n_n]; rfl
    | ⟨2, _⟩ => simp [DotDims.lhsIdx, dot_S1x4x65536x2_S128x2_S1x4x65536x128_3_1_012_0_n_n]; rfl
    | ⟨3, _⟩ => simp [DotDims.lhsIdx, dot_S1x4x65536x2_S128x2_S1x4x65536x128_3_1_012_0_n_n]; exact hc
  have hr : dot_S1x4x65536x2_S128x2_S1x4x65536x128_3_1_012_0_n_n.rhsIdx (ix4 (0 : Fin 1) o q j) ((contrEquiv1 _ 2 rfl rfl).symm c) = ix2 j c := by
    funext ax; apply Fin.ext
    match ax with
    | ⟨0, _⟩ => simp [DotDims.rhsIdx, dot_S1x4x65536x2_S128x2_S1x4x65536x128_3_1_012_0_n_n]; rfl
    | ⟨1, _⟩ => simp [DotDims.rhsIdx, dot_S1x4x65536x2_S128x2_S1x4x65536x128_3_1_012_0_n_n]; exact hc
  rw [hl, hr]

/-- The phase channels' linear form of the two cell sizes. -/
private theorem dot_php (l : FVec Ideal S1x65536x2 .f32) (r : FVec Ideal S128x2 .f32) (q : Fin 65536) (j : Fin 128) :
    Host.dotGeneral dot_S1x65536x2_S128x2_S1x65536x128_2_1_01_0_n_n none l r (ix3 (0 : Fin 1) q j)
      = ∑ c : Fin 2, l (ix3 (0 : Fin 1) q c) * r (ix2 j c) := by
  show FloatOps.dotGeneral _ none _ l r (ix3 (0 : Fin 1) q j) = _
  rw [Ideal.dotGeneral_apply, ← Equiv.sum_comp (contrEquiv1 dot_S1x65536x2_S128x2_S1x65536x128_2_1_01_0_n_n 2 rfl rfl).symm]
  refine Finset.sum_congr rfl fun c _ => ?_
  have hc := contrEquiv1_symm_val dot_S1x65536x2_S128x2_S1x65536x128_2_1_01_0_n_n 2 rfl rfl c
  have hl : dot_S1x65536x2_S128x2_S1x65536x128_2_1_01_0_n_n.lhsIdx (ix3 (0 : Fin 1) q j) ((contrEquiv1 _ 2 rfl rfl).symm c) = ix3 (0 : Fin 1) q c := by
    funext ax; apply Fin.ext
    match ax with
    | ⟨0, _⟩ => simp [DotDims.lhsIdx, dot_S1x65536x2_S128x2_S1x65536x128_2_1_01_0_n_n]
    | ⟨1, _⟩ => simp [DotDims.lhsIdx, dot_S1x65536x2_S128x2_S1x65536x128_2_1_01_0_n_n]; rfl
    | ⟨2, _⟩ => simp [DotDims.lhsIdx, dot_S1x65536x2_S128x2_S1x65536x128_2_1_01_0_n_n]; exact hc
  have hr : dot_S1x65536x2_S128x2_S1x65536x128_2_1_01_0_n_n.rhsIdx (ix3 (0 : Fin 1) q j) ((contrEquiv1 _ 2 rfl rfl).symm c) = ix2 j c := by
    funext ax; apply Fin.ext
    match ax with
    | ⟨0, _⟩ => simp [DotDims.rhsIdx, dot_S1x65536x2_S128x2_S1x65536x128_2_1_01_0_n_n]; rfl
    | ⟨1, _⟩ => simp [DotDims.rhsIdx, dot_S1x65536x2_S128x2_S1x65536x128_2_1_01_0_n_n]; exact hc
  rw [hl, hr]

/-! ## The modulated frequencies -/

/-- The two offsets side by side: the first column. -/
private theorem v100_apply0 (A : RArgs Ideal) (o : Fin 4) (q : Fin 65536) :
    r_main_v100 A (ix4 (0 : Fin 1) o q (0 : Fin 2)) = Spec.rel (SA A) o q 0 := by
  unfold r_main_v100
  refine (concatenate_pair_apply_left (t := S1x4x65536x2) (s₁ := S1x4x65536x1) (s₂ := S1x4x65536x1) _ _ _ _ (ix4 (0 : Fin 1) o q (0 : Fin 2)) rfl (ix4 (0 : Fin 1) o q (0 : Fin 1)) ?_).trans ?_
  · intro b
    match b with
    | ⟨0, _⟩ => rfl
    | ⟨1, _⟩ => rfl
    | ⟨2, _⟩ => rfl
    | ⟨3, _⟩ => rfl
  unfold r_main_v98
  refine (broadcastInDim_apply _ _ _ (ix4 (0 : Fin 1) o q (0 : Fin 1)) (ix3 (0 : Fin 1) o q) ?_).trans (rel0 A o q)
  intro a
  match a with
  | ⟨0, _⟩ => rfl
  | ⟨1, _⟩ => rfl
  | ⟨2, _⟩ => rfl

/-- The two offsets side by side: the second column. -/
private theorem v100_apply1 (A : RArgs Ideal) (o : Fin 4) (q : Fin 65536) :
    r_main_v100 A (ix4 (0 : Fin 1) o q (1 : Fin 2)) = Spec.rel (SA A) o q 1 := by
  unfold r_main_v100
  refine (concatenate_pair_apply_right (t := S1x4x65536x2) (s₁ := S1x4x65536x1) (s₂ := S1x4x65536x1) _ _ _ _ (ix4 (0 : Fin 1) o q (1 : Fin 2)) rfl rfl (ix4 (0 : Fin 1) o q (0 : Fin 1)) ?_ ?_).trans ?_
  · intro b hb
    match b with
    | ⟨0, _⟩ => rfl
    | ⟨1, _⟩ => rfl
    | ⟨2, _⟩ => rfl
    | ⟨3, _⟩ => exact absurd rfl hb
  · rfl
  unfold r_main_v99
  refine (broadcastInDim_apply _ _ _ (ix4 (0 : Fin 1) o q (0 : Fin 1)) (ix3 (0 : Fin 1) o q) ?_).trans (rel1 A o q)
  intro a
  match a with
  | ⟨0, _⟩ => rfl
  | ⟨1, _⟩ => rfl
  | ⟨2, _⟩ => rfl

/-- Frequency channel k's linear form of the two offsets. -/
private theorem v104_apply (A : RArgs Ideal) (o : Fin 4) (q : Fin 65536) (k : Fin 128) :
    r_main_v104 A (ix4 (0 : Fin 1) o q k) = Spec.cfc (SA A) o q k := by
  show Host.dotGeneral dot_S1x4x65536x2_S128x2_S1x4x65536x128_3_1_012_0_n_n none (r_main_v100 A) A.a5 (ix4 (0 : Fin 1) o q k) = _
  rw [dot_cfc, Fin.sum_univ_two, v100_apply0, v100_apply1, mul_comm, mul_comm (Spec.rel (SA A) o q 1)]
  rfl

/-- The cell size in pixels. -/
private theorem v103_apply (A : RArgs Ideal) (q : Fin 65536) (d : Fin 2) :
    r_main_v103 A (ix3 (0 : Fin 1) q d) = A.a4 (ix3 (0 : Fin 1) q d) * Spec.w32 0x42800000#32 := rfl

/-- Phase channel k's linear form of the cell size. -/
private theorem v106_apply (A : RArgs Ideal) (q : Fin 65536) (k : Fin 128) :
    r_main_v106 A (ix3 (0 : Fin 1) q k) = Spec.php (SA A) q k := by
  show Host.dotGeneral dot_S1x65536x2_S128x2_S1x65536x128_2_1_01_0_n_n none (r_main_v103 A) A.a6 (ix3 (0 : Fin 1) q k) = _
  rw [dot_php, Fin.sum_univ_two, mul_comm (r_main_v103 A _), mul_comm (r_main_v103 A _)]
  rfl

/-- The phase copied to every offset. -/
private theorem v108_apply (A : RArgs Ideal) (o : Fin 4) (q : Fin 65536) (k : Fin 128) :
    r_main_v108 A (ix4 (0 : Fin 1) o q k) = Spec.php (SA A) q k := by
  unfold r_main_v108 r_main_v107
  refine (broadcastInDim_apply _ _ _ (ix4 (0 : Fin 1) o q k) (ix4 (0 : Fin 1) (0 : Fin 1) q k) ?_).trans ?_
  · intro a
    match a with
    | ⟨0, _⟩ => rfl
    | ⟨1, _⟩ => rfl
    | ⟨2, _⟩ => rfl
    | ⟨3, _⟩ => rfl
  refine (broadcastInDim_apply _ _ _ (ix4 (0 : Fin 1) (0 : Fin 1) q k) (ix3 (0 : Fin 1) q k) ?_).trans (v106_apply A q k)
  intro a
  match a with
  | ⟨0, _⟩ => rfl
  | ⟨1, _⟩ => rfl
  | ⟨2, _⟩ => rfl

/-- The modulated frequency of channel k. -/
private theorem v109_apply (A : RArgs Ideal) (o : Fin 4) (q : Fin 65536) (k : Fin 128) :
    r_main_v109 A (ix4 (0 : Fin 1) o q k) = Spec.zf (SA A) o q k := by
  show r_main_v65 A (ix4 (0 : Fin 1) o q k) * r_main_v104 A (ix4 (0 : Fin 1) o q k) + r_main_v108 A (ix4 (0 : Fin 1) o q k) = _
  rw [freq_g, v104_apply, v108_apply]
  rfl

/-! ## The Fourier features and the perceptron's input -/

/-- The cosine half. -/
private theorem v112_apply (A : RArgs Ideal) (o : Fin 4) (q : Fin 65536) (k : Fin 128) :
    r_main_v112 A (ix4 (0 : Fin 1) o q k) = Ideal.cos (Spec.w32 0x40490FDB#32 * Spec.zf (SA A) o q k) := by
  show Ideal.cos (Spec.w32 0x40490FDB#32 * r_main_v109 A (ix4 (0 : Fin 1) o q k)) = _
  rw [v109_apply]

/-- The sine half. -/
private theorem v115_apply (A : RArgs Ideal) (o : Fin 4) (q : Fin 65536) (k : Fin 128) :
    r_main_v115 A (ix4 (0 : Fin 1) o q k) = Ideal.sin (Spec.w32 0x40490FDB#32 * Spec.zf (SA A) o q k) := by
  show Ideal.sin (Spec.w32 0x40490FDB#32 * r_main_v109 A (ix4 (0 : Fin 1) o q k)) = _
  rw [v109_apply]

/-- The 256 features: the cosines, then the sines. -/
private theorem v116_apply (A : RArgs Ideal) (o : Fin 4) (q : Fin 65536) (c : Fin 256) :
    r_main_v116 A (ix4 (0 : Fin 1) o q c) = Spec.feat (SA A) o q c := by
  unfold r_main_v116 Spec.feat
  by_cases h : c.val < 128
  · rw [dif_pos h]
    refine (concatenate_pair_apply_left (t := S1x4x65536x256) (s₁ := S1x4x65536x128) (s₂ := S1x4x65536x128) _ _ _ _ (ix4 (0 : Fin 1) o q c) rfl (ix4 (0 : Fin 1) o q (⟨c.val, h⟩ : Fin 128)) ?_).trans
      (v112_apply A o q ⟨c.val, h⟩)
    intro b
    match b with
    | ⟨0, _⟩ => rfl
    | ⟨1, _⟩ => rfl
    | ⟨2, _⟩ => rfl
    | ⟨3, _⟩ => rfl
  · rw [dif_neg h]
    refine (concatenate_pair_apply_right (t := S1x4x65536x256) (s₁ := S1x4x65536x128) (s₂ := S1x4x65536x128) _ _ _ _ (ix4 (0 : Fin 1) o q c) rfl rfl
      (ix4 (0 : Fin 1) o q (⟨c.val - 128, by omega⟩ : Fin 128)) ?_ ?_).trans (v115_apply A o q ⟨c.val - 128, by omega⟩)
    · intro b hb
      match b with
      | ⟨0, _⟩ => rfl
      | ⟨1, _⟩ => rfl
      | ⟨2, _⟩ => rfl
      | ⟨3, _⟩ => exact absurd rfl hb
    · show c.val - 128 + 128 = c.val
      omega

/-- The perceptron's input. -/
theorem x0_eq (A : RArgs Ideal) (o : Fin 4) (q : Fin 65536) (c : Fin 256) :
    r_main_v117 A (ix4 (0 : Fin 1) o q c) = Spec.x0 (SA A) o q c := by
  show r_main_v54 A (ix4 (0 : Fin 1) o q c) * r_main_v116 A (ix4 (0 : Fin 1) o q c) = _
  rw [coef_g, v116_apply]
  rfl

/-! ## The three layers of the perceptron -/

/-- The first layer's bias, copied to every offset and query. -/
private theorem v120_apply (A : RArgs Ideal) (o : Fin 4) (q : Fin 65536) (d : Fin 256) :
    r_main_v120 A (ix4 (0 : Fin 1) o q d) = A.a8 (ix1 d) := by
  unfold r_main_v120 r_main_v119 r_main_arg8
  refine (broadcastInDim_apply _ _ _ (ix4 (0 : Fin 1) o q d) (ix4 (0 : Fin 1) (0 : Fin 1) (0 : Fin 1) d) ?_).trans ?_
  · intro a
    match a with
    | ⟨0, _⟩ => rfl
    | ⟨1, _⟩ => rfl
    | ⟨2, _⟩ => rfl
    | ⟨3, _⟩ => rfl
  refine broadcastInDim_apply _ _ _ (ix4 (0 : Fin 1) (0 : Fin 1) (0 : Fin 1) d) (ix1 d) ?_
  intro a
  match a with
  | ⟨0, _⟩ => rfl

/-- The second layer's bias, copied to every offset and query. -/
private theorem v125_apply (A : RArgs Ideal) (o : Fin 4) (q : Fin 65536) (d : Fin 256) :
    r_main_v125 A (ix4 (0 : Fin 1) o q d) = A.a10 (ix1 d) := by
  unfold r_main_v125 r_main_v124 r_main_arg10
  refine (broadcastInDim_apply _ _ _ (ix4 (0 : Fin 1) o q d) (ix4 (0 : Fin 1) (0 : Fin 1) (0 : Fin 1) d) ?_).trans ?_
  · intro a
    match a with
    | ⟨0, _⟩ => rfl
    | ⟨1, _⟩ => rfl
    | ⟨2, _⟩ => rfl
    | ⟨3, _⟩ => rfl
  refine broadcastInDim_apply _ _ _ (ix4 (0 : Fin 1) (0 : Fin 1) (0 : Fin 1) d) (ix1 d) ?_
  intro a
  match a with
  | ⟨0, _⟩ => rfl

/-- The output layer's bias, copied to every offset and query. -/
private theorem v130_apply (A : RArgs Ideal) (o : Fin 4) (q : Fin 65536) (d : Fin 3) :
    r_main_v130 A (ix4 (0 : Fin 1) o q d) = A.a12 (ix1 d) := by
  unfold r_main_v130 r_main_v129 r_main_arg12
  refine (broadcastInDim_apply _ _ _ (ix4 (0 : Fin 1) o q d) (ix4 (0 : Fin 1) (0 : Fin 1) (0 : Fin 1) d) ?_).trans ?_
  · intro a
    match a with
    | ⟨0, _⟩ => rfl
    | ⟨1, _⟩ => rfl
    | ⟨2, _⟩ => rfl
    | ⟨3, _⟩ => rfl
  refine broadcastInDim_apply _ _ _ (ix4 (0 : Fin 1) (0 : Fin 1) (0 : Fin 1) d) (ix1 d) ?_
  intro a
  match a with
  | ⟨0, _⟩ => rfl

/-- The first hidden layer. -/
private theorem v122_apply (A : RArgs Ideal) (o : Fin 4) (q : Fin 65536) (d : Fin 256) :
    r_main_v122 A (ix4 (0 : Fin 1) o q d) = Spec.h1 (SA A) o q d := by
  show max (Host.dotGeneral dot_S1x4x65536x256_S256x256_S1x4x65536x256_3_1_012_0_n_n none (r_main_v117 A) A.a7 (ix4 (0 : Fin 1) o q d)
    + r_main_v120 A (ix4 (0 : Fin 1) o q d)) (Ideal.ofBits .f32 0x00000000#32) = _
  have hs : ∑ c : Fin 256, r_main_v117 A (ix4 (0 : Fin 1) o q c) * A.a7 (ix2 d c) = ∑ c : Fin 256, (SA A).w1 d c * Spec.x0 (SA A) o q c :=
    Finset.sum_congr rfl fun c _ => by rw [x0_eq, mul_comm]; rfl
  rw [dot_hidden, v120_apply, Ideal.ofBits_zero_f32, hs]
  rfl

/-- The second hidden layer. -/
private theorem v127_apply (A : RArgs Ideal) (o : Fin 4) (q : Fin 65536) (d : Fin 256) :
    r_main_v127 A (ix4 (0 : Fin 1) o q d) = Spec.h2 (SA A) o q d := by
  show max (Host.dotGeneral dot_S1x4x65536x256_S256x256_S1x4x65536x256_3_1_012_0_n_n none (r_main_v122 A) A.a9 (ix4 (0 : Fin 1) o q d)
    + r_main_v125 A (ix4 (0 : Fin 1) o q d)) (Ideal.ofBits .f32 0x00000000#32) = _
  have hs : ∑ c : Fin 256, r_main_v122 A (ix4 (0 : Fin 1) o q c) * A.a9 (ix2 d c) = ∑ c : Fin 256, (SA A).w2 d c * Spec.h1 (SA A) o q c :=
    Finset.sum_congr rfl fun c _ => by rw [v122_apply, mul_comm]; rfl
  rw [dot_hidden, v125_apply, Ideal.ofBits_zero_f32, hs]
  rfl

/-- The prediction. -/
theorem pred_eq (A : RArgs Ideal) (o : Fin 4) (q : Fin 65536) (j : Fin 3) :
    r_main_v131 A (ix4 (0 : Fin 1) o q j) = Spec.pred (SA A) o q j := by
  show Host.dotGeneral dot_S1x4x65536x256_S3x256_S1x4x65536x3_3_1_012_0_n_n none (r_main_v127 A) A.a11 (ix4 (0 : Fin 1) o q j)
    + r_main_v130 A (ix4 (0 : Fin 1) o q j) = _
  have hs : ∑ c : Fin 256, r_main_v127 A (ix4 (0 : Fin 1) o q c) * A.a11 (ix2 j c) = ∑ c : Fin 256, (SA A).w3 j c * Spec.h2 (SA A) o q c :=
    Finset.sum_congr rfl fun c _ => by rw [v127_apply, mul_comm]; rfl
  rw [dot_out, v130_apply, hs]
  rfl

end Cert.ReferenceIdeal.RV

end
-- ==== Proof.RD.lean ====
/-
  The reference's bilinear sample read at an index: the clipped pixel coordinates, their floors and clamped successors,
  the four gathered image entries (every gather index in range) and their weights.
-/
import proofs.«148257_j30657476559104_1_alg».proof.Proof.RA
import Idealize.ShloMosaic.Lib.ValueIdx
import Idealize.ShloMosaic.Lib.Pipeline.Value

noncomputable section

namespace Cert.ReferenceIdeal.RV

open Idealize.ShloMosaic Idealize.ShloMosaic.ValueIdx Cert.ReferenceIdeal Cert.ReferenceIdeal.RDefs

/-- The first coordinate component of query q. -/
private theorem v146_at (A : RArgs Ideal) (q : Fin 65536) :
    r_main_v146 A (ix2 (0 : Fin 1) q) = (SA A).crd q 0 := by
  unfold r_main_v146 r_main_v145
  refine (shapeCast_apply _ _ (ix2 (0 : Fin 1) q) (ix3 (0 : Fin 1) q (0 : Fin 1)) ?_).trans ?_
  · rw [Shape.rowMajor_val_three, Shape.rowMajor_val_two]
    show ((0 * 65536 + q.val) * 1 + 0) = 0 * 65536 + q.val
    omega
  · refine (extractStridedSlice_apply _ _ _ _ (ix3 (0 : Fin 1) q (0 : Fin 2)) ?_).trans rfl
    intro a
    match a with
    | ⟨0, _⟩ => rfl
    | ⟨1, _⟩ => show q.val = 0 + q.val; omega
    | ⟨2, _⟩ => rfl

/-- The second coordinate component of query q. -/
private theorem v157_at (A : RArgs Ideal) (q : Fin 65536) :
    r_main_v157 A (ix2 (0 : Fin 1) q) = (SA A).crd q 1 := by
  unfold r_main_v157 r_main_v156
  refine (shapeCast_apply _ _ (ix2 (0 : Fin 1) q) (ix3 (0 : Fin 1) q (0 : Fin 1)) ?_).trans ?_
  · rw [Shape.rowMajor_val_three, Shape.rowMajor_val_two]
    show ((0 * 65536 + q.val) * 1 + 0) = 0 * 65536 + q.val
    omega
  · refine (extractStridedSlice_apply _ _ _ _ (ix3 (0 : Fin 1) q (1 : Fin 2)) ?_).trans rfl
    intro a
    match a with
    | ⟨0, _⟩ => rfl
    | ⟨1, _⟩ => show q.val = 0 + q.val; omega
    | ⟨2, _⟩ => rfl

/-- A scalar constant broadcast over the queries is the constant. -/
private theorem bc0 {α : Type} (x : (⟨0, ![]⟩ : Shape).Idx → α) (h) (j : S1x65536.Idx) :
    broadcastInDim S1x65536 ![] h x j = x ix0 :=
  broadcastInDim_apply _ h x j ix0 (fun a => a.elim0)

/-- The pixel coordinate of the first component. -/
private theorem v154_at (A : RArgs Ideal) (q : Fin 65536) :
    r_main_v154 A (ix2 (0 : Fin 1) q) = Spec.pix ((SA A).crd q 0) := by
  show Ideal.div (((r_main_v146 A (ix2 (0 : Fin 1) q)) + r_main_v147 A (ix2 (0 : Fin 1) q)) * r_main_v149 A (ix2 (0 : Fin 1) q) - r_main_v151 A (ix2 (0 : Fin 1) q)) (r_main_v153 A (ix2 (0 : Fin 1) q)) = _
  rw [v146_at]
  unfold r_main_v147 r_main_v149 r_main_v151 r_main_v153
  rw [bc0, bc0, bc0, bc0]
  rfl

/-- The pixel coordinate of the second component. -/
private theorem v165_at (A : RArgs Ideal) (q : Fin 65536) :
    r_main_v165 A (ix2 (0 : Fin 1) q) = Spec.pix ((SA A).crd q 1) := by
  show Ideal.div (((r_main_v157 A (ix2 (0 : Fin 1) q)) + r_main_v158 A (ix2 (0 : Fin 1) q)) * r_main_v160 A (ix2 (0 : Fin 1) q) - r_main_v162 A (ix2 (0 : Fin 1) q)) (r_main_v164 A (ix2 (0 : Fin 1) q)) = _
  rw [v157_at]
  unfold r_main_v158 r_main_v160 r_main_v162 r_main_v164
  rw [bc0, bc0, bc0, bc0]
  rfl

/-- The clipped pixel coordinate along the first axis. -/
private theorem v155_at (A : RArgs Ideal) (q : Fin 65536) :
    r_main_v155 A (ix2 (0 : Fin 1) q) = Spec.gp (SA A) q 0 := by
  show min (broadcastInDim S1x65536 ![] _ (r_main_cst_43 A) (ix2 (0 : Fin 1) q))
      (max (broadcastInDim S1x65536 ![] _ (r_main_cst_42 A) (ix2 (0 : Fin 1) q)) (r_main_v154 A (ix2 (0 : Fin 1) q))) = _
  rw [v154_at, bc0, bc0]
  rfl

/-- The clipped pixel coordinate along the second axis. -/
private theorem v166_at (A : RArgs Ideal) (q : Fin 65536) :
    r_main_v166 A (ix2 (0 : Fin 1) q) = Spec.gp (SA A) q 1 := by
  show min (broadcastInDim S1x65536 ![] _ (r_main_cst_49 A) (ix2 (0 : Fin 1) q))
      (max (broadcastInDim S1x65536 ![] _ (r_main_cst_48 A) (ix2 (0 : Fin 1) q)) (r_main_v165 A (ix2 (0 : Fin 1) q))) = _
  rw [v165_at, bc0, bc0]
  rfl

/-- The lower pixel along the first axis. -/
private theorem v168_at (A : RArgs Ideal) (q : Fin 65536) :
    r_main_v168 A (ix2 (0 : Fin 1) q) = Spec.lo (SA A) q 0 := by
  show Ideal.fptosi 32 (Ideal.liftRound Int.floor (r_main_v155 A (ix2 (0 : Fin 1) q))) = _
  rw [v155_at]
  rfl

/-- The lower pixel along the second axis. -/
private theorem v170_at (A : RArgs Ideal) (q : Fin 65536) :
    r_main_v170 A (ix2 (0 : Fin 1) q) = Spec.lo (SA A) q 1 := by
  show Ideal.fptosi 32 (Ideal.liftRound Int.floor (r_main_v166 A (ix2 (0 : Fin 1) q))) = _
  rw [v166_at]
  rfl

/-- The upper pixel along the first axis. -/
private theorem v173_at (A : RArgs Ideal) (q : Fin 65536) :
    r_main_v173 A (ix2 (0 : Fin 1) q) = Spec.up (SA A) q 0 := by
  show IntOp.minsi (broadcastInDim S1x65536 ![] _ (r_main_c_52 A) (ix2 (0 : Fin 1) q))
      (IntOp.maxsi (broadcastInDim S1x65536 ![] _ (r_main_c_51 A) (ix2 (0 : Fin 1) q))
        (IntOp.addi (r_main_v168 A (ix2 (0 : Fin 1) q)) (r_main_v171 A (ix2 (0 : Fin 1) q)))) = _
  unfold r_main_v171
  rw [v168_at, bc0, bc0, bc0]
  rfl

/-- The upper pixel along the second axis. -/
private theorem v176_at (A : RArgs Ideal) (q : Fin 65536) :
    r_main_v176 A (ix2 (0 : Fin 1) q) = Spec.up (SA A) q 1 := by
  show IntOp.minsi (broadcastInDim S1x65536 ![] _ (r_main_c_55 A) (ix2 (0 : Fin 1) q))
      (IntOp.maxsi (broadcastInDim S1x65536 ![] _ (r_main_c_54 A) (ix2 (0 : Fin 1) q))
        (IntOp.addi (r_main_v170 A (ix2 (0 : Fin 1) q)) (r_main_v174 A (ix2 (0 : Fin 1) q)))) = _
  unfold r_main_v174
  rw [v170_at, bc0, bc0, bc0]
  rfl

/-- The fractional part along the first axis. -/
private theorem v178_at (A : RArgs Ideal) (q : Fin 65536) :
    r_main_v178 A (ix2 (0 : Fin 1) q) = Spec.fr (SA A) q 0 := by
  show r_main_v155 A (ix2 (0 : Fin 1) q) - Spec.ofI (r_main_v168 A (ix2 (0 : Fin 1) q)) = _
  rw [v155_at, v168_at]
  rfl

/-- The fractional part along the second axis. -/
private theorem v180_at (A : RArgs Ideal) (q : Fin 65536) :
    r_main_v180 A (ix2 (0 : Fin 1) q) = Spec.fr (SA A) q 1 := by
  show r_main_v166 A (ix2 (0 : Fin 1) q) - Spec.ofI (r_main_v170 A (ix2 (0 : Fin 1) q)) = _
  rw [v166_at, v170_at]
  rfl

/-- The image with its pixels flattened and moved to the rows: row n = 64 h + w, column j. -/
private theorem v182_at (A : RArgs Ideal) (n : Fin 4096) (j : Fin 3) :
    r_main_v182 A (ix3 (0 : Fin 1) n j) = (SA A).img j n := by
  unfold r_main_v182 r_main_v181
  refine (transpose_apply _ _ _ (ix3 (0 : Fin 1) n j) (ix3 (0 : Fin 1) j n)
    (fun c => match c with | ⟨0, _⟩ => rfl | ⟨1, _⟩ => rfl | ⟨2, _⟩ => rfl)).trans ?_
  refine (shapeCast_apply _ _ (ix3 (0 : Fin 1) j n)
    (ix4 (0 : Fin 1) j (⟨n.val / 64, by omega⟩ : Fin 64) (⟨n.val % 64, by omega⟩ : Fin 64)) ?_).trans rfl
  rw [Shape.rowMajor_val_four, Shape.rowMajor_val_three]
  show ((0 * 3 + j.val) * 64 + n.val / 64) * 64 + n.val % 64 = (0 * 3 + j.val) * 4096 + n.val
  omega

/-- A flat pixel number that is non-negative as a signed word is not wrapped. -/
private theorem wrap_nonneg (x : BitVec 32) (h : 0 ≤ x.toInt) :
    Scalar.select (IntOp.cmpi .slt x 0#32) (IntOp.addi x 4096#32) x = x := by
  have hs : x.slt 0#32 = false := by
    rw [BitVec.slt_eq_decide]
    simp only [BitVec.toInt_zero, decide_eq_false_iff_not, not_lt]
    exact h
  show Scalar.select (BitVec.ofBool (x.slt 0#32)) _ _ = _
  rw [hs]
  exact select_zero _ _

/-- The four flat pixel numbers, before the wrap. -/
private theorem v185_at (A : RArgs Ideal) (q : Fin 65536) :
    r_main_v185 A (ix2 (0 : Fin 1) q) = Spec.flat (Spec.lo (SA A) q 0) (Spec.lo (SA A) q 1) := by
  show IntOp.addi (IntOp.muli (r_main_v168 A (ix2 (0 : Fin 1) q)) (r_main_v183 A (ix2 (0 : Fin 1) q))) (r_main_v170 A (ix2 (0 : Fin 1) q)) = _
  unfold r_main_v183
  rw [v168_at, v170_at, bc0]
  rfl

private theorem v203_at (A : RArgs Ideal) (q : Fin 65536) :
    r_main_v203 A (ix2 (0 : Fin 1) q) = Spec.flat (Spec.lo (SA A) q 0) (Spec.up (SA A) q 1) := by
  show IntOp.addi (IntOp.muli (r_main_v168 A (ix2 (0 : Fin 1) q)) (r_main_v201 A (ix2 (0 : Fin 1) q))) (r_main_v176 A (ix2 (0 : Fin 1) q)) = _
  unfold r_main_v201
  rw [v168_at, v176_at, bc0]
  rfl

private theorem v220_at (A : RArgs Ideal) (q : Fin 65536) :
    r_main_v220 A (ix2 (0 : Fin 1) q) = Spec.flat (Spec.up (SA A) q 0) (Spec.lo (SA A) q 1) := by
  show IntOp.addi (IntOp.muli (r_main_v173 A (ix2 (0 : Fin 1) q)) (r_main_v218 A (ix2 (0 : Fin 1) q))) (r_main_v170 A (ix2 (0 : Fin 1) q)) = _
  unfold r_main_v218
  rw [v173_at, v170_at, bc0]
  rfl

private theorem v237_at (A : RArgs Ideal) (q : Fin 65536) :
    r_main_v237 A (ix2 (0 : Fin 1) q) = Spec.flat (Spec.up (SA A) q 0) (Spec.up (SA A) q 1) := by
  show IntOp.addi (IntOp.muli (r_main_v173 A (ix2 (0 : Fin 1) q)) (r_main_v235 A (ix2 (0 : Fin 1) q))) (r_main_v176 A (ix2 (0 : Fin 1) q)) = _
  unfold r_main_v235
  rw [v173_at, v176_at, bc0]
  rfl

/-- The lower and upper pixels are in [0, 63]. -/
private theorem lo_range (A : RArgs Ideal) (q : Fin 65536) (d : Fin 2) :
    0 ≤ (Spec.lo (SA A) q d).toInt ∧ (Spec.lo (SA A) q d).toInt ≤ 63 :=
  Math.floorI_range _ (Math.gp_range (SA A) q d).1 (Math.gp_range (SA A) q d).2

private theorem up_range (A : RArgs Ideal) (q : Fin 65536) (d : Fin 2) :
    0 ≤ (Spec.up (SA A) q d).toInt ∧ (Spec.up (SA A) q d).toInt ≤ 63 :=
  Math.clampI_range _

/-- The batched row gather read at (0, q, j): the operand's row named by the start index, read signed and clamped
    into [0, 4095], at column j. -/
private theorem gather_at {w : Nat} (x : S1x4096x3.Idx → EReal) (idx : IVec S1x65536x1 w) (q : Fin 65536) (j : Fin 3) :
    Host.gather gather_S1x4096x3_S1x65536x1_S1x65536x3_2_1_0_0_1_2_113 x idx (ix3 (0 : Fin 1) q j)
      = x (ix3 (0 : Fin 1) (⟨min (idx (ix3 (0 : Fin 1) q (0 : Fin 1))).toInt.toNat 4095, by omega⟩ : Fin 4096) j) := by
  unfold Host.gather
  congr 1
  funext a
  refine Fin.ext ?_
  show gather_S1x4096x3_S1x65536x1_S1x65536x3_2_1_0_0_1_2_113.start (ix3 (0 : Fin 1) q j) idx a
      + gather_S1x4096x3_S1x65536x1_S1x65536x3_2_1_0_0_1_2_113.batchCoord (ix3 (0 : Fin 1) q j) a
      + gather_S1x4096x3_S1x65536x1_S1x65536x3_2_1_0_0_1_2_113.offCoord (ix3 (0 : Fin 1) q j) a = _
  match a with
  | ⟨0, h0⟩ =>
    have hlt := GatherDims.lt gather_S1x4096x3_S1x65536x1_S1x65536x3_2_1_0_0_1_2_113 (ix3 (0 : Fin 1) q j) idx ⟨0, h0⟩
    have h1 : S1x4096x3.size ⟨0, h0⟩ = 1 := rfl
    rw [h1] at hlt
    show _ = 0
    omega
  | ⟨1, h1⟩ =>
    rw [GatherDims.batchCoord_eq_zero _ _ _ (by decide +revert),
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin S1x4096x3.rank) ∈ gather_S1x4096x3_S1x65536x1_S1x65536x3_2_1_0_0_1_2_113.startIndexMap
      from List.mem_singleton.mpr rfl)]
    have hsi : gather_S1x4096x3_S1x65536x1_S1x65536x3_2_1_0_0_1_2_113.siIdx (ix3 (0 : Fin 1) q j)
        ⟨List.idxOf (⟨1, h1⟩ : Fin S1x4096x3.rank) gather_S1x4096x3_S1x65536x1_S1x65536x3_2_1_0_0_1_2_113.startIndexMap,
          List.idxOf_lt_length_iff.2 (List.mem_singleton.mpr rfl)⟩ = ix3 (0 : Fin 1) q (0 : Fin 1) := by
      funext b; refine Fin.ext ?_
      match b with
      | ⟨0, _⟩ => rfl
      | ⟨1, _⟩ => rfl
      | ⟨2, _⟩ => rfl
    rw [hsi]
    rfl
  | ⟨2, h2⟩ =>
    have hb : (⟨2, h2⟩ : Fin S1x4096x3.rank) ∉ gather_S1x4096x3_S1x65536x1_S1x65536x3_2_1_0_0_1_2_113.operandBatchingDims := by
      decide +revert
    have hc : (⟨2, h2⟩ : Fin S1x4096x3.rank) ∉ gather_S1x4096x3_S1x65536x1_S1x65536x3_2_1_0_0_1_2_113.collapsedSliceDims := by
      decide +revert
    have hm : (⟨2, h2⟩ : Fin S1x4096x3.rank) ∉ gather_S1x4096x3_S1x65536x1_S1x65536x3_2_1_0_0_1_2_113.startIndexMap := by
      decide +revert
    have hs : gather_S1x4096x3_S1x65536x1_S1x65536x3_2_1_0_0_1_2_113.start (ix3 (0 : Fin 1) q j) idx ⟨2, h2⟩ = 0 := by
      unfold GatherDims.start
      exact dif_neg hm
    rw [hs, GatherDims.batchCoord_eq_zero _ _ _ hb]
    unfold GatherDims.offCoord
    rw [dif_pos ((GatherDims.mem_sKept _ _).mpr ⟨hc, hb⟩)]
    simp only [Nat.zero_add]
    rfl

/-- A word in [0, 4095] that is non-negative as a signed word names, read signed and clamped, its own row. -/
private theorem row_of_range (v : BitVec 32) (h : v.toNat < 4096) :
    min v.toInt.toNat 4095 = (Spec.row v).val := by
  show min v.toInt.toNat 4095 = v.toNat % 4096
  have hi : v.toInt = (v.toNat : Int) := by
    rw [BitVec.toInt_eq_toNat_cond]
    split <;> omega
  rw [hi, Int.toNat_natCast]
  omega

/-- A word array over the queries given a trailing unit axis reads the same word. -/
private theorem bc_i {α : Type} (f : S1x65536.Idx → α) (h) (q : Fin 65536) :
    broadcastInDim S1x65536x1 ![0, 1] h f (ix3 (0 : Fin 1) q (0 : Fin 1)) = f (ix2 (0 : Fin 1) q) :=
  broadcastInDim_apply _ h f _ (ix2 (0 : Fin 1) q) (fun a => match a with | ⟨0, _⟩ => rfl | ⟨1, _⟩ => rfl)

/-- A weight over the queries broadcast along the three channels reads the query's weight. -/
private theorem bc_w {α : Type} (f : S1x65536.Idx → α) (h1) (h2) (q : Fin 65536) (j : Fin 3) :
    broadcastInDim S1x65536x3 ![0, 1, 2] h2 (broadcastInDim S1x65536x1 ![0, 1] h1 f) (ix3 (0 : Fin 1) q j)
      = f (ix2 (0 : Fin 1) q) :=
  (broadcastInDim_apply _ h2 _ _ (ix3 (0 : Fin 1) q (0 : Fin 1))
    (fun a => match a with | ⟨0, _⟩ => rfl | ⟨1, _⟩ => rfl | ⟨2, _⟩ => rfl)).trans (bc_i f h1 q)

/-- The gather of the image rows at an in-range flat pixel number reads that pixel. -/
private theorem gather_row (A : RArgs Ideal) (f : (⟨S1x65536, .i32⟩ : BufTy).Contents (Elt Ideal)) (h) (q : Fin 65536) (j : Fin 3)
    (v : BitVec 32) (hv : f (ix2 (0 : Fin 1) q) = v) (hr : v.toNat < 4096) :
    Host.gather gather_S1x4096x3_S1x65536x1_S1x65536x3_2_1_0_0_1_2_113 (r_main_v182 A)
      (broadcastInDim S1x65536x1 ![0, 1] h f) (ix3 (0 : Fin 1) q j) = (SA A).img j (Spec.row v) := by
  rw [gather_at, v182_at]
  congr 1
  apply Fin.ext
  show min (broadcastInDim S1x65536x1 ![0, 1] h f (ix3 (0 : Fin 1) q (0 : Fin 1))).toInt.toNat 4095 = _
  rw [bc_i, hv]
  exact row_of_range v hr

/-- The wrapped flat pixel numbers are the flat pixel numbers. -/
private theorem v190_at (A : RArgs Ideal) (q : Fin 65536) :
    r_main_v190 A (ix2 (0 : Fin 1) q) = Spec.flat (Spec.lo (SA A) q 0) (Spec.lo (SA A) q 1) := by
  show Scalar.select (IntOp.cmpi .slt (r_main_v185 A (ix2 (0 : Fin 1) q)) (r_main_v186 A (ix2 (0 : Fin 1) q)))
    (IntOp.addi (r_main_v185 A (ix2 (0 : Fin 1) q)) (r_main_v188 A (ix2 (0 : Fin 1) q))) (r_main_v185 A (ix2 (0 : Fin 1) q)) = _
  unfold r_main_v186 r_main_v188
  rw [v185_at, bc0, bc0]
  exact wrap_nonneg _ (Math.flat_range _ _ (lo_range A q 0) (lo_range A q 1)).2.1

private theorem v208_at (A : RArgs Ideal) (q : Fin 65536) :
    r_main_v208 A (ix2 (0 : Fin 1) q) = Spec.flat (Spec.lo (SA A) q 0) (Spec.up (SA A) q 1) := by
  show Scalar.select (IntOp.cmpi .slt (r_main_v203 A (ix2 (0 : Fin 1) q)) (r_main_v204 A (ix2 (0 : Fin 1) q)))
    (IntOp.addi (r_main_v203 A (ix2 (0 : Fin 1) q)) (r_main_v206 A (ix2 (0 : Fin 1) q))) (r_main_v203 A (ix2 (0 : Fin 1) q)) = _
  unfold r_main_v204 r_main_v206
  rw [v203_at, bc0, bc0]
  exact wrap_nonneg _ (Math.flat_range _ _ (lo_range A q 0) (up_range A q 1)).2.1

private theorem v225_at (A : RArgs Ideal) (q : Fin 65536) :
    r_main_v225 A (ix2 (0 : Fin 1) q) = Spec.flat (Spec.up (SA A) q 0) (Spec.lo (SA A) q 1) := by
  show Scalar.select (IntOp.cmpi .slt (r_main_v220 A (ix2 (0 : Fin 1) q)) (r_main_v221 A (ix2 (0 : Fin 1) q)))
    (IntOp.addi (r_main_v220 A (ix2 (0 : Fin 1) q)) (r_main_v223 A (ix2 (0 : Fin 1) q))) (r_main_v220 A (ix2 (0 : Fin 1) q)) = _
  unfold r_main_v221 r_main_v223
  rw [v220_at, bc0, bc0]
  exact wrap_nonneg _ (Math.flat_range _ _ (up_range A q 0) (lo_range A q 1)).2.1

private theorem v242_at (A : RArgs Ideal) (q : Fin 65536) :
    r_main_v242 A (ix2 (0 : Fin 1) q) = Spec.flat (Spec.up (SA A) q 0) (Spec.up (SA A) q 1) := by
  show Scalar.select (IntOp.cmpi .slt (r_main_v237 A (ix2 (0 : Fin 1) q)) (r_main_v238 A (ix2 (0 : Fin 1) q)))
    (IntOp.addi (r_main_v237 A (ix2 (0 : Fin 1) q)) (r_main_v240 A (ix2 (0 : Fin 1) q))) (r_main_v237 A (ix2 (0 : Fin 1) q)) = _
  unfold r_main_v238 r_main_v240
  rw [v237_at, bc0, bc0]
  exact wrap_nonneg _ (Math.flat_range _ _ (up_range A q 0) (up_range A q 1)).2.1

/-- The four gathered image entries. -/
private theorem v192_at (A : RArgs Ideal) (q : Fin 65536) (j : Fin 3) :
    r_main_v192 A (ix3 (0 : Fin 1) q j) = (SA A).img j (Spec.row (Spec.flat (Spec.lo (SA A) q 0) (Spec.lo (SA A) q 1))) := by
  unfold r_main_v192 r_main_v191
  exact gather_row A _ _ q j _ (v190_at A q) (Math.flat_range _ _ (lo_range A q 0) (lo_range A q 1)).1

private theorem v210_at (A : RArgs Ideal) (q : Fin 65536) (j : Fin 3) :
    r_main_v210 A (ix3 (0 : Fin 1) q j) = (SA A).img j (Spec.row (Spec.flat (Spec.lo (SA A) q 0) (Spec.up (SA A) q 1))) := by
  unfold r_main_v210 r_main_v209
  exact gather_row A _ _ q j _ (v208_at A q) (Math.flat_range _ _ (lo_range A q 0) (up_range A q 1)).1

private theorem v227_at (A : RArgs Ideal) (q : Fin 65536) (j : Fin 3) :
    r_main_v227 A (ix3 (0 : Fin 1) q j) = (SA A).img j (Spec.row (Spec.flat (Spec.up (SA A) q 0) (Spec.lo (SA A) q 1))) := by
  unfold r_main_v227 r_main_v226
  exact gather_row A _ _ q j _ (v225_at A q) (Math.flat_range _ _ (up_range A q 0) (lo_range A q 1)).1

private theorem v244_at (A : RArgs Ideal) (q : Fin 65536) (j : Fin 3) :
    r_main_v244 A (ix3 (0 : Fin 1) q j) = (SA A).img j (Spec.row (Spec.flat (Spec.up (SA A) q 0) (Spec.up (SA A) q 1))) := by
  unfold r_main_v244 r_main_v243
  exact gather_row A _ _ q j _ (v242_at A q) (Math.flat_range _ _ (up_range A q 0) (up_range A q 1)).1

/-- The four bilinear weights, broadcast along the channels. -/
private theorem v199_at (A : RArgs Ideal) (q : Fin 65536) (j : Fin 3) :
    r_main_v199 A (ix3 (0 : Fin 1) q j)
      = (Spec.w32 0x3F800000#32 - Spec.fr (SA A) q 0) * (Spec.w32 0x3F800000#32 - Spec.fr (SA A) q 1) := by
  unfold r_main_v199 r_main_v198
  rw [bc_w]
  show (r_main_v193 A (ix2 (0 : Fin 1) q) - r_main_v178 A (ix2 (0 : Fin 1) q))
    * (r_main_v195 A (ix2 (0 : Fin 1) q) - r_main_v180 A (ix2 (0 : Fin 1) q)) = _
  unfold r_main_v193 r_main_v195
  rw [v178_at, v180_at, bc0, bc0]
  rfl

private theorem v215_at (A : RArgs Ideal) (q : Fin 65536) (j : Fin 3) :
    r_main_v215 A (ix3 (0 : Fin 1) q j) = (Spec.w32 0x3F800000#32 - Spec.fr (SA A) q 0) * Spec.fr (SA A) q 1 := by
  unfold r_main_v215 r_main_v214
  rw [bc_w]
  show (r_main_v211 A (ix2 (0 : Fin 1) q) - r_main_v178 A (ix2 (0 : Fin 1) q)) * r_main_v180 A (ix2 (0 : Fin 1) q) = _
  unfold r_main_v211
  rw [v178_at, v180_at, bc0]
  rfl

private theorem v232_at (A : RArgs Ideal) (q : Fin 65536) (j : Fin 3) :
    r_main_v232 A (ix3 (0 : Fin 1) q j) = Spec.fr (SA A) q 0 * (Spec.w32 0x3F800000#32 - Spec.fr (SA A) q 1) := by
  unfold r_main_v232 r_main_v231
  rw [bc_w]
  show r_main_v178 A (ix2 (0 : Fin 1) q) * (r_main_v228 A (ix2 (0 : Fin 1) q) - r_main_v180 A (ix2 (0 : Fin 1) q)) = _
  unfold r_main_v228
  rw [v178_at, v180_at, bc0]
  rfl

private theorem v247_at (A : RArgs Ideal) (q : Fin 65536) (j : Fin 3) :
    r_main_v247 A (ix3 (0 : Fin 1) q j) = Spec.fr (SA A) q 0 * Spec.fr (SA A) q 1 := by
  unfold r_main_v247 r_main_v246
  rw [bc_w]
  show r_main_v178 A (ix2 (0 : Fin 1) q) * r_main_v180 A (ix2 (0 : Fin 1) q) = _
  rw [v178_at, v180_at]

/-- The bilinear sample. -/
theorem samp_eq (A : RArgs Ideal) (q : Fin 65536) (j : Fin 3) : r_main_v249 A (ix3 (0 : Fin 1) q j) = Spec.samp (SA A) q j := by
  show r_main_v192 A (ix3 (0 : Fin 1) q j) * r_main_v199 A (ix3 (0 : Fin 1) q j)
      + r_main_v210 A (ix3 (0 : Fin 1) q j) * r_main_v215 A (ix3 (0 : Fin 1) q j)
      + r_main_v227 A (ix3 (0 : Fin 1) q j) * r_main_v232 A (ix3 (0 : Fin 1) q j)
      + r_main_v244 A (ix3 (0 : Fin 1) q j) * r_main_v247 A (ix3 (0 : Fin 1) q j) = _
  rw [v192_at, v199_at, v210_at, v215_at, v227_at, v232_at, v244_at, v247_at]
  rfl

end Cert.ReferenceIdeal.RV

end
-- ==== Proof.RC.lean ====
/-
  The reference's ensemble read at an index: the four areas, their sum, the reversed weights, the weighted sum of the
  predictions; and the result as the sum of the ensemble and the bilinear sample.
-/
import proofs.«148257_j30657476559104_1_alg».proof.Proof.RB
import proofs.«148257_j30657476559104_1_alg».proof.Proof.RD
import Idealize.ShloMosaic.Lib.ValueIdx
import Idealize.ShloMosaic.Lib.IdealHost
import Idealize.ShloMosaic.PureOps.Ideal.Laws

noncomputable section

namespace Cert.ReferenceIdeal.RV

open Idealize.ShloMosaic Idealize.ShloMosaic.ValueIdx Cert.ReferenceIdeal Cert.ReferenceIdeal.RDefs

/-- The float32 word nearest 1e-9 broadcast to every offset and query. -/
private theorem eps_at (A : RArgs Ideal) (o : Fin 4) (q : Fin 65536) :
    r_main_v134 A (ix3 (0 : Fin 1) o q) = Spec.w32 0x3089705F#32 := rfl

/-- The area of offset o. -/
theorem area_eq (A : RArgs Ideal) (o : Fin 4) (q : Fin 65536) : r_main_v135 A (ix3 (0 : Fin 1) o q) = Spec.area (SA A) o q := by
  show FloatOps.addf (FloatOps.hostAbsf (FloatOps.mulf (r_main_v90 A (ix3 (0 : Fin 1) o q)) (r_main_v97 A (ix3 (0 : Fin 1) o q))))
      (r_main_v134 A (ix3 (0 : Fin 1) o q)) = _
  rw [rel0, rel1, eps_at]
  rfl

/-- The index over (0, q) whose offset coordinate is o. -/
private theorem lift3 (h : S1x4x65536.Reduces [1] S1x65536) (q : Fin 65536) (o : Fin 4) :
    h.lift (ix2 (0 : Fin 1) q) o = ix3 (0 : Fin 1) o q := by
  funext a
  match a with
  | ⟨0, _⟩ => rfl
  | ⟨1, _⟩ => rfl
  | ⟨2, _⟩ => rfl

/-- The four areas' sum. -/
private theorem tot_eq (A : RArgs Ideal) (q : Fin 65536) : r_main_v136 A (ix2 (0 : Fin 1) q) = Spec.tot (SA A) q := by
  have h : S1x4x65536.Reduces [1] S1x65536 := by decide
  show Ideal.hostReduceAdd Gen.reducesTo_S1x4x65536_S1x65536_d1 (r_main_v135 A) (Spec.w32 0x00000000#32) (ix2 (0 : Fin 1) q) = _
  rw [Ideal.hostReduceAdd_single _ h]
  show _ + ∑ k : Fin 4, _ = _
  rw [Fin.sum_univ_four, lift3, lift3, lift3, lift3, area_eq, area_eq, area_eq, area_eq, Math.w32_zero, zero_add]
  rfl

/-- The weight of offset o: the area of the diagonally opposite offset over the four areas' sum. -/
private theorem w_eq (A : RArgs Ideal) (o : Fin 4) (q : Fin 65536) :
    r_main_v140 A (ix3 (0 : Fin 1) o q) = Ideal.div (Spec.area (SA A) o.rev q) (Spec.tot (SA A) q) := by
  unfold r_main_v140
  rw [hostDivf_apply]
  have h1 : r_main_v138 A (ix3 (0 : Fin 1) o q) = r_main_v135 A (ix3 (0 : Fin 1) o.rev q) := by
    unfold r_main_v138 Host.reverse
    refine congrArg _ (funext fun a => ?_)
    match a with
    | ⟨0, _⟩ => rfl
    | ⟨1, _⟩ => rfl
    | ⟨2, _⟩ => rfl
  have h2 : r_main_v139 A (ix3 (0 : Fin 1) o q) = r_main_v136 A (ix2 (0 : Fin 1) q) := by
    unfold r_main_v139 r_main_v137 broadcastInDim
    refine congrArg _ (funext fun a => ?_)
    match a with
    | ⟨0, _⟩ => rfl
    | ⟨1, _⟩ => rfl
  rw [h1, h2, area_eq, tot_eq]

/-- One term of the ensemble: the prediction of offset o times its weight. -/
private theorem term_eq (A : RArgs Ideal) (o : Fin 4) (q : Fin 65536) (j : Fin 3) :
    r_main_v143 A (ix4 (0 : Fin 1) o q j)
      = Spec.pred (SA A) o q j * Ideal.div (Spec.area (SA A) o.rev q) (Spec.tot (SA A) q) := by
  show r_main_v131 A (ix4 (0 : Fin 1) o q j) * r_main_v142 A (ix4 (0 : Fin 1) o q j) = _
  have h : r_main_v142 A (ix4 (0 : Fin 1) o q j) = r_main_v140 A (ix3 (0 : Fin 1) o q) := by
    unfold r_main_v142 r_main_v141 broadcastInDim
    refine congrArg _ (funext fun a => ?_)
    match a with
    | ⟨0, _⟩ => rfl
    | ⟨1, _⟩ => rfl
    | ⟨2, _⟩ => rfl
  rw [h, pred_eq, w_eq]

/-- The index over (0, q, j) whose offset coordinate is o. -/
private theorem lift4 (h : S1x4x65536x3.Reduces [1] S1x65536x3) (q : Fin 65536) (j : Fin 3) (o : Fin 4) :
    h.lift (ix3 (0 : Fin 1) q j) o = ix4 (0 : Fin 1) o q j := by
  funext a
  match a with
  | ⟨0, _⟩ => rfl
  | ⟨1, _⟩ => rfl
  | ⟨2, _⟩ => rfl
  | ⟨3, _⟩ => rfl

/-- The ensemble. -/
theorem ret_eq (A : RArgs Ideal) (q : Fin 65536) (j : Fin 3) : r_main_v144 A (ix3 (0 : Fin 1) q j) = Spec.ret (SA A) q j := by
  have h : S1x4x65536x3.Reduces [1] S1x65536x3 := by decide
  show Ideal.hostReduceAdd Gen.reducesTo_S1x4x65536x3_S1x65536x3_d1 (r_main_v143 A) (Spec.w32 0x00000000#32)
      (ix3 (0 : Fin 1) q j) = _
  rw [Ideal.hostReduceAdd_single _ h]
  show _ + ∑ k : Fin 4, _ = _
  rw [Fin.sum_univ_four, lift4, lift4, lift4, lift4, term_eq, term_eq, term_eq, term_eq, Math.w32_zero, zero_add]
  rfl

/-- The reference's result array is the specification's. -/
theorem out_eq (A : RArgs Ideal) :
    r_main_v250 A = Spec.result A.a0 A.a1 A.a2 A.a3 A.a4 A.a5 A.a6 A.a7 A.a8 A.a9 A.a10 A.a11 A.a12 := by
  funext i
  obtain ⟨q, j, rfl⟩ : ∃ (q : Fin 65536) (j : Fin 3), i = ix3 (0 : Fin 1) q j :=
    ⟨⟨(i 1).val, (i 1).isLt⟩, ⟨(i 2).val, (i 2).isLt⟩, by
      funext a
      match a with
      | ⟨0, _⟩ => exact Fin.ext (Nat.lt_one_iff.mp (i 0).isLt)
      | ⟨1, _⟩ => rfl
      | ⟨2, _⟩ => rfl⟩
  show r_main_v144 A (ix3 (0 : Fin 1) q j) + r_main_v249 A (ix3 (0 : Fin 1) q j) = Spec.ret (SA A) q j + Spec.samp (SA A) q j
  rw [ret_eq, samp_eq]

end Cert.ReferenceIdeal.RV

end
-- ==== Proof.Finite.lean ====
/-
  From the precondition (every float input finite) to: every entry of the image is a real number.

  The precondition is a conjunction of thirteen bits, one per argument array, nested to the left:
  ((…((b₀ ∧ b₁) ∧ b₂) … ) ∧ b₁₂), where bₖ is the conjunction over every entry x of array k of the
  bit "|x| < +∞". Only b₀ (the image) is read here. An extended real x with max x (-x) < ⊤ is
  neither ⊤ nor ⊥, so it is a real number.
-/
import proofs.«148257_j30657476559104_1_alg».proof.Defs
import proofs.«148257_j30657476559104_1_alg».proof.Proof.Gen.Pre_finite_inputs
import Idealize.ShloMosaic.Lib.ReduceAll
import Idealize.ShloMosaic.Lib.ValueIdx

noncomputable section

namespace Cert.Proof.Finite

open Idealize.ShloMosaic Idealize.SL.Sem

/-- A rank-0 array has one index. -/
instance : Subsingleton Cert.Pre_finite_inputs.S_.Idx := ⟨fun a b => funext fun d => d.elim0⟩

/-- The f32 pattern 0x7F800000 denotes +∞. -/
theorem inf_word : Ideal.ofBits .f32 0x7F800000#32 = (⊤ : EReal) := by
  simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An extended real whose bit "|x| < +∞" is set is a real number. -/
theorem real_of_bit (x : EReal)
    (h : Ideal.cmp .olt (max x (-x)) (Ideal.ofBits .f32 0x7F800000#32) = 1#1) : ∃ r : ℝ, x = (r : EReal) := by
  rw [inf_word] at h
  have h' : BitVec.ofBool (decide (max x (-x) < (⊤ : EReal))) = 1#1 := h
  refine real_of_abs_lt_top x ?_
  by_contra hn
  rw [decide_eq_false hn] at h'
  exact absurd h' (by decide)

/-- Under the precondition every entry of the image array is a real number. -/
theorem img_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S1x3x64x64.Idx) :
    ∃ r : ℝ, m ((c.tc : Thread Cert.KernelIdeal.nD Cert.KernelIdeal.τ).loc Cert.KernelIdeal.main_arg0) i = (r : EReal) := by
  have e := congrFun (h c) ValueIdx.ix0
  dsimp only [Cert.Pre_finite_inputs.fn, Cert.Pre_finite_inputs.fn_part1, Cert.Pre_finite_inputs.fn_part2,
    Cert.Pre_finite_inputs.fn_part3, andi] at e
  simp only [IntOp.andi_eq_one] at e
  -- the image's bit is the leftmost conjunct of the left-nested chain
  have h0 := e.1.1.1.1.1.1.1.1.1.1.1.1
  -- the bit of entry i is the comparison |x| < +∞ on the extended reals
  exact real_of_bit _ (Host.reduce_andi_all _ _ _ _ ValueIdx.ix0 h0 i)

end Cert.Proof.Finite

end
-- ==== Proof.lean ====
/-
  The kernel and its reference compute one function of the thirteen argument arrays, query by query (Proof/Spec.lean):
  for each of four corner offsets the nearest pixel's features, modulated, passed through cos / sin and a three-layer
  perceptron, the four predictions averaged by the opposite rectangles' areas, plus a bilinear sample of the image.
  The kernel's shift literals are read as the reference's own sum of float words, -+1/64 + f32(1e-6) (the named constants);
  its one-hot matrix products pick the rows the reference gathers (a sum against a one-hot column is one entry); its
  four-term weighted one-hot product is the reference's four weighted gathers (distributivity, for a real-valued image:
  the one place finiteness of an input is used); every other step is the same scalar operation on both sides, and the
  contractions and reductions are the same finite sums.
  The kernel's frames are the generated ones; its value is read off the generated frame run block by block (Proof/KOut.lean
  over Proof/KBlock.lean); the reference's run is Proof/RRun.lean and its value, stage by stage, Proof/RA.lean … RD.lean.
-/
import proofs.«148257_j30657476559104_1_alg».proof.Defs
import proofs.«148257_j30657476559104_1_alg».proof.Proof.Gen.Kernel
import proofs.«148257_j30657476559104_1_alg».proof.Proof.Gen.Kernel.Skeleton
import proofs.«148257_j30657476559104_1_alg».proof.Proof.Gen.Kernel.Launch
import proofs.«148257_j30657476559104_1_alg».proof.Proof.Gen.Kernel.Points
import proofs.«148257_j30657476559104_1_alg».proof.Proof.Gen.Kernel.Frame
import proofs.«148257_j30657476559104_1_alg».proof.Proof.Gen.KernelIdeal
import proofs.«148257_j30657476559104_1_alg».proof.Proof.Gen.KernelIdeal.Skeleton
import proofs.«148257_j30657476559104_1_alg».proof.Proof.Gen.KernelIdeal.Launch
import proofs.«148257_j30657476559104_1_alg».proof.Proof.Gen.KernelIdeal.Points
import proofs.«148257_j30657476559104_1_alg».proof.Proof.Gen.KernelIdeal.Frame
import proofs.«148257_j30657476559104_1_alg».proof.Proof.Gen.ReferenceIdeal
import proofs.«148257_j30657476559104_1_alg».proof.Proof.Gen.Pre_finite_inputs
import proofs.«148257_j30657476559104_1_alg».proof.Proof.KOut
import proofs.«148257_j30657476559104_1_alg».proof.Proof.RRun
import proofs.«148257_j30657476559104_1_alg».proof.Proof.RC
import proofs.«148257_j30657476559104_1_alg».proof.Proof.Finite
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RV.run (F := Ideal) m ρ)

/-- The ledger's eight entries: the table gives each shift literal the reference's own sum of float words, and the
    printed constant is that value at the ideal instance. -/
theorem preserves : Cert.preserves_Kernel_KernelIdeal :=
  ⟨IdealRules.named_const.statement Cert.KernelIdeal.κ "shift_neg" .f32 0xBC7FFBCE#32 ((-137430157379 / 8796093022208 : ℝ) : EReal) rfl,
    IdealRules.named_const.statement Cert.KernelIdeal.κ "shift_neg" .f32 0xBC7FFBCE#32 ((-137430157379 / 8796093022208 : ℝ) : EReal) rfl,
    IdealRules.named_const.statement Cert.KernelIdeal.κ "shift_neg" .f32 0xBC7FFBCE#32 ((-137430157379 / 8796093022208 : ℝ) : EReal) rfl,
    IdealRules.named_const.statement Cert.KernelIdeal.κ "shift_pos" .f32 0x3C800219#32 ((137447749565 / 8796093022208 : ℝ) : EReal) rfl,
    IdealRules.named_const.statement Cert.KernelIdeal.κ "shift_pos" .f32 0x3C800219#32 ((137447749565 / 8796093022208 : ℝ) : EReal) rfl,
    IdealRules.named_const.statement Cert.KernelIdeal.κ "shift_neg" .f32 0xBC7FFBCE#32 ((-137430157379 / 8796093022208 : ℝ) : EReal) rfl,
    IdealRules.named_const.statement Cert.KernelIdeal.κ "shift_pos" .f32 0x3C800219#32 ((137447749565 / 8796093022208 : ℝ) : EReal) rfl,
    IdealRules.named_const.statement Cert.KernelIdeal.κ "shift_pos" .f32 0x3C800219#32 ((137447749565 / 8796093022208 : ℝ) : EReal) rfl⟩

/-- Both programs end at the specification's result of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KV.run m ρ (fun c i => Cert.Proof.Finite.img_real m hpre c i), ?_⟩
  refine (θ_run Cert.ReferenceIdeal.defs _ _).mono (fun _ h c => ⟨(h c).1.trans ?_, (h c).2⟩)
    (Cert.ReferenceIdeal.RV.run (F := Ideal) m' ρ')
  rw [Cert.ReferenceIdeal.RV.out_eq]
  show Cert.Spec.result _ _ _ _ _ _ _ _ _ _ _ _ _ = Cert.Spec.result _ _ _ _ _ _ _ _ _ _ _ _ _
  simp only [Cert.ReferenceIdeal.RV.argsOf]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
